-- ==== Defs.lean ====
def Pre_Kernel [hPre_input_domain : Cert.Pre_input_domain.Facts] (m : (ℓ : Loc Cert.Kernel.nD Cert.Kernel.τ Cert.Kernel.sig) → Buf (Elt Bits) ℓ) : Prop :=
  ∀ c : Dev Cert.Kernel.nD,
    (Cert.Pre_input_domain.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_input_domain : Cert.Pre_input_domain.Facts] (m : (ℓ : Loc Cert.KernelIdeal.nD Cert.KernelIdeal.τ Cert.KernelIdeal.sig) → Buf (Elt Ideal) ℓ) : Prop :=
  ∀ c : Dev Cert.KernelIdeal.nD,
    (Cert.Pre_input_domain.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_input_domain : Cert.Pre_input_domain.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_input_domain.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_input_domain : Cert.Pre_input_domain.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_input_domain : Cert.Pre_input_domain.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_input_domain : Cert.Pre_input_domain.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_input_domain : Cert.Pre_input_domain.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v12)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v12) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v68) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_input_domain : Cert.Pre_input_domain.Facts),
    frame_Kernel (hKernel := hKernel) (hPre_input_domain := hPre_input_domain)
    ∧ frame_KernelIdeal (hKernelIdeal := hKernelIdeal) (hPre_input_domain := hPre_input_domain)
    ∧ frame_ReferenceIdeal (hReferenceIdeal := hReferenceIdeal) (hPre_input_domain := hPre_input_domain)
    ∧ preserves_Kernel_KernelIdeal
    ∧ algebraic_KernelIdeal_ReferenceIdeal (hKernelIdeal := hKernelIdeal) (hReferenceIdeal := hReferenceIdeal) (hPre_input_domain := hPre_input_domain)
-- ==== Pre_input_domain.lean ====
abbrev S10000x128 : Shape := ⟨2, ![10000, 128]⟩
abbrev S2x160000 : Shape := ⟨2, ![2, 160000]⟩
abbrev S128x32 : Shape := ⟨2, ![128, 32]⟩
abbrev S32 : Shape := ⟨1, ![32]⟩
abbrev S320000x128 : Shape := ⟨2, ![320000, 128]⟩
abbrev S128 : Shape := ⟨1, ![128]⟩
abbrev S128x10000 : Shape := ⟨2, ![128, 10000]⟩
abbrev S10000 : Shape := ⟨1, ![10000]⟩
abbrev S_ : Shape := ⟨0, ![]⟩

class Facts : Prop where
  bcast_S_S10000x128 : S_.BroadcastsInDim S10000x128 (![] : Fin 0 → Fin S10000x128.rank)
  reducesTo_S10000x128_S_d0_1 : S10000x128.ReducesTo [0, 1] S_
  h_S_ : 0 < S_.numel
  bcast_S_S128x32 : S_.BroadcastsInDim S128x32 (![] : Fin 0 → Fin S128x32.rank)
  reducesTo_S128x32_S_d0_1 : S128x32.ReducesTo [0, 1] S_
  bcast_S_S32 : S_.BroadcastsInDim S32 (![] : Fin 0 → Fin S32.rank)
  reducesTo_S32_S_d0 : S32.ReducesTo [0] S_
  bcast_S_S320000x128 : S_.BroadcastsInDim S320000x128 (![] : Fin 0 → Fin S320000x128.rank)
  reducesTo_S320000x128_S_d0_1 : S320000x128.ReducesTo [0, 1] S_
  bcast_S_S128 : S_.BroadcastsInDim S128 (![] : Fin 0 → Fin S128.rank)
  reducesTo_S128_S_d0 : S128.ReducesTo [0] S_
  bcast_S_S128x10000 : S_.BroadcastsInDim S128x10000 (![] : Fin 0 → Fin S128x10000.rank)
  reducesTo_S128x10000_S_d0_1 : S128x10000.ReducesTo [0, 1] S_
  bcast_S_S10000 : S_.BroadcastsInDim S10000 (![] : Fin 0 → Fin S10000.rank)
  reducesTo_S10000_S_d0 : S10000.ReducesTo [0] S_
  bcast_S_S2x160000 : S_.BroadcastsInDim S2x160000 (![] : Fin 0 → Fin S2x160000.rank)
  reducesTo_S2x160000_S_d0_1 : S2x160000.ReducesTo [0, 1] S_

variable [Facts]

def fn_part2 {F : FTy → Type} [FloatOps F] (main_arg1 : IVec S2x160000 32) (main_v33 : IVec S_ 1) : IVec S_ 1 :=
  let main_c_12 : IVec S_ 32 := constantI S_ 32 0#32
  let main_v34 : IVec S2x160000 32 := broadcastInDim S2x160000 ![] bcast_S_S2x160000 main_c_12
  let main_v35 : IVec S2x160000 1 := cmpi .sge main_arg1 main_v34
  let main_c_13 : IVec S_ 32 := constantI S_ 32 9999#32
  let main_v36 : IVec S2x160000 32 := broadcastInDim S2x160000 ![] bcast_S_S2x160000 main_c_13
  let main_v37 : IVec S2x160000 1 := cmpi .sle main_arg1 main_v36
  let main_v38 : IVec S2x160000 1 := andi main_v35 main_v37
  let main_c_14 : IVec S_ 1 := constantI S_ 1 1#1
  let main_v39 : IVec S_ 1 := (fun x v => Host.reduce IntOp.andi x v reducesTo_S2x160000_S_d0_1 h_S_) main_v38 main_c_14
  let main_v40 : IVec S_ 1 := andi main_v33 main_v39
  main_v40

def fn_part1 {F : FTy → Type} [FloatOps F] (main_arg1 : IVec S2x160000 32) (main_arg5 : FVec F S128 .f32) (main_arg6 : FVec F S128x10000 .f32) (main_arg7 : FVec F S10000 .f32) (main_v13 : IVec S_ 1) (main_v16 : IVec S320000x128 1) : IVec S_ 1 :=
  let main_c_5 : IVec S_ 1 := constantI S_ 1 1#1
  let main_v17 : IVec S_ 1 := (fun x v => Host.reduce IntOp.andi x v reducesTo_S320000x128_S_d0_1 h_S_) main_v16 main_c_5
  let main_v18 : IVec S_ 1 := andi main_v13 main_v17
  let main_v19 : FVec F S128 .f32 := Host.absf main_arg5
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x10000 .f32 := Host.absf main_arg6
  let main_cst_8 : FVec F S_ .f32 := constant S_ .f32 0x7F800000#32
  let main_v25 : FVec F S128x10000 .f32 := broadcastInDim S128x10000 ![] bcast_S_S128x10000 main_cst_8
  let main_v26 : IVec S128x10000 1 := cmpf .olt main_v24 main_v25
  let main_c_9 : IVec S_ 1 := constantI S_ 1 1#1
  let main_v27 : IVec S_ 1 := (fun x v => Host.reduce IntOp.andi x v reducesTo_S128x10000_S_d0_1 h_S_) main_v26 main_c_9
  let main_v28 : IVec S_ 1 := andi main_v23 main_v27
  let main_v29 : FVec F S10000 .f32 := Host.absf main_arg7
  let main_cst_10 : FVec F S_ .f32 := constant S_ .f32 0x7F800000#32
  let main_v30 : FVec F S10000 .f32 := broadcastInDim S10000 ![] bcast_S_S10000 main_cst_10
  let main_v31 : IVec S10000 1 := cmpf .olt main_v29 main_v30
  let main_c_11 : IVec S_ 1 := constantI S_ 1 1#1
  let main_v32 : IVec S_ 1 := (fun x v => Host.reduce IntOp.andi x v reducesTo_S10000_S_d0 h_S_) main_v31 main_c_11
  let main_v33 : IVec S_ 1 := andi main_v28 main_v32
  fn_part2 (F := F) main_arg1 main_v33

def fn {F : FTy → Type} [FloatOps F] (main_arg0 : FVec F S10000x128 .f32) (main_arg1 : IVec S2x160000 32) (main_arg2 : FVec F S128x32 .f32) (main_arg3 : FVec F S32 .f32) (main_arg4 : FVec F S320000x128 .f32) (main_arg5 : FVec F S128 .f32) (main_arg6 : FVec F S128x10000 .f32) (main_arg7 : FVec F S10000 .f32) : IVec S_ 1 :=
  let main_v0 : FVec F S10000x128 .f32 := Host.absf main_arg0
  let main_cst : FVec F S_ .f32 := constant S_ .f32 0x7F800000#32
  let main_v1 : FVec F S10000x128 .f32 := broadcastInDim S10000x128 ![] bcast_S_S10000x128 main_cst
  let main_v2 : IVec S10000x128 1 := cmpf .olt main_v0 main_v1
  let main_c : IVec S_ 1 := constantI S_ 1 1#1
  let main_v3 : IVec S_ 1 := (fun x v => Host.reduce IntOp.andi x v reducesTo_S10000x128_S_d0_1 h_S_) main_v2 main_c
  let main_v4 : FVec F S128x32 .f32 := Host.absf main_arg2
  let main_cst_0 : FVec F S_ .f32 := constant S_ .f32 0x7F800000#32
  let main_v5 : FVec F S128x32 .f32 := broadcastInDim S128x32 ![] bcast_S_S128x32 main_cst_0
  let main_v6 : IVec S128x32 1 := cmpf .olt main_v4 main_v5
  let main_c_1 : IVec S_ 1 := constantI S_ 1 1#1
  let main_v7 : IVec S_ 1 := (fun x v => Host.reduce IntOp.andi x v reducesTo_S128x32_S_d0_1 h_S_) main_v6 main_c_1
  let main_v8 : IVec S_ 1 := andi main_v3 main_v7
  let main_v9 : FVec F S32 .f32 := Host.absf main_arg3
  let main_cst_2 : FVec F S_ .f32 := constant S_ .f32 0x7F800000#32
  let main_v10 : FVec F S32 .f32 := broadcastInDim S32 ![] bcast_S_S32 main_cst_2
  let main_v11 : IVec S32 1 := cmpf .olt main_v9 main_v10
  let main_c_3 : IVec S_ 1 := constantI S_ 1 1#1
  let main_v12 : IVec S_ 1 := (fun x v => Host.reduce IntOp.andi x v reducesTo_S32_S_d0 h_S_) main_v11 main_c_3
  let main_v13 : IVec S_ 1 := andi main_v8 main_v12
  let main_v14 : FVec F S320000x128 .f32 := Host.absf main_arg4
  let main_cst_4 : FVec F S_ .f32 := constant S_ .f32 0x7F800000#32
  let main_v15 : FVec F S320000x128 .f32 := broadcastInDim S320000x128 ![] bcast_S_S320000x128 main_cst_4
  let main_v16 : IVec S320000x128 1 := cmpf .olt main_v14 main_v15
  fn_part1 (F := F) main_arg1 main_arg5 main_arg6 main_arg7 main_v13 main_v16
-- ==== Kernel.lean ====
abbrev S10000x128 : Shape := ⟨2, ![10000, 128]⟩
abbrev S2x160000 : Shape := ⟨2, ![2, 160000]⟩
abbrev S128x32 : Shape := ⟨2, ![128, 32]⟩
abbrev S32 : Shape := ⟨1, ![32]⟩
abbrev S320000x128 : Shape := ⟨2, ![320000, 128]⟩
abbrev S128 : Shape := ⟨1, ![128]⟩
abbrev S128x10000 : Shape := ⟨2, ![128, 10000]⟩
abbrev S10000 : Shape := ⟨1, ![10000]⟩
abbrev S32x10000 : Shape := ⟨2, ![32, 10000]⟩
abbrev S1x160000 : Shape := ⟨2, ![1, 160000]⟩
abbrev S160000 : Shape := ⟨1, ![160000]⟩
abbrev S5000 : Shape := ⟨1, ![5000]⟩
abbrev S_ : Shape := ⟨0, ![]⟩
abbrev S16 : Shape := ⟨1, ![16]⟩
abbrev S1x10000 : Shape := ⟨2, ![1, 10000]⟩
abbrev S16000 : Shape := ⟨1, ![16000]⟩
abbrev S32x1 : Shape := ⟨2, ![32, 1]⟩
abbrev S10000x32 : Shape := ⟨2, ![10000, 32]⟩
abbrev S1x320000 : Shape := ⟨2, ![1, 320000]⟩
abbrev S1x128 : Shape := ⟨2, ![1, 128]⟩
abbrev S1x16000 : Shape := ⟨2, ![1, 16000]⟩
abbrev S16000x128 : Shape := ⟨2, ![16000, 128]⟩

abbrev nBuf : Table → Nat
  | .hbm => 23
  | .local .tc .vmem => 24
  | .local .scVector .vmem => 6
  | _ => 0

abbrev bufTy : (tb : Table) → Fin (nBuf tb) → BufTy
  | .hbm, ⟨0, _⟩ => ⟨S10000x128, .f32⟩
  | .hbm, ⟨1, _⟩ => ⟨S2x160000, .i32⟩
  | .hbm, ⟨2, _⟩ => ⟨S128x32, .f32⟩
  | .hbm, ⟨3, _⟩ => ⟨S32, .f32⟩
  | .hbm, ⟨4, _⟩ => ⟨S320000x128, .f32⟩
  | .hbm, ⟨5, _⟩ => ⟨S128, .f32⟩
  | .hbm, ⟨6, _⟩ => ⟨S128x10000, .f32⟩
  | .hbm, ⟨7, _⟩ => ⟨S10000, .f32⟩
  | .hbm, ⟨8, _⟩ => ⟨S32x10000, .f32⟩
  | .hbm, ⟨9, _⟩ => ⟨S1x160000, .i32⟩
  | .hbm, ⟨10, _⟩ => ⟨S160000, .i32⟩
  | .hbm, ⟨11, _⟩ => ⟨S32x10000, .f32⟩
  | .hbm, ⟨12, _⟩ => ⟨S1x10000, .f32⟩
  | .hbm, ⟨13, _⟩ => ⟨S32x10000, .f32⟩
  | .hbm, ⟨14, _⟩ => ⟨S32x10000, .f32⟩
  | .hbm, ⟨15, _⟩ => ⟨S32x1, .f32⟩
  | .hbm, ⟨16, _⟩ => ⟨S32x10000, .f32⟩
  | .hbm, ⟨17, _⟩ => ⟨S10000x32, .f32⟩
  | .hbm, ⟨18, _⟩ => ⟨S1x320000, .f32⟩
  | .hbm, ⟨19, _⟩ => ⟨S1x128, .f32⟩
  | .hbm, ⟨20, _⟩ => ⟨S1x128, .f32⟩
  | .hbm, ⟨21, _⟩ => ⟨S1x10000, .f32⟩
  | .hbm, ⟨22, _⟩ => ⟨S1x10000, .f32⟩
  | .local .tc .vmem, ⟨0, _⟩ => ⟨S10000x128, .f32⟩
  | .local .tc .vmem, ⟨1, _⟩ => ⟨S128x32, .f32⟩
  | .local .tc .vmem, ⟨2, _⟩ => ⟨S2x160000, .i32⟩
  | .local .tc .vmem, ⟨3, _⟩ => ⟨S32x10000, .f32⟩
  | .local .tc .vmem, ⟨4, _⟩ => ⟨S1x160000, .i32⟩
  | .local .tc .vmem, ⟨5, _⟩ => ⟨S32x10000, .f32⟩
  | .local .tc .vmem, ⟨6, _⟩ => ⟨S32x10000, .f32⟩
  | .local .tc .vmem, ⟨7, _⟩ => ⟨S1x10000, .f32⟩
  | .local .tc .vmem, ⟨8, _⟩ => ⟨S32x10000, .f32⟩
  | .local .tc .vmem, ⟨9, _⟩ => ⟨S32x10000, .f32⟩
  | .local .tc .vmem, ⟨10, _⟩ => ⟨S32x10000, .f32⟩
  | .local .tc .vmem, ⟨11, _⟩ => ⟨S1x10000, .f32⟩
  | .local .tc .vmem, ⟨12, _⟩ => ⟨S32x1, .f32⟩
  | .local .tc .vmem, ⟨13, _⟩ => ⟨S32x10000, .f32⟩
  | .local .tc .vmem, ⟨14, _⟩ => ⟨S1x16000, .f32⟩
  | .local .tc .vmem, ⟨15, _⟩ => ⟨S1x16000, .f32⟩
  | .local .tc .vmem, ⟨16, _⟩ => ⟨S16000x128, .f32⟩
  | .local .tc .vmem, ⟨17, _⟩ => ⟨S16000x128, .f32⟩
  | .local .tc .vmem, ⟨18, _⟩ => ⟨S1x128, .f32⟩
  | .local .tc .vmem, ⟨19, _⟩ => ⟨S1x128, .f32⟩
  | .local .tc .vmem, ⟨20, _⟩ => ⟨S1x128, .f32⟩
  | .local .tc .vmem, ⟨21, _⟩ => ⟨S128x10000, .f32⟩
  | .local .tc .vmem, ⟨22, _⟩ => ⟨S1x10000, .f32⟩
  | .local .tc .vmem, ⟨23, _⟩ => ⟨S1x10000, .f32⟩
  | .local .scVector .vmem, ⟨0, _⟩ => ⟨S5000, .i32⟩
  | .local .scVector .vmem, ⟨1, _⟩ => ⟨S10000, .f32⟩
  | .local .scVector .vmem, ⟨2, _⟩ => ⟨S16000, .i32⟩
  | .local .scVector .vmem, ⟨3, _⟩ => ⟨S16000, .i32⟩
  | .local .scVector .vmem, ⟨4, _⟩ => ⟨S10000, .f32⟩
  | .local .scVector .vmem, ⟨5, _⟩ => ⟨S10000, .f32⟩
  | _, _ => ⟨S10000x128, .f32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 30 → Bool
  | ⟨0, _⟩ => true
  | ⟨1, _⟩ => true
  | ⟨2, _⟩ => true
  | ⟨3, _⟩ => true
  | ⟨4, _⟩ => true
  | ⟨5, _⟩ => false
  | ⟨6, _⟩ => false
  | ⟨7, _⟩ => true
  | ⟨8, _⟩ => true
  | ⟨9, _⟩ => true
  | ⟨10, _⟩ => true
  | ⟨11, _⟩ => false
  | ⟨12, _⟩ => false
  | ⟨13, _⟩ => false
  | ⟨14, _⟩ => false
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTables nBuf rfl bufTy 4 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0_0 : Ref sig .tc := ⟨.hbm, 8, rfl⟩
abbrev main_v0_1 : Ref sig .tc := ⟨.hbm, 9, rfl⟩
abbrev main_v1 : Ref sig .tc := ⟨.hbm, 10, rfl⟩
abbrev main_v2 : Ref sig .tc := ⟨.hbm, 11, rfl⟩
abbrev main_v3_0 : Ref sig .tc := ⟨.hbm, 12, rfl⟩
abbrev main_v3_1 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v1_scv : Ref sig .scVector := ⟨.hbm, 10, rfl⟩
abbrev main_v2_scv : Ref sig .scVector := ⟨.hbm, 11, rfl⟩
abbrev main_v3_1_scv : Ref sig .scVector := ⟨.hbm, 13, rfl⟩
abbrev main_v4_scv : Ref sig .scVector := ⟨.hbm, 14, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc2_stg0_0 : Ref sig .tc := ⟨.vmem, 5, rfl⟩
abbrev cc2_stg1_0 : Ref sig .tc := ⟨.vmem, 6, rfl⟩
abbrev cc2_stg2_0 : Ref sig .tc := ⟨.vmem, 7, rfl⟩
abbrev cc2_stg3_0 : Ref sig .tc := ⟨.vmem, 8, rfl⟩
abbrev cc4_stg0_0 : Ref sig .tc := ⟨.vmem, 9, rfl⟩
abbrev cc4_stg1_0 : Ref sig .tc := ⟨.vmem, 10, rfl⟩
abbrev cc4_stg2_0 : Ref sig .tc := ⟨.vmem, 11, rfl⟩
abbrev cc4_stg3_0 : Ref sig .tc := ⟨.vmem, 12, rfl⟩
abbrev cc4_stg4_0 : Ref sig .tc := ⟨.vmem, 13, rfl⟩
abbrev cc5_stg0_0 : Ref sig .tc := ⟨.vmem, 14, rfl⟩
abbrev cc5_stg0_1 : Ref sig .tc := ⟨.vmem, 15, rfl⟩
abbrev cc5_stg1_0 : Ref sig .tc := ⟨.vmem, 16, rfl⟩
abbrev cc5_stg1_1 : Ref sig .tc := ⟨.vmem, 17, rfl⟩
abbrev cc5_stg2_0 : Ref sig .tc := ⟨.vmem, 18, rfl⟩
abbrev cc6_stg0_0 : Ref sig .tc := ⟨.vmem, 19, rfl⟩
abbrev cc6_stg1_0 : Ref sig .tc := ⟨.vmem, 20, rfl⟩
abbrev cc6_stg2_0 : Ref sig .tc := ⟨.vmem, 21, rfl⟩
abbrev cc6_stg3_0 : Ref sig .tc := ⟨.vmem, 22, rfl⟩
abbrev cc6_stg4_0 : Ref sig .tc := ⟨.vmem, 23, rfl⟩
abbrev cc1_scratch0 : Ref sig .scVector := ⟨.vmem, 0, rfl⟩
abbrev cc1_scratch1 : Ref sig .scVector := ⟨.vmem, 1, rfl⟩
abbrev cc3_scratch0 : Ref sig .scVector := ⟨.vmem, 2, rfl⟩
abbrev cc3_scratch1 : Ref sig .scVector := ⟨.vmem, 3, rfl⟩
abbrev cc3_scratch2 : Ref sig .scVector := ⟨.vmem, 4, rfl⟩
abbrev cc3_scratch3 : Ref sig .scVector := ⟨.vmem, 5, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc2_sem0_0 : DmaSem sig := 7
abbrev cc2_sem1_0 : DmaSem sig := 8
abbrev cc2_sem2_0 : DmaSem sig := 9
abbrev cc2_sem3_0 : DmaSem sig := 10
abbrev cc4_sem0_0 : DmaSem sig := 15
abbrev cc4_sem1_0 : DmaSem sig := 16
abbrev cc4_sem2_0 : DmaSem sig := 17
abbrev cc4_sem3_0 : DmaSem sig := 18
abbrev cc4_sem4_0 : DmaSem sig := 19
abbrev cc5_sem0_0 : DmaSem sig := 20
abbrev cc5_sem0_1 : DmaSem sig := 21
abbrev cc5_sem1_0 : DmaSem sig := 22
abbrev cc5_sem1_1 : DmaSem sig := 23
abbrev cc5_sem2_0 : DmaSem sig := 24
abbrev cc6_sem0_0 : DmaSem sig := 25
abbrev cc6_sem1_0 : DmaSem sig := 26
abbrev cc6_sem2_0 : DmaSem sig := 27
abbrev cc6_sem3_0 : DmaSem sig := 28
abbrev cc6_sem4_0 : DmaSem sig := 29
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := .none

abbrev stage0_0 : Fin 1 → Memref sig .tc .vmem S10000x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S128x32 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2x160000 .i32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S32x10000 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1x160000 .i32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev grid1 : Pipeline.Grid := ⟨2, ![2, 16], ![false, false]⟩

def k1_off1 (i : grid1.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c5000_i32 : BitVec 32 := 5000#32
  let v2 : BitVec 32 := Scalar.muli v1 c5000_i32
  ![v2.toNat]
@[reducible] def k1_t1_loop : Scf.Loop 32 :=
  let c0_i32_0 : BitVec 32 := 0#32
  let c625_i32 : BitVec 32 := 625#32
  let v6 : BitVec 32 := Scalar.addi c0_i32_0 c625_i32
  let c1_i32 : BitVec 32 := 1#32
  ⟨c0_i32_0, v6, c1_i32⟩
def k1_off2 (k1_t1 : Fin k1_t1_loop.trips) : Fin 1 → Nat :=
  let c0_i32_0 : BitVec 32 := 0#32
  let c1_i32 : BitVec 32 := 1#32
  let arg7 : BitVec 32 := Scf.iv c0_i32_0 c1_i32 k1_t1
  let c16_i32 : BitVec 32 := 16#32
  let v17 : BitVec 32 := Scalar.muli arg7 c16_i32
  let v18 : Index := Scalar.indexCast v17
  ![v18.toNat]
@[reducible] def k1_t2_loop : Scf.Loop 32 :=
  let c0_i32_4 : BitVec 32 := 0#32
  let c312_i32 : BitVec 32 := 312#32
  let v11 : BitVec 32 := Scalar.addi c0_i32_4 c312_i32
  let c1_i32_5 : BitVec 32 := 1#32
  ⟨c0_i32_4, v11, c1_i32_5⟩
def k1_off3 (k1_t2 : Fin k1_t2_loop.trips) : Fin 1 → Nat :=
  let c0_i32_4 : BitVec 32 := 0#32
  let c1_i32_5 : BitVec 32 := 1#32
  let arg7 : BitVec 32 := Scf.iv c0_i32_4 c1_i32_5 k1_t2
  let c16_i32 : BitVec 32 := 16#32
  let v17 : BitVec 32 := Scalar.muli arg7 c16_i32
  let v18 : Index := Scalar.indexCast v17
  ![v18.toNat]

def k1_chk1 (v20 : IVec S16 32) : Prop :=
  (∀ a x, ((![v20] : Fin 1 → IVec S16 32) a x).toNat < S10000.size a)
instance k1_chk1.dec : ∀ (v20 : IVec S16 32), Decidable (k1_chk1 v20) := fun v20 => decidable_of_iff' _ (Iff.of_eq (k1_chk1.eq_1 v20))
theorem k1_idx1_inb : ∀ (v20 : IVec S16 32) (k1_hw1 : k1_chk1 v20), ∀ a x, ((![v20] : Fin 1 → IVec S16 32) a x).toNat < S10000.size a := fun v20 k1_hw1 => k1_hw1

def k1_chk2 (v16 : IVec S16 32) : Prop :=
  (∀ a x, ((![v16] : Fin 1 → IVec S16 32) a x).toNat < S10000.size a)
instance k1_chk2.dec : ∀ (v16 : IVec S16 32), Decidable (k1_chk2 v16) := fun v16 => decidable_of_iff' _ (Iff.of_eq (k1_chk2.eq_1 v16))
theorem k1_idx2_inb : ∀ (v16 : IVec S16 32) (k1_hw2 : k1_chk2 v16), ∀ a x, ((![v16] : Fin 1 → IVec S16 32) a x).toNat < S10000.size a := fun v16 k1_hw2 => k1_hw2
def k1_off4 (i : grid1.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_7_r0 : BitVec 32 := 0#32
  ![v1.toNat, 0]
abbrev grid2 : Pipeline.Grid := .none

abbrev stage2_0 : Fin 1 → Memref sig .tc .vmem S32x10000 .f32 := fun | 0 => Memref.whole cc2_stg0_0 | ⟨_ + 1, h⟩ => absurd h (Nat.not_lt.2 (Nat.le_add_left _ _))
abbrev sem2_0 : Fin 1 → DmaSem sig := fun | 0 => cc2_sem0_0 | ⟨_ + 1, h⟩ => absurd h (Nat.not_lt.2 (Nat.le_add_left _ _))

abbrev stage2_1 : Fin 1 → Memref sig .tc .vmem S32x10000 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))

abbrev stage2_2 : Fin 1 → Memref sig .tc .vmem S1x10000 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))

abbrev stage2_3 : Fin 1 → Memref sig .tc .vmem S32x10000 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))

abbrev grid3 : Pipeline.Grid := ⟨2, ![2, 16], ![false, false]⟩

def k3_off1 (i : grid3.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  ![v1.toNat, 0]
@[reducible] def k3_t1_loop : Scf.Loop 32 :=
  let c0_i32_4 : BitVec 32 := 0#32
  let c625_i32 : BitVec 32 := 625#32
  let v10 : BitVec 32 := Scalar.addi c0_i32_4 c625_i32
  let c1_i32 : BitVec 32 := 1#32
  ⟨c0_i32_4, v10, c1_i32⟩
def k3_off2 (k3_t1 : Fin k3_t1_loop.trips) : Fin 1 → Nat :=
  let c0_i32_4 : BitVec 32 := 0#32
  let c1_i32 : BitVec 32 := 1#32
  let arg12 : BitVec 32 := Scf.iv c0_i32_4 c1_i32 k3_t1
  let c16_i32 : BitVec 32 := 16#32
  let v63 : BitVec 32 := Scalar.muli arg12 c16_i32
  let v64 : Index := Scalar.indexCast v63
  ![v64.toNat]
@[reducible] def k3_t2_loop : Scf.Loop 32 :=
  let c0_i32_12 : BitVec 32 := 0#32
  let c125_i32 : BitVec 32 := 125#32
  let v19 : BitVec 32 := Scalar.addi c0_i32_12 c125_i32
  let c1_i32_13 : BitVec 32 := 1#32
  ⟨c0_i32_12, v19, c1_i32_13⟩
def k3_off3 (k3_t2 : Fin k3_t2_loop.trips) (c0_i32_86 : BitVec 32) : Fin 1 → Nat :=
  let c0_i32_12 : BitVec 32 := 0#32
  let c1_i32_13 : BitVec 32 := 1#32
  let arg12 : BitVec 32 := Scf.iv c0_i32_12 c1_i32_13 k3_t2
  let c8_i32 : BitVec 32 := 8#32
  let v63 : BitVec 32 := Scalar.muli arg12 c8_i32
  let v64 : BitVec 32 := Scalar.addi v63 c0_i32_86
  let c16_i32 : BitVec 32 := 16#32
  let v65 : BitVec 32 := Scalar.muli v64 c16_i32
  let v66 : Index := Scalar.indexCast v65
  ![v66.toNat]

def k3_chk1 (v104 : IVec S16 32) : Prop :=
  (∀ a x, ((![v104] : Fin 1 → IVec S16 32) a x).toNat < S10000.size a)
instance k3_chk1.dec : ∀ (v104 : IVec S16 32), Decidable (k3_chk1 v104) := fun v104 => decidable_of_iff' _ (Iff.of_eq (k3_chk1.eq_1 v104))
theorem k3_idx1_inb : ∀ (v104 : IVec S16 32) (k3_hw1 : k3_chk1 v104), ∀ a x, ((![v104] : Fin 1 → IVec S16 32) a x).toNat < S10000.size a := fun v104 k3_hw1 => k3_hw1

def k3_chk2 (v107 : IVec S16 32) : Prop :=
  (∀ a x, ((![v107] : Fin 1 → IVec S16 32) a x).toNat < S10000.size a)
instance k3_chk2.dec : ∀ (v107 : IVec S16 32), Decidable (k3_chk2 v107) := fun v107 => decidable_of_iff' _ (Iff.of_eq (k3_chk2.eq_1 v107))
theorem k3_idx2_inb : ∀ (v107 : IVec S16 32) (k3_hw2 : k3_chk2 v107), ∀ a x, ((![v107] : Fin 1 → IVec S16 32) a x).toNat < S10000.size a := fun v107 k3_hw2 => k3_hw2

def k3_chk3 (v110 : IVec S16 32) : Prop :=
  (∀ a x, ((![v110] : Fin 1 → IVec S16 32) a x).toNat < S10000.size a)
instance k3_chk3.dec : ∀ (v110 : IVec S16 32), Decidable (k3_chk3 v110) := fun v110 => decidable_of_iff' _ (Iff.of_eq (k3_chk3.eq_1 v110))
theorem k3_idx3_inb : ∀ (v110 : IVec S16 32) (k3_hw3 : k3_chk3 v110), ∀ a x, ((![v110] : Fin 1 → IVec S16 32) a x).toNat < S10000.size a := fun v110 k3_hw3 => k3_hw3

def k3_chk4 (v113 : IVec S16 32) : Prop :=
  (∀ a x, ((![v113] : Fin 1 → IVec S16 32) a x).toNat < S10000.size a)
instance k3_chk4.dec : ∀ (v113 : IVec S16 32), Decidable (k3_chk4 v113) := fun v113 => decidable_of_iff' _ (Iff.of_eq (k3_chk4.eq_1 v113))
theorem k3_idx4_inb : ∀ (v113 : IVec S16 32) (k3_hw4 : k3_chk4 v113), ∀ a x, ((![v113] : Fin 1 → IVec S16 32) a x).toNat < S10000.size a := fun v113 k3_hw4 => k3_hw4

def k3_chk5 (v116 : IVec S16 32) : Prop :=
  (∀ a x, ((![v116] : Fin 1 → IVec S16 32) a x).toNat < S10000.size a)
instance k3_chk5.dec : ∀ (v116 : IVec S16 32), Decidable (k3_chk5 v116) := fun v116 => decidable_of_iff' _ (Iff.of_eq (k3_chk5.eq_1 v116))
theorem k3_idx5_inb : ∀ (v116 : IVec S16 32) (k3_hw5 : k3_chk5 v116), ∀ a x, ((![v116] : Fin 1 → IVec S16 32) a x).toNat < S10000.size a := fun v116 k3_hw5 => k3_hw5

def k3_chk6 (v119 : IVec S16 32) : Prop :=
  (∀ a x, ((![v119] : Fin 1 → IVec S16 32) a x).toNat < S10000.size a)
instance k3_chk6.dec : ∀ (v119 : IVec S16 32), Decidable (k3_chk6 v119) := fun v119 => decidable_of_iff' _ (Iff.of_eq (k3_chk6.eq_1 v119))
theorem k3_idx6_inb : ∀ (v119 : IVec S16 32) (k3_hw6 : k3_chk6 v119), ∀ a x, ((![v119] : Fin 1 → IVec S16 32) a x).toNat < S10000.size a := fun v119 k3_hw6 => k3_hw6

def k3_chk7 (v122 : IVec S16 32) : Prop :=
  (∀ a x, ((![v122] : Fin 1 → IVec S16 32) a x).toNat < S10000.size a)
instance k3_chk7.dec : ∀ (v122 : IVec S16 32), Decidable (k3_chk7 v122) := fun v122 => decidable_of_iff' _ (Iff.of_eq (k3_chk7.eq_1 v122))
theorem k3_idx7_inb : ∀ (v122 : IVec S16 32) (k3_hw7 : k3_chk7 v122), ∀ a x, ((![v122] : Fin 1 → IVec S16 32) a x).toNat < S10000.size a := fun v122 k3_hw7 => k3_hw7

def k3_chk8 (v125 : IVec S16 32) : Prop :=
  (∀ a x, ((![v125] : Fin 1 → IVec S16 32) a x).toNat < S10000.size a)
instance k3_chk8.dec : ∀ (v125 : IVec S16 32), Decidable (k3_chk8 v125) := fun v125 => decidable_of_iff' _ (Iff.of_eq (k3_chk8.eq_1 v125))
theorem k3_idx8_inb : ∀ (v125 : IVec S16 32) (k3_hw8 : k3_chk8 v125), ∀ a x, ((![v125] : Fin 1 → IVec S16 32) a x).toNat < S10000.size a := fun v125 k3_hw8 => k3_hw8

def k3_chk9 (v127 : IVec S16 32) : Prop :=
  (∀ a x, ((![v127] : Fin 1 → IVec S16 32) a x).toNat < S10000.size a)
instance k3_chk9.dec : ∀ (v127 : IVec S16 32), Decidable (k3_chk9 v127) := fun v127 => decidable_of_iff' _ (Iff.of_eq (k3_chk9.eq_1 v127))
theorem k3_idx9_inb : ∀ (v127 : IVec S16 32) (k3_hw9 : k3_chk9 v127), ∀ a x, ((![v127] : Fin 1 → IVec S16 32) a x).toNat < S10000.size a := fun v127 k3_hw9 => k3_hw9

def k3_chk10 (v128 : IVec S16 32) : Prop :=
  (∀ a x, ((![v128] : Fin 1 → IVec S16 32) a x).toNat < S10000.size a)
instance k3_chk10.dec : ∀ (v128 : IVec S16 32), Decidable (k3_chk10 v128) := fun v128 => decidable_of_iff' _ (Iff.of_eq (k3_chk10.eq_1 v128))
theorem k3_idx10_inb : ∀ (v128 : IVec S16 32) (k3_hw10 : k3_chk10 v128), ∀ a x, ((![v128] : Fin 1 → IVec S16 32) a x).toNat < S10000.size a := fun v128 k3_hw10 => k3_hw10

def k3_chk11 (v129 : IVec S16 32) : Prop :=
  (∀ a x, ((![v129] : Fin 1 → IVec S16 32) a x).toNat < S10000.size a)
instance k3_chk11.dec : ∀ (v129 : IVec S16 32), Decidable (k3_chk11 v129) := fun v129 => decidable_of_iff' _ (Iff.of_eq (k3_chk11.eq_1 v129))
theorem k3_idx11_inb : ∀ (v129 : IVec S16 32) (k3_hw11 : k3_chk11 v129), ∀ a x, ((![v129] : Fin 1 → IVec S16 32) a x).toNat < S10000.size a := fun v129 k3_hw11 => k3_hw11

def k3_chk12 (v130 : IVec S16 32) : Prop :=
  (∀ a x, ((![v130] : Fin 1 → IVec S16 32) a x).toNat < S10000.size a)
instance k3_chk12.dec : ∀ (v130 : IVec S16 32), Decidable (k3_chk12 v130) := fun v130 => decidable_of_iff' _ (Iff.of_eq (k3_chk12.eq_1 v130))
theorem k3_idx12_inb : ∀ (v130 : IVec S16 32) (k3_hw12 : k3_chk12 v130), ∀ a x, ((![v130] : Fin 1 → IVec S16 32) a x).toNat < S10000.size a := fun v130 k3_hw12 => k3_hw12

def k3_chk13 (v131 : IVec S16 32) : Prop :=
  (∀ a x, ((![v131] : Fin 1 → IVec S16 32) a x).toNat < S10000.size a)
instance k3_chk13.dec : ∀ (v131 : IVec S16 32), Decidable (k3_chk13 v131) := fun v131 => decidable_of_iff' _ (Iff.of_eq (k3_chk13.eq_1 v131))
theorem k3_idx13_inb : ∀ (v131 : IVec S16 32) (k3_hw13 : k3_chk13 v131), ∀ a x, ((![v131] : Fin 1 → IVec S16 32) a x).toNat < S10000.size a := fun v131 k3_hw13 => k3_hw13

def k3_chk14 (v132 : IVec S16 32) : Prop :=
  (∀ a x, ((![v132] : Fin 1 → IVec S16 32) a x).toNat < S10000.size a)
instance k3_chk14.dec : ∀ (v132 : IVec S16 32), Decidable (k3_chk14 v132) := fun v132 => decidable_of_iff' _ (Iff.of_eq (k3_chk14.eq_1 v132))
theorem k3_idx14_inb : ∀ (v132 : IVec S16 32) (k3_hw14 : k3_chk14 v132), ∀ a x, ((![v132] : Fin 1 → IVec S16 32) a x).toNat < S10000.size a := fun v132 k3_hw14 => k3_hw14

def k3_chk15 (v133 : IVec S16 32) : Prop :=
  (∀ a x, ((![v133] : Fin 1 → IVec S16 32) a x).toNat < S10000.size a)
instance k3_chk15.dec : ∀ (v133 : IVec S16 32), Decidable (k3_chk15 v133) := fun v133 => decidable_of_iff' _ (Iff.of_eq (k3_chk15.eq_1 v133))
theorem k3_idx15_inb : ∀ (v133 : IVec S16 32) (k3_hw15 : k3_chk15 v133), ∀ a x, ((![v133] : Fin 1 → IVec S16 32) a x).toNat < S10000.size a := fun v133 k3_hw15 => k3_hw15

def k3_chk16 (v134 : IVec S16 32) : Prop :=
  (∀ a x, ((![v134] : Fin 1 → IVec S16 32) a x).toNat < S10000.size a)
instance k3_chk16.dec : ∀ (v134 : IVec S16 32), Decidable (k3_chk16 v134) := fun v134 => decidable_of_iff' _ (Iff.of_eq (k3_chk16.eq_1 v134))
theorem k3_idx16_inb : ∀ (v134 : IVec S16 32) (k3_hw16 : k3_chk16 v134), ∀ a x, ((![v134] : Fin 1 → IVec S16 32) a x).toNat < S10000.size a := fun v134 k3_hw16 => k3_hw16
@[reducible] def k3_t3_loop : Scf.Loop 32 :=
  let c0_i32_19 : BitVec 32 := 0#32
  let c125_i32_20 : BitVec 32 := 125#32
  let v24 : BitVec 32 := Scalar.addi c0_i32_19 c125_i32_20
  let c1_i32_21 : BitVec 32 := 1#32
  ⟨c0_i32_19, v24, c1_i32_21⟩
def k3_off4 (k3_t3 : Fin k3_t3_loop.trips) (c0_i32_86 : BitVec 32) : Fin 1 → Nat :=
  let c0_i32_19 : BitVec 32 := 0#32
  let c1_i32_21 : BitVec 32 := 1#32
  let arg12 : BitVec 32 := Scf.iv c0_i32_19 c1_i32_21 k3_t3
  let c8_i32 : BitVec 32 := 8#32
  let v63 : BitVec 32 := Scalar.muli arg12 c8_i32
  let v64 : BitVec 32 := Scalar.addi v63 c0_i32_86
  let c16_i32 : BitVec 32 := 16#32
  let v65 : BitVec 32 := Scalar.muli v64 c16_i32
  let v66 : Index := Scalar.indexCast v65
  ![v66.toNat]

def k3_chk17 (v104 : IVec S16 32) : Prop :=
  (∀ a x, ((![v104] : Fin 1 → IVec S16 32) a x).toNat < S10000.size a)
instance k3_chk17.dec : ∀ (v104 : IVec S16 32), Decidable (k3_chk17 v104) := fun v104 => decidable_of_iff' _ (Iff.of_eq (k3_chk17.eq_1 v104))
theorem k3_idx17_inb : ∀ (v104 : IVec S16 32) (k3_hw17 : k3_chk17 v104), ∀ a x, ((![v104] : Fin 1 → IVec S16 32) a x).toNat < S10000.size a := fun v104 k3_hw17 => k3_hw17

def k3_chk18 (v107 : IVec S16 32) : Prop :=
  (∀ a x, ((![v107] : Fin 1 → IVec S16 32) a x).toNat < S10000.size a)
instance k3_chk18.dec : ∀ (v107 : IVec S16 32), Decidable (k3_chk18 v107) := fun v107 => decidable_of_iff' _ (Iff.of_eq (k3_chk18.eq_1 v107))
theorem k3_idx18_inb : ∀ (v107 : IVec S16 32) (k3_hw18 : k3_chk18 v107), ∀ a x, ((![v107] : Fin 1 → IVec S16 32) a x).toNat < S10000.size a := fun v107 k3_hw18 => k3_hw18

def k3_chk19 (v110 : IVec S16 32) : Prop :=
  (∀ a x, ((![v110] : Fin 1 → IVec S16 32) a x).toNat < S10000.size a)
instance k3_chk19.dec : ∀ (v110 : IVec S16 32), Decidable (k3_chk19 v110) := fun v110 => decidable_of_iff' _ (Iff.of_eq (k3_chk19.eq_1 v110))
theorem k3_idx19_inb : ∀ (v110 : IVec S16 32) (k3_hw19 : k3_chk19 v110), ∀ a x, ((![v110] : Fin 1 → IVec S16 32) a x).toNat < S10000.size a := fun v110 k3_hw19 => k3_hw19

def k3_chk20 (v113 : IVec S16 32) : Prop :=
  (∀ a x, ((![v113] : Fin 1 → IVec S16 32) a x).toNat < S10000.size a)
instance k3_chk20.dec : ∀ (v113 : IVec S16 32), Decidable (k3_chk20 v113) := fun v113 => decidable_of_iff' _ (Iff.of_eq (k3_chk20.eq_1 v113))
theorem k3_idx20_inb : ∀ (v113 : IVec S16 32) (k3_hw20 : k3_chk20 v113), ∀ a x, ((![v113] : Fin 1 → IVec S16 32) a x).toNat < S10000.size a := fun v113 k3_hw20 => k3_hw20

def k3_chk21 (v116 : IVec S16 32) : Prop :=
  (∀ a x, ((![v116] : Fin 1 → IVec S16 32) a x).toNat < S10000.size a)
instance k3_chk21.dec : ∀ (v116 : IVec S16 32), Decidable (k3_chk21 v116) := fun v116 => decidable_of_iff' _ (Iff.of_eq (k3_chk21.eq_1 v116))
theorem k3_idx21_inb : ∀ (v116 : IVec S16 32) (k3_hw21 : k3_chk21 v116), ∀ a x, ((![v116] : Fin 1 → IVec S16 32) a x).toNat < S10000.size a := fun v116 k3_hw21 => k3_hw21

def k3_chk22 (v119 : IVec S16 32) : Prop :=
  (∀ a x, ((![v119] : Fin 1 → IVec S16 32) a x).toNat < S10000.size a)
instance k3_chk22.dec : ∀ (v119 : IVec S16 32), Decidable (k3_chk22 v119) := fun v119 => decidable_of_iff' _ (Iff.of_eq (k3_chk22.eq_1 v119))
theorem k3_idx22_inb : ∀ (v119 : IVec S16 32) (k3_hw22 : k3_chk22 v119), ∀ a x, ((![v119] : Fin 1 → IVec S16 32) a x).toNat < S10000.size a := fun v119 k3_hw22 => k3_hw22

def k3_chk23 (v122 : IVec S16 32) : Prop :=
  (∀ a x, ((![v122] : Fin 1 → IVec S16 32) a x).toNat < S10000.size a)
instance k3_chk23.dec : ∀ (v122 : IVec S16 32), Decidable (k3_chk23 v122) := fun v122 => decidable_of_iff' _ (Iff.of_eq (k3_chk23.eq_1 v122))
theorem k3_idx23_inb : ∀ (v122 : IVec S16 32) (k3_hw23 : k3_chk23 v122), ∀ a x, ((![v122] : Fin 1 → IVec S16 32) a x).toNat < S10000.size a := fun v122 k3_hw23 => k3_hw23

def k3_chk24 (v125 : IVec S16 32) : Prop :=
  (∀ a x, ((![v125] : Fin 1 → IVec S16 32) a x).toNat < S10000.size a)
instance k3_chk24.dec : ∀ (v125 : IVec S16 32), Decidable (k3_chk24 v125) := fun v125 => decidable_of_iff' _ (Iff.of_eq (k3_chk24.eq_1 v125))
theorem k3_idx24_inb : ∀ (v125 : IVec S16 32) (k3_hw24 : k3_chk24 v125), ∀ a x, ((![v125] : Fin 1 → IVec S16 32) a x).toNat < S10000.size a := fun v125 k3_hw24 => k3_hw24

def k3_chk25 (v127 : IVec S16 32) : Prop :=
  (∀ a x, ((![v127] : Fin 1 → IVec S16 32) a x).toNat < S10000.size a)
instance k3_chk25.dec : ∀ (v127 : IVec S16 32), Decidable (k3_chk25 v127) := fun v127 => decidable_of_iff' _ (Iff.of_eq (k3_chk25.eq_1 v127))
theorem k3_idx25_inb : ∀ (v127 : IVec S16 32) (k3_hw25 : k3_chk25 v127), ∀ a x, ((![v127] : Fin 1 → IVec S16 32) a x).toNat < S10000.size a := fun v127 k3_hw25 => k3_hw25

def k3_chk26 (v128 : IVec S16 32) : Prop :=
  (∀ a x, ((![v128] : Fin 1 → IVec S16 32) a x).toNat < S10000.size a)
instance k3_chk26.dec : ∀ (v128 : IVec S16 32), Decidable (k3_chk26 v128) := fun v128 => decidable_of_iff' _ (Iff.of_eq (k3_chk26.eq_1 v128))
theorem k3_idx26_inb : ∀ (v128 : IVec S16 32) (k3_hw26 : k3_chk26 v128), ∀ a x, ((![v128] : Fin 1 → IVec S16 32) a x).toNat < S10000.size a := fun v128 k3_hw26 => k3_hw26

def k3_chk27 (v129 : IVec S16 32) : Prop :=
  (∀ a x, ((![v129] : Fin 1 → IVec S16 32) a x).toNat < S10000.size a)
instance k3_chk27.dec : ∀ (v129 : IVec S16 32), Decidable (k3_chk27 v129) := fun v129 => decidable_of_iff' _ (Iff.of_eq (k3_chk27.eq_1 v129))
theorem k3_idx27_inb : ∀ (v129 : IVec S16 32) (k3_hw27 : k3_chk27 v129), ∀ a x, ((![v129] : Fin 1 → IVec S16 32) a x).toNat < S10000.size a := fun v129 k3_hw27 => k3_hw27

def k3_chk28 (v130 : IVec S16 32) : Prop :=
  (∀ a x, ((![v130] : Fin 1 → IVec S16 32) a x).toNat < S10000.size a)
instance k3_chk28.dec : ∀ (v130 : IVec S16 32), Decidable (k3_chk28 v130) := fun v130 => decidable_of_iff' _ (Iff.of_eq (k3_chk28.eq_1 v130))
theorem k3_idx28_inb : ∀ (v130 : IVec S16 32) (k3_hw28 : k3_chk28 v130), ∀ a x, ((![v130] : Fin 1 → IVec S16 32) a x).toNat < S10000.size a := fun v130 k3_hw28 => k3_hw28

def k3_chk29 (v131 : IVec S16 32) : Prop :=
  (∀ a x, ((![v131] : Fin 1 → IVec S16 32) a x).toNat < S10000.size a)
instance k3_chk29.dec : ∀ (v131 : IVec S16 32), Decidable (k3_chk29 v131) := fun v131 => decidable_of_iff' _ (Iff.of_eq (k3_chk29.eq_1 v131))
theorem k3_idx29_inb : ∀ (v131 : IVec S16 32) (k3_hw29 : k3_chk29 v131), ∀ a x, ((![v131] : Fin 1 → IVec S16 32) a x).toNat < S10000.size a := fun v131 k3_hw29 => k3_hw29

def k3_chk30 (v132 : IVec S16 32) : Prop :=
  (∀ a x, ((![v132] : Fin 1 → IVec S16 32) a x).toNat < S10000.size a)
instance k3_chk30.dec : ∀ (v132 : IVec S16 32), Decidable (k3_chk30 v132) := fun v132 => decidable_of_iff' _ (Iff.of_eq (k3_chk30.eq_1 v132))
theorem k3_idx30_inb : ∀ (v132 : IVec S16 32) (k3_hw30 : k3_chk30 v132), ∀ a x, ((![v132] : Fin 1 → IVec S16 32) a x).toNat < S10000.size a := fun v132 k3_hw30 => k3_hw30

def k3_chk31 (v133 : IVec S16 32) : Prop :=
  (∀ a x, ((![v133] : Fin 1 → IVec S16 32) a x).toNat < S10000.size a)
instance k3_chk31.dec : ∀ (v133 : IVec S16 32), Decidable (k3_chk31 v133) := fun v133 => decidable_of_iff' _ (Iff.of_eq (k3_chk31.eq_1 v133))
theorem k3_idx31_inb : ∀ (v133 : IVec S16 32) (k3_hw31 : k3_chk31 v133), ∀ a x, ((![v133] : Fin 1 → IVec S16 32) a x).toNat < S10000.size a := fun v133 k3_hw31 => k3_hw31

def k3_chk32 (v134 : IVec S16 32) : Prop :=
  (∀ a x, ((![v134] : Fin 1 → IVec S16 32) a x).toNat < S10000.size a)
instance k3_chk32.dec : ∀ (v134 : IVec S16 32), Decidable (k3_chk32 v134) := fun v134 => decidable_of_iff' _ (Iff.of_eq (k3_chk32.eq_1 v134))
theorem k3_idx32_inb : ∀ (v134 : IVec S16 32) (k3_hw32 : k3_chk32 v134), ∀ a x, ((![v134] : Fin 1 → IVec S16 32) a x).toNat < S10000.size a := fun v134 k3_hw32 => k3_hw32
@[reducible] def k3_t4_loop : Scf.Loop 32 :=
  let c0_i32_27 : BitVec 32 := 0#32
  let c125_i32_28 : BitVec 32 := 125#32
  let v29 : BitVec 32 := Scalar.addi c0_i32_27 c125_i32_28
  let c1_i32_29 : BitVec 32 := 1#32
  ⟨c0_i32_27, v29, c1_i32_29⟩
def k3_off5 (k3_t4 : Fin k3_t4_loop.trips) (c0_i32_86 : BitVec 32) : Fin 1 → Nat :=
  let c0_i32_27 : BitVec 32 := 0#32
  let c1_i32_29 : BitVec 32 := 1#32
  let arg12 : BitVec 32 := Scf.iv c0_i32_27 c1_i32_29 k3_t4
  let c8_i32 : BitVec 32 := 8#32
  let v63 : BitVec 32 := Scalar.muli arg12 c8_i32
  let v64 : BitVec 32 := Scalar.addi v63 c0_i32_86
  let c16_i32 : BitVec 32 := 16#32
  let v65 : BitVec 32 := Scalar.muli v64 c16_i32
  let v66 : Index := Scalar.indexCast v65
  ![v66.toNat]

def k3_chk33 (v104 : IVec S16 32) : Prop :=
  (∀ a x, ((![v104] : Fin 1 → IVec S16 32) a x).toNat < S10000.size a)
instance k3_chk33.dec : ∀ (v104 : IVec S16 32), Decidable (k3_chk33 v104) := fun v104 => decidable_of_iff' _ (Iff.of_eq (k3_chk33.eq_1 v104))
theorem k3_idx33_inb : ∀ (v104 : IVec S16 32) (k3_hw33 : k3_chk33 v104), ∀ a x, ((![v104] : Fin 1 → IVec S16 32) a x).toNat < S10000.size a := fun v104 k3_hw33 => k3_hw33

def k3_chk34 (v107 : IVec S16 32) : Prop :=
  (∀ a x, ((![v107] : Fin 1 → IVec S16 32) a x).toNat < S10000.size a)
instance k3_chk34.dec : ∀ (v107 : IVec S16 32), Decidable (k3_chk34 v107) := fun v107 => decidable_of_iff' _ (Iff.of_eq (k3_chk34.eq_1 v107))
theorem k3_idx34_inb : ∀ (v107 : IVec S16 32) (k3_hw34 : k3_chk34 v107), ∀ a x, ((![v107] : Fin 1 → IVec S16 32) a x).toNat < S10000.size a := fun v107 k3_hw34 => k3_hw34

def k3_chk35 (v110 : IVec S16 32) : Prop :=
  (∀ a x, ((![v110] : Fin 1 → IVec S16 32) a x).toNat < S10000.size a)
instance k3_chk35.dec : ∀ (v110 : IVec S16 32), Decidable (k3_chk35 v110) := fun v110 => decidable_of_iff' _ (Iff.of_eq (k3_chk35.eq_1 v110))
theorem k3_idx35_inb : ∀ (v110 : IVec S16 32) (k3_hw35 : k3_chk35 v110), ∀ a x, ((![v110] : Fin 1 → IVec S16 32) a x).toNat < S10000.size a := fun v110 k3_hw35 => k3_hw35

def k3_chk36 (v113 : IVec S16 32) : Prop :=
  (∀ a x, ((![v113] : Fin 1 → IVec S16 32) a x).toNat < S10000.size a)
instance k3_chk36.dec : ∀ (v113 : IVec S16 32), Decidable (k3_chk36 v113) := fun v113 => decidable_of_iff' _ (Iff.of_eq (k3_chk36.eq_1 v113))
theorem k3_idx36_inb : ∀ (v113 : IVec S16 32) (k3_hw36 : k3_chk36 v113), ∀ a x, ((![v113] : Fin 1 → IVec S16 32) a x).toNat < S10000.size a := fun v113 k3_hw36 => k3_hw36

def k3_chk37 (v116 : IVec S16 32) : Prop :=
  (∀ a x, ((![v116] : Fin 1 → IVec S16 32) a x).toNat < S10000.size a)
instance k3_chk37.dec : ∀ (v116 : IVec S16 32), Decidable (k3_chk37 v116) := fun v116 => decidable_of_iff' _ (Iff.of_eq (k3_chk37.eq_1 v116))
theorem k3_idx37_inb : ∀ (v116 : IVec S16 32) (k3_hw37 : k3_chk37 v116), ∀ a x, ((![v116] : Fin 1 → IVec S16 32) a x).toNat < S10000.size a := fun v116 k3_hw37 => k3_hw37

def k3_chk38 (v119 : IVec S16 32) : Prop :=
  (∀ a x, ((![v119] : Fin 1 → IVec S16 32) a x).toNat < S10000.size a)
instance k3_chk38.dec : ∀ (v119 : IVec S16 32), Decidable (k3_chk38 v119) := fun v119 => decidable_of_iff' _ (Iff.of_eq (k3_chk38.eq_1 v119))
theorem k3_idx38_inb : ∀ (v119 : IVec S16 32) (k3_hw38 : k3_chk38 v119), ∀ a x, ((![v119] : Fin 1 → IVec S16 32) a x).toNat < S10000.size a := fun v119 k3_hw38 => k3_hw38

def k3_chk39 (v122 : IVec S16 32) : Prop :=
  (∀ a x, ((![v122] : Fin 1 → IVec S16 32) a x).toNat < S10000.size a)
instance k3_chk39.dec : ∀ (v122 : IVec S16 32), Decidable (k3_chk39 v122) := fun v122 => decidable_of_iff' _ (Iff.of_eq (k3_chk39.eq_1 v122))
theorem k3_idx39_inb : ∀ (v122 : IVec S16 32) (k3_hw39 : k3_chk39 v122), ∀ a x, ((![v122] : Fin 1 → IVec S16 32) a x).toNat < S10000.size a := fun v122 k3_hw39 => k3_hw39

def k3_chk40 (v125 : IVec S16 32) : Prop :=
  (∀ a x, ((![v125] : Fin 1 → IVec S16 32) a x).toNat < S10000.size a)
instance k3_chk40.dec : ∀ (v125 : IVec S16 32), Decidable (k3_chk40 v125) := fun v125 => decidable_of_iff' _ (Iff.of_eq (k3_chk40.eq_1 v125))
theorem k3_idx40_inb : ∀ (v125 : IVec S16 32) (k3_hw40 : k3_chk40 v125), ∀ a x, ((![v125] : Fin 1 → IVec S16 32) a x).toNat < S10000.size a := fun v125 k3_hw40 => k3_hw40

def k3_chk41 (v127 : IVec S16 32) : Prop :=
  (∀ a x, ((![v127] : Fin 1 → IVec S16 32) a x).toNat < S10000.size a)
instance k3_chk41.dec : ∀ (v127 : IVec S16 32), Decidable (k3_chk41 v127) := fun v127 => decidable_of_iff' _ (Iff.of_eq (k3_chk41.eq_1 v127))
theorem k3_idx41_inb : ∀ (v127 : IVec S16 32) (k3_hw41 : k3_chk41 v127), ∀ a x, ((![v127] : Fin 1 → IVec S16 32) a x).toNat < S10000.size a := fun v127 k3_hw41 => k3_hw41

def k3_chk42 (v128 : IVec S16 32) : Prop :=
  (∀ a x, ((![v128] : Fin 1 → IVec S16 32) a x).toNat < S10000.size a)
instance k3_chk42.dec : ∀ (v128 : IVec S16 32), Decidable (k3_chk42 v128) := fun v128 => decidable_of_iff' _ (Iff.of_eq (k3_chk42.eq_1 v128))
theorem k3_idx42_inb : ∀ (v128 : IVec S16 32) (k3_hw42 : k3_chk42 v128), ∀ a x, ((![v128] : Fin 1 → IVec S16 32) a x).toNat < S10000.size a := fun v128 k3_hw42 => k3_hw42

def k3_chk43 (v129 : IVec S16 32) : Prop :=
  (∀ a x, ((![v129] : Fin 1 → IVec S16 32) a x).toNat < S10000.size a)
instance k3_chk43.dec : ∀ (v129 : IVec S16 32), Decidable (k3_chk43 v129) := fun v129 => decidable_of_iff' _ (Iff.of_eq (k3_chk43.eq_1 v129))
theorem k3_idx43_inb : ∀ (v129 : IVec S16 32) (k3_hw43 : k3_chk43 v129), ∀ a x, ((![v129] : Fin 1 → IVec S16 32) a x).toNat < S10000.size a := fun v129 k3_hw43 => k3_hw43

def k3_chk44 (v130 : IVec S16 32) : Prop :=
  (∀ a x, ((![v130] : Fin 1 → IVec S16 32) a x).toNat < S10000.size a)
instance k3_chk44.dec : ∀ (v130 : IVec S16 32), Decidable (k3_chk44 v130) := fun v130 => decidable_of_iff' _ (Iff.of_eq (k3_chk44.eq_1 v130))
theorem k3_idx44_inb : ∀ (v130 : IVec S16 32) (k3_hw44 : k3_chk44 v130), ∀ a x, ((![v130] : Fin 1 → IVec S16 32) a x).toNat < S10000.size a := fun v130 k3_hw44 => k3_hw44

def k3_chk45 (v131 : IVec S16 32) : Prop :=
  (∀ a x, ((![v131] : Fin 1 → IVec S16 32) a x).toNat < S10000.size a)
instance k3_chk45.dec : ∀ (v131 : IVec S16 32), Decidable (k3_chk45 v131) := fun v131 => decidable_of_iff' _ (Iff.of_eq (k3_chk45.eq_1 v131))
theorem k3_idx45_inb : ∀ (v131 : IVec S16 32) (k3_hw45 : k3_chk45 v131), ∀ a x, ((![v131] : Fin 1 → IVec S16 32) a x).toNat < S10000.size a := fun v131 k3_hw45 => k3_hw45

def k3_chk46 (v132 : IVec S16 32) : Prop :=
  (∀ a x, ((![v132] : Fin 1 → IVec S16 32) a x).toNat < S10000.size a)
instance k3_chk46.dec : ∀ (v132 : IVec S16 32), Decidable (k3_chk46 v132) := fun v132 => decidable_of_iff' _ (Iff.of_eq (k3_chk46.eq_1 v132))
theorem k3_idx46_inb : ∀ (v132 : IVec S16 32) (k3_hw46 : k3_chk46 v132), ∀ a x, ((![v132] : Fin 1 → IVec S16 32) a x).toNat < S10000.size a := fun v132 k3_hw46 => k3_hw46

def k3_chk47 (v133 : IVec S16 32) : Prop :=
  (∀ a x, ((![v133] : Fin 1 → IVec S16 32) a x).toNat < S10000.size a)
instance k3_chk47.dec : ∀ (v133 : IVec S16 32), Decidable (k3_chk47 v133) := fun v133 => decidable_of_iff' _ (Iff.of_eq (k3_chk47.eq_1 v133))
theorem k3_idx47_inb : ∀ (v133 : IVec S16 32) (k3_hw47 : k3_chk47 v133), ∀ a x, ((![v133] : Fin 1 → IVec S16 32) a x).toNat < S10000.size a := fun v133 k3_hw47 => k3_hw47

def k3_chk48 (v134 : IVec S16 32) : Prop :=
  (∀ a x, ((![v134] : Fin 1 → IVec S16 32) a x).toNat < S10000.size a)
instance k3_chk48.dec : ∀ (v134 : IVec S16 32), Decidable (k3_chk48 v134) := fun v134 => decidable_of_iff' _ (Iff.of_eq (k3_chk48.eq_1 v134))
theorem k3_idx48_inb : ∀ (v134 : IVec S16 32) (k3_hw48 : k3_chk48 v134), ∀ a x, ((![v134] : Fin 1 → IVec S16 32) a x).toNat < S10000.size a := fun v134 k3_hw48 => k3_hw48
@[reducible] def k3_t5_loop : Scf.Loop 32 :=
  let c0_i32_35 : BitVec 32 := 0#32
  let c125_i32_36 : BitVec 32 := 125#32
  let v34 : BitVec 32 := Scalar.addi c0_i32_35 c125_i32_36
  let c1_i32_37 : BitVec 32 := 1#32
  ⟨c0_i32_35, v34, c1_i32_37⟩
def k3_off6 (k3_t5 : Fin k3_t5_loop.trips) (c0_i32_86 : BitVec 32) : Fin 1 → Nat :=
  let c0_i32_35 : BitVec 32 := 0#32
  let c1_i32_37 : BitVec 32 := 1#32
  let arg12 : BitVec 32 := Scf.iv c0_i32_35 c1_i32_37 k3_t5
  let c8_i32 : BitVec 32 := 8#32
  let v63 : BitVec 32 := Scalar.muli arg12 c8_i32
  let v64 : BitVec 32 := Scalar.addi v63 c0_i32_86
  let c16_i32 : BitVec 32 := 16#32
  let v65 : BitVec 32 := Scalar.muli v64 c16_i32
  let v66 : Index := Scalar.indexCast v65
  ![v66.toNat]

def k3_chk49 (v104 : IVec S16 32) : Prop :=
  (∀ a x, ((![v104] : Fin 1 → IVec S16 32) a x).toNat < S10000.size a)
instance k3_chk49.dec : ∀ (v104 : IVec S16 32), Decidable (k3_chk49 v104) := fun v104 => decidable_of_iff' _ (Iff.of_eq (k3_chk49.eq_1 v104))
theorem k3_idx49_inb : ∀ (v104 : IVec S16 32) (k3_hw49 : k3_chk49 v104), ∀ a x, ((![v104] : Fin 1 → IVec S16 32) a x).toNat < S10000.size a := fun v104 k3_hw49 => k3_hw49

def k3_chk50 (v107 : IVec S16 32) : Prop :=
  (∀ a x, ((![v107] : Fin 1 → IVec S16 32) a x).toNat < S10000.size a)
instance k3_chk50.dec : ∀ (v107 : IVec S16 32), Decidable (k3_chk50 v107) := fun v107 => decidable_of_iff' _ (Iff.of_eq (k3_chk50.eq_1 v107))
theorem k3_idx50_inb : ∀ (v107 : IVec S16 32) (k3_hw50 : k3_chk50 v107), ∀ a x, ((![v107] : Fin 1 → IVec S16 32) a x).toNat < S10000.size a := fun v107 k3_hw50 => k3_hw50

def k3_chk51 (v110 : IVec S16 32) : Prop :=
  (∀ a x, ((![v110] : Fin 1 → IVec S16 32) a x).toNat < S10000.size a)
instance k3_chk51.dec : ∀ (v110 : IVec S16 32), Decidable (k3_chk51 v110) := fun v110 => decidable_of_iff' _ (Iff.of_eq (k3_chk51.eq_1 v110))
theorem k3_idx51_inb : ∀ (v110 : IVec S16 32) (k3_hw51 : k3_chk51 v110), ∀ a x, ((![v110] : Fin 1 → IVec S16 32) a x).toNat < S10000.size a := fun v110 k3_hw51 => k3_hw51

def k3_chk52 (v113 : IVec S16 32) : Prop :=
  (∀ a x, ((![v113] : Fin 1 → IVec S16 32) a x).toNat < S10000.size a)
instance k3_chk52.dec : ∀ (v113 : IVec S16 32), Decidable (k3_chk52 v113) := fun v113 => decidable_of_iff' _ (Iff.of_eq (k3_chk52.eq_1 v113))
theorem k3_idx52_inb : ∀ (v113 : IVec S16 32) (k3_hw52 : k3_chk52 v113), ∀ a x, ((![v113] : Fin 1 → IVec S16 32) a x).toNat < S10000.size a := fun v113 k3_hw52 => k3_hw52

def k3_chk53 (v116 : IVec S16 32) : Prop :=
  (∀ a x, ((![v116] : Fin 1 → IVec S16 32) a x).toNat < S10000.size a)
instance k3_chk53.dec : ∀ (v116 : IVec S16 32), Decidable (k3_chk53 v116) := fun v116 => decidable_of_iff' _ (Iff.of_eq (k3_chk53.eq_1 v116))
theorem k3_idx53_inb : ∀ (v116 : IVec S16 32) (k3_hw53 : k3_chk53 v116), ∀ a x, ((![v116] : Fin 1 → IVec S16 32) a x).toNat < S10000.size a := fun v116 k3_hw53 => k3_hw53

def k3_chk54 (v119 : IVec S16 32) : Prop :=
  (∀ a x, ((![v119] : Fin 1 → IVec S16 32) a x).toNat < S10000.size a)
instance k3_chk54.dec : ∀ (v119 : IVec S16 32), Decidable (k3_chk54 v119) := fun v119 => decidable_of_iff' _ (Iff.of_eq (k3_chk54.eq_1 v119))
theorem k3_idx54_inb : ∀ (v119 : IVec S16 32) (k3_hw54 : k3_chk54 v119), ∀ a x, ((![v119] : Fin 1 → IVec S16 32) a x).toNat < S10000.size a := fun v119 k3_hw54 => k3_hw54

def k3_chk55 (v122 : IVec S16 32) : Prop :=
  (∀ a x, ((![v122] : Fin 1 → IVec S16 32) a x).toNat < S10000.size a)
instance k3_chk55.dec : ∀ (v122 : IVec S16 32), Decidable (k3_chk55 v122) := fun v122 => decidable_of_iff' _ (Iff.of_eq (k3_chk55.eq_1 v122))
theorem k3_idx55_inb : ∀ (v122 : IVec S16 32) (k3_hw55 : k3_chk55 v122), ∀ a x, ((![v122] : Fin 1 → IVec S16 32) a x).toNat < S10000.size a := fun v122 k3_hw55 => k3_hw55

def k3_chk56 (v125 : IVec S16 32) : Prop :=
  (∀ a x, ((![v125] : Fin 1 → IVec S16 32) a x).toNat < S10000.size a)
instance k3_chk56.dec : ∀ (v125 : IVec S16 32), Decidable (k3_chk56 v125) := fun v125 => decidable_of_iff' _ (Iff.of_eq (k3_chk56.eq_1 v125))
theorem k3_idx56_inb : ∀ (v125 : IVec S16 32) (k3_hw56 : k3_chk56 v125), ∀ a x, ((![v125] : Fin 1 → IVec S16 32) a x).toNat < S10000.size a := fun v125 k3_hw56 => k3_hw56

def k3_chk57 (v127 : IVec S16 32) : Prop :=
  (∀ a x, ((![v127] : Fin 1 → IVec S16 32) a x).toNat < S10000.size a)
instance k3_chk57.dec : ∀ (v127 : IVec S16 32), Decidable (k3_chk57 v127) := fun v127 => decidable_of_iff' _ (Iff.of_eq (k3_chk57.eq_1 v127))
theorem k3_idx57_inb : ∀ (v127 : IVec S16 32) (k3_hw57 : k3_chk57 v127), ∀ a x, ((![v127] : Fin 1 → IVec S16 32) a x).toNat < S10000.size a := fun v127 k3_hw57 => k3_hw57

def k3_chk58 (v128 : IVec S16 32) : Prop :=
  (∀ a x, ((![v128] : Fin 1 → IVec S16 32) a x).toNat < S10000.size a)
instance k3_chk58.dec : ∀ (v128 : IVec S16 32), Decidable (k3_chk58 v128) := fun v128 => decidable_of_iff' _ (Iff.of_eq (k3_chk58.eq_1 v128))
theorem k3_idx58_inb : ∀ (v128 : IVec S16 32) (k3_hw58 : k3_chk58 v128), ∀ a x, ((![v128] : Fin 1 → IVec S16 32) a x).toNat < S10000.size a := fun v128 k3_hw58 => k3_hw58

def k3_chk59 (v129 : IVec S16 32) : Prop :=
  (∀ a x, ((![v129] : Fin 1 → IVec S16 32) a x).toNat < S10000.size a)
instance k3_chk59.dec : ∀ (v129 : IVec S16 32), Decidable (k3_chk59 v129) := fun v129 => decidable_of_iff' _ (Iff.of_eq (k3_chk59.eq_1 v129))
theorem k3_idx59_inb : ∀ (v129 : IVec S16 32) (k3_hw59 : k3_chk59 v129), ∀ a x, ((![v129] : Fin 1 → IVec S16 32) a x).toNat < S10000.size a := fun v129 k3_hw59 => k3_hw59

def k3_chk60 (v130 : IVec S16 32) : Prop :=
  (∀ a x, ((![v130] : Fin 1 → IVec S16 32) a x).toNat < S10000.size a)
instance k3_chk60.dec : ∀ (v130 : IVec S16 32), Decidable (k3_chk60 v130) := fun v130 => decidable_of_iff' _ (Iff.of_eq (k3_chk60.eq_1 v130))
theorem k3_idx60_inb : ∀ (v130 : IVec S16 32) (k3_hw60 : k3_chk60 v130), ∀ a x, ((![v130] : Fin 1 → IVec S16 32) a x).toNat < S10000.size a := fun v130 k3_hw60 => k3_hw60

def k3_chk61 (v131 : IVec S16 32) : Prop :=
  (∀ a x, ((![v131] : Fin 1 → IVec S16 32) a x).toNat < S10000.size a)
instance k3_chk61.dec : ∀ (v131 : IVec S16 32), Decidable (k3_chk61 v131) := fun v131 => decidable_of_iff' _ (Iff.of_eq (k3_chk61.eq_1 v131))
theorem k3_idx61_inb : ∀ (v131 : IVec S16 32) (k3_hw61 : k3_chk61 v131), ∀ a x, ((![v131] : Fin 1 → IVec S16 32) a x).toNat < S10000.size a := fun v131 k3_hw61 => k3_hw61

def k3_chk62 (v132 : IVec S16 32) : Prop :=
  (∀ a x, ((![v132] : Fin 1 → IVec S16 32) a x).toNat < S10000.size a)
instance k3_chk62.dec : ∀ (v132 : IVec S16 32), Decidable (k3_chk62 v132) := fun v132 => decidable_of_iff' _ (Iff.of_eq (k3_chk62.eq_1 v132))
theorem k3_idx62_inb : ∀ (v132 : IVec S16 32) (k3_hw62 : k3_chk62 v132), ∀ a x, ((![v132] : Fin 1 → IVec S16 32) a x).toNat < S10000.size a := fun v132 k3_hw62 => k3_hw62

def k3_chk63 (v133 : IVec S16 32) : Prop :=
  (∀ a x, ((![v133] : Fin 1 → IVec S16 32) a x).toNat < S10000.size a)
instance k3_chk63.dec : ∀ (v133 : IVec S16 32), Decidable (k3_chk63 v133) := fun v133 => decidable_of_iff' _ (Iff.of_eq (k3_chk63.eq_1 v133))
theorem k3_idx63_inb : ∀ (v133 : IVec S16 32) (k3_hw63 : k3_chk63 v133), ∀ a x, ((![v133] : Fin 1 → IVec S16 32) a x).toNat < S10000.size a := fun v133 k3_hw63 => k3_hw63

def k3_chk64 (v134 : IVec S16 32) : Prop :=
  (∀ a x, ((![v134] : Fin 1 → IVec S16 32) a x).toNat < S10000.size a)
instance k3_chk64.dec : ∀ (v134 : IVec S16 32), Decidable (k3_chk64 v134) := fun v134 => decidable_of_iff' _ (Iff.of_eq (k3_chk64.eq_1 v134))
theorem k3_idx64_inb : ∀ (v134 : IVec S16 32) (k3_hw64 : k3_chk64 v134), ∀ a x, ((![v134] : Fin 1 → IVec S16 32) a x).toNat < S10000.size a := fun v134 k3_hw64 => k3_hw64
@[reducible] def k3_t6_loop : Scf.Loop 32 :=
  let c0_i32_43 : BitVec 32 := 0#32
  let c125_i32_44 : BitVec 32 := 125#32
  let v39 : BitVec 32 := Scalar.addi c0_i32_43 c125_i32_44
  let c1_i32_45 : BitVec 32 := 1#32
  ⟨c0_i32_43, v39, c1_i32_45⟩
def k3_off7 (k3_t6 : Fin k3_t6_loop.trips) (c0_i32_86 : BitVec 32) : Fin 1 → Nat :=
  let c0_i32_43 : BitVec 32 := 0#32
  let c1_i32_45 : BitVec 32 := 1#32
  let arg12 : BitVec 32 := Scf.iv c0_i32_43 c1_i32_45 k3_t6
  let c8_i32 : BitVec 32 := 8#32
  let v63 : BitVec 32 := Scalar.muli arg12 c8_i32
  let v64 : BitVec 32 := Scalar.addi v63 c0_i32_86
  let c16_i32 : BitVec 32 := 16#32
  let v65 : BitVec 32 := Scalar.muli v64 c16_i32
  let v66 : Index := Scalar.indexCast v65
  ![v66.toNat]

def k3_chk65 (v104 : IVec S16 32) : Prop :=
  (∀ a x, ((![v104] : Fin 1 → IVec S16 32) a x).toNat < S10000.size a)
instance k3_chk65.dec : ∀ (v104 : IVec S16 32), Decidable (k3_chk65 v104) := fun v104 => decidable_of_iff' _ (Iff.of_eq (k3_chk65.eq_1 v104))
theorem k3_idx65_inb : ∀ (v104 : IVec S16 32) (k3_hw65 : k3_chk65 v104), ∀ a x, ((![v104] : Fin 1 → IVec S16 32) a x).toNat < S10000.size a := fun v104 k3_hw65 => k3_hw65

def k3_chk66 (v107 : IVec S16 32) : Prop :=
  (∀ a x, ((![v107] : Fin 1 → IVec S16 32) a x).toNat < S10000.size a)
instance k3_chk66.dec : ∀ (v107 : IVec S16 32), Decidable (k3_chk66 v107) := fun v107 => decidable_of_iff' _ (Iff.of_eq (k3_chk66.eq_1 v107))
theorem k3_idx66_inb : ∀ (v107 : IVec S16 32) (k3_hw66 : k3_chk66 v107), ∀ a x, ((![v107] : Fin 1 → IVec S16 32) a x).toNat < S10000.size a := fun v107 k3_hw66 => k3_hw66

def k3_chk67 (v110 : IVec S16 32) : Prop :=
  (∀ a x, ((![v110] : Fin 1 → IVec S16 32) a x).toNat < S10000.size a)
instance k3_chk67.dec : ∀ (v110 : IVec S16 32), Decidable (k3_chk67 v110) := fun v110 => decidable_of_iff' _ (Iff.of_eq (k3_chk67.eq_1 v110))
theorem k3_idx67_inb : ∀ (v110 : IVec S16 32) (k3_hw67 : k3_chk67 v110), ∀ a x, ((![v110] : Fin 1 → IVec S16 32) a x).toNat < S10000.size a := fun v110 k3_hw67 => k3_hw67

def k3_chk68 (v113 : IVec S16 32) : Prop :=
  (∀ a x, ((![v113] : Fin 1 → IVec S16 32) a x).toNat < S10000.size a)
instance k3_chk68.dec : ∀ (v113 : IVec S16 32), Decidable (k3_chk68 v113) := fun v113 => decidable_of_iff' _ (Iff.of_eq (k3_chk68.eq_1 v113))
theorem k3_idx68_inb : ∀ (v113 : IVec S16 32) (k3_hw68 : k3_chk68 v113), ∀ a x, ((![v113] : Fin 1 → IVec S16 32) a x).toNat < S10000.size a := fun v113 k3_hw68 => k3_hw68

def k3_chk69 (v116 : IVec S16 32) : Prop :=
  (∀ a x, ((![v116] : Fin 1 → IVec S16 32) a x).toNat < S10000.size a)
instance k3_chk69.dec : ∀ (v116 : IVec S16 32), Decidable (k3_chk69 v116) := fun v116 => decidable_of_iff' _ (Iff.of_eq (k3_chk69.eq_1 v116))
theorem k3_idx69_inb : ∀ (v116 : IVec S16 32) (k3_hw69 : k3_chk69 v116), ∀ a x, ((![v116] : Fin 1 → IVec S16 32) a x).toNat < S10000.size a := fun v116 k3_hw69 => k3_hw69

def k3_chk70 (v119 : IVec S16 32) : Prop :=
  (∀ a x, ((![v119] : Fin 1 → IVec S16 32) a x).toNat < S10000.size a)
instance k3_chk70.dec : ∀ (v119 : IVec S16 32), Decidable (k3_chk70 v119) := fun v119 => decidable_of_iff' _ (Iff.of_eq (k3_chk70.eq_1 v119))
theorem k3_idx70_inb : ∀ (v119 : IVec S16 32) (k3_hw70 : k3_chk70 v119), ∀ a x, ((![v119] : Fin 1 → IVec S16 32) a x).toNat < S10000.size a := fun v119 k3_hw70 => k3_hw70

def k3_chk71 (v122 : IVec S16 32) : Prop :=
  (∀ a x, ((![v122] : Fin 1 → IVec S16 32) a x).toNat < S10000.size a)
instance k3_chk71.dec : ∀ (v122 : IVec S16 32), Decidable (k3_chk71 v122) := fun v122 => decidable_of_iff' _ (Iff.of_eq (k3_chk71.eq_1 v122))
theorem k3_idx71_inb : ∀ (v122 : IVec S16 32) (k3_hw71 : k3_chk71 v122), ∀ a x, ((![v122] : Fin 1 → IVec S16 32) a x).toNat < S10000.size a := fun v122 k3_hw71 => k3_hw71

def k3_chk72 (v125 : IVec S16 32) : Prop :=
  (∀ a x, ((![v125] : Fin 1 → IVec S16 32) a x).toNat < S10000.size a)
instance k3_chk72.dec : ∀ (v125 : IVec S16 32), Decidable (k3_chk72 v125) := fun v125 => decidable_of_iff' _ (Iff.of_eq (k3_chk72.eq_1 v125))
theorem k3_idx72_inb : ∀ (v125 : IVec S16 32) (k3_hw72 : k3_chk72 v125), ∀ a x, ((![v125] : Fin 1 → IVec S16 32) a x).toNat < S10000.size a := fun v125 k3_hw72 => k3_hw72

def k3_chk73 (v127 : IVec S16 32) : Prop :=
  (∀ a x, ((![v127] : Fin 1 → IVec S16 32) a x).toNat < S10000.size a)
instance k3_chk73.dec : ∀ (v127 : IVec S16 32), Decidable (k3_chk73 v127) := fun v127 => decidable_of_iff' _ (Iff.of_eq (k3_chk73.eq_1 v127))
theorem k3_idx73_inb : ∀ (v127 : IVec S16 32) (k3_hw73 : k3_chk73 v127), ∀ a x, ((![v127] : Fin 1 → IVec S16 32) a x).toNat < S10000.size a := fun v127 k3_hw73 => k3_hw73

def k3_chk74 (v128 : IVec S16 32) : Prop :=
  (∀ a x, ((![v128] : Fin 1 → IVec S16 32) a x).toNat < S10000.size a)
instance k3_chk74.dec : ∀ (v128 : IVec S16 32), Decidable (k3_chk74 v128) := fun v128 => decidable_of_iff' _ (Iff.of_eq (k3_chk74.eq_1 v128))
theorem k3_idx74_inb : ∀ (v128 : IVec S16 32) (k3_hw74 : k3_chk74 v128), ∀ a x, ((![v128] : Fin 1 → IVec S16 32) a x).toNat < S10000.size a := fun v128 k3_hw74 => k3_hw74

def k3_chk75 (v129 : IVec S16 32) : Prop :=
  (∀ a x, ((![v129] : Fin 1 → IVec S16 32) a x).toNat < S10000.size a)
instance k3_chk75.dec : ∀ (v129 : IVec S16 32), Decidable (k3_chk75 v129) := fun v129 => decidable_of_iff' _ (Iff.of_eq (k3_chk75.eq_1 v129))
theorem k3_idx75_inb : ∀ (v129 : IVec S16 32) (k3_hw75 : k3_chk75 v129), ∀ a x, ((![v129] : Fin 1 → IVec S16 32) a x).toNat < S10000.size a := fun v129 k3_hw75 => k3_hw75

def k3_chk76 (v130 : IVec S16 32) : Prop :=
  (∀ a x, ((![v130] : Fin 1 → IVec S16 32) a x).toNat < S10000.size a)
instance k3_chk76.dec : ∀ (v130 : IVec S16 32), Decidable (k3_chk76 v130) := fun v130 => decidable_of_iff' _ (Iff.of_eq (k3_chk76.eq_1 v130))
theorem k3_idx76_inb : ∀ (v130 : IVec S16 32) (k3_hw76 : k3_chk76 v130), ∀ a x, ((![v130] : Fin 1 → IVec S16 32) a x).toNat < S10000.size a := fun v130 k3_hw76 => k3_hw76

def k3_chk77 (v131 : IVec S16 32) : Prop :=
  (∀ a x, ((![v131] : Fin 1 → IVec S16 32) a x).toNat < S10000.size a)
instance k3_chk77.dec : ∀ (v131 : IVec S16 32), Decidable (k3_chk77 v131) := fun v131 => decidable_of_iff' _ (Iff.of_eq (k3_chk77.eq_1 v131))
theorem k3_idx77_inb : ∀ (v131 : IVec S16 32) (k3_hw77 : k3_chk77 v131), ∀ a x, ((![v131] : Fin 1 → IVec S16 32) a x).toNat < S10000.size a := fun v131 k3_hw77 => k3_hw77

def k3_chk78 (v132 : IVec S16 32) : Prop :=
  (∀ a x, ((![v132] : Fin 1 → IVec S16 32) a x).toNat < S10000.size a)
instance k3_chk78.dec : ∀ (v132 : IVec S16 32), Decidable (k3_chk78 v132) := fun v132 => decidable_of_iff' _ (Iff.of_eq (k3_chk78.eq_1 v132))
theorem k3_idx78_inb : ∀ (v132 : IVec S16 32) (k3_hw78 : k3_chk78 v132), ∀ a x, ((![v132] : Fin 1 → IVec S16 32) a x).toNat < S10000.size a := fun v132 k3_hw78 => k3_hw78

def k3_chk79 (v133 : IVec S16 32) : Prop :=
  (∀ a x, ((![v133] : Fin 1 → IVec S16 32) a x).toNat < S10000.size a)
instance k3_chk79.dec : ∀ (v133 : IVec S16 32), Decidable (k3_chk79 v133) := fun v133 => decidable_of_iff' _ (Iff.of_eq (k3_chk79.eq_1 v133))
theorem k3_idx79_inb : ∀ (v133 : IVec S16 32) (k3_hw79 : k3_chk79 v133), ∀ a x, ((![v133] : Fin 1 → IVec S16 32) a x).toNat < S10000.size a := fun v133 k3_hw79 => k3_hw79

def k3_chk80 (v134 : IVec S16 32) : Prop :=
  (∀ a x, ((![v134] : Fin 1 → IVec S16 32) a x).toNat < S10000.size a)
instance k3_chk80.dec : ∀ (v134 : IVec S16 32), Decidable (k3_chk80 v134) := fun v134 => decidable_of_iff' _ (Iff.of_eq (k3_chk80.eq_1 v134))
theorem k3_idx80_inb : ∀ (v134 : IVec S16 32) (k3_hw80 : k3_chk80 v134), ∀ a x, ((![v134] : Fin 1 → IVec S16 32) a x).toNat < S10000.size a := fun v134 k3_hw80 => k3_hw80
@[reducible] def k3_t7_loop : Scf.Loop 32 :=
  let c0_i32_51 : BitVec 32 := 0#32
  let c125_i32_52 : BitVec 32 := 125#32
  let v44 : BitVec 32 := Scalar.addi c0_i32_51 c125_i32_52
  let c1_i32_53 : BitVec 32 := 1#32
  ⟨c0_i32_51, v44, c1_i32_53⟩
def k3_off8 (k3_t7 : Fin k3_t7_loop.trips) (c0_i32_86 : BitVec 32) : Fin 1 → Nat :=
  let c0_i32_51 : BitVec 32 := 0#32
  let c1_i32_53 : BitVec 32 := 1#32
  let arg12 : BitVec 32 := Scf.iv c0_i32_51 c1_i32_53 k3_t7
  let c8_i32 : BitVec 32 := 8#32
  let v63 : BitVec 32 := Scalar.muli arg12 c8_i32
  let v64 : BitVec 32 := Scalar.addi v63 c0_i32_86
  let c16_i32 : BitVec 32 := 16#32
  let v65 : BitVec 32 := Scalar.muli v64 c16_i32
  let v66 : Index := Scalar.indexCast v65
  ![v66.toNat]

def k3_chk81 (v104 : IVec S16 32) : Prop :=
  (∀ a x, ((![v104] : Fin 1 → IVec S16 32) a x).toNat < S10000.size a)
instance k3_chk81.dec : ∀ (v104 : IVec S16 32), Decidable (k3_chk81 v104) := fun v104 => decidable_of_iff' _ (Iff.of_eq (k3_chk81.eq_1 v104))
theorem k3_idx81_inb : ∀ (v104 : IVec S16 32) (k3_hw81 : k3_chk81 v104), ∀ a x, ((![v104] : Fin 1 → IVec S16 32) a x).toNat < S10000.size a := fun v104 k3_hw81 => k3_hw81

def k3_chk82 (v107 : IVec S16 32) : Prop :=
  (∀ a x, ((![v107] : Fin 1 → IVec S16 32) a x).toNat < S10000.size a)
instance k3_chk82.dec : ∀ (v107 : IVec S16 32), Decidable (k3_chk82 v107) := fun v107 => decidable_of_iff' _ (Iff.of_eq (k3_chk82.eq_1 v107))
theorem k3_idx82_inb : ∀ (v107 : IVec S16 32) (k3_hw82 : k3_chk82 v107), ∀ a x, ((![v107] : Fin 1 → IVec S16 32) a x).toNat < S10000.size a := fun v107 k3_hw82 => k3_hw82

def k3_chk83 (v110 : IVec S16 32) : Prop :=
  (∀ a x, ((![v110] : Fin 1 → IVec S16 32) a x).toNat < S10000.size a)
instance k3_chk83.dec : ∀ (v110 : IVec S16 32), Decidable (k3_chk83 v110) := fun v110 => decidable_of_iff' _ (Iff.of_eq (k3_chk83.eq_1 v110))
theorem k3_idx83_inb : ∀ (v110 : IVec S16 32) (k3_hw83 : k3_chk83 v110), ∀ a x, ((![v110] : Fin 1 → IVec S16 32) a x).toNat < S10000.size a := fun v110 k3_hw83 => k3_hw83

def k3_chk84 (v113 : IVec S16 32) : Prop :=
  (∀ a x, ((![v113] : Fin 1 → IVec S16 32) a x).toNat < S10000.size a)
instance k3_chk84.dec : ∀ (v113 : IVec S16 32), Decidable (k3_chk84 v113) := fun v113 => decidable_of_iff' _ (Iff.of_eq (k3_chk84.eq_1 v113))
theorem k3_idx84_inb : ∀ (v113 : IVec S16 32) (k3_hw84 : k3_chk84 v113), ∀ a x, ((![v113] : Fin 1 → IVec S16 32) a x).toNat < S10000.size a := fun v113 k3_hw84 => k3_hw84

def k3_chk85 (v116 : IVec S16 32) : Prop :=
  (∀ a x, ((![v116] : Fin 1 → IVec S16 32) a x).toNat < S10000.size a)
instance k3_chk85.dec : ∀ (v116 : IVec S16 32), Decidable (k3_chk85 v116) := fun v116 => decidable_of_iff' _ (Iff.of_eq (k3_chk85.eq_1 v116))
theorem k3_idx85_inb : ∀ (v116 : IVec S16 32) (k3_hw85 : k3_chk85 v116), ∀ a x, ((![v116] : Fin 1 → IVec S16 32) a x).toNat < S10000.size a := fun v116 k3_hw85 => k3_hw85

def k3_chk86 (v119 : IVec S16 32) : Prop :=
  (∀ a x, ((![v119] : Fin 1 → IVec S16 32) a x).toNat < S10000.size a)
instance k3_chk86.dec : ∀ (v119 : IVec S16 32), Decidable (k3_chk86 v119) := fun v119 => decidable_of_iff' _ (Iff.of_eq (k3_chk86.eq_1 v119))
theorem k3_idx86_inb : ∀ (v119 : IVec S16 32) (k3_hw86 : k3_chk86 v119), ∀ a x, ((![v119] : Fin 1 → IVec S16 32) a x).toNat < S10000.size a := fun v119 k3_hw86 => k3_hw86

def k3_chk87 (v122 : IVec S16 32) : Prop :=
  (∀ a x, ((![v122] : Fin 1 → IVec S16 32) a x).toNat < S10000.size a)
instance k3_chk87.dec : ∀ (v122 : IVec S16 32), Decidable (k3_chk87 v122) := fun v122 => decidable_of_iff' _ (Iff.of_eq (k3_chk87.eq_1 v122))
theorem k3_idx87_inb : ∀ (v122 : IVec S16 32) (k3_hw87 : k3_chk87 v122), ∀ a x, ((![v122] : Fin 1 → IVec S16 32) a x).toNat < S10000.size a := fun v122 k3_hw87 => k3_hw87

def k3_chk88 (v125 : IVec S16 32) : Prop :=
  (∀ a x, ((![v125] : Fin 1 → IVec S16 32) a x).toNat < S10000.size a)
instance k3_chk88.dec : ∀ (v125 : IVec S16 32), Decidable (k3_chk88 v125) := fun v125 => decidable_of_iff' _ (Iff.of_eq (k3_chk88.eq_1 v125))
theorem k3_idx88_inb : ∀ (v125 : IVec S16 32) (k3_hw88 : k3_chk88 v125), ∀ a x, ((![v125] : Fin 1 → IVec S16 32) a x).toNat < S10000.size a := fun v125 k3_hw88 => k3_hw88

def k3_chk89 (v127 : IVec S16 32) : Prop :=
  (∀ a x, ((![v127] : Fin 1 → IVec S16 32) a x).toNat < S10000.size a)
instance k3_chk89.dec : ∀ (v127 : IVec S16 32), Decidable (k3_chk89 v127) := fun v127 => decidable_of_iff' _ (Iff.of_eq (k3_chk89.eq_1 v127))
theorem k3_idx89_inb : ∀ (v127 : IVec S16 32) (k3_hw89 : k3_chk89 v127), ∀ a x, ((![v127] : Fin 1 → IVec S16 32) a x).toNat < S10000.size a := fun v127 k3_hw89 => k3_hw89

def k3_chk90 (v128 : IVec S16 32) : Prop :=
  (∀ a x, ((![v128] : Fin 1 → IVec S16 32) a x).toNat < S10000.size a)
instance k3_chk90.dec : ∀ (v128 : IVec S16 32), Decidable (k3_chk90 v128) := fun v128 => decidable_of_iff' _ (Iff.of_eq (k3_chk90.eq_1 v128))
theorem k3_idx90_inb : ∀ (v128 : IVec S16 32) (k3_hw90 : k3_chk90 v128), ∀ a x, ((![v128] : Fin 1 → IVec S16 32) a x).toNat < S10000.size a := fun v128 k3_hw90 => k3_hw90

def k3_chk91 (v129 : IVec S16 32) : Prop :=
  (∀ a x, ((![v129] : Fin 1 → IVec S16 32) a x).toNat < S10000.size a)
instance k3_chk91.dec : ∀ (v129 : IVec S16 32), Decidable (k3_chk91 v129) := fun v129 => decidable_of_iff' _ (Iff.of_eq (k3_chk91.eq_1 v129))
theorem k3_idx91_inb : ∀ (v129 : IVec S16 32) (k3_hw91 : k3_chk91 v129), ∀ a x, ((![v129] : Fin 1 → IVec S16 32) a x).toNat < S10000.size a := fun v129 k3_hw91 => k3_hw91

def k3_chk92 (v130 : IVec S16 32) : Prop :=
  (∀ a x, ((![v130] : Fin 1 → IVec S16 32) a x).toNat < S10000.size a)
instance k3_chk92.dec : ∀ (v130 : IVec S16 32), Decidable (k3_chk92 v130) := fun v130 => decidable_of_iff' _ (Iff.of_eq (k3_chk92.eq_1 v130))
theorem k3_idx92_inb : ∀ (v130 : IVec S16 32) (k3_hw92 : k3_chk92 v130), ∀ a x, ((![v130] : Fin 1 → IVec S16 32) a x).toNat < S10000.size a := fun v130 k3_hw92 => k3_hw92

def k3_chk93 (v131 : IVec S16 32) : Prop :=
  (∀ a x, ((![v131] : Fin 1 → IVec S16 32) a x).toNat < S10000.size a)
instance k3_chk93.dec : ∀ (v131 : IVec S16 32), Decidable (k3_chk93 v131) := fun v131 => decidable_of_iff' _ (Iff.of_eq (k3_chk93.eq_1 v131))
theorem k3_idx93_inb : ∀ (v131 : IVec S16 32) (k3_hw93 : k3_chk93 v131), ∀ a x, ((![v131] : Fin 1 → IVec S16 32) a x).toNat < S10000.size a := fun v131 k3_hw93 => k3_hw93

def k3_chk94 (v132 : IVec S16 32) : Prop :=
  (∀ a x, ((![v132] : Fin 1 → IVec S16 32) a x).toNat < S10000.size a)
instance k3_chk94.dec : ∀ (v132 : IVec S16 32), Decidable (k3_chk94 v132) := fun v132 => decidable_of_iff' _ (Iff.of_eq (k3_chk94.eq_1 v132))
theorem k3_idx94_inb : ∀ (v132 : IVec S16 32) (k3_hw94 : k3_chk94 v132), ∀ a x, ((![v132] : Fin 1 → IVec S16 32) a x).toNat < S10000.size a := fun v132 k3_hw94 => k3_hw94

def k3_chk95 (v133 : IVec S16 32) : Prop :=
  (∀ a x, ((![v133] : Fin 1 → IVec S16 32) a x).toNat < S10000.size a)
instance k3_chk95.dec : ∀ (v133 : IVec S16 32), Decidable (k3_chk95 v133) := fun v133 => decidable_of_iff' _ (Iff.of_eq (k3_chk95.eq_1 v133))
theorem k3_idx95_inb : ∀ (v133 : IVec S16 32) (k3_hw95 : k3_chk95 v133), ∀ a x, ((![v133] : Fin 1 → IVec S16 32) a x).toNat < S10000.size a := fun v133 k3_hw95 => k3_hw95

def k3_chk96 (v134 : IVec S16 32) : Prop :=
  (∀ a x, ((![v134] : Fin 1 → IVec S16 32) a x).toNat < S10000.size a)
instance k3_chk96.dec : ∀ (v134 : IVec S16 32), Decidable (k3_chk96 v134) := fun v134 => decidable_of_iff' _ (Iff.of_eq (k3_chk96.eq_1 v134))
theorem k3_idx96_inb : ∀ (v134 : IVec S16 32) (k3_hw96 : k3_chk96 v134), ∀ a x, ((![v134] : Fin 1 → IVec S16 32) a x).toNat < S10000.size a := fun v134 k3_hw96 => k3_hw96
@[reducible] def k3_t8_loop : Scf.Loop 32 :=
  let c0_i32_59 : BitVec 32 := 0#32
  let c125_i32_60 : BitVec 32 := 125#32
  let v49 : BitVec 32 := Scalar.addi c0_i32_59 c125_i32_60
  let c1_i32_61 : BitVec 32 := 1#32
  ⟨c0_i32_59, v49, c1_i32_61⟩
def k3_off9 (k3_t8 : Fin k3_t8_loop.trips) (c0_i32_86 : BitVec 32) : Fin 1 → Nat :=
  let c0_i32_59 : BitVec 32 := 0#32
  let c1_i32_61 : BitVec 32 := 1#32
  let arg12 : BitVec 32 := Scf.iv c0_i32_59 c1_i32_61 k3_t8
  let c8_i32 : BitVec 32 := 8#32
  let v63 : BitVec 32 := Scalar.muli arg12 c8_i32
  let v64 : BitVec 32 := Scalar.addi v63 c0_i32_86
  let c16_i32 : BitVec 32 := 16#32
  let v65 : BitVec 32 := Scalar.muli v64 c16_i32
  let v66 : Index := Scalar.indexCast v65
  ![v66.toNat]

def k3_chk97 (v104 : IVec S16 32) : Prop :=
  (∀ a x, ((![v104] : Fin 1 → IVec S16 32) a x).toNat < S10000.size a)
instance k3_chk97.dec : ∀ (v104 : IVec S16 32), Decidable (k3_chk97 v104) := fun v104 => decidable_of_iff' _ (Iff.of_eq (k3_chk97.eq_1 v104))
theorem k3_idx97_inb : ∀ (v104 : IVec S16 32) (k3_hw97 : k3_chk97 v104), ∀ a x, ((![v104] : Fin 1 → IVec S16 32) a x).toNat < S10000.size a := fun v104 k3_hw97 => k3_hw97

def k3_chk98 (v107 : IVec S16 32) : Prop :=
  (∀ a x, ((![v107] : Fin 1 → IVec S16 32) a x).toNat < S10000.size a)
instance k3_chk98.dec : ∀ (v107 : IVec S16 32), Decidable (k3_chk98 v107) := fun v107 => decidable_of_iff' _ (Iff.of_eq (k3_chk98.eq_1 v107))
theorem k3_idx98_inb : ∀ (v107 : IVec S16 32) (k3_hw98 : k3_chk98 v107), ∀ a x, ((![v107] : Fin 1 → IVec S16 32) a x).toNat < S10000.size a := fun v107 k3_hw98 => k3_hw98

def k3_chk99 (v110 : IVec S16 32) : Prop :=
  (∀ a x, ((![v110] : Fin 1 → IVec S16 32) a x).toNat < S10000.size a)
instance k3_chk99.dec : ∀ (v110 : IVec S16 32), Decidable (k3_chk99 v110) := fun v110 => decidable_of_iff' _ (Iff.of_eq (k3_chk99.eq_1 v110))
theorem k3_idx99_inb : ∀ (v110 : IVec S16 32) (k3_hw99 : k3_chk99 v110), ∀ a x, ((![v110] : Fin 1 → IVec S16 32) a x).toNat < S10000.size a := fun v110 k3_hw99 => k3_hw99

def k3_chk100 (v113 : IVec S16 32) : Prop :=
  (∀ a x, ((![v113] : Fin 1 → IVec S16 32) a x).toNat < S10000.size a)
instance k3_chk100.dec : ∀ (v113 : IVec S16 32), Decidable (k3_chk100 v113) := fun v113 => decidable_of_iff' _ (Iff.of_eq (k3_chk100.eq_1 v113))
theorem k3_idx100_inb : ∀ (v113 : IVec S16 32) (k3_hw100 : k3_chk100 v113), ∀ a x, ((![v113] : Fin 1 → IVec S16 32) a x).toNat < S10000.size a := fun v113 k3_hw100 => k3_hw100

def k3_chk101 (v116 : IVec S16 32) : Prop :=
  (∀ a x, ((![v116] : Fin 1 → IVec S16 32) a x).toNat < S10000.size a)
instance k3_chk101.dec : ∀ (v116 : IVec S16 32), Decidable (k3_chk101 v116) := fun v116 => decidable_of_iff' _ (Iff.of_eq (k3_chk101.eq_1 v116))
theorem k3_idx101_inb : ∀ (v116 : IVec S16 32) (k3_hw101 : k3_chk101 v116), ∀ a x, ((![v116] : Fin 1 → IVec S16 32) a x).toNat < S10000.size a := fun v116 k3_hw101 => k3_hw101

def k3_chk102 (v119 : IVec S16 32) : Prop :=
  (∀ a x, ((![v119] : Fin 1 → IVec S16 32) a x).toNat < S10000.size a)
instance k3_chk102.dec : ∀ (v119 : IVec S16 32), Decidable (k3_chk102 v119) := fun v119 => decidable_of_iff' _ (Iff.of_eq (k3_chk102.eq_1 v119))
theorem k3_idx102_inb : ∀ (v119 : IVec S16 32) (k3_hw102 : k3_chk102 v119), ∀ a x, ((![v119] : Fin 1 → IVec S16 32) a x).toNat < S10000.size a := fun v119 k3_hw102 => k3_hw102

def k3_chk103 (v122 : IVec S16 32) : Prop :=
  (∀ a x, ((![v122] : Fin 1 → IVec S16 32) a x).toNat < S10000.size a)
instance k3_chk103.dec : ∀ (v122 : IVec S16 32), Decidable (k3_chk103 v122) := fun v122 => decidable_of_iff' _ (Iff.of_eq (k3_chk103.eq_1 v122))
theorem k3_idx103_inb : ∀ (v122 : IVec S16 32) (k3_hw103 : k3_chk103 v122), ∀ a x, ((![v122] : Fin 1 → IVec S16 32) a x).toNat < S10000.size a := fun v122 k3_hw103 => k3_hw103

def k3_chk104 (v125 : IVec S16 32) : Prop :=
  (∀ a x, ((![v125] : Fin 1 → IVec S16 32) a x).toNat < S10000.size a)
instance k3_chk104.dec : ∀ (v125 : IVec S16 32), Decidable (k3_chk104 v125) := fun v125 => decidable_of_iff' _ (Iff.of_eq (k3_chk104.eq_1 v125))
theorem k3_idx104_inb : ∀ (v125 : IVec S16 32) (k3_hw104 : k3_chk104 v125), ∀ a x, ((![v125] : Fin 1 → IVec S16 32) a x).toNat < S10000.size a := fun v125 k3_hw104 => k3_hw104

def k3_chk105 (v127 : IVec S16 32) : Prop :=
  (∀ a x, ((![v127] : Fin 1 → IVec S16 32) a x).toNat < S10000.size a)
instance k3_chk105.dec : ∀ (v127 : IVec S16 32), Decidable (k3_chk105 v127) := fun v127 => decidable_of_iff' _ (Iff.of_eq (k3_chk105.eq_1 v127))
theorem k3_idx105_inb : ∀ (v127 : IVec S16 32) (k3_hw105 : k3_chk105 v127), ∀ a x, ((![v127] : Fin 1 → IVec S16 32) a x).toNat < S10000.size a := fun v127 k3_hw105 => k3_hw105

def k3_chk106 (v128 : IVec S16 32) : Prop :=
  (∀ a x, ((![v128] : Fin 1 → IVec S16 32) a x).toNat < S10000.size a)
instance k3_chk106.dec : ∀ (v128 : IVec S16 32), Decidable (k3_chk106 v128) := fun v128 => decidable_of_iff' _ (Iff.of_eq (k3_chk106.eq_1 v128))
theorem k3_idx106_inb : ∀ (v128 : IVec S16 32) (k3_hw106 : k3_chk106 v128), ∀ a x, ((![v128] : Fin 1 → IVec S16 32) a x).toNat < S10000.size a := fun v128 k3_hw106 => k3_hw106

def k3_chk107 (v129 : IVec S16 32) : Prop :=
  (∀ a x, ((![v129] : Fin 1 → IVec S16 32) a x).toNat < S10000.size a)
instance k3_chk107.dec : ∀ (v129 : IVec S16 32), Decidable (k3_chk107 v129) := fun v129 => decidable_of_iff' _ (Iff.of_eq (k3_chk107.eq_1 v129))
theorem k3_idx107_inb : ∀ (v129 : IVec S16 32) (k3_hw107 : k3_chk107 v129), ∀ a x, ((![v129] : Fin 1 → IVec S16 32) a x).toNat < S10000.size a := fun v129 k3_hw107 => k3_hw107

def k3_chk108 (v130 : IVec S16 32) : Prop :=
  (∀ a x, ((![v130] : Fin 1 → IVec S16 32) a x).toNat < S10000.size a)
instance k3_chk108.dec : ∀ (v130 : IVec S16 32), Decidable (k3_chk108 v130) := fun v130 => decidable_of_iff' _ (Iff.of_eq (k3_chk108.eq_1 v130))
theorem k3_idx108_inb : ∀ (v130 : IVec S16 32) (k3_hw108 : k3_chk108 v130), ∀ a x, ((![v130] : Fin 1 → IVec S16 32) a x).toNat < S10000.size a := fun v130 k3_hw108 => k3_hw108

def k3_chk109 (v131 : IVec S16 32) : Prop :=
  (∀ a x, ((![v131] : Fin 1 → IVec S16 32) a x).toNat < S10000.size a)
instance k3_chk109.dec : ∀ (v131 : IVec S16 32), Decidable (k3_chk109 v131) := fun v131 => decidable_of_iff' _ (Iff.of_eq (k3_chk109.eq_1 v131))
theorem k3_idx109_inb : ∀ (v131 : IVec S16 32) (k3_hw109 : k3_chk109 v131), ∀ a x, ((![v131] : Fin 1 → IVec S16 32) a x).toNat < S10000.size a := fun v131 k3_hw109 => k3_hw109

def k3_chk110 (v132 : IVec S16 32) : Prop :=
  (∀ a x, ((![v132] : Fin 1 → IVec S16 32) a x).toNat < S10000.size a)
instance k3_chk110.dec : ∀ (v132 : IVec S16 32), Decidable (k3_chk110 v132) := fun v132 => decidable_of_iff' _ (Iff.of_eq (k3_chk110.eq_1 v132))
theorem k3_idx110_inb : ∀ (v132 : IVec S16 32) (k3_hw110 : k3_chk110 v132), ∀ a x, ((![v132] : Fin 1 → IVec S16 32) a x).toNat < S10000.size a := fun v132 k3_hw110 => k3_hw110

def k3_chk111 (v133 : IVec S16 32) : Prop :=
  (∀ a x, ((![v133] : Fin 1 → IVec S16 32) a x).toNat < S10000.size a)
instance k3_chk111.dec : ∀ (v133 : IVec S16 32), Decidable (k3_chk111 v133) := fun v133 => decidable_of_iff' _ (Iff.of_eq (k3_chk111.eq_1 v133))
theorem k3_idx111_inb : ∀ (v133 : IVec S16 32) (k3_hw111 : k3_chk111 v133), ∀ a x, ((![v133] : Fin 1 → IVec S16 32) a x).toNat < S10000.size a := fun v133 k3_hw111 => k3_hw111

def k3_chk112 (v134 : IVec S16 32) : Prop :=
  (∀ a x, ((![v134] : Fin 1 → IVec S16 32) a x).toNat < S10000.size a)
instance k3_chk112.dec : ∀ (v134 : IVec S16 32), Decidable (k3_chk112 v134) := fun v134 => decidable_of_iff' _ (Iff.of_eq (k3_chk112.eq_1 v134))
theorem k3_idx112_inb : ∀ (v134 : IVec S16 32) (k3_hw112 : k3_chk112 v134), ∀ a x, ((![v134] : Fin 1 → IVec S16 32) a x).toNat < S10000.size a := fun v134 k3_hw112 => k3_hw112
@[reducible] def k3_t9_loop : Scf.Loop 32 :=
  let c0_i32_67 : BitVec 32 := 0#32
  let c125_i32_68 : BitVec 32 := 125#32
  let v54 : BitVec 32 := Scalar.addi c0_i32_67 c125_i32_68
  let c1_i32_69 : BitVec 32 := 1#32
  ⟨c0_i32_67, v54, c1_i32_69⟩
def k3_off10 (k3_t9 : Fin k3_t9_loop.trips) (c0_i32_86 : BitVec 32) : Fin 1 → Nat :=
  let c0_i32_67 : BitVec 32 := 0#32
  let c1_i32_69 : BitVec 32 := 1#32
  let arg12 : BitVec 32 := Scf.iv c0_i32_67 c1_i32_69 k3_t9
  let c8_i32 : BitVec 32 := 8#32
  let v63 : BitVec 32 := Scalar.muli arg12 c8_i32
  let v64 : BitVec 32 := Scalar.addi v63 c0_i32_86
  let c16_i32 : BitVec 32 := 16#32
  let v65 : BitVec 32 := Scalar.muli v64 c16_i32
  let v66 : Index := Scalar.indexCast v65
  ![v66.toNat]

def k3_chk113 (v104 : IVec S16 32) : Prop :=
  (∀ a x, ((![v104] : Fin 1 → IVec S16 32) a x).toNat < S10000.size a)
instance k3_chk113.dec : ∀ (v104 : IVec S16 32), Decidable (k3_chk113 v104) := fun v104 => decidable_of_iff' _ (Iff.of_eq (k3_chk113.eq_1 v104))
theorem k3_idx113_inb : ∀ (v104 : IVec S16 32) (k3_hw113 : k3_chk113 v104), ∀ a x, ((![v104] : Fin 1 → IVec S16 32) a x).toNat < S10000.size a := fun v104 k3_hw113 => k3_hw113

def k3_chk114 (v107 : IVec S16 32) : Prop :=
  (∀ a x, ((![v107] : Fin 1 → IVec S16 32) a x).toNat < S10000.size a)
instance k3_chk114.dec : ∀ (v107 : IVec S16 32), Decidable (k3_chk114 v107) := fun v107 => decidable_of_iff' _ (Iff.of_eq (k3_chk114.eq_1 v107))
theorem k3_idx114_inb : ∀ (v107 : IVec S16 32) (k3_hw114 : k3_chk114 v107), ∀ a x, ((![v107] : Fin 1 → IVec S16 32) a x).toNat < S10000.size a := fun v107 k3_hw114 => k3_hw114

def k3_chk115 (v110 : IVec S16 32) : Prop :=
  (∀ a x, ((![v110] : Fin 1 → IVec S16 32) a x).toNat < S10000.size a)
instance k3_chk115.dec : ∀ (v110 : IVec S16 32), Decidable (k3_chk115 v110) := fun v110 => decidable_of_iff' _ (Iff.of_eq (k3_chk115.eq_1 v110))
theorem k3_idx115_inb : ∀ (v110 : IVec S16 32) (k3_hw115 : k3_chk115 v110), ∀ a x, ((![v110] : Fin 1 → IVec S16 32) a x).toNat < S10000.size a := fun v110 k3_hw115 => k3_hw115

def k3_chk116 (v113 : IVec S16 32) : Prop :=
  (∀ a x, ((![v113] : Fin 1 → IVec S16 32) a x).toNat < S10000.size a)
instance k3_chk116.dec : ∀ (v113 : IVec S16 32), Decidable (k3_chk116 v113) := fun v113 => decidable_of_iff' _ (Iff.of_eq (k3_chk116.eq_1 v113))
theorem k3_idx116_inb : ∀ (v113 : IVec S16 32) (k3_hw116 : k3_chk116 v113), ∀ a x, ((![v113] : Fin 1 → IVec S16 32) a x).toNat < S10000.size a := fun v113 k3_hw116 => k3_hw116

def k3_chk117 (v116 : IVec S16 32) : Prop :=
  (∀ a x, ((![v116] : Fin 1 → IVec S16 32) a x).toNat < S10000.size a)
instance k3_chk117.dec : ∀ (v116 : IVec S16 32), Decidable (k3_chk117 v116) := fun v116 => decidable_of_iff' _ (Iff.of_eq (k3_chk117.eq_1 v116))
theorem k3_idx117_inb : ∀ (v116 : IVec S16 32) (k3_hw117 : k3_chk117 v116), ∀ a x, ((![v116] : Fin 1 → IVec S16 32) a x).toNat < S10000.size a := fun v116 k3_hw117 => k3_hw117

def k3_chk118 (v119 : IVec S16 32) : Prop :=
  (∀ a x, ((![v119] : Fin 1 → IVec S16 32) a x).toNat < S10000.size a)
instance k3_chk118.dec : ∀ (v119 : IVec S16 32), Decidable (k3_chk118 v119) := fun v119 => decidable_of_iff' _ (Iff.of_eq (k3_chk118.eq_1 v119))
theorem k3_idx118_inb : ∀ (v119 : IVec S16 32) (k3_hw118 : k3_chk118 v119), ∀ a x, ((![v119] : Fin 1 → IVec S16 32) a x).toNat < S10000.size a := fun v119 k3_hw118 => k3_hw118

def k3_chk119 (v122 : IVec S16 32) : Prop :=
  (∀ a x, ((![v122] : Fin 1 → IVec S16 32) a x).toNat < S10000.size a)
instance k3_chk119.dec : ∀ (v122 : IVec S16 32), Decidable (k3_chk119 v122) := fun v122 => decidable_of_iff' _ (Iff.of_eq (k3_chk119.eq_1 v122))
theorem k3_idx119_inb : ∀ (v122 : IVec S16 32) (k3_hw119 : k3_chk119 v122), ∀ a x, ((![v122] : Fin 1 → IVec S16 32) a x).toNat < S10000.size a := fun v122 k3_hw119 => k3_hw119

def k3_chk120 (v125 : IVec S16 32) : Prop :=
  (∀ a x, ((![v125] : Fin 1 → IVec S16 32) a x).toNat < S10000.size a)
instance k3_chk120.dec : ∀ (v125 : IVec S16 32), Decidable (k3_chk120 v125) := fun v125 => decidable_of_iff' _ (Iff.of_eq (k3_chk120.eq_1 v125))
theorem k3_idx120_inb : ∀ (v125 : IVec S16 32) (k3_hw120 : k3_chk120 v125), ∀ a x, ((![v125] : Fin 1 → IVec S16 32) a x).toNat < S10000.size a := fun v125 k3_hw120 => k3_hw120

def k3_chk121 (v127 : IVec S16 32) : Prop :=
  (∀ a x, ((![v127] : Fin 1 → IVec S16 32) a x).toNat < S10000.size a)
instance k3_chk121.dec : ∀ (v127 : IVec S16 32), Decidable (k3_chk121 v127) := fun v127 => decidable_of_iff' _ (Iff.of_eq (k3_chk121.eq_1 v127))
theorem k3_idx121_inb : ∀ (v127 : IVec S16 32) (k3_hw121 : k3_chk121 v127), ∀ a x, ((![v127] : Fin 1 → IVec S16 32) a x).toNat < S10000.size a := fun v127 k3_hw121 => k3_hw121

def k3_chk122 (v128 : IVec S16 32) : Prop :=
  (∀ a x, ((![v128] : Fin 1 → IVec S16 32) a x).toNat < S10000.size a)
instance k3_chk122.dec : ∀ (v128 : IVec S16 32), Decidable (k3_chk122 v128) := fun v128 => decidable_of_iff' _ (Iff.of_eq (k3_chk122.eq_1 v128))
theorem k3_idx122_inb : ∀ (v128 : IVec S16 32) (k3_hw122 : k3_chk122 v128), ∀ a x, ((![v128] : Fin 1 → IVec S16 32) a x).toNat < S10000.size a := fun v128 k3_hw122 => k3_hw122

def k3_chk123 (v129 : IVec S16 32) : Prop :=
  (∀ a x, ((![v129] : Fin 1 → IVec S16 32) a x).toNat < S10000.size a)
instance k3_chk123.dec : ∀ (v129 : IVec S16 32), Decidable (k3_chk123 v129) := fun v129 => decidable_of_iff' _ (Iff.of_eq (k3_chk123.eq_1 v129))
theorem k3_idx123_inb : ∀ (v129 : IVec S16 32) (k3_hw123 : k3_chk123 v129), ∀ a x, ((![v129] : Fin 1 → IVec S16 32) a x).toNat < S10000.size a := fun v129 k3_hw123 => k3_hw123

def k3_chk124 (v130 : IVec S16 32) : Prop :=
  (∀ a x, ((![v130] : Fin 1 → IVec S16 32) a x).toNat < S10000.size a)
instance k3_chk124.dec : ∀ (v130 : IVec S16 32), Decidable (k3_chk124 v130) := fun v130 => decidable_of_iff' _ (Iff.of_eq (k3_chk124.eq_1 v130))
theorem k3_idx124_inb : ∀ (v130 : IVec S16 32) (k3_hw124 : k3_chk124 v130), ∀ a x, ((![v130] : Fin 1 → IVec S16 32) a x).toNat < S10000.size a := fun v130 k3_hw124 => k3_hw124

def k3_chk125 (v131 : IVec S16 32) : Prop :=
  (∀ a x, ((![v131] : Fin 1 → IVec S16 32) a x).toNat < S10000.size a)
instance k3_chk125.dec : ∀ (v131 : IVec S16 32), Decidable (k3_chk125 v131) := fun v131 => decidable_of_iff' _ (Iff.of_eq (k3_chk125.eq_1 v131))
theorem k3_idx125_inb : ∀ (v131 : IVec S16 32) (k3_hw125 : k3_chk125 v131), ∀ a x, ((![v131] : Fin 1 → IVec S16 32) a x).toNat < S10000.size a := fun v131 k3_hw125 => k3_hw125

def k3_chk126 (v132 : IVec S16 32) : Prop :=
  (∀ a x, ((![v132] : Fin 1 → IVec S16 32) a x).toNat < S10000.size a)
instance k3_chk126.dec : ∀ (v132 : IVec S16 32), Decidable (k3_chk126 v132) := fun v132 => decidable_of_iff' _ (Iff.of_eq (k3_chk126.eq_1 v132))
theorem k3_idx126_inb : ∀ (v132 : IVec S16 32) (k3_hw126 : k3_chk126 v132), ∀ a x, ((![v132] : Fin 1 → IVec S16 32) a x).toNat < S10000.size a := fun v132 k3_hw126 => k3_hw126

def k3_chk127 (v133 : IVec S16 32) : Prop :=
  (∀ a x, ((![v133] : Fin 1 → IVec S16 32) a x).toNat < S10000.size a)
instance k3_chk127.dec : ∀ (v133 : IVec S16 32), Decidable (k3_chk127 v133) := fun v133 => decidable_of_iff' _ (Iff.of_eq (k3_chk127.eq_1 v133))
theorem k3_idx127_inb : ∀ (v133 : IVec S16 32) (k3_hw127 : k3_chk127 v133), ∀ a x, ((![v133] : Fin 1 → IVec S16 32) a x).toNat < S10000.size a := fun v133 k3_hw127 => k3_hw127

def k3_chk128 (v134 : IVec S16 32) : Prop :=
  (∀ a x, ((![v134] : Fin 1 → IVec S16 32) a x).toNat < S10000.size a)
instance k3_chk128.dec : ∀ (v134 : IVec S16 32), Decidable (k3_chk128 v134) := fun v134 => decidable_of_iff' _ (Iff.of_eq (k3_chk128.eq_1 v134))
theorem k3_idx128_inb : ∀ (v134 : IVec S16 32) (k3_hw128 : k3_chk128 v134), ∀ a x, ((![v134] : Fin 1 → IVec S16 32) a x).toNat < S10000.size a := fun v134 k3_hw128 => k3_hw128
@[reducible] def k3_t10_loop : Scf.Loop 32 :=
  let c0_i32_75 : BitVec 32 := 0#32
  let c125_i32_76 : BitVec 32 := 125#32
  let v59 : BitVec 32 := Scalar.addi c0_i32_75 c125_i32_76
  let c1_i32_77 : BitVec 32 := 1#32
  ⟨c0_i32_75, v59, c1_i32_77⟩
def k3_off11 (k3_t10 : Fin k3_t10_loop.trips) (c0_i32_86 : BitVec 32) : Fin 1 → Nat :=
  let c0_i32_75 : BitVec 32 := 0#32
  let c1_i32_77 : BitVec 32 := 1#32
  let arg12 : BitVec 32 := Scf.iv c0_i32_75 c1_i32_77 k3_t10
  let c8_i32 : BitVec 32 := 8#32
  let v63 : BitVec 32 := Scalar.muli arg12 c8_i32
  let v64 : BitVec 32 := Scalar.addi v63 c0_i32_86
  let c16_i32 : BitVec 32 := 16#32
  let v65 : BitVec 32 := Scalar.muli v64 c16_i32
  let v66 : Index := Scalar.indexCast v65
  ![v66.toNat]

def k3_chk129 (v104 : IVec S16 32) : Prop :=
  (∀ a x, ((![v104] : Fin 1 → IVec S16 32) a x).toNat < S10000.size a)
instance k3_chk129.dec : ∀ (v104 : IVec S16 32), Decidable (k3_chk129 v104) := fun v104 => decidable_of_iff' _ (Iff.of_eq (k3_chk129.eq_1 v104))
theorem k3_idx129_inb : ∀ (v104 : IVec S16 32) (k3_hw129 : k3_chk129 v104), ∀ a x, ((![v104] : Fin 1 → IVec S16 32) a x).toNat < S10000.size a := fun v104 k3_hw129 => k3_hw129

def k3_chk130 (v107 : IVec S16 32) : Prop :=
  (∀ a x, ((![v107] : Fin 1 → IVec S16 32) a x).toNat < S10000.size a)
instance k3_chk130.dec : ∀ (v107 : IVec S16 32), Decidable (k3_chk130 v107) := fun v107 => decidable_of_iff' _ (Iff.of_eq (k3_chk130.eq_1 v107))
theorem k3_idx130_inb : ∀ (v107 : IVec S16 32) (k3_hw130 : k3_chk130 v107), ∀ a x, ((![v107] : Fin 1 → IVec S16 32) a x).toNat < S10000.size a := fun v107 k3_hw130 => k3_hw130

def k3_chk131 (v110 : IVec S16 32) : Prop :=
  (∀ a x, ((![v110] : Fin 1 → IVec S16 32) a x).toNat < S10000.size a)
instance k3_chk131.dec : ∀ (v110 : IVec S16 32), Decidable (k3_chk131 v110) := fun v110 => decidable_of_iff' _ (Iff.of_eq (k3_chk131.eq_1 v110))
theorem k3_idx131_inb : ∀ (v110 : IVec S16 32) (k3_hw131 : k3_chk131 v110), ∀ a x, ((![v110] : Fin 1 → IVec S16 32) a x).toNat < S10000.size a := fun v110 k3_hw131 => k3_hw131

def k3_chk132 (v113 : IVec S16 32) : Prop :=
  (∀ a x, ((![v113] : Fin 1 → IVec S16 32) a x).toNat < S10000.size a)
instance k3_chk132.dec : ∀ (v113 : IVec S16 32), Decidable (k3_chk132 v113) := fun v113 => decidable_of_iff' _ (Iff.of_eq (k3_chk132.eq_1 v113))
theorem k3_idx132_inb : ∀ (v113 : IVec S16 32) (k3_hw132 : k3_chk132 v113), ∀ a x, ((![v113] : Fin 1 → IVec S16 32) a x).toNat < S10000.size a := fun v113 k3_hw132 => k3_hw132

def k3_chk133 (v116 : IVec S16 32) : Prop :=
  (∀ a x, ((![v116] : Fin 1 → IVec S16 32) a x).toNat < S10000.size a)
instance k3_chk133.dec : ∀ (v116 : IVec S16 32), Decidable (k3_chk133 v116) := fun v116 => decidable_of_iff' _ (Iff.of_eq (k3_chk133.eq_1 v116))
theorem k3_idx133_inb : ∀ (v116 : IVec S16 32) (k3_hw133 : k3_chk133 v116), ∀ a x, ((![v116] : Fin 1 → IVec S16 32) a x).toNat < S10000.size a := fun v116 k3_hw133 => k3_hw133

def k3_chk134 (v119 : IVec S16 32) : Prop :=
  (∀ a x, ((![v119] : Fin 1 → IVec S16 32) a x).toNat < S10000.size a)
instance k3_chk134.dec : ∀ (v119 : IVec S16 32), Decidable (k3_chk134 v119) := fun v119 => decidable_of_iff' _ (Iff.of_eq (k3_chk134.eq_1 v119))
theorem k3_idx134_inb : ∀ (v119 : IVec S16 32) (k3_hw134 : k3_chk134 v119), ∀ a x, ((![v119] : Fin 1 → IVec S16 32) a x).toNat < S10000.size a := fun v119 k3_hw134 => k3_hw134

def k3_chk135 (v122 : IVec S16 32) : Prop :=
  (∀ a x, ((![v122] : Fin 1 → IVec S16 32) a x).toNat < S10000.size a)
instance k3_chk135.dec : ∀ (v122 : IVec S16 32), Decidable (k3_chk135 v122) := fun v122 => decidable_of_iff' _ (Iff.of_eq (k3_chk135.eq_1 v122))
theorem k3_idx135_inb : ∀ (v122 : IVec S16 32) (k3_hw135 : k3_chk135 v122), ∀ a x, ((![v122] : Fin 1 → IVec S16 32) a x).toNat < S10000.size a := fun v122 k3_hw135 => k3_hw135

def k3_chk136 (v125 : IVec S16 32) : Prop :=
  (∀ a x, ((![v125] : Fin 1 → IVec S16 32) a x).toNat < S10000.size a)
instance k3_chk136.dec : ∀ (v125 : IVec S16 32), Decidable (k3_chk136 v125) := fun v125 => decidable_of_iff' _ (Iff.of_eq (k3_chk136.eq_1 v125))
theorem k3_idx136_inb : ∀ (v125 : IVec S16 32) (k3_hw136 : k3_chk136 v125), ∀ a x, ((![v125] : Fin 1 → IVec S16 32) a x).toNat < S10000.size a := fun v125 k3_hw136 => k3_hw136

def k3_chk137 (v127 : IVec S16 32) : Prop :=
  (∀ a x, ((![v127] : Fin 1 → IVec S16 32) a x).toNat < S10000.size a)
instance k3_chk137.dec : ∀ (v127 : IVec S16 32), Decidable (k3_chk137 v127) := fun v127 => decidable_of_iff' _ (Iff.of_eq (k3_chk137.eq_1 v127))
theorem k3_idx137_inb : ∀ (v127 : IVec S16 32) (k3_hw137 : k3_chk137 v127), ∀ a x, ((![v127] : Fin 1 → IVec S16 32) a x).toNat < S10000.size a := fun v127 k3_hw137 => k3_hw137

def k3_chk138 (v128 : IVec S16 32) : Prop :=
  (∀ a x, ((![v128] : Fin 1 → IVec S16 32) a x).toNat < S10000.size a)
instance k3_chk138.dec : ∀ (v128 : IVec S16 32), Decidable (k3_chk138 v128) := fun v128 => decidable_of_iff' _ (Iff.of_eq (k3_chk138.eq_1 v128))
theorem k3_idx138_inb : ∀ (v128 : IVec S16 32) (k3_hw138 : k3_chk138 v128), ∀ a x, ((![v128] : Fin 1 → IVec S16 32) a x).toNat < S10000.size a := fun v128 k3_hw138 => k3_hw138

def k3_chk139 (v129 : IVec S16 32) : Prop :=
  (∀ a x, ((![v129] : Fin 1 → IVec S16 32) a x).toNat < S10000.size a)
instance k3_chk139.dec : ∀ (v129 : IVec S16 32), Decidable (k3_chk139 v129) := fun v129 => decidable_of_iff' _ (Iff.of_eq (k3_chk139.eq_1 v129))
theorem k3_idx139_inb : ∀ (v129 : IVec S16 32) (k3_hw139 : k3_chk139 v129), ∀ a x, ((![v129] : Fin 1 → IVec S16 32) a x).toNat < S10000.size a := fun v129 k3_hw139 => k3_hw139

def k3_chk140 (v130 : IVec S16 32) : Prop :=
  (∀ a x, ((![v130] : Fin 1 → IVec S16 32) a x).toNat < S10000.size a)
instance k3_chk140.dec : ∀ (v130 : IVec S16 32), Decidable (k3_chk140 v130) := fun v130 => decidable_of_iff' _ (Iff.of_eq (k3_chk140.eq_1 v130))
theorem k3_idx140_inb : ∀ (v130 : IVec S16 32) (k3_hw140 : k3_chk140 v130), ∀ a x, ((![v130] : Fin 1 → IVec S16 32) a x).toNat < S10000.size a := fun v130 k3_hw140 => k3_hw140

def k3_chk141 (v131 : IVec S16 32) : Prop :=
  (∀ a x, ((![v131] : Fin 1 → IVec S16 32) a x).toNat < S10000.size a)
instance k3_chk141.dec : ∀ (v131 : IVec S16 32), Decidable (k3_chk141 v131) := fun v131 => decidable_of_iff' _ (Iff.of_eq (k3_chk141.eq_1 v131))
theorem k3_idx141_inb : ∀ (v131 : IVec S16 32) (k3_hw141 : k3_chk141 v131), ∀ a x, ((![v131] : Fin 1 → IVec S16 32) a x).toNat < S10000.size a := fun v131 k3_hw141 => k3_hw141

def k3_chk142 (v132 : IVec S16 32) : Prop :=
  (∀ a x, ((![v132] : Fin 1 → IVec S16 32) a x).toNat < S10000.size a)
instance k3_chk142.dec : ∀ (v132 : IVec S16 32), Decidable (k3_chk142 v132) := fun v132 => decidable_of_iff' _ (Iff.of_eq (k3_chk142.eq_1 v132))
theorem k3_idx142_inb : ∀ (v132 : IVec S16 32) (k3_hw142 : k3_chk142 v132), ∀ a x, ((![v132] : Fin 1 → IVec S16 32) a x).toNat < S10000.size a := fun v132 k3_hw142 => k3_hw142

def k3_chk143 (v133 : IVec S16 32) : Prop :=
  (∀ a x, ((![v133] : Fin 1 → IVec S16 32) a x).toNat < S10000.size a)
instance k3_chk143.dec : ∀ (v133 : IVec S16 32), Decidable (k3_chk143 v133) := fun v133 => decidable_of_iff' _ (Iff.of_eq (k3_chk143.eq_1 v133))
theorem k3_idx143_inb : ∀ (v133 : IVec S16 32) (k3_hw143 : k3_chk143 v133), ∀ a x, ((![v133] : Fin 1 → IVec S16 32) a x).toNat < S10000.size a := fun v133 k3_hw143 => k3_hw143

def k3_chk144 (v134 : IVec S16 32) : Prop :=
  (∀ a x, ((![v134] : Fin 1 → IVec S16 32) a x).toNat < S10000.size a)
instance k3_chk144.dec : ∀ (v134 : IVec S16 32), Decidable (k3_chk144 v134) := fun v134 => decidable_of_iff' _ (Iff.of_eq (k3_chk144.eq_1 v134))
theorem k3_idx144_inb : ∀ (v134 : IVec S16 32) (k3_hw144 : k3_chk144 v134), ∀ a x, ((![v134] : Fin 1 → IVec S16 32) a x).toNat < S10000.size a := fun v134 k3_hw144 => k3_hw144
@[reducible] def k3_t11_loop : Scf.Loop 32 :=
  let c0_i32_82 : BitVec 32 := 0#32
  let c125_i32_83 : BitVec 32 := 125#32
  let v62 : BitVec 32 := Scalar.addi c0_i32_82 c125_i32_83
  let c1_i32_84 : BitVec 32 := 1#32
  ⟨c0_i32_82, v62, c1_i32_84⟩
def k3_off12 (k3_t11 : Fin k3_t11_loop.trips) (c0_i32_86 : BitVec 32) : Fin 1 → Nat :=
  let c0_i32_82 : BitVec 32 := 0#32
  let c1_i32_84 : BitVec 32 := 1#32
  let arg12 : BitVec 32 := Scf.iv c0_i32_82 c1_i32_84 k3_t11
  let c8_i32 : BitVec 32 := 8#32
  let v63 : BitVec 32 := Scalar.muli arg12 c8_i32
  let v64 : BitVec 32 := Scalar.addi v63 c0_i32_86
  let c16_i32 : BitVec 32 := 16#32
  let v65 : BitVec 32 := Scalar.muli v64 c16_i32
  let v66 : Index := Scalar.indexCast v65
  ![v66.toNat]

def k3_chk145 (v104 : IVec S16 32) : Prop :=
  (∀ a x, ((![v104] : Fin 1 → IVec S16 32) a x).toNat < S10000.size a)
instance k3_chk145.dec : ∀ (v104 : IVec S16 32), Decidable (k3_chk145 v104) := fun v104 => decidable_of_iff' _ (Iff.of_eq (k3_chk145.eq_1 v104))
theorem k3_idx145_inb : ∀ (v104 : IVec S16 32) (k3_hw145 : k3_chk145 v104), ∀ a x, ((![v104] : Fin 1 → IVec S16 32) a x).toNat < S10000.size a := fun v104 k3_hw145 => k3_hw145

def k3_chk146 (v107 : IVec S16 32) : Prop :=
  (∀ a x, ((![v107] : Fin 1 → IVec S16 32) a x).toNat < S10000.size a)
instance k3_chk146.dec : ∀ (v107 : IVec S16 32), Decidable (k3_chk146 v107) := fun v107 => decidable_of_iff' _ (Iff.of_eq (k3_chk146.eq_1 v107))
theorem k3_idx146_inb : ∀ (v107 : IVec S16 32) (k3_hw146 : k3_chk146 v107), ∀ a x, ((![v107] : Fin 1 → IVec S16 32) a x).toNat < S10000.size a := fun v107 k3_hw146 => k3_hw146

def k3_chk147 (v110 : IVec S16 32) : Prop :=
  (∀ a x, ((![v110] : Fin 1 → IVec S16 32) a x).toNat < S10000.size a)
instance k3_chk147.dec : ∀ (v110 : IVec S16 32), Decidable (k3_chk147 v110) := fun v110 => decidable_of_iff' _ (Iff.of_eq (k3_chk147.eq_1 v110))
theorem k3_idx147_inb : ∀ (v110 : IVec S16 32) (k3_hw147 : k3_chk147 v110), ∀ a x, ((![v110] : Fin 1 → IVec S16 32) a x).toNat < S10000.size a := fun v110 k3_hw147 => k3_hw147

def k3_chk148 (v113 : IVec S16 32) : Prop :=
  (∀ a x, ((![v113] : Fin 1 → IVec S16 32) a x).toNat < S10000.size a)
instance k3_chk148.dec : ∀ (v113 : IVec S16 32), Decidable (k3_chk148 v113) := fun v113 => decidable_of_iff' _ (Iff.of_eq (k3_chk148.eq_1 v113))
theorem k3_idx148_inb : ∀ (v113 : IVec S16 32) (k3_hw148 : k3_chk148 v113), ∀ a x, ((![v113] : Fin 1 → IVec S16 32) a x).toNat < S10000.size a := fun v113 k3_hw148 => k3_hw148

def k3_chk149 (v116 : IVec S16 32) : Prop :=
  (∀ a x, ((![v116] : Fin 1 → IVec S16 32) a x).toNat < S10000.size a)
instance k3_chk149.dec : ∀ (v116 : IVec S16 32), Decidable (k3_chk149 v116) := fun v116 => decidable_of_iff' _ (Iff.of_eq (k3_chk149.eq_1 v116))
theorem k3_idx149_inb : ∀ (v116 : IVec S16 32) (k3_hw149 : k3_chk149 v116), ∀ a x, ((![v116] : Fin 1 → IVec S16 32) a x).toNat < S10000.size a := fun v116 k3_hw149 => k3_hw149

def k3_chk150 (v119 : IVec S16 32) : Prop :=
  (∀ a x, ((![v119] : Fin 1 → IVec S16 32) a x).toNat < S10000.size a)
instance k3_chk150.dec : ∀ (v119 : IVec S16 32), Decidable (k3_chk150 v119) := fun v119 => decidable_of_iff' _ (Iff.of_eq (k3_chk150.eq_1 v119))
theorem k3_idx150_inb : ∀ (v119 : IVec S16 32) (k3_hw150 : k3_chk150 v119), ∀ a x, ((![v119] : Fin 1 → IVec S16 32) a x).toNat < S10000.size a := fun v119 k3_hw150 => k3_hw150

def k3_chk151 (v122 : IVec S16 32) : Prop :=
  (∀ a x, ((![v122] : Fin 1 → IVec S16 32) a x).toNat < S10000.size a)
instance k3_chk151.dec : ∀ (v122 : IVec S16 32), Decidable (k3_chk151 v122) := fun v122 => decidable_of_iff' _ (Iff.of_eq (k3_chk151.eq_1 v122))
theorem k3_idx151_inb : ∀ (v122 : IVec S16 32) (k3_hw151 : k3_chk151 v122), ∀ a x, ((![v122] : Fin 1 → IVec S16 32) a x).toNat < S10000.size a := fun v122 k3_hw151 => k3_hw151

def k3_chk152 (v125 : IVec S16 32) : Prop :=
  (∀ a x, ((![v125] : Fin 1 → IVec S16 32) a x).toNat < S10000.size a)
instance k3_chk152.dec : ∀ (v125 : IVec S16 32), Decidable (k3_chk152 v125) := fun v125 => decidable_of_iff' _ (Iff.of_eq (k3_chk152.eq_1 v125))
theorem k3_idx152_inb : ∀ (v125 : IVec S16 32) (k3_hw152 : k3_chk152 v125), ∀ a x, ((![v125] : Fin 1 → IVec S16 32) a x).toNat < S10000.size a := fun v125 k3_hw152 => k3_hw152

def k3_chk153 (v127 : IVec S16 32) : Prop :=
  (∀ a x, ((![v127] : Fin 1 → IVec S16 32) a x).toNat < S10000.size a)
instance k3_chk153.dec : ∀ (v127 : IVec S16 32), Decidable (k3_chk153 v127) := fun v127 => decidable_of_iff' _ (Iff.of_eq (k3_chk153.eq_1 v127))
theorem k3_idx153_inb : ∀ (v127 : IVec S16 32) (k3_hw153 : k3_chk153 v127), ∀ a x, ((![v127] : Fin 1 → IVec S16 32) a x).toNat < S10000.size a := fun v127 k3_hw153 => k3_hw153

def k3_chk154 (v128 : IVec S16 32) : Prop :=
  (∀ a x, ((![v128] : Fin 1 → IVec S16 32) a x).toNat < S10000.size a)
instance k3_chk154.dec : ∀ (v128 : IVec S16 32), Decidable (k3_chk154 v128) := fun v128 => decidable_of_iff' _ (Iff.of_eq (k3_chk154.eq_1 v128))
theorem k3_idx154_inb : ∀ (v128 : IVec S16 32) (k3_hw154 : k3_chk154 v128), ∀ a x, ((![v128] : Fin 1 → IVec S16 32) a x).toNat < S10000.size a := fun v128 k3_hw154 => k3_hw154

def k3_chk155 (v129 : IVec S16 32) : Prop :=
  (∀ a x, ((![v129] : Fin 1 → IVec S16 32) a x).toNat < S10000.size a)
instance k3_chk155.dec : ∀ (v129 : IVec S16 32), Decidable (k3_chk155 v129) := fun v129 => decidable_of_iff' _ (Iff.of_eq (k3_chk155.eq_1 v129))
theorem k3_idx155_inb : ∀ (v129 : IVec S16 32) (k3_hw155 : k3_chk155 v129), ∀ a x, ((![v129] : Fin 1 → IVec S16 32) a x).toNat < S10000.size a := fun v129 k3_hw155 => k3_hw155

def k3_chk156 (v130 : IVec S16 32) : Prop :=
  (∀ a x, ((![v130] : Fin 1 → IVec S16 32) a x).toNat < S10000.size a)
instance k3_chk156.dec : ∀ (v130 : IVec S16 32), Decidable (k3_chk156 v130) := fun v130 => decidable_of_iff' _ (Iff.of_eq (k3_chk156.eq_1 v130))
theorem k3_idx156_inb : ∀ (v130 : IVec S16 32) (k3_hw156 : k3_chk156 v130), ∀ a x, ((![v130] : Fin 1 → IVec S16 32) a x).toNat < S10000.size a := fun v130 k3_hw156 => k3_hw156

def k3_chk157 (v131 : IVec S16 32) : Prop :=
  (∀ a x, ((![v131] : Fin 1 → IVec S16 32) a x).toNat < S10000.size a)
instance k3_chk157.dec : ∀ (v131 : IVec S16 32), Decidable (k3_chk157 v131) := fun v131 => decidable_of_iff' _ (Iff.of_eq (k3_chk157.eq_1 v131))
theorem k3_idx157_inb : ∀ (v131 : IVec S16 32) (k3_hw157 : k3_chk157 v131), ∀ a x, ((![v131] : Fin 1 → IVec S16 32) a x).toNat < S10000.size a := fun v131 k3_hw157 => k3_hw157

def k3_chk158 (v132 : IVec S16 32) : Prop :=
  (∀ a x, ((![v132] : Fin 1 → IVec S16 32) a x).toNat < S10000.size a)
instance k3_chk158.dec : ∀ (v132 : IVec S16 32), Decidable (k3_chk158 v132) := fun v132 => decidable_of_iff' _ (Iff.of_eq (k3_chk158.eq_1 v132))
theorem k3_idx158_inb : ∀ (v132 : IVec S16 32) (k3_hw158 : k3_chk158 v132), ∀ a x, ((![v132] : Fin 1 → IVec S16 32) a x).toNat < S10000.size a := fun v132 k3_hw158 => k3_hw158

def k3_chk159 (v133 : IVec S16 32) : Prop :=
  (∀ a x, ((![v133] : Fin 1 → IVec S16 32) a x).toNat < S10000.size a)
instance k3_chk159.dec : ∀ (v133 : IVec S16 32), Decidable (k3_chk159 v133) := fun v133 => decidable_of_iff' _ (Iff.of_eq (k3_chk159.eq_1 v133))
theorem k3_idx159_inb : ∀ (v133 : IVec S16 32) (k3_hw159 : k3_chk159 v133), ∀ a x, ((![v133] : Fin 1 → IVec S16 32) a x).toNat < S10000.size a := fun v133 k3_hw159 => k3_hw159

def k3_chk160 (v134 : IVec S16 32) : Prop :=
  (∀ a x, ((![v134] : Fin 1 → IVec S16 32) a x).toNat < S10000.size a)
instance k3_chk160.dec : ∀ (v134 : IVec S16 32), Decidable (k3_chk160 v134) := fun v134 => decidable_of_iff' _ (Iff.of_eq (k3_chk160.eq_1 v134))
theorem k3_idx160_inb : ∀ (v134 : IVec S16 32) (k3_hw160 : k3_chk160 v134), ∀ a x, ((![v134] : Fin 1 → IVec S16 32) a x).toNat < S10000.size a := fun v134 k3_hw160 => k3_hw160
abbrev grid4 : Pipeline.Grid := .none

abbrev stage4_0 : Fin 1 → Memref sig .tc .vmem S32x10000 .f32 := fun | 0 => Memref.whole cc4_stg0_0 | ⟨_ + 1, h⟩ => absurd h (Nat.not_lt.2 (Nat.le_add_left _ _))
abbrev sem4_0 : Fin 1 → DmaSem sig := fun | 0 => cc4_sem0_0 | ⟨_ + 1, h⟩ => absurd h (Nat.not_lt.2 (Nat.le_add_left _ _))

abbrev stage4_1 : Fin 1 → Memref sig .tc .vmem S32x10000 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))

abbrev stage4_2 : Fin 1 → Memref sig .tc .vmem S1x10000 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))

abbrev stage4_3 : Fin 1 → Memref sig .tc .vmem S32x1 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))

abbrev stage4_4 : Fin 1 → Memref sig .tc .vmem S32x10000 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))

abbrev grid5 : Pipeline.Grid := ⟨1, ![20], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![c0_i32.toNat, arg0.toNat]

def cc5_transform_1 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage5_0 : Fin 2 → Memref sig .tc .vmem S1x16000 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 2 → Memref sig .tc .vmem S16000x128 .f32 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true]

abbrev stage5_2 : Fin 1 → Memref sig .tc .vmem S1x128 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev grid6 : Pipeline.Grid := .none

abbrev stage6_0 : Fin 1 → Memref sig .tc .vmem S1x128 .f32 := fun | 0 => Memref.whole cc6_stg0_0 | ⟨_ + 1, h⟩ => absurd h (Nat.not_lt.2 (Nat.le_add_left _ _))
abbrev sem6_0 : Fin 1 → DmaSem sig := fun | 0 => cc6_sem0_0 | ⟨_ + 1, h⟩ => absurd h (Nat.not_lt.2 (Nat.le_add_left _ _))

abbrev stage6_1 : Fin 1 → Memref sig .tc .vmem S1x128 .f32 := fun | 0 => Memref.whole cc6_stg1_0 | ⟨_ + 1, h⟩ => absurd h (Nat.not_lt.2 (Nat.le_add_left _ _))
abbrev sem6_1 : Fin 1 → DmaSem sig := fun | 0 => cc6_sem1_0 | ⟨_ + 1, h⟩ => absurd h (Nat.not_lt.2 (Nat.le_add_left _ _))

abbrev stage6_2 : Fin 1 → Memref sig .tc .vmem S128x10000 .f32 := fun | 0 => Memref.whole cc6_stg2_0 | ⟨_ + 1, h⟩ => absurd h (Nat.not_lt.2 (Nat.le_add_left _ _))
abbrev sem6_2 : Fin 1 → DmaSem sig := fun | 0 => cc6_sem2_0 | ⟨_ + 1, h⟩ => absurd h (Nat.not_lt.2 (Nat.le_add_left _ _))

abbrev stage6_3 : Fin 1 → Memref sig .tc .vmem S1x10000 .f32 := fun | 0 => Memref.whole cc6_stg3_0 | ⟨_ + 1, h⟩ => absurd h (Nat.not_lt.2 (Nat.le_add_left _ _))
abbrev sem6_3 : Fin 1 → DmaSem sig := fun | 0 => cc6_sem3_0 | ⟨_ + 1, h⟩ => absurd h (Nat.not_lt.2 (Nat.le_add_left _ _))

abbrev stage6_4 : Fin 1 → Memref sig .tc .vmem S1x10000 .f32 := fun | 0 => Memref.whole cc6_stg4_0 | ⟨_ + 1, h⟩ => absurd h (Nat.not_lt.2 (Nat.le_add_left _ _))
abbrev sem6_4 : Fin 1 → DmaSem sig := fun | 0 => cc6_sem4_0 | ⟨_ + 1, h⟩ => absurd h (Nat.not_lt.2 (Nat.le_add_left _ _))

abbrev scKind : Fin 2 → Kind := fun | 0 => .scVector | 1 => .scVector | ⟨_ + 2, h⟩ => absurd h (Nat.not_lt.2 (Nat.le_add_left _ _))
abbrev scNCore : Fin 2 → Nat := fun | 0 => 2 | 1 => 2 | ⟨_ + 2, h⟩ => absurd h (Nat.not_lt.2 (Nat.le_add_left _ _))
abbrev scNSub : Fin 2 → Nat := fun | 0 => 16 | 1 => 16 | ⟨_ + 2, h⟩ => absurd h (Nat.not_lt.2 (Nat.le_add_left _ _))

class Facts₀ : Prop where
  inb_S128x32_S128x32_0_0 : ∀ a, (![0, 0] : Fin 2 → Nat) a + S128x32.size a ≤ S128x32.size a
  h_S128x32 : 0 < S128x32.numel
  inb_S10000x128_S10000x128_0_0 : ∀ a, (![0, 0] : Fin 2 → Nat) a + S10000x128.size a ≤ S10000x128.size a
  h_S10000x128 : 0 < S10000x128.numel
  inb_S32x10000_S32x10000_0_0 : ∀ a, (![0, 0] : Fin 2 → Nat) a + S32x10000.size a ≤ S32x10000.size a
  h_S32x10000 : 0 < S32x10000.numel
  inb_S2x160000_S1x160000_0_0 : ∀ a, (![0, 0] : Fin 2 → Nat) a + S1x160000.size a ≤ S2x160000.size a
  h_S1x160000 : 0 < S1x160000.numel
  inb_S2x160000_S1x160000_1_0 : ∀ a, (![1, 0] : Fin 2 → Nat) a + S1x160000.size a ≤ S2x160000.size a
  inb_S1x160000_S1x160000_0_0 : ∀ a, (![0, 0] : Fin 2 → Nat) a + S1x160000.size a ≤ S1x160000.size a
  shapeCasts_S1x160000_S160000 : S1x160000.ShapeCasts S160000
  h_S16 : 0 < S16.numel
  h_S10000 : 0 < S10000.numel
  inb_S5000_S16_4984 : ∀ a, (![4984] : Fin 1 → Nat) a + S16.size a ≤ S5000.size a
  iota_S16_d0_w32_scVector : S16.Iotas .scVector 32 [0]
  squeezes_S1x10000_S10000 : S1x10000.Squeezes S10000
  shapeCasts_S32x10000_S32x10000 : S32x10000.ShapeCasts S32x10000
  reduces_S32x10000_S10000 : S32x10000.Reduces [0] S10000
  shapeCasts_S10000_S1x10000 : S10000.ShapeCasts S1x10000
  inb_S1x10000_S1x10000_0_0 : ∀ a, (![0, 0] : Fin 2 → Nat) a + S1x10000.size a ≤ S1x10000.size a
  h_S1x10000 : 0 < S1x10000.numel
  broadcasts_S1x10000_S32x10000 : S1x10000.Broadcasts S32x10000
  inb_S160000_S16000_0 : ∀ a, (![0] : Fin 1 → Nat) a + S16000.size a ≤ S160000.size a
  inb_S160000_S16000_16000 : ∀ a, (![16000] : Fin 1 → Nat) a + S16000.size a ≤ S160000.size a
  inb_S160000_S16000_32000 : ∀ a, (![32000] : Fin 1 → Nat) a + S16000.size a ≤ S160000.size a
  inb_S160000_S16000_48000 : ∀ a, (![48000] : Fin 1 → Nat) a + S16000.size a ≤ S160000.size a
  inb_S160000_S16000_64000 : ∀ a, (![64000] : Fin 1 → Nat) a + S16000.size a ≤ S160000.size a
  inb_S160000_S16000_80000 : ∀ a, (![80000] : Fin 1 → Nat) a + S16000.size a ≤ S160000.size a
  inb_S160000_S16000_96000 : ∀ a, (![96000] : Fin 1 → Nat) a + S16000.size a ≤ S160000.size a
  inb_S160000_S16000_112000 : ∀ a, (![112000] : Fin 1 → Nat) a + S16000.size a ≤ S160000.size a
  inb_S160000_S16000_128000 : ∀ a, (![128000] : Fin 1 → Nat) a + S16000.size a ≤ S160000.size a
  inb_S160000_S16000_144000 : ∀ a, (![144000] : Fin 1 → Nat) a + S16000.size a ≤ S160000.size a
  shapeCasts_S32_S32x1 : S32.ShapeCasts S32x1
  shapeCasts_S1x10000_S1x10000 : S1x10000.ShapeCasts S1x10000
  inb_S32x1_S32x1_0_0 : ∀ a, (![0, 0] : Fin 2 → Nat) a + S32x1.size a ≤ S32x1.size a
  h_S32x1 : 0 < S32x1.numel
  shapeCasts_S32x1_S32x1 : S32x1.ShapeCasts S32x1
  broadcasts_S32x1_S32x10000 : S32x1.Broadcasts S32x10000
  transposes_S32x10000_S10000x32_1_0 : S32x10000.Transposes [1, 0] S10000x32
  shapeCasts_S10000x32_S1x320000 : S10000x32.ShapeCasts S1x320000
  inb_S1x128_S1x128_0_0 : ∀ a, (![0, 0] : Fin 2 → Nat) a + S1x128.size a ≤ S1x128.size a
  h_S1x128 : 0 < S1x128.numel
  shapeCasts_S1x128_S1x128 : S1x128.ShapeCasts S1x128
  inb_S1x16000_S1x16000_0_0 : ∀ a, (![0, 0] : Fin 2 → Nat) a + S1x16000.size a ≤ S1x16000.size a
  h_S1x16000 : 0 < S1x16000.numel
  shapeCasts_S1x16000_S1x16000 : S1x16000.ShapeCasts S1x16000
  inb_S16000x128_S16000x128_0_0 : ∀ a, (![0, 0] : Fin 2 → Nat) a + S16000x128.size a ≤ S16000x128.size a
  h_S16000x128 : 0 < S16000x128.numel
  shapeCasts_S128_S1x128 : S128.ShapeCasts S1x128
  inb_S128x10000_S128x10000_0_0 : ∀ a, (![0, 0] : Fin 2 → Nat) a + S128x10000.size a ≤ S128x10000.size a
  h_S128x10000 : 0 < S128x10000.numel
  dot_S128x32_S10000x128_S32x10000_0_1_1_0_n_n_wf : DotDims.WF S128x32 S10000x128 S32x10000 [0] [1] [1] [0] [] []
  dot_S1x16000_S16000x128_S1x128_1_0_0_1_n_n_wf : DotDims.WF S1x16000 S16000x128 S1x128 [1] [0] [0] [1] [] []
  dot_S1x128_S128x10000_S1x10000_1_0_0_1_n_n_wf : DotDims.WF S1x128 S128x10000 S1x10000 [1] [0] [0] [1] [] []
  hcc1_scratch2 : 5 + S_.numel ≤ 30
  hcc1_scoped0 : 6 + S_.numel ≤ 30
  hcc3_scratch4 : 11 + S_.numel ≤ 30
  hcc3_scratch5 : 12 + S_.numel ≤ 30
  hcc3_scratch6 : 13 + S_.numel ≤ 30
  hcc3_scoped0 : 14 + S_.numel ≤ 30
  hscKind : ∀ q, scKind q ≠ .tc
  hscCore : ∀ q, scNCore q ≤ τ.nSC
  hscSub : ∀ q, scNSub q ≤ τ.nSub
  hstage0_0 : ∀ j, (stage0_0 j).IsWhole
  hstage0_1 : ∀ j, (stage0_1 j).IsWhole
  hstage0_2 : ∀ j, (stage0_2 j).IsWhole
  hstage0_3 : ∀ j, (stage0_3 j).IsWhole
  hstage0_4 : ∀ j, (stage0_4 j).IsWhole
  hcore1 : grid1.bound 0 ≤ τ.nSC
  hsub1 : grid1.bound 1 ≤ τ.nSub
  k1_off1_inb : ∀ i : grid1.Coords, ∀ a, (k1_off1 i) a + S5000.size a ≤ S160000.size a
  k1_t1_ok : k1_t1_loop.OK
  k1_off2_inb : ∀ k1_t1 : Fin k1_t1_loop.trips, ∀ a, (k1_off2 k1_t1) a + S16.size a ≤ S10000.size a
  k1_t2_ok : k1_t2_loop.OK
  k1_off3_inb : ∀ k1_t2 : Fin k1_t2_loop.trips, ∀ a, (k1_off3 k1_t2) a + S16.size a ≤ S5000.size a
  k1_off4_inb : ∀ i : grid1.Coords, ∀ a, (k1_off4 i) a + S1x10000.size a ≤ S32x10000.size a
  hstage2_0 : ∀ j, (stage2_0 j).IsWhole
  hstage2_1 : ∀ j, (stage2_1 j).IsWhole
  hstage2_2 : ∀ j, (stage2_2 j).IsWhole
  hstage2_3 : ∀ j, (stage2_3 j).IsWhole
  hcore3 : grid3.bound 0 ≤ τ.nSC
  hsub3 : grid3.bound 1 ≤ τ.nSub
  k3_off1_inb : ∀ i : grid3.Coords, ∀ a, (k3_off1 i) a + S1x10000.size a ≤ S32x10000.size a
  k3_t1_ok : k3_t1_loop.OK
  k3_off2_inb : ∀ k3_t1 : Fin k3_t1_loop.trips, ∀ a, (k3_off2 k3_t1) a + S16.size a ≤ S10000.size a
  k3_t2_ok : k3_t2_loop.OK
  k3_off3_inb : ∀ k3_t2 : Fin k3_t2_loop.trips, ∀ (r : Fin 8), ∀ a, (k3_off3 k3_t2 (BitVec.ofNat 32 r.val)) a + S16.size a ≤ S16000.size a
  k3_t3_ok : k3_t3_loop.OK
  k3_off4_inb : ∀ k3_t3 : Fin k3_t3_loop.trips, ∀ (r : Fin 8), ∀ a, (k3_off4 k3_t3 (BitVec.ofNat 32 r.val)) a + S16.size a ≤ S16000.size a
  k3_t4_ok : k3_t4_loop.OK
  k3_off5_inb : ∀ k3_t4 : Fin k3_t4_loop.trips, ∀ (r : Fin 8), ∀ a, (k3_off5 k3_t4 (BitVec.ofNat 32 r.val)) a + S16.size a ≤ S16000.size a
  k3_t5_ok : k3_t5_loop.OK
  k3_off6_inb : ∀ k3_t5 : Fin k3_t5_loop.trips, ∀ (r : Fin 8), ∀ a, (k3_off6 k3_t5 (BitVec.ofNat 32 r.val)) a + S16.size a ≤ S16000.size a
  k3_t6_ok : k3_t6_loop.OK
  k3_off7_inb : ∀ k3_t6 : Fin k3_t6_loop.trips, ∀ (r : Fin 8), ∀ a, (k3_off7 k3_t6 (BitVec.ofNat 32 r.val)) a + S16.size a ≤ S16000.size a
  k3_t7_ok : k3_t7_loop.OK
  k3_off8_inb : ∀ k3_t7 : Fin k3_t7_loop.trips, ∀ (r : Fin 8), ∀ a, (k3_off8 k3_t7 (BitVec.ofNat 32 r.val)) a + S16.size a ≤ S16000.size a
  k3_t8_ok : k3_t8_loop.OK
  k3_off9_inb : ∀ k3_t8 : Fin k3_t8_loop.trips, ∀ (r : Fin 8), ∀ a, (k3_off9 k3_t8 (BitVec.ofNat 32 r.val)) a + S16.size a ≤ S16000.size a
  k3_t9_ok : k3_t9_loop.OK
  k3_off10_inb : ∀ k3_t9 : Fin k3_t9_loop.trips, ∀ (r : Fin 8), ∀ a, (k3_off10 k3_t9 (BitVec.ofNat 32 r.val)) a + S16.size a ≤ S16000.size a
  k3_t10_ok : k3_t10_loop.OK
  k3_off11_inb : ∀ k3_t10 : Fin k3_t10_loop.trips, ∀ (r : Fin 8), ∀ a, (k3_off11 k3_t10 (BitVec.ofNat 32 r.val)) a + S16.size a ≤ S16000.size a
  k3_t11_ok : k3_t11_loop.OK
  k3_off12_inb : ∀ k3_t11 : Fin k3_t11_loop.trips, ∀ (r : Fin 8), ∀ a, (k3_off12 k3_t11 (BitVec.ofNat 32 r.val)) a + S16.size a ≤ S16000.size a
  hstage4_0 : ∀ j, (stage4_0 j).IsWhole
  hstage4_1 : ∀ j, (stage4_1 j).IsWhole
  hstage4_2 : ∀ j, (stage4_2 j).IsWhole
  hstage4_3 : ∀ j, (stage4_3 j).IsWhole
  hstage4_4 : ∀ j, (stage4_4 j).IsWhole
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S1x16000.size a ≤ S1x320000.size a
  hwx5_0 : ∀ i : grid5.Coords, EltTy.bits .f32 = 32 ∨ (Rect.block (s := S1x320000) S1x16000.size (cc5_transform_0 i) (hinb5_0 i)).WholeWords (EltTy.packing .f32)
  hstage5_1 : ∀ j, (stage5_1 j).IsWhole
  nbuf5_1 : grid5.bufCount reads5_1 false = 2
  hreads5_1 : ∀ i i' : grid5.Coords, (∀ a, reads5_1 a = true → i a = i' a) → cc5_transform_1 i = cc5_transform_1 i'
  hinb5_1 : ∀ (i : grid5.Coords) a, (cc5_transform_1 i a + 1) * S16000x128.size a ≤ S320000x128.size a
  hwx5_1 : ∀ i : grid5.Coords, EltTy.bits .f32 = 32 ∨ (Rect.block (s := S320000x128) S16000x128.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S1x128.size a ≤ S1x128.size a
  hwx5_2 : ∀ i : grid5.Coords, EltTy.bits .f32 = 32 ∨ (Rect.block (s := S1x128) S1x128.size (cc5_transform_2 i) (hinb5_2 i)).WholeWords (EltTy.packing .f32)
  hstage6_0 : ∀ j, (stage6_0 j).IsWhole
  hstage6_1 : ∀ j, (stage6_1 j).IsWhole
  hstage6_2 : ∀ j, (stage6_2 j).IsWhole
  hstage6_3 : ∀ j, (stage6_3 j).IsWhole
  hstage6_4 : ∀ j, (stage6_4 j).IsWhole

variable [Facts₀]

abbrev cc1_scratch2 : DmaSems sig S_ := SemArray.consecutive 5 S_ hcc1_scratch2
abbrev cc1_scoped0 : DmaSems sig S_ := SemArray.consecutive 6 S_ hcc1_scoped0
abbrev cc3_scratch4 : DmaSems sig S_ := SemArray.consecutive 11 S_ hcc3_scratch4
abbrev cc3_scratch5 : DmaSems sig S_ := SemArray.consecutive 12 S_ hcc3_scratch5
abbrev cc3_scratch6 : DmaSems sig S_ := SemArray.consecutive 13 S_ hcc3_scratch6
abbrev cc3_scoped0 : DmaSems sig S_ := SemArray.consecutive 14 S_ hcc3_scoped0
def dot_S128x32_S10000x128_S32x10000_0_1_1_0_n_n : DotDims S128x32 S10000x128 S32x10000 where
  lhsContracting := [0]
  rhsContracting := [1]
  lhsNonContracting := [1]
  rhsNonContracting := [0]
  lhsBatch := []
  rhsBatch := []
  wf := dot_S128x32_S10000x128_S32x10000_0_1_1_0_n_n_wf
def dot_S1x16000_S16000x128_S1x128_1_0_0_1_n_n : DotDims S1x16000 S16000x128 S1x128 where
  lhsContracting := [1]
  rhsContracting := [0]
  lhsNonContracting := [0]
  rhsNonContracting := [1]
  lhsBatch := []
  rhsBatch := []
  wf := dot_S1x16000_S16000x128_S1x128_1_0_0_1_n_n_wf
def dot_S1x128_S128x10000_S1x10000_1_0_0_1_n_n : DotDims S1x128 S128x10000 S1x10000 where
  lhsContracting := [1]
  rhsContracting := [0]
  lhsNonContracting := [0]
  rhsNonContracting := [1]
  lhsBatch := []
  rhsBatch := []
  wf := dot_S1x128_S128x10000_S1x10000_1_0_0_1_n_n_wf

abbrev win0_0 : Pipeline.Window sig grid0 :=
  Pipeline.Window.whole (Memref.whole main_arg0) false false (stage0_0 0) (sem0_0 0) (Memref.isWhole_whole _) (hstage0_0 0)

abbrev win0_1 : Pipeline.Window sig grid0 :=
  Pipeline.Window.whole (Memref.whole main_arg2) false false (stage0_1 0) (sem0_1 0) (Memref.isWhole_whole _) (hstage0_1 0)

abbrev win0_2 : Pipeline.Window sig grid0 :=
  Pipeline.Window.whole (Memref.whole main_arg1) false false (stage0_2 0) (sem0_2 0) (Memref.isWhole_whole _) (hstage0_2 0)

abbrev win0_3 : Pipeline.Window sig grid0 :=
  Pipeline.Window.whole (Memref.whole main_v0_0) true false (stage0_3 0) (sem0_3 0) (Memref.isWhole_whole _) (hstage0_3 0)

abbrev win0_4 : Pipeline.Window sig grid0 :=
  Pipeline.Window.whole (Memref.whole main_v0_1) true false (stage0_4 0) (sem0_4 0) (Memref.isWhole_whole _) (hstage0_4 0)

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev win2_0 : Pipeline.Window sig grid2 :=
  Pipeline.Window.whole (Memref.whole main_v2) false false (stage2_0 0) (sem2_0 0) (Memref.isWhole_whole _) (hstage2_0 0)

abbrev win2_1 : Pipeline.Window sig grid2 :=
  Pipeline.Window.whole (Memref.whole main_v0_0) false false (stage2_1 0) (sem2_1 0) (Memref.isWhole_whole _) (hstage2_1 0)

abbrev win2_2 : Pipeline.Window sig grid2 :=
  Pipeline.Window.whole (Memref.whole main_v3_0) true false (stage2_2 0) (sem2_2 0) (Memref.isWhole_whole _) (hstage2_2 0)

abbrev win2_3 : Pipeline.Window sig grid2 :=
  Pipeline.Window.whole (Memref.whole main_v3_1) true false (stage2_3 0) (sem2_3 0) (Memref.isWhole_whole _) (hstage2_3 0)

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev win4_0 : Pipeline.Window sig grid4 :=
  Pipeline.Window.whole (Memref.whole main_v4) false false (stage4_0 0) (sem4_0 0) (Memref.isWhole_whole _) (hstage4_0 0)

abbrev win4_1 : Pipeline.Window sig grid4 :=
  Pipeline.Window.whole (Memref.whole main_v3_1) false false (stage4_1 0) (sem4_1 0) (Memref.isWhole_whole _) (hstage4_1 0)

abbrev win4_2 : Pipeline.Window sig grid4 :=
  Pipeline.Window.whole (Memref.whole main_v3_0) false false (stage4_2 0) (sem4_2 0) (Memref.isWhole_whole _) (hstage4_2 0)

abbrev win4_3 : Pipeline.Window sig grid4 :=
  Pipeline.Window.whole (Memref.whole main_v5) false false (stage4_3 0) (sem4_3 0) (Memref.isWhole_whole _) (hstage4_3 0)

abbrev win4_4 : Pipeline.Window sig grid4 :=
  Pipeline.Window.whole (Memref.whole main_v6) true false (stage4_4 0) (sem4_4 0) (Memref.isWhole_whole _) (hstage4_4 0)

abbrev win4 : Fin 5 → Pipeline.Window sig grid4 := fun | 0 => win4_0 | 1 => win4_1 | 2 => win4_2 | 3 => win4_3 | 4 => win4_4 | ⟨_ + 5, h⟩ => absurd h (Nat.not_lt.2 (Nat.le_add_left _ _))
abbrev spec4 : Fin 5 → Pipeline.WinSpec sig grid4.rank := fun w => (win4 w).toWinSpec

abbrev win5_0 : Pipeline.Window sig grid5 :=
  Pipeline.Window.ofSpec (Memref.whole main_v8) S1x16000.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_arg4) S16000x128.size cc5_transform_1 reads5_1 false false 2 stage5_1 sem5_1
    hrank5 hreads5_1 hinb5_1 nbuf5_1 (Memref.isWhole_whole _) hwx5_1 hstage5_1

abbrev win5_2 : Pipeline.Window sig grid5 :=
  Pipeline.Window.ofSpec (Memref.whole main_v9) S1x128.size cc5_transform_2 reads5_2 true true 1 stage5_2 sem5_2
    hrank5 hreads5_2 hinb5_2 nbuf5_2 (Memref.isWhole_whole _) hwx5_2 hstage5_2

abbrev win5 : Fin 3 → Pipeline.Window sig grid5 := fun | 0 => win5_0 | 1 => win5_1 | 2 => win5_2 | ⟨_ + 3, h⟩ => absurd h (Nat.not_lt.2 (Nat.le_add_left _ _))
abbrev spec5 : Fin 3 → Pipeline.WinSpec sig grid5.rank := fun w => (win5 w).toWinSpec

abbrev win6_0 : Pipeline.Window sig grid6 :=
  Pipeline.Window.whole (Memref.whole main_v9) false false (stage6_0 0) (sem6_0 0) (Memref.isWhole_whole _) (hstage6_0 0)

abbrev win6_1 : Pipeline.Window sig grid6 :=
  Pipeline.Window.whole (Memref.whole main_v10) false false (stage6_1 0) (sem6_1 0) (Memref.isWhole_whole _) (hstage6_1 0)

abbrev win6_2 : Pipeline.Window sig grid6 :=
  Pipeline.Window.whole (Memref.whole main_arg6) false false (stage6_2 0) (sem6_2 0) (Memref.isWhole_whole _) (hstage6_2 0)

abbrev win6_3 : Pipeline.Window sig grid6 :=
  Pipeline.Window.whole (Memref.whole main_v11) false false (stage6_3 0) (sem6_3 0) (Memref.isWhole_whole _) (hstage6_3 0)

abbrev win6_4 : Pipeline.Window sig grid6 :=
  Pipeline.Window.whole (Memref.whole main_v12) true false (stage6_4 0) (sem6_4 0) (Memref.isWhole_whole _) (hstage6_4 0)

abbrev win6 : Fin 5 → Pipeline.Window sig grid6 := fun | 0 => win6_0 | 1 => win6_1 | 2 => win6_2 | 3 => win6_3 | 4 => win6_4 | ⟨_ + 5, h⟩ => absurd h (Nat.not_lt.2 (Nat.le_add_left _ _))
abbrev spec6 : Fin 5 → Pipeline.WinSpec sig grid6.rank := fun w => (win6 w).toWinSpec

class Facts : Prop extends Facts₀ where

variable [Facts]
-- ==== ReferenceIdeal.lean ====
abbrev S10000x128 : Shape := ⟨2, ![10000, 128]⟩
abbrev S2x160000 : Shape := ⟨2, ![2, 160000]⟩
abbrev S128x32 : Shape := ⟨2, ![128, 32]⟩
abbrev S32 : Shape := ⟨1, ![32]⟩
abbrev S320000x128 : Shape := ⟨2, ![320000, 128]⟩
abbrev S128 : Shape := ⟨1, ![128]⟩
abbrev S128x10000 : Shape := ⟨2, ![128, 10000]⟩
abbrev S10000 : Shape := ⟨1, ![10000]⟩
abbrev S1x160000 : Shape := ⟨2, ![1, 160000]⟩
abbrev S160000 : Shape := ⟨1, ![160000]⟩
abbrev S170000 : Shape := ⟨1, ![170000]⟩
abbrev S_ : Shape := ⟨0, ![]⟩
abbrev S170000x1 : Shape := ⟨2, ![170000, 1]⟩
abbrev S10000x32 : Shape := ⟨2, ![10000, 32]⟩
abbrev S170000x32 : Shape := ⟨2, ![170000, 32]⟩
abbrev S1x32 : Shape := ⟨2, ![1, 32]⟩
abbrev S1x320000 : Shape := ⟨2, ![1, 320000]⟩
abbrev S1x128 : Shape := ⟨2, ![1, 128]⟩
abbrev S1x10000 : Shape := ⟨2, ![1, 10000]⟩

abbrev nBuf : Space → Nat
  | .hbm => 101
  | .vmem => 0
  | .smem => 0
  | _ => 0

abbrev bufTy : (tb : Table) → Fin (tcTables nBuf tb) → BufTy
  | .hbm, ⟨0, _⟩ => ⟨S10000x128, .f32⟩
  | .hbm, ⟨1, _⟩ => ⟨S2x160000, .i32⟩
  | .hbm, ⟨2, _⟩ => ⟨S128x32, .f32⟩
  | .hbm, ⟨3, _⟩ => ⟨S32, .f32⟩
  | .hbm, ⟨4, _⟩ => ⟨S320000x128, .f32⟩
  | .hbm, ⟨5, _⟩ => ⟨S128, .f32⟩
  | .hbm, ⟨6, _⟩ => ⟨S128x10000, .f32⟩
  | .hbm, ⟨7, _⟩ => ⟨S10000, .f32⟩
  | .hbm, ⟨8, _⟩ => ⟨S10000, .i32⟩
  | .hbm, ⟨9, _⟩ => ⟨S1x160000, .i32⟩
  | .hbm, ⟨10, _⟩ => ⟨S160000, .i32⟩
  | .hbm, ⟨11, _⟩ => ⟨S170000, .i32⟩
  | .hbm, ⟨12, _⟩ => ⟨S1x160000, .i32⟩
  | .hbm, ⟨13, _⟩ => ⟨S160000, .i32⟩
  | .hbm, ⟨14, _⟩ => ⟨S170000, .i32⟩
  | .hbm, ⟨15, _⟩ => ⟨S_, .f32⟩
  | .hbm, ⟨16, _⟩ => ⟨S10000, .f32⟩
  | .hbm, ⟨17, _⟩ => ⟨S_, .i32⟩
  | .hbm, ⟨18, _⟩ => ⟨S170000, .i32⟩
  | .hbm, ⟨19, _⟩ => ⟨S170000, .i1⟩
  | .hbm, ⟨20, _⟩ => ⟨S_, .i32⟩
  | .hbm, ⟨21, _⟩ => ⟨S170000, .i32⟩
  | .hbm, ⟨22, _⟩ => ⟨S170000, .i32⟩
  | .hbm, ⟨23, _⟩ => ⟨S170000, .i32⟩
  | .hbm, ⟨24, _⟩ => ⟨S170000x1, .i32⟩
  | .hbm, ⟨25, _⟩ => ⟨S_, .f32⟩
  | .hbm, ⟨26, _⟩ => ⟨S170000, .f32⟩
  | .hbm, ⟨27, _⟩ => ⟨S10000, .f32⟩
  | .hbm, ⟨28, _⟩ => ⟨S_, .f32⟩
  | .hbm, ⟨29, _⟩ => ⟨S10000, .f32⟩
  | .hbm, ⟨30, _⟩ => ⟨S10000, .i1⟩
  | .hbm, ⟨31, _⟩ => ⟨S10000, .f32⟩
  | .hbm, ⟨32, _⟩ => ⟨S_, .f32⟩
  | .hbm, ⟨33, _⟩ => ⟨S10000, .f32⟩
  | .hbm, ⟨34, _⟩ => ⟨S10000, .f32⟩
  | .hbm, ⟨35, _⟩ => ⟨S_, .f32⟩
  | .hbm, ⟨36, _⟩ => ⟨S_, .f32⟩
  | .hbm, ⟨37, _⟩ => ⟨S10000, .f32⟩
  | .hbm, ⟨38, _⟩ => ⟨S10000, .f32⟩
  | .hbm, ⟨39, _⟩ => ⟨S_, .i32⟩
  | .hbm, ⟨40, _⟩ => ⟨S170000, .i32⟩
  | .hbm, ⟨41, _⟩ => ⟨S170000, .i1⟩
  | .hbm, ⟨42, _⟩ => ⟨S_, .i32⟩
  | .hbm, ⟨43, _⟩ => ⟨S170000, .i32⟩
  | .hbm, ⟨44, _⟩ => ⟨S170000, .i32⟩
  | .hbm, ⟨45, _⟩ => ⟨S170000, .i32⟩
  | .hbm, ⟨46, _⟩ => ⟨S170000x1, .i32⟩
  | .hbm, ⟨47, _⟩ => ⟨S170000, .f32⟩
  | .hbm, ⟨48, _⟩ => ⟨S_, .i32⟩
  | .hbm, ⟨49, _⟩ => ⟨S170000, .i32⟩
  | .hbm, ⟨50, _⟩ => ⟨S170000, .i1⟩
  | .hbm, ⟨51, _⟩ => ⟨S_, .i32⟩
  | .hbm, ⟨52, _⟩ => ⟨S170000, .i32⟩
  | .hbm, ⟨53, _⟩ => ⟨S170000, .i32⟩
  | .hbm, ⟨54, _⟩ => ⟨S170000, .i32⟩
  | .hbm, ⟨55, _⟩ => ⟨S170000x1, .i32⟩
  | .hbm, ⟨56, _⟩ => ⟨S170000, .f32⟩
  | .hbm, ⟨57, _⟩ => ⟨S170000, .f32⟩
  | .hbm, ⟨58, _⟩ => ⟨S10000x32, .f32⟩
  | .hbm, ⟨59, _⟩ => ⟨S_, .i32⟩
  | .hbm, ⟨60, _⟩ => ⟨S170000, .i32⟩
  | .hbm, ⟨61, _⟩ => ⟨S170000, .i1⟩
  | .hbm, ⟨62, _⟩ => ⟨S_, .i32⟩
  | .hbm, ⟨63, _⟩ => ⟨S170000, .i32⟩
  | .hbm, ⟨64, _⟩ => ⟨S170000, .i32⟩
  | .hbm, ⟨65, _⟩ => ⟨S170000, .i32⟩
  | .hbm, ⟨66, _⟩ => ⟨S170000x1, .i32⟩
  | .hbm, ⟨67, _⟩ => ⟨S170000x32, .f32⟩
  | .hbm, ⟨68, _⟩ => ⟨S170000x1, .f32⟩
  | .hbm, ⟨69, _⟩ => ⟨S170000x32, .f32⟩
  | .hbm, ⟨70, _⟩ => ⟨S170000x32, .f32⟩
  | .hbm, ⟨71, _⟩ => ⟨S_, .f32⟩
  | .hbm, ⟨72, _⟩ => ⟨S10000x32, .f32⟩
  | .hbm, ⟨73, _⟩ => ⟨S_, .i32⟩
  | .hbm, ⟨74, _⟩ => ⟨S170000, .i32⟩
  | .hbm, ⟨75, _⟩ => ⟨S170000, .i1⟩
  | .hbm, ⟨76, _⟩ => ⟨S_, .i32⟩
  | .hbm, ⟨77, _⟩ => ⟨S170000, .i32⟩
  | .hbm, ⟨78, _⟩ => ⟨S170000, .i32⟩
  | .hbm, ⟨79, _⟩ => ⟨S170000, .i32⟩
  | .hbm, ⟨80, _⟩ => ⟨S170000x1, .i32⟩
  | .hbm, ⟨81, _⟩ => ⟨S10000x32, .f32⟩
  | .hbm, ⟨82, _⟩ => ⟨S1x32, .f32⟩
  | .hbm, ⟨83, _⟩ => ⟨S10000x32, .f32⟩
  | .hbm, ⟨84, _⟩ => ⟨S10000x32, .f32⟩
  | .hbm, ⟨85, _⟩ => ⟨S_, .f32⟩
  | .hbm, ⟨86, _⟩ => ⟨S10000x32, .f32⟩
  | .hbm, ⟨87, _⟩ => ⟨S10000x32, .f32⟩
  | .hbm, ⟨88, _⟩ => ⟨S1x320000, .f32⟩
  | .hbm, ⟨89, _⟩ => ⟨S1x128, .f32⟩
  | .hbm, ⟨90, _⟩ => ⟨S1x128, .f32⟩
  | .hbm, ⟨91, _⟩ => ⟨S1x128, .f32⟩
  | .hbm, ⟨92, _⟩ => ⟨S_, .f32⟩
  | .hbm, ⟨93, _⟩ => ⟨S1x128, .f32⟩
  | .hbm, ⟨94, _⟩ => ⟨S1x128, .f32⟩
  | .hbm, ⟨95, _⟩ => ⟨S1x10000, .f32⟩
  | .hbm, ⟨96, _⟩ => ⟨S1x10000, .f32⟩
  | .hbm, ⟨97, _⟩ => ⟨S1x10000, .f32⟩
  | .hbm, ⟨98, _⟩ => ⟨S_, .f32⟩
  | .hbm, ⟨99, _⟩ => ⟨S1x10000, .f32⟩
  | .hbm, ⟨100, _⟩ => ⟨S1x10000, .f32⟩
  | _, _ => ⟨S10000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_c : Ref sig .tc := ⟨.hbm, 17, rfl⟩
abbrev main_v8 : Ref sig .tc := ⟨.hbm, 18, rfl⟩
abbrev main_v9 : Ref sig .tc := ⟨.hbm, 19, rfl⟩
abbrev main_c_0 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_1 : Ref sig .tc := ⟨.hbm, 25, rfl⟩
abbrev main_v14 : Ref sig .tc := ⟨.hbm, 26, rfl⟩
abbrev main_v15 : Ref sig .tc := ⟨.hbm, 27, rfl⟩
abbrev main_cst_2 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_cst_3 : Ref sig .tc := ⟨.hbm, 32, rfl⟩
abbrev main_v19 : Ref sig .tc := ⟨.hbm, 33, rfl⟩
abbrev main_v20 : Ref sig .tc := ⟨.hbm, 34, rfl⟩
abbrev main_cst_4 : Ref sig .tc := ⟨.hbm, 35, rfl⟩
abbrev main_call0_v0 : Ref sig .tc := ⟨.hbm, 36, rfl⟩
abbrev main_call0_v1 : Ref sig .tc := ⟨.hbm, 37, rfl⟩
abbrev main_v21 : Ref sig .tc := ⟨.hbm, 38, rfl⟩
abbrev main_c_5 : Ref sig .tc := ⟨.hbm, 39, rfl⟩
abbrev main_v22 : Ref sig .tc := ⟨.hbm, 40, rfl⟩
abbrev main_v23 : Ref sig .tc := ⟨.hbm, 41, rfl⟩
abbrev main_c_6 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_c_7 : Ref sig .tc := ⟨.hbm, 48, rfl⟩
abbrev main_v29 : Ref sig .tc := ⟨.hbm, 49, rfl⟩
abbrev main_v30 : Ref sig .tc := ⟨.hbm, 50, rfl⟩
abbrev main_c_8 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_c_9 : Ref sig .tc := ⟨.hbm, 59, rfl⟩
abbrev main_v38 : Ref sig .tc := ⟨.hbm, 60, rfl⟩
abbrev main_v39 : Ref sig .tc := ⟨.hbm, 61, rfl⟩
abbrev main_c_10 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_cst_11 : Ref sig .tc := ⟨.hbm, 71, rfl⟩
abbrev main_v48 : Ref sig .tc := ⟨.hbm, 72, rfl⟩
abbrev main_c_12 : Ref sig .tc := ⟨.hbm, 73, rfl⟩
abbrev main_v49 : Ref sig .tc := ⟨.hbm, 74, rfl⟩
abbrev main_v50 : Ref sig .tc := ⟨.hbm, 75, rfl⟩
abbrev main_c_13 : Ref sig .tc := ⟨.hbm, 76, rfl⟩
abbrev main_v51 : Ref sig .tc := ⟨.hbm, 77, rfl⟩
abbrev main_v52 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_call1_cst : Ref sig .tc := ⟨.hbm, 85, rfl⟩
abbrev main_call1_v0 : Ref sig .tc := ⟨.hbm, 86, rfl⟩
abbrev main_v59 : Ref sig .tc := ⟨.hbm, 87, rfl⟩
abbrev main_v60 : Ref sig .tc := ⟨.hbm, 88, rfl⟩
abbrev main_v61 : Ref sig .tc := ⟨.hbm, 89, rfl⟩
abbrev main_v62 : Ref sig .tc := ⟨.hbm, 90, rfl⟩
abbrev main_v63 : Ref sig .tc := ⟨.hbm, 91, rfl⟩
abbrev main_call2_cst : Ref sig .tc := ⟨.hbm, 92, rfl⟩
abbrev main_call2_v0 : Ref sig .tc := ⟨.hbm, 93, rfl⟩
abbrev main_v64 : Ref sig .tc := ⟨.hbm, 94, rfl⟩
abbrev main_v65 : Ref sig .tc := ⟨.hbm, 95, rfl⟩
abbrev main_v66 : Ref sig .tc := ⟨.hbm, 96, rfl⟩
abbrev main_v67 : Ref sig .tc := ⟨.hbm, 97, rfl⟩
abbrev main_call3_cst : Ref sig .tc := ⟨.hbm, 98, rfl⟩
abbrev main_call3_v0 : Ref sig .tc := ⟨.hbm, 99, rfl⟩
abbrev main_v68 : Ref sig .tc := ⟨.hbm, 100, rfl⟩

abbrev nD : Nat := 1
abbrev τ : Topo := Topo.v7x

variable {F : FTy → Type} [FloatOps F]

class Facts₀ : Prop where
  slices_S2x160000_S1x160000_0_0 : S2x160000.Slices ![0, 0] S1x160000
  shapeCasts_S1x160000_S160000 : S1x160000.ShapeCasts S160000
  concatenates_S160000_S10000_S170000_d0 : Shape.Concatenates [S160000, S10000] S170000 0
  slices_S2x160000_S1x160000_1_0 : S2x160000.Slices ![1, 0] S1x160000
  bcast_S_S10000 : S_.BroadcastsInDim S10000 (![] : Fin 0 → Fin S10000.rank)
  bcast_S_S170000 : S_.BroadcastsInDim S170000 (![] : Fin 0 → Fin S170000.rank)
  bcast_S170000_S170000x1_0 : S170000.BroadcastsInDim S170000x1 (![0] : Fin 1 → Fin S170000x1.rank)
  bcast_S170000x1_S170000x32_0_1 : S170000x1.BroadcastsInDim S170000x32 (![0, 1] : Fin 2 → Fin S170000x32.rank)
  bcast_S_S10000x32 : S_.BroadcastsInDim S10000x32 (![] : Fin 0 → Fin S10000x32.rank)
  bcast_S32_S1x32_1 : S32.BroadcastsInDim S1x32 (![1] : Fin 1 → Fin S1x32.rank)
  bcast_S1x32_S10000x32_0_1 : S1x32.BroadcastsInDim S10000x32 (![0, 1] : Fin 2 → Fin S10000x32.rank)
  shapeCasts_S10000x32_S1x320000 : S10000x32.ShapeCasts S1x320000
  bcast_S128_S1x128_1 : S128.BroadcastsInDim S1x128 (![1] : Fin 1 → Fin S1x128.rank)
  bcast_S_S1x128 : S_.BroadcastsInDim S1x128 (![] : Fin 0 → Fin S1x128.rank)
  bcast_S10000_S1x10000_1 : S10000.BroadcastsInDim S1x10000 (![1] : Fin 1 → Fin S1x10000.rank)
  bcast_S_S1x10000 : S_.BroadcastsInDim S1x10000 (![] : Fin 0 → Fin S1x10000.rank)
  scatter_S10000_S170000x1_S170000_n_0_0_1_wf : ScatterDims.WF S10000 S170000x1 S170000 [] [0] [0] 1
  gather_S10000_S170000x1_S170000_n_0_n_n_0_1_1_wf : GatherDims.WF S10000 S170000x1 S170000 [] [0] [] [0] [] 1 ![1]
  dot_S10000x128_S128x32_S10000x32_1_0_0_1_n_n_wf : DotDims.WF S10000x128 S128x32 S10000x32 [1] [0] [0] [1] [] []
  gather_S10000x32_S170000x1_S170000x32_1_0_n_n_0_1_132_wf : GatherDims.WF S10000x32 S170000x1 S170000x32 [1] [0] [] [0] [] 1 ![1, 32]
  scatter_S10000x32_S170000x1_S170000x32_1_0_0_1_wf : ScatterDims.WF S10000x32 S170000x1 S170000x32 [1] [0] [0] 1
  dot_S1x320000_S320000x128_S1x128_1_0_0_1_n_n_wf : DotDims.WF S1x320000 S320000x128 S1x128 [1] [0] [0] [1] [] []
  dot_S1x128_S128x10000_S1x10000_1_0_0_1_n_n_wf : DotDims.WF S1x128 S128x10000 S1x10000 [1] [0] [0] [1] [] []

variable [Facts₀]

def scatter_S10000_S170000x1_S170000_n_0_0_1 : ScatterDims S10000 S170000x1 S170000 where
  updateWindowDims := []
  insertedWindowDims := [0]
  scatterDimsToOperandDims := [0]
  indexVectorDim := 1
  wf := scatter_S10000_S170000x1_S170000_n_0_0_1_wf
def gather_S10000_S170000x1_S170000_n_0_n_n_0_1_1 : GatherDims S10000 S170000x1 S170000 where
  offsetDims := []
  collapsedSliceDims := [0]
  operandBatchingDims := []
  startIndicesBatchingDims := []
  startIndexMap := [0]
  indexVectorDim := 1
  sliceSizes := ![1]
  wf := gather_S10000_S170000x1_S170000_n_0_n_n_0_1_1_wf
def dot_S10000x128_S128x32_S10000x32_1_0_0_1_n_n : DotDims S10000x128 S128x32 S10000x32 where
  lhsContracting := [1]
  rhsContracting := [0]
  lhsNonContracting := [0]
  rhsNonContracting := [1]
  lhsBatch := []
  rhsBatch := []
  wf := dot_S10000x128_S128x32_S10000x32_1_0_0_1_n_n_wf
def gather_S10000x32_S170000x1_S170000x32_1_0_n_n_0_1_132 : GatherDims S10000x32 S170000x1 S170000x32 where
  offsetDims := [1]
  collapsedSliceDims := [0]
  operandBatchingDims := []
  startIndicesBatchingDims := []
  startIndexMap := [0]
  indexVectorDim := 1
  sliceSizes := ![1, 32]
  wf := gather_S10000x32_S170000x1_S170000x32_1_0_n_n_0_1_132_wf
def scatter_S10000x32_S170000x1_S170000x32_1_0_0_1 : ScatterDims S10000x32 S170000x1 S170000x32 where
  updateWindowDims := [1]
  insertedWindowDims := [0]
  scatterDimsToOperandDims := [0]
  indexVectorDim := 1
  wf := scatter_S10000x32_S170000x1_S170000x32_1_0_0_1_wf
def dot_S1x320000_S320000x128_S1x128_1_0_0_1_n_n : DotDims S1x320000 S320000x128 S1x128 where
  lhsContracting := [1]
  rhsContracting := [0]
  lhsNonContracting := [0]
  rhsNonContracting := [1]
  lhsBatch := []
  rhsBatch := []
  wf := dot_S1x320000_S320000x128_S1x128_1_0_0_1_n_n_wf
def dot_S1x128_S128x10000_S1x10000_1_0_0_1_n_n : DotDims S1x128 S128x10000 S1x10000 where
  lhsContracting := [1]
  rhsContracting := [0]
  lhsNonContracting := [0]
  rhsNonContracting := [1]
  lhsBatch := []
  rhsBatch := []
  wf := dot_S1x128_S128x10000_S1x10000_1_0_0_1_n_n_wf

class Facts : Prop extends Facts₀ where

variable [Facts]
-- ==== Proof.Hand.Base.lean ====
/-
  The launch configuration shared by every module of this proof, generic in the float instance: the program as the
  SparseCore launch theorem sees it (its two tile-kernel calls over the five TensorCore pipelines' label signature),
  the ghost state (the handshakes' rounds, the pipelines' staging cells' rounds, the local transfers' counters) and the
  embeddings of each factor.
-/
import proofs.«207900_g17016660427224_cont_7to1_1372_35_alg».proof.Defs
import proofs.«207900_g17016660427224_cont_7to1_1372_35_alg».proof.Proof.Gen.KernelIdeal
import proofs.«207900_g17016660427224_cont_7to1_1372_35_alg».proof.Proof.Gen.KernelIdeal.Launch
import Idealize.ShloMosaic.Lib.SparseCore.Launch
import Idealize.ShloMosaic.Lib.Pipeline.Kit
import Idealize.ShloMosaic.Lib.Pipeline.Regions
import Idealize.ShloMosaic.Lib.Transfers

noncomputable section

namespace Cert.KernelIdeal.Hand

open Cert.KernelIdeal Cert.KernelIdeal.Gen
open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

/-- The label signature the two SparseCore calls extend: the five pipelines'. -/
abbrev ΛP : Labels := Pipeline.Sig Λ₀ (Fin 5) fun p => (pcfgs (F := F) p).Adm
/-- The program's SparseCore configuration, under the name the launch theorem uses. -/
abbrev K : SparseCore.Cfg τ sig (ΛP (F := F)) 2 := sc (F := F)
/-- The body table the calls extend: the pipelines' over the kernels'. -/
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

/-- No pipeline has a prefetched table. -/
abbrev adm : (p : Fin 5) → (pcfgs (F := F) p).Adm := fun p => (cfgs p).toPCfg_adm

theorem nSub_zero : (K (F := F)).nSub 0 = 16 := rfl
theorem nSub_one : (K (F := F)).nSub 1 = 16 := rfl
theorem nCore_zero : (K (F := F)).nCore 0 = 2 := rfl
theorem nCore_one : (K (F := F)).nCore 1 = 2 := rfl

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra -/

/-- The handshakes' rounds. -/
abbrev UH : Type := URounds (GSem nD τ sig) ℕ
/-- The pipelines' staging cells' rounds. -/
abbrev UP : Type := URounds (GSem nD τ sig) Unit
/-- Handshakes, staging cells, the tile kernels' local transfers' counters. -/
abbrev UU : Type := UH × (UP × Counters)

/-- The handshakes' factor. -/
abbrev EH : Emb UH (MT nD τ sig (HIx 2) (Elt F) ℕ UU ℕ) := embL
/-- The staging cells' factor. -/
def EP : Emb UP (MT nD τ sig (HIx 2) (Elt F) ℕ UU ℕ) :=
  ((Emb.inl : Emb UP (UP × Counters)).trans (Emb.inr : Emb (UP × Counters) UU)).trans
    (uEmb (nD := nD) (sig := sig) (Ix := HIx 2) (Val := Elt F) (Name := ℕ) (U := UU) (Lvl := ℕ)).toEmb

instance EP_landsIn : (EP : Emb UP (MT nD τ sig (HIx 2) (Elt F) ℕ UU ℕ)).LandsIn (upEmb : UEmb _ (MT nD τ sig (HIx 2) (Elt F) ℕ UU ℕ)) := by
  unfold EP; infer_instance

example : CountersIn UU := inferInstance

end Cert.KernelIdeal.Hand

end
-- ==== Proof.Hand.Sc0.lean ====
/-
  SparseCore call 0 of the program: the degree histogram. Each of the 32 tiles (two SparseCores of sixteen) copies its
  5000 packed edge words into tile memory, clears a 10000-word accumulator, adds 1.0 at the low fourteen bits of every
  word (312 full vectors of sixteen lanes and a half-masked tail), and writes the accumulator to its row of the
  32 x 10000 result. Stated here: what a tile leaves in its row as a pure fold (`degRow`), the tile's triple, how a
  SparseCore's share of the two arrays splits among its tiles and joins back, and the conversions between the whole
  arrays and the per-SparseCore shares.
-/
import proofs.«207900_g17016660427224_cont_7to1_1372_35_alg».proof.Proof.Hand.Base
import proofs.«207900_g17016660427224_cont_7to1_1372_35_alg».proof.Proof.Gen.KernelIdeal.Skeleton
import Idealize.ShloMosaic.Lib.SparseCore.Ops
import Idealize.ShloMosaic.Lib.Tactic

noncomputable section

namespace Cert.KernelIdeal.Hand.Sc0

open Cert.KernelIdeal Cert.KernelIdeal.Gen Cert.KernelIdeal.Hand
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 2) (Elt F) ℕ UU ℕ

/-! ## The value: what a tile leaves in its accumulator -/

/-- Word `n` of the packed edge array; zero past its end. -/
def epAt (ep : Vec F S160000 .i32) (n : Nat) : BitVec 32 :=
  if h : n < 160000 then ep (Shape.ofLane (d := ![160000]) ⟨n, h⟩) else 0#32

/-- Every packed word's low fourteen bits name a node: below 10000. -/
def IdxOK (ep : Vec F S160000 .i32) : Prop := ∀ j : S160000.Idx, (IntOp.andi (ep j) 16383#32).toNat < 10000

/-- The sixteen destination indices tile `w` reads at position `p` of its slice: the low fourteen bits of words
    `5000 w + p + x`, `x < 16`. -/
def idxv (ep : Vec F S160000 .i32) (w : Fin 32) (p : Nat) : IVec S16 32 :=
  fun x => IntOp.andi (epAt ep (5000 * w.val + p + (x 0).val)) 16383#32

variable [FloatOps F]

/-- One indexed add of the vector of ones: lanes in ascending order, each set lane adding 1.0 at the element its index
    names. The same fold as the machine's indexed store with add, stated without the in-range evidence. -/
def scat (g : Vec F S10000 .f32) (idx : IVec S16 32) (mask : IVec S16 1) : Vec F S10000 .f32 :=
  (List.finRange 16).foldl (fun g k =>
    if mask (Shape.ofLane (d := ![16]) k) = 1 then
      fun j => if (j 0).val = (idx (Shape.ofLane (d := ![16]) k)).toNat
        then Elt.idxAdd .f32 (g j) ((k1_pay2 (F := F)) (Shape.ofLane (d := ![16]) k)) else g j
    else g) g

/-- The accumulator after `k` full vectors: from zero, vector `k'` (words `16 k'` to `16 k' + 15` of the slice) added
    for each `k' < k`. -/
def acc (ep : Vec F S160000 .i32) (w : Fin 32) : Nat → Vec F S10000 .f32
  | 0 => fun _ => Scalar.ofBits .f32 0x00000000#32
  | k + 1 => scat (acc ep w k) (idxv ep w (16 * k)) (fun _ => 1#1)

/-- What tile `w` leaves: the 312 full vectors, then the last sixteen words with the upper eight lanes set (the lower
    eight were counted by vector 311). -/
def degRow (ep : Vec F S160000 .i32) (w : Fin 32) : Vec F S10000 .f32 :=
  scat (acc ep w 312) (idxv ep w 4984) k1_pay4

/-- The result array: row `w` is tile `w`'s. -/
def degP (ep : Vec F S160000 .i32) : Vec F S32x10000 .f32 :=
  fun j => degRow ep (j 0) (Shape.ofLane (d := ![10000]) (j 1))

theorem acc_zero (ep : Vec F S160000 .i32) (w : Fin 32) : acc ep w 0 = fun _ => Scalar.ofBits .f32 0x00000000#32 := rfl
theorem acc_succ (ep : Vec F S160000 .i32) (w : Fin 32) (k : Nat) :
    acc ep w (k + 1) = scat (acc ep w k) (idxv ep w (16 * k)) (fun _ => 1#1) := rfl
theorem degRow_eq (ep : Vec F S160000 .i32) (w : Fin 32) : degRow ep w = scat (acc ep w 312) (idxv ep w 4984) k1_pay4 := rfl
theorem degP_apply (ep : Vec F S160000 .i32) (j : S32x10000.Idx) :
    degP ep j = degRow ep (j 0) (Shape.ofLane (d := ![10000]) (j 1)) := rfl

/-! ## The arrays, the tiles' shares -/

/-- The packed edge words and the result, as locations of device `d`. -/
abbrev epLoc (d : Dev nD) : Loc nD τ sig := (SparseCore.T d).loc main_v1
abbrev dgLoc (d : Dev nD) : Loc nD τ sig := (SparseCore.T d).loc main_v2

abbrev epV : Memref sig .scVector .hbm S160000 .i32 := Memref.whole main_v1_scv
abbrev dgV : Memref sig .scVector .hbm S32x10000 .f32 := Memref.whole main_v2_scv
/-- A tile's scratch: its slice of the words, its accumulator. -/
abbrev sE : Memref sig .scVector .vmem S5000 .i32 := Memref.whole cc1_scratch0
abbrev sA : Memref sig .scVector .vmem S10000 .f32 := Memref.whole cc1_scratch1

theorem hdivE : 32 ∣ S160000.size 0 := ⟨5000, rfl⟩
theorem hdivD : 32 ∣ S32x10000.size 0 := ⟨1, rfl⟩
/-- Tile `w`'s 5000 words, and its row of the result. -/
abbrev epPart (w : Fin 32) : Rect S160000 := Rect.part (s := S160000) (a₀ := 0) hdivE w
abbrev dgPart (w : Fin 32) : Rect S32x10000 := Rect.part (s := S32x10000) (a₀ := 0) hdivD w
abbrev epSet (w : Fin 32) : Finset S160000.Idx := ((epV : Memref sig .scVector .hbm S160000 .i32).view.slice (epPart w)).set
abbrev dgSet (w : Fin 32) : Finset S32x10000.Idx := ((dgV : Memref sig .scVector .hbm S32x10000 .f32).view.slice (dgPart w)).set

/-- The tile number of subcore `i` of SparseCore `c`: `2 i + c`. -/
def wid (c : Fin ((K (F := F)).nCore 0)) (i : Fin ((K (F := F)).nSub 0)) : Fin 32 :=
  ⟨2 * i.val + c.val, by
    have hc : c.val < 2 := c.isLt
    have hi : i.val < 16 := i.isLt
    omega⟩

variable (ep : Vec F S160000 .i32)

/-- What a tile is handed: its words, and its row of the result at anything. -/
def go (d : Dev nD) (c : Fin ((K (F := F)).nCore 0)) (i : Fin ((K (F := F)).nSub 0)) : sProp 𝕄 :=
  iprop((epLoc d ↦[epSet (wid (F := F) c i)]{fullShare} ep) ∗ ∃ f, dgLoc d ↦[dgSet (wid (F := F) c i)]{fullShare} f)
/-- What it hands back: its words, and its row at the tile's fold. -/
def td (d : Dev nD) (c : Fin ((K (F := F)).nCore 0)) (i : Fin ((K (F := F)).nSub 0)) : sProp 𝕄 :=
  iprop((epLoc d ↦[epSet (wid (F := F) c i)]{fullShare} ep) ∗ dgLoc d ↦[dgSet (wid (F := F) c i)]{fullShare} degP ep)
/-- A SparseCore's share: its sixteen tiles'. -/
def st (d : Dev nD) (c : Fin ((K (F := F)).nCore 0)) : sProp 𝕄 := bigSep Finset.univ fun i : Fin ((K (F := F)).nSub 0) => go ep d c i
def dn (d : Dev nD) (c : Fin ((K (F := F)).nCore 0)) : sProp 𝕄 := bigSep Finset.univ fun i : Fin ((K (F := F)).nSub 0) => td ep d c i

instance go_storable (d : Dev nD) (c : Fin ((K (F := F)).nCore 0)) (i : Fin ((K (F := F)).nSub 0)) : BI.Storable (upEmb : UEmb _ 𝕄) (go ep d c i) := by
  unfold go; infer_instance
instance td_storable (d : Dev nD) (c : Fin ((K (F := F)).nCore 0)) (i : Fin ((K (F := F)).nSub 0)) : BI.Storable (upEmb : UEmb _ 𝕄) (td ep d c i) := by
  unfold td; infer_instance
instance st_storable (d : Dev nD) (c : Fin ((K (F := F)).nCore 0)) : BI.Storable (upEmb : UEmb _ 𝕄) (st ep d c) := by
  unfold st; infer_instance
instance dn_storable (d : Dev nD) (c : Fin ((K (F := F)).nCore 0)) : BI.Storable (upEmb : UEmb _ 𝕄) (dn ep d c) := by
  unfold dn; infer_instance

/-! ## The tile -/

abbrev cV (L : grid1.Coords) : Fin τ.nSC := (L 0).castLE hcore1
abbrev jV (L : grid1.Coords) : Fin τ.nSub := (L 1).castLE hsub1
abbrev cQ (L : grid1.Coords) : Fin ((K (F := F)).nCore 0) := Fin.cast rfl (L 0)
abbrev iQ (L : grid1.Coords) : Fin ((K (F := F)).nSub 0) := Fin.cast rfl (L 1)

section Tile

variable (d : Dev nD) (L : grid1.Coords)

-- the folds are never evaluated: they are rewritten by their equations
attribute [local irreducible] acc scat degRow degP

/-- The tile number at grid coordinates `L`. -/
def widL (L : grid1.Coords) : Fin 32 :=
  ⟨2 * (L 1).val + (L 0).val, by
    have hc : (L 0).val < 2 := (L 0).isLt
    have hi : (L 1).val < 16 := (L 1).isLt
    omega⟩

omit [FloatOps F] in
theorem wid_cQ : wid (F := F) (cQ (F := F) L) (iQ (F := F) L) = widL L := rfl

abbrev epRect (L : grid1.Coords) : Rect S160000 := Rect.unit (s := S160000) (k1_off1 L) S5000.size (k1_off1_inb L)
abbrev dgRect (L : grid1.Coords) : Rect S32x10000 := Rect.unit (s := S32x10000) (k1_off4 L) S1x10000.size (k1_off4_inb L)
/-- The tile's words and its row, as the kernel slices them. -/
abbrev epSl (L : grid1.Coords) : Memref sig .scVector .hbm S5000 .i32 := (epV : Memref sig .scVector .hbm S160000 .i32).slice (epRect L) (fun _ => rfl)
abbrev dgRow (L : grid1.Coords) : Memref sig .scVector .hbm S10000 .f32 :=
  ((dgV : Memref sig .scVector .hbm S32x10000 .f32).slice (dgRect L) (fun _ => rfl)).squeeze S10000 squeezes_S1x10000_S10000

abbrev semA (d : Dev nD) (L : grid1.Coords) : GSem nD τ sig := (V d (cV L) (jV L), .dma cc1_scratch2.sem)
abbrev semB (d : Dev nD) (L : grid1.Coords) : GSem nD τ sig := (V d (cV L) (jV L), .dma cc1_scoped0.sem)

omit [FloatOps F] in
theorem epRect_eq : epRect L = epPart (widL L) := by
  unfold epRect epPart Rect.part Rect.block
  congr 1 <;> funext a
  · rw [k1_off1_eq]
    match a with
    | 0 => simp [Shape.partIx, Shape.partSize, widL]; omega
  · match a with
    | 0 => simp [Shape.partSize]
omit [FloatOps F] in
theorem dgRect_eq : dgRect L = dgPart (widL L) := by
  unfold dgRect dgPart Rect.part Rect.block
  congr 1 <;> funext a
  · rw [k1_off4_eq]
    match a with
    | 0 => simp [Shape.partIx, Shape.partSize, widL]
    | 1 => simp [Shape.partIx, Shape.partSize]
  · match a with
    | 0 => simp [Shape.partSize]
    | 1 => simp [Shape.partSize]

omit [FloatOps F] in
theorem set_epSl : (epSl L).view.set = epSet (widL L) := by
  show ((epV : Memref sig .scVector .hbm S160000 .i32).view.slice (epRect L)).set = ((epV : Memref sig .scVector .hbm S160000 .i32).view.slice (epPart (widL L))).set
  rw [epRect_eq]
omit [FloatOps F] in
theorem set_dgRow : (dgRow L).view.set = dgSet (widL L) := by
  show (((dgV : Memref sig .scVector .hbm S32x10000 .f32).view.slice (dgRect L)).reshape S10000 squeezes_S1x10000_S10000.numel_eq).set = _
  rw [View.set_reshape]
  show ((dgV : Memref sig .scVector .hbm S32x10000 .f32).view.slice (dgRect L)).set = ((dgV : Memref sig .scVector .hbm S32x10000 .f32).view.slice (dgPart (widL L))).set
  rw [dgRect_eq]

omit [FloatOps F] in
theorem pts_epSl (f : Buf (Elt F) (epLoc d)) :
    ((epSl L).view.loc (V d (cV L) (jV L)) ↦[(epSl L).view.set]{fullShare} f : sProp 𝕄) = epLoc d ↦[epSet (widL L)]{fullShare} f := by
  rw [set_epSl]
omit [FloatOps F] in
theorem pts_dgRow (f : Buf (Elt F) (dgLoc d)) :
    ((dgRow L).view.loc (V d (cV L) (jV L)) ↦[(dgRow L).view.set]{fullShare} f : sProp 𝕄) = dgLoc d ↦[dgSet (widL L)]{fullShare} f := by
  rw [set_dgRow]
omit [FloatOps F] in
theorem pts_sE (f : Buf (Elt F) ((V d (cV L) (jV L)).loc cc1_scratch0)) :
    ((sE : Memref sig .scVector .vmem S5000 .i32).view.loc (V d (cV L) (jV L)) ↦[(sE : Memref sig .scVector .vmem S5000 .i32).view.set]{fullShare} f : sProp 𝕄)
      = (V d (cV L) (jV L)).loc cc1_scratch0 ↦{fullShare} f := by
  simp only [Memref.view_whole, View.set_whole]
omit [FloatOps F] in
theorem pts_sA (f : Buf (Elt F) ((V d (cV L) (jV L)).loc cc1_scratch1)) :
    ((sA : Memref sig .scVector .vmem S10000 .f32).view.loc (V d (cV L) (jV L)) ↦[(sA : Memref sig .scVector .vmem S10000 .f32).view.set]{fullShare} f : sProp 𝕄)
      = (V d (cV L) (jV L)).loc cc1_scratch1 ↦{fullShare} f := by
  simp only [Memref.view_whole, View.set_whole]
omit [FloatOps F] in
theorem pts_sA_whole (f : Buf (Elt F) ((V d (cV L) (jV L)).loc cc1_scratch1)) :
    (((sA : Memref sig .scVector .vmem S10000 .f32).access (.whole S10000)).loc (V d (cV L) (jV L)) ↦[((sA : Memref sig .scVector .vmem S10000 .f32).access (.whole S10000)).set]{fullShare} f : sProp 𝕄)
      = (V d (cV L) (jV L)).loc cc1_scratch1 ↦{fullShare} f := by
  rw [show ((sA : Memref sig .scVector .vmem S10000 .f32).access (.whole S10000)).set = Finset.univ from Memref.set_access_whole (cc1_scratch1 : Ref sig .scVector)]

omit [FloatOps F] in
theorem ownSems0_V :
    (ownSems0 (V d (cV L) (jV L)) : sProp 𝕄)
      = iprop(semVal (semA d L) 0 ∗ semVal (semB d L) 0
          ∗ bigSep (((ownCells (V d (cV L) (jV L))).erase (semA d L)).erase (semB d L)) fun g => semVal g 0) := by
  unfold SparseCore.Cfg.ownSems0
  rw [SparseCore.bigSep_erase' ((mem_ownCells (g := semA d L)).mpr ⟨rfl, by
      show (SemLoc.dma cc1_scratch2.sem : SemLoc sig).isScoped .scVector = true; decide⟩),
    SparseCore.bigSep_erase' (Finset.mem_erase.mpr ⟨by simp [semA, semB]; decide, (mem_ownCells (g := semB d L)).mpr ⟨rfl, by
      show (SemLoc.dma cc1_scoped0.sem : SemLoc sig).isScoped .scVector = true; decide⟩⟩)]

omit [FloatOps F] in
theorem ownBufs_V :
    (ownBufs (V d (cV L) (jV L)) : sProp 𝕄)
      = iprop((∃ f, (V d (cV L) (jV L)).loc cc1_scratch0 ↦{fullShare} f) ∗ (∃ f, (V d (cV L) (jV L)).loc cc1_scratch1 ↦{fullShare} f)
          ∗ bigSep (((ownRefs (τ := τ) (.scVector (cV L) (jV L))).erase ((Proc.scVector (cV L) (jV L)).devRef cc1_scratch0)).erase
              ((Proc.scVector (cV L) (jV L)).devRef cc1_scratch1))
              fun b => iprop(∃ f, ((d, b) : Loc nD τ sig) ↦{fullShare} f)) := by
  unfold SparseCore.Cfg.ownBufs
  refine (SparseCore.bigSep_erase' (SparseCore.Cfg.mem_ownRefs_of_owner (p := Proc.scVector (cV L) (jV L))
    (b := (Proc.scVector (cV L) (jV L)).devRef cc1_scratch0) rfl)).trans ?_
  rw [SparseCore.bigSep_erase' (Finset.mem_erase.mpr ⟨fun e => absurd (Proc.devRef_injective _ e) (show (cc1_scratch1 : Ref sig .scVector) ≠ cc1_scratch0 by decide),
    SparseCore.Cfg.mem_ownRefs_of_owner (p := Proc.scVector (cV L) (jV L)) (b := (Proc.scVector (cV L) (jV L)).devRef cc1_scratch1) rfl⟩)]

omit [FloatOps F] in
/-- The tile's slice of the words, read through the kernel's own slice of the array. -/
theorem slab_apply (j : S5000.Idx) : (epSl L).view.read (Elt F) ep j = epAt ep (5000 * (widL L).val + (j 0).val) := by
  rw [View.read_apply]
  unfold epAt
  have hlt : 5000 * (widL L).val + (j 0).val < 160000 := by
    have h1 : (j 0).val < 5000 := (j 0).isLt
    have h2 : (widL L).val < 32 := (widL L).isLt
    omega
  rw [dif_pos hlt]
  refine (cast_eq _ _).trans ?_
  congr 1
  funext a
  have ha : a = (0 : Fin 1) := Subsingleton.elim (α := Fin 1) a 0
  subst ha
  apply Fin.ext
  have h1 := congrFun (k1_off1_eq L) 0
  simp only [Matrix.cons_val_zero] at h1
  show k1_off1 L 0 + 1 * (j 0).val = 5000 * (widL L).val + (j 0).val
  rw [h1]; simp only [widL]; omega

omit [FloatOps F] in
/-- What the copy leaves in the tile's word scratch. -/
theorem slab_fact (g : Buf (Elt F) ((V d (cV L) (jV L)).loc cc1_scratch0)) (p : S5000.Idx → Elt F .i32) (hp : p = (epSl L).view.read (Elt F) ep) (j : S5000.Idx) :
    ((sE : Memref sig .scVector .vmem S5000 .i32).view.writes (Elt F) g [⟨Rect.whole S5000, p⟩]) j = epAt ep (5000 * (widL L).val + (j 0).val) := by
  subst hp
  rw [View.writes_singleton]
  have h := Memref.write_access_whole_univ (Elt F) (cc1_scratch0 : Ref sig .scVector) g ((epSl L).view.read (Elt F) ep)
  exact (congrFun h j).trans (slab_apply ep L j)

omit [FloatOps F] in
theorem idxv_lt (hidx : IdxOK ep) (w : Fin 32) (p : Nat) (x : S16.Idx) : (idxv ep w p x).toNat < 10000 := by
  unfold idxv epAt
  split
  · exact hidx _
  · decide

omit [FloatOps F] in
theorem chk_idxv (hidx : IdxOK ep) (w : Fin 32) (p : Nat) :
    ∀ a x, ((![idxv ep w p] : Fin 1 → IVec S16 32) a x).toNat < S10000.size a := by
  intro a x
  have ha : a = (0 : Fin 1) := Subsingleton.elim (α := Fin 1) a 0
  subst ha
  exact idxv_lt ep hidx w p x

omit [FloatOps F] in
/-- The sixteen indices read at offset `p` of the word scratch. -/
theorem vload_eq (s1 : Buf (Elt F) ((V d (cV L) (jV L)).loc cc1_scratch0))
    (hs1 : ∀ j : S5000.Idx, s1 j = epAt ep (5000 * (widL L).val + (j 0).val))
    (off : Fin 1 → Nat) (p : Nat) (hoff : off 0 = p) (inb : ∀ a, off a + S16.size a ≤ S5000.size a) :
    andi ((sE : Memref sig .scVector .vmem S5000 .i32).view.readAt (Elt F) (Rect.unit (s := S5000) off S16.size inb).toLoadRect s1) k1_pay3
      = idxv ep (widL L) p := by
  funext x
  unfold andi idxv
  simp only [View.readAt_apply, Memref.view_whole, View.read_whole]
  rw [hs1]
  show IntOp.andi (epAt ep (5000 * (widL L).val + (off 0 + 1 * (x 0).val))) (16383#32) = _
  rw [hoff, Nat.one_mul, Nat.add_assoc]

/-- The machine's indexed add of the vector of ones is the evidence-free fold. -/
theorem storeIdx_eq_scat (g : Vec F S10000 .f32) (idx : IVec S16 32) (mask : IVec S16 1)
    (h : ∀ a x, ((![idx] : Fin 1 → IVec S16 32) a x).toNat < S10000.size a) :
    storeIdx g ![idx] (k1_pay2 (F := F)) mask true h = scat g idx mask := by
  unfold storeIdx scat
  refine congrArg (fun φ => List.foldl φ g (List.finRange 16)) ?_
  funext g' k
  dsimp only
  by_cases hm : mask (Shape.ofLane k) = 1
  · rw [if_pos hm, if_pos hm]
    funext j
    have hiff : (∀ a : Fin S10000.rank, (j a).val = ((idxAt ![idx] h (Shape.ofLane k)) a).val) ↔ (j 0).val = (idx (Shape.ofLane k)).toNat := by
      constructor
      · intro hh; exact hh 0
      · intro hh a
        have ha : a = (0 : Fin 1) := Subsingleton.elim (α := Fin 1) a 0
        subst ha; exact hh
    by_cases hj : (j 0).val = (idx (Shape.ofLane k)).toNat
    · rw [if_pos (hiff.mpr hj), if_pos hj, if_pos rfl]
      congr 2
      funext a
      have ha : a = (0 : Fin 1) := Subsingleton.elim (α := Fin 1) a 0
      subst ha; exact Fin.ext hj.symm
    · rw [if_neg (fun hh => hj (hiff.mp hh)), if_neg hj]
  · rw [if_neg hm, if_neg hm]

/-- One trip of the clearing loop: sixteen more elements are zero. -/
theorem zfill_step (k : Fin k1_t1_loop.trips) (f : Buf (Elt F) ((V d (cV L) (jV L)).loc cc1_scratch1))
    (hf : ∀ j : S10000.Idx, (j 0).val < 16 * k.val → f j = Scalar.ofBits .f32 0x00000000#32)
    (j : S10000.Idx) (hj : (j 0).val < 16 * (k.val + 1)) :
    ((sA : Memref sig .scVector .vmem S10000 .f32).view.writes (Elt F) f [⟨Rect.unit (s := S10000) (k1_off2 k) S16.size (k1_off2_inb k), k1_pay1⟩]) j
      = Scalar.ofBits .f32 0x00000000#32 := by
  have hoff := congrFun (k1_off2_eq k) 0
  simp only [Matrix.cons_val_zero] at hoff
  by_cases hy : j ∈ (Rect.unit (s := S10000) (k1_off2 k) S16.size (k1_off2_inb k)).set
  · obtain ⟨x, rfl⟩ := (Rect.unit (s := S10000) (k1_off2 k) S16.size (k1_off2_inb k)).exists_idx_of_mem hy
    exact View.read_writes_cons_emb (v := (sA : Memref sig .scVector .vmem S10000 .f32).view) f _ (k1_pay1 (F := F)) [] x
  · have h1 := View.read_writes_apply_of_forall_not_mem (v := (sA : Memref sig .scVector .vmem S10000 .f32).view) f j
      [⟨Rect.unit (s := S10000) (k1_off2 k) S16.size (k1_off2_inb k), k1_pay1 (F := F)⟩]
      (by intro p hp; rw [List.mem_singleton] at hp; subst hp; exact hy)
    refine h1.trans (hf j ?_)
    by_contra hge
    apply hy
    rw [Rect.mem_set_unit]
    intro a
    have ha : a = (0 : Fin 1) := Subsingleton.elim (α := Fin 1) a 0
    subst ha
    rw [hoff]
    show 16 * k.val ≤ (j 0).val ∧ (j 0).val < 16 * k.val + 16
    omega

/-- The indexed add through the accumulator's whole-array access is the fold on its contents. -/
theorem scat_step (g : Vec F S10000 .f32) (idx : IVec S16 32) (mask : IVec S16 1)
    (h : ∀ a x, ((![idx] : Fin 1 → IVec S16 32) a x).toNat < S10000.size a) :
    ((sA : Memref sig .scVector .vmem S10000 .f32).access (Rect.whole S10000)).write (Elt F) g
        (storeIdx (((sA : Memref sig .scVector .vmem S10000 .f32).access (Rect.whole S10000)).read (Elt F) g) ![idx] (k1_pay2 (F := F)) mask true h) Finset.univ
      = scat g idx mask := by
  have e1 := Memref.read_access_whole (Elt F) (cc1_scratch1 : Ref sig .scVector) g
  have e2 := Memref.write_access_whole_univ (Elt F) (cc1_scratch1 : Ref sig .scVector) g
    (storeIdx (((sA : Memref sig .scVector .vmem S10000 .f32).access (Rect.whole S10000)).read (Elt F) g) ![idx] (k1_pay2 (F := F)) mask true h)
  exact e2.trans ((congrArg (fun t => storeIdx t ![idx] (k1_pay2 (F := F)) mask true h) e1).trans (storeIdx_eq_scat g idx mask h))

omit [FloatOps F] in
/-- Where the tile's row of the result sits in the array: row `2 i + c`, the same column. -/
theorem dgRow_emb (x : S10000.Idx) :
    ((dgRow L).view.emb x 0).val = (widL L).val ∧ ((dgRow L).view.emb x 1).val = (x 0).val := by
  have he : (dgRow L).view.emb x = (dgRect L).emb (Shape.reshapeEquiv squeezes_S1x10000_S10000.numel_eq x) := rfl
  rw [he, Shape.reshapeEquiv_cons_one]
  have h4 := k1_off4_eq L
  constructor
  · show k1_off4 L 0 + 1 * 0 = _
    rw [h4]; simp [widL]
  · show k1_off4 L 1 + 1 * (x 0).val = _
    rw [h4]; simp

/-- The result array along the tile's row is the tile's fold. -/
theorem degP_emb (x : S10000.Idx) : degP ep ((dgRow L).view.emb x) = degRow ep (widL L) x := by
  rw [degP_apply]
  obtain ⟨e0, e1⟩ := dgRow_emb L x
  have hc : ∀ (w w' : Fin 32) (m m' : S10000.Idx), w = w' → m = m' → degRow ep w m = degRow ep w' m' := by
    intro w w' m m' h1 h2; rw [h1, h2]
  refine hc _ _ _ _ (Fin.ext e0) ?_
  funext a
  have ha : a = (0 : Fin 1) := Subsingleton.elim (α := Fin 1) a 0
  subst ha
  exact Fin.ext e1

omit [FloatOps F] in
/-- What the copy-out leaves in the tile's row: the payload, placed. -/
theorem row_fact (f0 G : Buf (Elt F) (dgLoc d)) (p : S10000.Idx → Elt F .f32) (hG : ∀ x : S10000.Idx, G ((dgRow L).view.emb x) = p x) :
    ∀ i ∈ (dgRow L).view.set, ((dgRow L).view.writes (Elt F) f0 [⟨Rect.whole S10000, p⟩]) i = G i := by
  intro i hi
  obtain ⟨x, -, rfl⟩ := Finset.mem_map.mp hi
  have h1 := View.read_writes_cons_emb (v := (dgRow L).view) f0 (Rect.whole S10000) p [] x
  rw [Rect.emb_whole_apply, View.read_apply] at h1
  exact ((cast_eq _ _).symm.trans h1).trans (hG x).symm

/-- Clearing the accumulator: before trip `k` its first `16 k` elements are zero. -/
def inv1 (d : Dev nD) (L : grid1.Coords) (k : Nat) (_ : PUnit) : sProp 𝕄 :=
  iprop(∃ f : Buf (Elt F) ((V d (cV L) (jV L)).loc cc1_scratch1),
    ((sA : Memref sig .scVector .vmem S10000 .f32).view.loc (V d (cV L) (jV L)) ↦[(sA : Memref sig .scVector .vmem S10000 .f32).view.set]{fullShare} f)
      ∗ ⌜∀ j : S10000.Idx, (j 0).val < 16 * k → f j = Scalar.ofBits .f32 0x00000000#32⌝)

/-- Counting: the word scratch holds the tile's slice; before trip `k` the accumulator holds the first `k` vectors' counts. -/
def inv2 (d : Dev nD) (L : grid1.Coords) (k : Nat) (_ : PUnit) : sProp 𝕄 :=
  iprop((∃ s1 : Buf (Elt F) ((V d (cV L) (jV L)).loc cc1_scratch0),
      ((sE : Memref sig .scVector .vmem S5000 .i32).view.loc (V d (cV L) (jV L)) ↦[(sE : Memref sig .scVector .vmem S5000 .i32).view.set]{fullShare} s1)
        ∗ ⌜∀ j : S5000.Idx, s1 j = epAt ep (5000 * (widL L).val + (j 0).val)⌝)
    ∗ ((sA : Memref sig .scVector .vmem S10000 .f32).view.loc (V d (cV L) (jV L)) ↦[(sA : Memref sig .scVector .vmem S10000 .f32).view.set]{fullShare} acc ep (widL L) k))

end Tile

section Body

attribute [local irreducible] acc scat degRow degP

/-- The tile at grid coordinates `L` of device `d`: the copy-in, the clearing loop, the wait, the counting loop and the
    masked tail, the copy-out and its wait. From its words and its row at anything to its words and its row at the
    tile's fold. -/
theorem tile_body (hF : (K (F := F)).Facts) (hidx : IdxOK ep) (d : Dev nD) (L : grid1.Coords) (O : CellTallies nD τ sig (HIx 2)) (W : Waits sig (HIx 2)) (hO : ∀ g, O g none = 0) :
    iprop(levAts (K (F := F)).L (K (F := F)).lev ∗ emp ∗ go ep d (cQ (F := F) L) (iQ (F := F) L) ∗ scopedBufs (V d (cV L) (jV L)) ∗ scopedSems0 (V d (cV L) (jV L)) ∗ owes (V d (cV L) (jV L)) O W)
      ⊢ wp frame (wpE (defs₀ (F := F)) 𝒱₀ (V d (cV L) (jV L)) none) Set.univ
          (cc1__sc_deg L (Memref.whole main_v1_scv) (Memref.isWhole_whole _) (Memref.whole main_v2_scv) (Memref.isWhole_whole _)
            (Memref.whole cc1_scratch0) (Memref.isWhole_whole _) (Memref.whole cc1_scratch1) (Memref.isWhole_whole _) cc1_scratch2 cc1_scoped0)
          fun _ => iprop(td ep d (cQ (F := F) L) (iQ (F := F) L) ∗ scopedBufs (V d (cV L) (jV L)) ∗ scopedSems0 (V d (cV L) (jV L))
            ∗ ∃ W', ⌜∀ p ∈ W', p ∈ W ∨ p.2 = none⌝ ∗ owes (V d (cV L) (jV L)) O W') := by
  simp only [cc1__sc_deg_eq_skeleton]; unfold cc1__sc_deg_skel
  rw [(K (F := F)).scopedBufs_V hF d (cV L) (jV L), SparseCore.Cfg.scopedSems0_V (Val := Elt F) d (cV L) (jV L), ownSems0_V, ownBufs_V]
  unfold go td
  rw [wid_cQ]
  iintro ⟨#Hlv, -, ⟨Hep, %f0, Hdg⟩, ⟨⟨%fs, Hs⟩, ⟨%fa, Ha⟩, Hbufs⟩, ⟨HsemA, HsemB, Hsems⟩, HO⟩
  ihave Hmw := ((K (F := F)).mayWaits_none (thr := V d (cV L) (jV L)) hO) $$ Hlv
  ihave Hep' := (Entails.of_eq (pts_epSl (F := F) d L _).symm) $$ Hep
  ihave Hdg' := (Entails.of_eq (pts_dgRow (F := F) d L _).symm) $$ Hdg
  ihave Hs' := (Entails.of_eq (pts_sE (F := F) d L _).symm) $$ Hs
  ihave Ha' := (Entails.of_eq (pts_sA (F := F) d L _).symm) $$ Ha
  sl_exec
  sl_for (inv1 (F := F) d L) $$ [Ha']
  case region =>
    intro k _
    unfold inv1
    iintro ⟨%f, Hf, %hf⟩
    sl_exec
    sl_step
    iexists _; isplitl [Hf]; · iexact Hf
    ipureintro
    exact fun j hj => zfill_step d L k f hf j hj
  · unfold inv1
    iexists fa; isplitl [Ha']; · iexact Ha'
    ipureintro; intro j hj; omega
  iintro %_ HI
  unfold inv1
  icases HI with ⟨%fz, Ha, %hz⟩
  have htr1 : Scf.trips k1_t1_loop.lb k1_t1_loop.ub k1_t1_loop.st = 625 := by decide +kernel
  have hz' : fz = acc ep (widL L) 0 := funext fun j =>
    (hz j (by have : (j 0).val < 10000 := (j 0).isLt; rw [htr1]; omega)).trans (congrFun (acc_zero ep (widL L)) j).symm
  subst hz'
  sl_exec
  sl_for (inv2 (F := F) ep d L) $$ [Hs' Ha]
  case region =>
    intro k _
    unfold inv2
    iintro ⟨⟨%s1, Hs, %hs1⟩, Ha⟩
    sl_exec
    have hv : tile_body.sl.v20 d L k s1 = idxv ep (widL L) (16 * k.val) :=
      vload_eq ep d L s1 hs1 (k1_off3 k) (16 * k.val) (by have h3 := congrFun (k1_off3_eq k) 0; simpa using h3) (k1_off3_inb k)
    rw [wp_assume_of _ _ _ _ (show k1_chk1 (tile_body.sl.v20 d L k s1) from hv ▸ chk_idxv ep hidx (widL L) (16 * k.val))]
    ihave Ha' := (Entails.of_eq ((pts_sA (F := F) d L _).trans (pts_sA_whole (F := F) d L _).symm)) $$ Ha
    iapply (SparseCore.wp_vectorStoreIdx 𝒱₀ (V d (cV L) (jV L)) none Set.univ (base := (sA : Memref sig .scVector .vmem S10000 .f32))) $$ Ha'; iintro Ha
    rw [scat_step, hv, ← acc_succ]
    ihave Ha2 := (Entails.of_eq ((pts_sA_whole (F := F) d L _).trans (pts_sA (F := F) d L _).symm)) $$ Ha
    sl_step
    isplitl [Hs]
    · iexists s1; isplitl [Hs]; · iexact Hs
      ipureintro; exact hs1
    · iexact Ha2
  · unfold inv2
    isplitl [Hs']
    · iexists _; isplitl [Hs']; · iexact Hs'
      ipureintro; exact slab_fact ep d L _ _ rfl
    · iexact Ha
  iintro %_ HI
  unfold inv2
  icases HI with ⟨⟨%s1, Hs, %hs1⟩, Ha⟩
  sl_exec
  have htr2 : Scf.trips k1_t2_loop.lb k1_t2_loop.ub k1_t2_loop.st = 312 := by decide +kernel
  have hv2 : tile_body.sl.v16 d L s1 = idxv ep (widL L) 4984 := vload_eq ep d L s1 hs1 ![4984] 4984 rfl inb_S5000_S16_4984
  rw [wp_assume_of _ _ _ _ (show k1_chk2 (tile_body.sl.v16 d L s1) from hv2 ▸ chk_idxv ep hidx (widL L) 4984)]
  ihave Ha' := (Entails.of_eq ((pts_sA (F := F) d L _).trans (pts_sA_whole (F := F) d L _).symm)) $$ Ha
  iapply (SparseCore.wp_vectorStoreIdx 𝒱₀ (V d (cV L) (jV L)) none Set.univ (base := (sA : Memref sig .scVector .vmem S10000 .f32))) $$ Ha'; iintro Ha
  rw [scat_step, hv2, htr2, ← degRow_eq]
  ihave Ha2 := (Entails.of_eq ((pts_sA_whole (F := F) d L _).trans (pts_sA (F := F) d L _).symm)) $$ Ha
  sl_exec
  sl_step
  isplitl [Hep' Hdg']
  · isplitl [Hep']
    · iapply (Entails.of_eq (pts_epSl (F := F) d L _)); iexact Hep'
    · ihave Hdg := (Entails.of_eq (pts_dgRow (F := F) d L _)) $$ Hdg'
      rw [← set_dgRow L]
      iapply (Entails.of_eq (pointsTo_congr (row_fact d L f0 (degP ep) _ (fun x => degP_emb ep L x)))); iexact Hdg
  isplitl [Hs Ha2 Hbufs]
  · isplitl [Hs]
    · iexists _; iapply (Entails.of_eq (pts_sE (F := F) d L _)); iexact Hs
    isplitl [Ha2]
    · iexists _; iapply (Entails.of_eq (pts_sA (F := F) d L _)); iexact Ha2
    · iexact Hbufs
  isplitl [HsemA HsemB Hsems]
  · isplitl [HsemA]; · iexact HsemA
    isplitl [HsemB]; · iexact HsemB
    iexact Hsems
  iexists _; isplitr
  rotate_left
  · iexact HO
  · ipureintro; intro p hp
    rcases Finset.mem_insert.mp hp with rfl | hp
    · exact .inr rfl
    rcases Finset.mem_insert.mp hp with rfl | hp
    · exact .inr rfl
    · exact .inl hp

end Body

/-! ## Split and join -/

omit [FloatOps F] in
theorem epSet_eq (w : Fin 32) : epSet w = (epPart w).set := View.set_slice_whole _ _
omit [FloatOps F] in
theorem dgSet_eq (w : Fin 32) : dgSet w = (dgPart w).set := View.set_slice_whole _ _

omit [FloatOps F] in
theorem ep_disjoint : ∀ i ∈ (Finset.univ : Finset (Fin 32)), ∀ j ∈ (Finset.univ : Finset (Fin 32)), i ≠ j → Disjoint (epSet i) (epSet j) :=
  fun i _ j _ h => by rw [epSet_eq, epSet_eq]; exact Rect.part_disjoint hdivE h
omit [FloatOps F] in
theorem dg_disjoint : ∀ i ∈ (Finset.univ : Finset (Fin 32)), ∀ j ∈ (Finset.univ : Finset (Fin 32)), i ≠ j → Disjoint (dgSet i) (dgSet j) :=
  fun i _ j _ h => by rw [dgSet_eq, dgSet_eq]; exact Rect.part_disjoint hdivD h
omit [FloatOps F] in
theorem ep_cover : (Finset.univ : Finset (Fin 32)).biUnion epSet = Finset.univ :=
  (Finset.biUnion_congr rfl fun i _ => epSet_eq i).trans (Rect.biUnion_part hdivE)
omit [FloatOps F] in
theorem dg_cover : (Finset.univ : Finset (Fin 32)).biUnion dgSet = Finset.univ :=
  (Finset.biUnion_congr rfl fun i _ => dgSet_eq i).trans (Rect.biUnion_part hdivD)

omit [FloatOps F] in
theorem epPts_parts (d : Dev nD) (f : Buf (Elt F) (epLoc d)) :
    (epLoc d ↦{fullShare} f : sProp 𝕄) = bigSep Finset.univ fun w : Fin 32 => epLoc d ↦[epSet w]{fullShare} f := by
  rw [← pointsTo_biUnion Finset.univ (ℓ := epLoc d) epSet ep_disjoint, ep_cover]; try rfl
omit [FloatOps F] in
theorem dgPts_parts (d : Dev nD) (f : Buf (Elt F) (dgLoc d)) :
    (dgLoc d ↦{fullShare} f : sProp 𝕄) = bigSep Finset.univ fun w : Fin 32 => dgLoc d ↦[dgSet w]{fullShare} f := by
  rw [← pointsTo_biUnion Finset.univ (ℓ := dgLoc d) dgSet dg_disjoint, dg_cover]; try rfl

/-- Tile numbers against (SparseCore, subcore) pairs. -/
def widEquiv : Fin ((K (F := F)).nCore 0) × Fin ((K (F := F)).nSub 0) ≃ Fin 32 where
  toFun p := wid (F := F) p.1 p.2
  invFun w := (⟨w.val % 2, show w.val % 2 < 2 from Nat.mod_lt _ (by decide)⟩, ⟨w.val / 2, show w.val / 2 < 16 from by have := w.isLt; omega⟩)
  left_inv p := by
    obtain ⟨c, i⟩ := p
    have hc : c.val < 2 := c.isLt
    have hi : i.val < 16 := i.isLt
    refine Prod.ext (Fin.ext ?_) (Fin.ext ?_)
    · show (2 * i.val + c.val) % 2 = c.val; omega
    · show (2 * i.val + c.val) / 2 = i.val; omega
  right_inv w := by
    apply Fin.ext
    show 2 * (w.val / 2) + w.val % 2 = w.val; omega

omit [FloatOps F] in
theorem regroup (Φ : Fin 32 → sProp 𝕄) :
    bigSep (Finset.univ : Finset (Fin 32)) Φ
      = bigSep Finset.univ fun c : Fin ((K (F := F)).nCore 0) => bigSep Finset.univ fun i : Fin ((K (F := F)).nSub 0) => Φ (wid (F := F) c i) := by
  rw [bigSep_univ_equiv (widEquiv (F := F)) Φ, bigSep_univ_prod]; rfl

omit [FloatOps F] in
private theorem toE {P R : sProp 𝕄} (h : P ⊢ R) : Idealize.SL.BI.Entails P R := h
omit [FloatOps F] in
private theorem ofE {P R : sProp 𝕄} (h : Idealize.SL.BI.Entails P R) : P ⊢ R := h

theorem vecSplit (d : Dev nD) (c : Fin ((K (F := F)).nCore 0)) :
    st ep d c ⊢ |={Set.univ}=> iprop((bigSep Finset.univ fun i : Fin ((K (F := F)).nSub 0) => go ep d c i)
      ∗ ((bigSep Finset.univ fun i : Fin ((K (F := F)).nSub 0) => td ep d c i) -∗ dn ep d c)) := by
  unfold st dn
  iintro H; imodintro
  isplitl [H]; · iexact H
  iintro H; iexact H

theorem st_intro (d : Dev nD) :
    iprop((epLoc d ↦{fullShare} ep) ∗ ∃ f, dgLoc d ↦{fullShare} f)
      ⊢ (bigSep Finset.univ fun c : Fin ((K (F := F)).nCore 0) => st ep d c : sProp 𝕄) := by
  unfold st go
  have hmono : ∀ f : Buf (Elt F) (dgLoc d), (bigSep Finset.univ fun w : Fin 32 => dgLoc d ↦[dgSet w]{fullShare} f : sProp 𝕄)
      ⊢ bigSep Finset.univ fun w : Fin 32 => iprop(∃ f, dgLoc d ↦[dgSet w]{fullShare} f) :=
    fun f => ofE (bigSep_mono (Φ := fun w : Fin 32 => (dgLoc d ↦[dgSet w]{fullShare} f : sProp 𝕄))
      (Ψ := fun w : Fin 32 => (iprop(∃ f, dgLoc d ↦[dgSet w]{fullShare} f) : sProp 𝕄))
      fun w _ => toE (P := (dgLoc d ↦[dgSet w]{fullShare} f : sProp 𝕄)) (R := (iprop(∃ f, dgLoc d ↦[dgSet w]{fullShare} f) : sProp 𝕄))
        (by iintro H; iexists f; iexact H))
  have key : iprop((epLoc d ↦{fullShare} ep) ∗ ∃ f, dgLoc d ↦{fullShare} f)
      ⊢ (bigSep Finset.univ fun w : Fin 32 => iprop((epLoc d ↦[epSet w]{fullShare} ep) ∗ ∃ f, dgLoc d ↦[dgSet w]{fullShare} f) : sProp 𝕄) := by
    rw [bigSep_sep']
    iintro ⟨Hep, %f, Hdg⟩
    isplitl [Hep]
    · iapply (Entails.of_eq (epPts_parts (F := F) d ep)); iexact Hep
    · iapply (hmono f); iapply (Entails.of_eq (dgPts_parts (F := F) d f)); iexact Hdg
  exact key.trans (Entails.of_eq (regroup (F := F)
    (fun w => iprop((epLoc d ↦[epSet w]{fullShare} ep) ∗ ∃ f, dgLoc d ↦[dgSet w]{fullShare} f))))

theorem dn_elim (d : Dev nD) :
    (bigSep Finset.univ fun c : Fin ((K (F := F)).nCore 0) => dn ep d c : sProp 𝕄)
      ⊢ iprop((epLoc d ↦{fullShare} ep) ∗ dgLoc d ↦{fullShare} degP ep) := by
  unfold dn td
  have key : (bigSep Finset.univ fun w : Fin 32 => iprop((epLoc d ↦[epSet w]{fullShare} ep) ∗ dgLoc d ↦[dgSet w]{fullShare} degP ep) : sProp 𝕄)
      ⊢ iprop((epLoc d ↦{fullShare} ep) ∗ dgLoc d ↦{fullShare} degP ep) := by
    rw [bigSep_sep', ← epPts_parts, ← dgPts_parts]
  exact (Entails.of_eq (regroup (F := F)
    (fun w => iprop((epLoc d ↦[epSet w]{fullShare} ep) ∗ dgLoc d ↦[dgSet w]{fullShare} degP ep))).symm).trans key

end Cert.KernelIdeal.Hand.Sc0

end
-- ==== Proof.Hand.Sc1.lean ====
/-
  SparseCore call 1 of @main, the message-passing tile kernel: each of the 32 tiles w = 2 * subcore + core copies
  row w of the scaled features into its own memory, zeroes an accumulator, streams the packed edge words through two
  buffers, and for every block of sixteen edges gathers the sources' features and scatter-adds them at the
  destinations; the accumulator is written out as row w of the result. What the launch theorem needs of this call:
  the call's payload assertions, the tile's triple, the split of a SparseCore's operands among its sixteen tiles, and
  the conversions from and to the TensorCore's whole arrays.
-/
import proofs.«207900_g17016660427224_cont_7to1_1372_35_alg».proof.Proof.Hand.Base
import proofs.«207900_g17016660427224_cont_7to1_1372_35_alg».proof.Proof.Gen.KernelIdeal.Skeleton
import Idealize.ShloMosaic.Lib.SparseCore.Ops
import Idealize.ShloMosaic.Lib.Tactic
import Idealize.ShloMosaic.Lib.WritesUnit

noncomputable section

namespace Cert.KernelIdeal.Hand.Sc1

open Cert.KernelIdeal Cert.KernelIdeal.Gen Cert.KernelIdeal.Hand
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 2) (Elt F) ℕ UU ℕ

/-! ## The value a tile computes -/

section Value

variable [FloatOps F]

/-- Block `j` of the packed edge words: words `16 j … 16 j + 15`. -/
def blk (ep : Vec F S160000 .i32) (j : ℕ) : Vec F S16 .i32 :=
  fun x => ep (Shape.ofLane (d := ![160000]) ⟨(16 * j + (x 0).val) % 160000, Nat.mod_lt _ (by decide)⟩)

/-- The sources of a block's sixteen edges: each word shifted right by 14, arithmetically. -/
abbrev srcOf (v : Vec F S16 .i32) : IVec S16 32 := k3_pay1 v
/-- The destinations: each word's low fourteen bits. -/
abbrev dstOf (v : Vec F S16 .i32) : IVec S16 32 := andi v k3_pay81

/-- Every packed edge word names a source and a destination below 10000. -/
def IdxOK (ep : Vec F S160000 .i32) : Prop :=
  ∀ n : S160000.Idx, (IntOp.andi (ep n) 16383#32).toNat < 10000 ∧ (IntOp.shrsi .vector (ep n) 14#32).toNat < 10000

/-- A block whose sources and destinations are all in range. -/
def BlkOK (v : Vec F S16 .i32) : Prop := k3_chk1 (srcOf v) ∧ k3_chk9 (dstOf v)

instance (v : Vec F S16 .i32) : Decidable (BlkOK v) := by unfold BlkOK; infer_instance

/-- One block of sixteen edges: the features `g` gathered at the sources are added onto the accumulator at the
    destinations, lowest lane first. -/
def step (g acc : Vec F S10000 .f32) (v : Vec F S16 .i32) : Vec F S10000 .f32 :=
  if h : BlkOK v then
    storeIdx acc ![dstOf v] (loadIdx g ![srcOf v] (k3_idx1_inb _ h.1)) (fun _ => 1#1) true (k3_idx9_inb _ h.2)
  else acc

/-- The accumulator cleared. -/
def zeroV : Vec F S10000 .f32 := broadcast S10000 (Scalar.ofBits .f32 0x00000000#32 : F .f32)

/-- The accumulator after the first `n` blocks. -/
def accAfter (ep : Vec F S160000 .i32) (g : Vec F S10000 .f32) : ℕ → Vec F S10000 .f32
  | 0 => zeroV
  | n + 1 => step g (accAfter ep g n) (blk ep n)

/-- What a tile leaves in its accumulator: all ten thousand blocks of sixteen edges folded in, in order. -/
def accRow (ep : Vec F S160000 .i32) (g : Vec F S10000 .f32) (_w : Fin 32) : Vec F S10000 .f32 := accAfter ep g 10000

/-- Row `w` of a two-dimensional array. -/
def rowOf (gall : Vec F S32x10000 .f32) (w : Fin 32) : Vec F S10000 .f32 :=
  fun n => gall (fun a => match a with | ⟨0, _⟩ => (⟨w.val, w.isLt⟩ : Fin 32) | ⟨1, _⟩ => (⟨(n 0).val, (n 0).isLt⟩ : Fin 10000))

/-- The call's result: row `w` is tile `w`'s accumulator over row `w` of the scaled features. -/
def accT (ep : Vec F S160000 .i32) (gall : Vec F S32x10000 .f32) : Vec F S32x10000 .f32 :=
  fun n => accRow ep (rowOf gall ⟨(n 0).val, (n 0).isLt⟩) ⟨(n 0).val, (n 0).isLt⟩ (Shape.ofLane (d := ![10000]) ⟨(n 1).val, (n 1).isLt⟩)

end Value

/-! ## What the handshakes carry -/

section Pay

variable [FloatOps F] (ep : Vec F S160000 .i32) (gall : Vec F S32x10000 .f32)

abbrev epLoc (d : Dev nD) : Loc nD τ sig := (SparseCore.T d).loc main_v1
abbrev gLoc (d : Dev nD) : Loc nD τ sig := (SparseCore.T d).loc main_v3_1
abbrev oLoc (d : Dev nD) : Loc nD τ sig := (SparseCore.T d).loc main_v4

abbrev epV : Memref sig .scVector .hbm S160000 .i32 := Memref.whole main_v1_scv
abbrev gV : Memref sig .scVector .hbm S32x10000 .f32 := Memref.whole main_v3_1_scv
abbrev oV : Memref sig .scVector .hbm S32x10000 .f32 := Memref.whole main_v4_scv
abbrev sE0 : Memref sig .scVector .vmem S16000 .i32 := Memref.whole cc3_scratch0
abbrev sE1 : Memref sig .scVector .vmem S16000 .i32 := Memref.whole cc3_scratch1
abbrev sG : Memref sig .scVector .vmem S10000 .f32 := Memref.whole cc3_scratch2
abbrev sA : Memref sig .scVector .vmem S10000 .f32 := Memref.whole cc3_scratch3

theorem hdiv32 : 32 ∣ S32x10000.size 0 := ⟨1, rfl⟩
/-- Row `w` of a `32 × 10000` array, as a rectangle and as a set of elements. -/
abbrev rowR (w : Fin 32) : Rect S32x10000 := Rect.part (s := S32x10000) (a₀ := 0) hdiv32 w
abbrev rowSet (w : Fin 32) : Finset S32x10000.Idx := ((gV : Memref sig .scVector .hbm S32x10000 .f32).view.slice (rowR w)).set

/-- The tile on vector subcore `i` of SparseCore `c`: `w = 2 i + c`. -/
def tw (c : Fin ((K (F := F)).nCore 1)) (i : Fin ((K (F := F)).nSub 1)) : Fin 32 :=
  ⟨2 * i.val + c.val, by have hc : c.val < 2 := c.isLt; have hi : i.val < 16 := i.isLt; omega⟩

/-- The rows of SparseCore `c`'s sixteen tiles. -/
def rowsOf (c : Fin ((K (F := F)).nCore 1)) : Finset S32x10000.Idx := Finset.univ.biUnion fun i : Fin ((K (F := F)).nSub 1) => rowSet (tw c i)

/-- The read share of the edge words a SparseCore holds: a half each; -/
def qc (c : Fin ((K (F := F)).nCore 1)) : PosShare TreeShare := if c.val = 0 then fullShare.left else fullShare.right
/-- a tile's: a token of its SparseCore's. -/
abbrev qt (c : Fin ((K (F := F)).nCore 1)) (i : Fin ((K (F := F)).nSub 1)) : PosShare TreeShare := Transfers.shareTok (qc c) ((K (F := F)).nSub 1) i

/-- What the call's start hands SparseCore `c`: a read share of the edge words, its tiles' rows of the scaled features
    and of the result (at whatever they hold). -/
def st (d : Dev nD) (c : Fin ((K (F := F)).nCore 1)) : sProp 𝕄 :=
  iprop((epLoc d ↦{qc c} ep) ∗ (gLoc d ↦[rowsOf c]{fullShare} gall) ∗ ∃ f, oLoc d ↦[rowsOf c]{fullShare} f)
/-- What its done hands back: the result's rows at the tiles' accumulators. -/
def dn (d : Dev nD) (c : Fin ((K (F := F)).nCore 1)) : sProp 𝕄 :=
  iprop((epLoc d ↦{qc c} ep) ∗ (gLoc d ↦[rowsOf c]{fullShare} gall) ∗ oLoc d ↦[rowsOf c]{fullShare} accT ep gall)
/-- What the sequencer's go hands tile `i`: a read token of the edge words, row `w` of the scaled features and of the
    result. -/
def go (d : Dev nD) (c : Fin ((K (F := F)).nCore 1)) (i : Fin ((K (F := F)).nSub 1)) : sProp 𝕄 :=
  iprop((epLoc d ↦{qt c i} ep) ∗ (gLoc d ↦[rowSet (tw c i)]{fullShare} gall) ∗ ∃ f, oLoc d ↦[rowSet (tw c i)]{fullShare} f)
/-- What its taskDone hands back: row `w` of the result at the tile's accumulator. -/
def td (d : Dev nD) (c : Fin ((K (F := F)).nCore 1)) (i : Fin ((K (F := F)).nSub 1)) : sProp 𝕄 :=
  iprop((epLoc d ↦{qt c i} ep) ∗ (gLoc d ↦[rowSet (tw c i)]{fullShare} gall) ∗ oLoc d ↦[rowSet (tw c i)]{fullShare} accT ep gall)

instance st_storable (d : Dev nD) (c : Fin ((K (F := F)).nCore 1)) : BI.Storable (upEmb : UEmb _ 𝕄) (st ep gall d c) := by unfold st; infer_instance
instance dn_storable (d : Dev nD) (c : Fin ((K (F := F)).nCore 1)) : BI.Storable (upEmb : UEmb _ 𝕄) (dn ep gall d c) := by unfold dn; infer_instance
instance go_storable (d : Dev nD) (c : Fin ((K (F := F)).nCore 1)) (i : Fin ((K (F := F)).nSub 1)) : BI.Storable (upEmb : UEmb _ 𝕄) (go ep gall d c i) := by unfold go; infer_instance
instance td_storable (d : Dev nD) (c : Fin ((K (F := F)).nCore 1)) (i : Fin ((K (F := F)).nSub 1)) : BI.Storable (upEmb : UEmb _ 𝕄) (td ep gall d c i) := by unfold td; infer_instance

end Pay

abbrev cV (L : grid3.Coords) : Fin τ.nSC := (L 0).castLE hcore3
abbrev jV (L : grid3.Coords) : Fin τ.nSub := (L 1).castLE hsub3
/-- The tile's place in the call's grid. -/
abbrev cQ (L : grid3.Coords) : Fin ((K (F := F)).nCore 1) := Fin.cast rfl (L 0)
abbrev iQ (L : grid3.Coords) : Fin ((K (F := F)).nSub 1) := Fin.cast rfl (L 1)

/-! ## One chunk of the edge words: the trip and the loop -/

section Loops

variable [FloatOps F] (ep : Vec F S160000 .i32) (d : Dev nD) (L : grid3.Coords)

/-- The sixteen words trip `k` of a chunk loop loads as its `r`-th block. -/
abbrev ldR (k : Fin k3_t2_loop.trips) (r : Fin 8) : Rect S16000 :=
  Rect.unit (s := S16000) (k3_off3 k (BitVec.ofNat 32 r.val)) S16.size (k3_off3_inb k r)

/-- Eight blocks of sixteen edges from block `b` on, in order. -/
def steps8 (g acc : Vec F S10000 .f32) (b : ℕ) : Vec F S10000 .f32 :=
  step g (step g (step g (step g (step g (step g (step g (step g acc (blk ep b)) (blk ep (b + 1))) (blk ep (b + 2))) (blk ep (b + 3)))
    (blk ep (b + 4))) (blk ep (b + 5))) (blk ep (b + 6))) (blk ep (b + 7))

/-- What a chunk loop holds: the edge buffer it reads (any share), the tile's copy of its features' row, the accumulator. -/
abbrev Held (buf : Memref sig .scVector .vmem S16000 .i32) (q : PosShare TreeShare)
    (fe : Buf (Elt F) (buf.view.loc (V d (cV L) (jV L)))) (g acc : Vec F S10000 .f32) : sProp 𝕄 :=
  iprop((buf.view.loc (V d (cV L) (jV L)) ↦{q} fe) ∗ ((sG : Memref sig .scVector .vmem S10000 .f32).view.loc (V d (cV L) (jV L)) ↦{fullShare} g)
    ∗ ((sA : Memref sig .scVector .vmem S10000 .f32).view.loc (V d (cV L) (jV L)) ↦{fullShare} acc))

omit [FloatOps F] in
theorem blkOK_of (hidx : IdxOK ep) (j : ℕ) : BlkOK (blk ep j) := by
  constructor
  · intro a x
    obtain rfl : a = 0 := Subsingleton.elim _ _
    exact (hidx _).2
  · intro a x
    obtain rfl : a = 0 := Subsingleton.elim _ _
    exact (hidx _).1

theorem steps8_accAfter (g : Vec F S10000 .f32) (n : ℕ) : steps8 ep g (accAfter ep g n) n = accAfter ep g (n + 8) := rfl

theorem trips_t2 : k3_t2_loop.trips = 125 := by decide

set_option maxHeartbeats 4000000 in
/-- One trip of a chunk loop, over the edge buffer `buf` it reads: eight blocks loaded, their sources' features
    gathered, added at their destinations. -/
theorem trip (buf oth : Memref sig .scVector .vmem S16000 .i32) (hbuf : buf.IsWhole) (hoth : oth.IsWhole) (q : PosShare TreeShare)
    (fe : Buf (Elt F) (buf.view.loc (V d (cV L) (jV L)))) (g acc : Vec F S10000 .f32) (b : ℕ) (k : Fin k3_t2_loop.trips)
    (hfe : ∀ r : Fin 8, buf.view.readAt (Elt F) (ldR k r).toLoadRect fe = blk ep (b + r.val))
    (hok : ∀ r : Fin 8, BlkOK (blk ep (b + r.val))) :
    Held d L buf q fe g acc
      ⊢ wp frame (wpE (defs₀ (F := F)) 𝒱₀ (V d (cV L) (jV L)) none) Set.univ
          (k3_t2_body L epV (Memref.isWhole_whole _) gV (Memref.isWhole_whole _) oV (Memref.isWhole_whole _) buf hbuf oth hoth
            sG (Memref.isWhole_whole _) sA (Memref.isWhole_whole _) cc3_scratch4 cc3_scratch5 cc3_scratch6 cc3_scoped0 k ⟨⟩)
          fun _ => Held d L buf q fe g (steps8 ep g acc b) := by
  unfold k3_t2_body
  simp only [k3_part1_eq_skeleton, k3_part2_eq_skeleton]
  unfold k3_part1_skel k3_part2_skel
  simp only [Prog.lift, Prog.bind_op, Prog.bind_ret, Prog.pure_eq_ret, Prog.bind_assoc]
  have e0 : buf.view.readAt (Elt F) (Rect.unit (s := S16000) (k3_off3 k 0#32) S16.size (k3_off3_inb k 0)).toLoadRect fe = blk ep b := hfe 0
  have e1 : buf.view.readAt (Elt F) (Rect.unit (s := S16000) (k3_off3 k 1#32) S16.size (k3_off3_inb k 1)).toLoadRect fe = blk ep (b + 1) := hfe 1
  have e2 : buf.view.readAt (Elt F) (Rect.unit (s := S16000) (k3_off3 k 2#32) S16.size (k3_off3_inb k 2)).toLoadRect fe = blk ep (b + 2) := hfe 2
  have e3 : buf.view.readAt (Elt F) (Rect.unit (s := S16000) (k3_off3 k 3#32) S16.size (k3_off3_inb k 3)).toLoadRect fe = blk ep (b + 3) := hfe 3
  have e4 : buf.view.readAt (Elt F) (Rect.unit (s := S16000) (k3_off3 k 4#32) S16.size (k3_off3_inb k 4)).toLoadRect fe = blk ep (b + 4) := hfe 4
  have e5 : buf.view.readAt (Elt F) (Rect.unit (s := S16000) (k3_off3 k 5#32) S16.size (k3_off3_inb k 5)).toLoadRect fe = blk ep (b + 5) := hfe 5
  have e6 : buf.view.readAt (Elt F) (Rect.unit (s := S16000) (k3_off3 k 6#32) S16.size (k3_off3_inb k 6)).toLoadRect fe = blk ep (b + 6) := hfe 6
  have e7 : buf.view.readAt (Elt F) (Rect.unit (s := S16000) (k3_off3 k 7#32) S16.size (k3_off3_inb k 7)).toLoadRect fe = blk ep (b + 7) := hfe 7
  have h0 : BlkOK (blk ep b) := hok 0
  have h1 : BlkOK (blk ep (b + 1)) := hok 1
  have h2 : BlkOK (blk ep (b + 2)) := hok 2
  have h3 : BlkOK (blk ep (b + 3)) := hok 3
  have h4 : BlkOK (blk ep (b + 4)) := hok 4
  have h5 : BlkOK (blk ep (b + 5)) := hok 5
  have h6 : BlkOK (blk ep (b + 6)) := hok 6
  have h7 : BlkOK (blk ep (b + 7)) := hok 7
  have s0 : k3_chk1 (k3_pay1 (blk ep b)) := h0.1
  have s1 : k3_chk2 (k3_pay2 (blk ep (b + 1))) := h1.1
  have s2 : k3_chk3 (k3_pay3 (blk ep (b + 2))) := h2.1
  have s3 : k3_chk4 (k3_pay4 (blk ep (b + 3))) := h3.1
  have s4 : k3_chk5 (k3_pay5 (blk ep (b + 4))) := h4.1
  have s5 : k3_chk6 (k3_pay6 (blk ep (b + 5))) := h5.1
  have s6 : k3_chk7 (k3_pay7 (blk ep (b + 6))) := h6.1
  have s7 : k3_chk8 (k3_pay8 (blk ep (b + 7))) := h7.1
  have d0 : k3_chk9 (andi (blk ep b) k3_pay81) := h0.2
  have d1 : k3_chk10 (andi (blk ep (b + 1)) k3_pay81) := h1.2
  have d2 : k3_chk11 (andi (blk ep (b + 2)) k3_pay81) := h2.2
  have d3 : k3_chk12 (andi (blk ep (b + 3)) k3_pay81) := h3.2
  have d4 : k3_chk13 (andi (blk ep (b + 4)) k3_pay81) := h4.2
  have d5 : k3_chk14 (andi (blk ep (b + 5)) k3_pay81) := h5.2
  have d6 : k3_chk15 (andi (blk ep (b + 6)) k3_pay81) := h6.2
  have d7 : k3_chk16 (andi (blk ep (b + 7)) k3_pay81) := h7.2
  have rdG : (sG.access (.whole S10000)).read (Elt F) g = g := Memref.read_access_whole (Elt F) (cc3_scratch2 : Ref sig .scVector) g
  have rdA : ∀ f : Vec F S10000 .f32, (sA.access (.whole S10000)).read (Elt F) f = f := fun f => Memref.read_access_whole (Elt F) (cc3_scratch3 : Ref sig .scVector) f
  have wrA : ∀ f w : Vec F S10000 .f32, (sA.access (.whole S10000)).write (Elt F) f w Finset.univ = w := fun f w => Memref.write_access_whole_univ (Elt F) (cc3_scratch3 : Ref sig .scVector) f w
  have ptsA : ∀ f : Vec F S10000 .f32, (((sA : Memref sig .scVector .vmem S10000 .f32).access (.whole S10000)).loc (V d (cV L) (jV L)) ↦[((sA : Memref sig .scVector .vmem S10000 .f32).access (.whole S10000)).set]{fullShare} f : sProp 𝕄)
      = ((sA : Memref sig .scVector .vmem S10000 .f32).view.loc (V d (cV L) (jV L)) ↦{fullShare} f) := fun f => by
    rw [show ((sA : Memref sig .scVector .vmem S10000 .f32).access (.whole S10000)).set = Finset.univ from Memref.set_access_whole (cc3_scratch3 : Ref sig .scVector)]
  unfold Held
  iintro ⟨Hb, Hg, Ha⟩
  iapply (wp_load 𝒱₀ (V d (cV L) (jV L)) none Set.univ (m := buf) (S := Finset.univ) (Finset.subset_univ _)) $$ Hb; iintro Hb
  rw [e0]
  iapply (wp_load 𝒱₀ (V d (cV L) (jV L)) none Set.univ (m := buf) (S := Finset.univ) (Finset.subset_univ _)) $$ Hb; iintro Hb
  rw [e1]
  iapply (wp_load 𝒱₀ (V d (cV L) (jV L)) none Set.univ (m := buf) (S := Finset.univ) (Finset.subset_univ _)) $$ Hb; iintro Hb
  rw [e2]
  iapply (wp_load 𝒱₀ (V d (cV L) (jV L)) none Set.univ (m := buf) (S := Finset.univ) (Finset.subset_univ _)) $$ Hb; iintro Hb
  rw [e3]
  iapply (wp_load 𝒱₀ (V d (cV L) (jV L)) none Set.univ (m := buf) (S := Finset.univ) (Finset.subset_univ _)) $$ Hb; iintro Hb
  rw [e4]
  iapply (wp_load 𝒱₀ (V d (cV L) (jV L)) none Set.univ (m := buf) (S := Finset.univ) (Finset.subset_univ _)) $$ Hb; iintro Hb
  rw [e5]
  iapply (wp_load 𝒱₀ (V d (cV L) (jV L)) none Set.univ (m := buf) (S := Finset.univ) (Finset.subset_univ _)) $$ Hb; iintro Hb
  rw [e6]
  iapply (wp_load 𝒱₀ (V d (cV L) (jV L)) none Set.univ (m := buf) (S := Finset.univ) (Finset.subset_univ _)) $$ Hb; iintro Hb
  rw [e7]
  rw [wp_assume_of _ _ _ _ s0]
  iapply (SparseCore.wp_vectorLoadIdx 𝒱₀ (V d (cV L) (jV L)) none Set.univ (base := (sG : Memref sig .scVector .vmem S10000 .f32)) (S := Finset.univ) (q := fullShare) (Finset.subset_univ _)) $$ Hg; iintro Hg
  rw [rdG]
  rw [wp_assume_of _ _ _ _ s1]
  iapply (SparseCore.wp_vectorLoadIdx 𝒱₀ (V d (cV L) (jV L)) none Set.univ (base := (sG : Memref sig .scVector .vmem S10000 .f32)) (S := Finset.univ) (q := fullShare) (Finset.subset_univ _)) $$ Hg; iintro Hg
  rw [rdG]
  rw [wp_assume_of _ _ _ _ s2]
  iapply (SparseCore.wp_vectorLoadIdx 𝒱₀ (V d (cV L) (jV L)) none Set.univ (base := (sG : Memref sig .scVector .vmem S10000 .f32)) (S := Finset.univ) (q := fullShare) (Finset.subset_univ _)) $$ Hg; iintro Hg
  rw [rdG]
  rw [wp_assume_of _ _ _ _ s3]
  iapply (SparseCore.wp_vectorLoadIdx 𝒱₀ (V d (cV L) (jV L)) none Set.univ (base := (sG : Memref sig .scVector .vmem S10000 .f32)) (S := Finset.univ) (q := fullShare) (Finset.subset_univ _)) $$ Hg; iintro Hg
  rw [rdG]
  rw [wp_assume_of _ _ _ _ s4]
  iapply (SparseCore.wp_vectorLoadIdx 𝒱₀ (V d (cV L) (jV L)) none Set.univ (base := (sG : Memref sig .scVector .vmem S10000 .f32)) (S := Finset.univ) (q := fullShare) (Finset.subset_univ _)) $$ Hg; iintro Hg
  rw [rdG]
  rw [wp_assume_of _ _ _ _ s5]
  iapply (SparseCore.wp_vectorLoadIdx 𝒱₀ (V d (cV L) (jV L)) none Set.univ (base := (sG : Memref sig .scVector .vmem S10000 .f32)) (S := Finset.univ) (q := fullShare) (Finset.subset_univ _)) $$ Hg; iintro Hg
  rw [rdG]
  rw [wp_assume_of _ _ _ _ s6]
  iapply (SparseCore.wp_vectorLoadIdx 𝒱₀ (V d (cV L) (jV L)) none Set.univ (base := (sG : Memref sig .scVector .vmem S10000 .f32)) (S := Finset.univ) (q := fullShare) (Finset.subset_univ _)) $$ Hg; iintro Hg
  rw [rdG]
  rw [wp_assume_of _ _ _ _ s7]
  iapply (SparseCore.wp_vectorLoadIdx 𝒱₀ (V d (cV L) (jV L)) none Set.univ (base := (sG : Memref sig .scVector .vmem S10000 .f32)) (S := Finset.univ) (q := fullShare) (Finset.subset_univ _)) $$ Hg; iintro Hg
  rw [rdG]
  ihave Ha := (Entails.of_eq (ptsA _).symm) $$ Ha
  rw [wp_assume_of _ _ _ _ d0]
  iapply (SparseCore.wp_vectorStoreIdx 𝒱₀ (V d (cV L) (jV L)) none Set.univ (base := (sA : Memref sig .scVector .vmem S10000 .f32))) $$ Ha
  rw [wrA, rdA]
  iintro Ha
  rw [wp_assume_of _ _ _ _ d1]
  iapply (SparseCore.wp_vectorStoreIdx 𝒱₀ (V d (cV L) (jV L)) none Set.univ (base := (sA : Memref sig .scVector .vmem S10000 .f32))) $$ Ha
  rw [wrA, rdA]
  iintro Ha
  rw [wp_assume_of _ _ _ _ d2]
  iapply (SparseCore.wp_vectorStoreIdx 𝒱₀ (V d (cV L) (jV L)) none Set.univ (base := (sA : Memref sig .scVector .vmem S10000 .f32))) $$ Ha
  rw [wrA, rdA]
  iintro Ha
  rw [wp_assume_of _ _ _ _ d3]
  iapply (SparseCore.wp_vectorStoreIdx 𝒱₀ (V d (cV L) (jV L)) none Set.univ (base := (sA : Memref sig .scVector .vmem S10000 .f32))) $$ Ha
  rw [wrA, rdA]
  iintro Ha
  rw [wp_assume_of _ _ _ _ d4]
  iapply (SparseCore.wp_vectorStoreIdx 𝒱₀ (V d (cV L) (jV L)) none Set.univ (base := (sA : Memref sig .scVector .vmem S10000 .f32))) $$ Ha
  rw [wrA, rdA]
  iintro Ha
  rw [wp_assume_of _ _ _ _ d5]
  iapply (SparseCore.wp_vectorStoreIdx 𝒱₀ (V d (cV L) (jV L)) none Set.univ (base := (sA : Memref sig .scVector .vmem S10000 .f32))) $$ Ha
  rw [wrA, rdA]
  iintro Ha
  rw [wp_assume_of _ _ _ _ d6]
  iapply (SparseCore.wp_vectorStoreIdx 𝒱₀ (V d (cV L) (jV L)) none Set.univ (base := (sA : Memref sig .scVector .vmem S10000 .f32))) $$ Ha
  rw [wrA, rdA]
  iintro Ha
  rw [wp_assume_of _ _ _ _ d7]
  iapply (SparseCore.wp_vectorStoreIdx 𝒱₀ (V d (cV L) (jV L)) none Set.univ (base := (sA : Memref sig .scVector .vmem S10000 .f32))) $$ Ha
  rw [wrA, rdA]
  iintro Ha
  rw [wp_ret]; imodintro
  isplitl [Hb]; · iexact Hb
  isplitl [Hg]; · iexact Hg
  ihave Ha := (Entails.of_eq (ptsA _)) $$ Ha
  have stepEq : ∀ (a : Vec F S10000 .f32) (v : Vec F S16 .i32) (h : BlkOK v), step g a v
      = storeIdx a ![dstOf v] (loadIdx g ![srcOf v] (k3_idx1_inb _ h.1)) (fun _ => 1#1) true (k3_idx9_inb _ h.2) := fun a v h => by
    unfold step; exact dif_pos h
  unfold steps8
  rw [stepEq _ (blk ep (b + 7)) h7, stepEq _ (blk ep (b + 6)) h6, stepEq _ (blk ep (b + 5)) h5, stepEq _ (blk ep (b + 4)) h4,
    stepEq _ (blk ep (b + 3)) h3, stepEq _ (blk ep (b + 2)) h2, stepEq _ (blk ep (b + 1)) h1, stepEq _ (blk ep b) h0]
  iexact Ha

/-- A chunk loop over the edge buffer `buf` holding blocks `b … b + 999`: the accumulator goes from the first `b` blocks
    folded in to the first `b + 1000`. -/
theorem chunk_loop (hidx : IdxOK ep) (buf oth : Memref sig .scVector .vmem S16000 .i32) (hbuf : buf.IsWhole) (hoth : oth.IsWhole) (q : PosShare TreeShare)
    (fe : Buf (Elt F) (buf.view.loc (V d (cV L) (jV L)))) (g : Vec F S10000 .f32) (b : ℕ)
    (hfe : ∀ (k : Fin k3_t2_loop.trips) (r : Fin 8), buf.view.readAt (Elt F) (ldR k r).toLoadRect fe = blk ep (b + 8 * k.val + r.val)) :
    (iprop((buf.view.loc (V d (cV L) (jV L)) ↦{q} fe) ∗ ((sG : Memref sig .scVector .vmem S10000 .f32).view.loc (V d (cV L) (jV L)) ↦{fullShare} g)
        ∗ ((sA : Memref sig .scVector .vmem S10000 .f32).view.loc (V d (cV L) (jV L)) ↦{fullShare} accAfter ep g b)) : sProp 𝕄)
      ⊢ wp frame (wpE (defs₀ (F := F)) 𝒱₀ (V d (cV L) (jV L)) none) Set.univ
          (Scf.Loop.for k3_t2_loop k3_t2_ok ⟨⟩
            (k3_t2_body L epV (Memref.isWhole_whole _) gV (Memref.isWhole_whole _) oV (Memref.isWhole_whole _) buf hbuf oth hoth
              sG (Memref.isWhole_whole _) sA (Memref.isWhole_whole _) cc3_scratch4 cc3_scratch5 cc3_scratch6 cc3_scoped0))
          fun _ => iprop((buf.view.loc (V d (cV L) (jV L)) ↦{q} fe) ∗ ((sG : Memref sig .scVector .vmem S10000 .f32).view.loc (V d (cV L) (jV L)) ↦{fullShare} g)
            ∗ ((sA : Memref sig .scVector .vmem S10000 .f32).view.loc (V d (cV L) (jV L)) ↦{fullShare} accAfter ep g (b + 1000))) := by
  iintro ⟨Hb, Hg, Ha⟩
  sl_for (fun (k : ℕ) _ => Held d L buf q fe g (accAfter ep g (b + 8 * k))) $$ [Hb Hg Ha]
  case region =>
    intro k _
    refine (trip ep d L buf oth hbuf hoth q fe g (accAfter ep g (b + 8 * k.val)) (b + 8 * k.val) k (fun r => hfe k r) (fun r => blkOK_of ep hidx _)).trans
      (wp_mono frame _ _ fun _ => ?_)
    rw [steps8_accAfter, show b + 8 * k.val + 8 = b + 8 * (k.val + 1) by omega]
  isplitl [Hb Hg Ha]
  · isplitl [Hb]; · iexact Hb
    isplitl [Hg] <;> iassumption
  · iintro %_ HI
    rw [show Scf.trips k3_t2_loop.lb k3_t2_loop.ub k3_t2_loop.st = 125 from trips_t2]
    iexact HI

end Loops

/-! ## The ten chunk loops are one -/

section LoopEqs
variable [FloatOps F] (L : grid3.Coords)

/-- A later chunk loop is the first, over the edge buffer it reads. -/
theorem loop_t3 :
    Scf.Loop.for k3_t3_loop k3_t3_ok ⟨⟩
        (k3_t3_body (F := F) L epV (Memref.isWhole_whole _) gV (Memref.isWhole_whole _) oV (Memref.isWhole_whole _) sE0 (Memref.isWhole_whole _) sE1 (Memref.isWhole_whole _)
          sG (Memref.isWhole_whole _) sA (Memref.isWhole_whole _) cc3_scratch4 cc3_scratch5 cc3_scratch6 cc3_scoped0 k3_pay81)
      = Scf.Loop.for k3_t2_loop k3_t2_ok ⟨⟩
        (k3_t2_body (F := F) L epV (Memref.isWhole_whole _) gV (Memref.isWhole_whole _) oV (Memref.isWhole_whole _) sE1 (Memref.isWhole_whole _) sE0 (Memref.isWhole_whole _)
          sG (Memref.isWhole_whole _) sA (Memref.isWhole_whole _) cc3_scratch4 cc3_scratch5 cc3_scratch6 cc3_scoped0) := rfl
theorem loop_t4 :
    Scf.Loop.for k3_t4_loop k3_t4_ok ⟨⟩
        (k3_t4_body (F := F) L epV (Memref.isWhole_whole _) gV (Memref.isWhole_whole _) oV (Memref.isWhole_whole _) sE0 (Memref.isWhole_whole _) sE1 (Memref.isWhole_whole _)
          sG (Memref.isWhole_whole _) sA (Memref.isWhole_whole _) cc3_scratch4 cc3_scratch5 cc3_scratch6 cc3_scoped0 k3_pay81)
      = Scf.Loop.for k3_t2_loop k3_t2_ok ⟨⟩
        (k3_t2_body (F := F) L epV (Memref.isWhole_whole _) gV (Memref.isWhole_whole _) oV (Memref.isWhole_whole _) sE0 (Memref.isWhole_whole _) sE1 (Memref.isWhole_whole _)
          sG (Memref.isWhole_whole _) sA (Memref.isWhole_whole _) cc3_scratch4 cc3_scratch5 cc3_scratch6 cc3_scoped0) := rfl
theorem loop_t5 :
    Scf.Loop.for k3_t5_loop k3_t5_ok ⟨⟩
        (k3_t5_body (F := F) L epV (Memref.isWhole_whole _) gV (Memref.isWhole_whole _) oV (Memref.isWhole_whole _) sE0 (Memref.isWhole_whole _) sE1 (Memref.isWhole_whole _)
          sG (Memref.isWhole_whole _) sA (Memref.isWhole_whole _) cc3_scratch4 cc3_scratch5 cc3_scratch6 cc3_scoped0 k3_pay81)
      = Scf.Loop.for k3_t2_loop k3_t2_ok ⟨⟩
        (k3_t2_body (F := F) L epV (Memref.isWhole_whole _) gV (Memref.isWhole_whole _) oV (Memref.isWhole_whole _) sE1 (Memref.isWhole_whole _) sE0 (Memref.isWhole_whole _)
          sG (Memref.isWhole_whole _) sA (Memref.isWhole_whole _) cc3_scratch4 cc3_scratch5 cc3_scratch6 cc3_scoped0) := rfl
theorem loop_t6 :
    Scf.Loop.for k3_t6_loop k3_t6_ok ⟨⟩
        (k3_t6_body (F := F) L epV (Memref.isWhole_whole _) gV (Memref.isWhole_whole _) oV (Memref.isWhole_whole _) sE0 (Memref.isWhole_whole _) sE1 (Memref.isWhole_whole _)
          sG (Memref.isWhole_whole _) sA (Memref.isWhole_whole _) cc3_scratch4 cc3_scratch5 cc3_scratch6 cc3_scoped0 k3_pay81)
      = Scf.Loop.for k3_t2_loop k3_t2_ok ⟨⟩
        (k3_t2_body (F := F) L epV (Memref.isWhole_whole _) gV (Memref.isWhole_whole _) oV (Memref.isWhole_whole _) sE0 (Memref.isWhole_whole _) sE1 (Memref.isWhole_whole _)
          sG (Memref.isWhole_whole _) sA (Memref.isWhole_whole _) cc3_scratch4 cc3_scratch5 cc3_scratch6 cc3_scoped0) := rfl
theorem loop_t7 :
    Scf.Loop.for k3_t7_loop k3_t7_ok ⟨⟩
        (k3_t7_body (F := F) L epV (Memref.isWhole_whole _) gV (Memref.isWhole_whole _) oV (Memref.isWhole_whole _) sE0 (Memref.isWhole_whole _) sE1 (Memref.isWhole_whole _)
          sG (Memref.isWhole_whole _) sA (Memref.isWhole_whole _) cc3_scratch4 cc3_scratch5 cc3_scratch6 cc3_scoped0 k3_pay81)
      = Scf.Loop.for k3_t2_loop k3_t2_ok ⟨⟩
        (k3_t2_body (F := F) L epV (Memref.isWhole_whole _) gV (Memref.isWhole_whole _) oV (Memref.isWhole_whole _) sE1 (Memref.isWhole_whole _) sE0 (Memref.isWhole_whole _)
          sG (Memref.isWhole_whole _) sA (Memref.isWhole_whole _) cc3_scratch4 cc3_scratch5 cc3_scratch6 cc3_scoped0) := rfl
theorem loop_t8 :
    Scf.Loop.for k3_t8_loop k3_t8_ok ⟨⟩
        (k3_t8_body (F := F) L epV (Memref.isWhole_whole _) gV (Memref.isWhole_whole _) oV (Memref.isWhole_whole _) sE0 (Memref.isWhole_whole _) sE1 (Memref.isWhole_whole _)
          sG (Memref.isWhole_whole _) sA (Memref.isWhole_whole _) cc3_scratch4 cc3_scratch5 cc3_scratch6 cc3_scoped0 k3_pay81)
      = Scf.Loop.for k3_t2_loop k3_t2_ok ⟨⟩
        (k3_t2_body (F := F) L epV (Memref.isWhole_whole _) gV (Memref.isWhole_whole _) oV (Memref.isWhole_whole _) sE0 (Memref.isWhole_whole _) sE1 (Memref.isWhole_whole _)
          sG (Memref.isWhole_whole _) sA (Memref.isWhole_whole _) cc3_scratch4 cc3_scratch5 cc3_scratch6 cc3_scoped0) := rfl
theorem loop_t9 :
    Scf.Loop.for k3_t9_loop k3_t9_ok ⟨⟩
        (k3_t9_body (F := F) L epV (Memref.isWhole_whole _) gV (Memref.isWhole_whole _) oV (Memref.isWhole_whole _) sE0 (Memref.isWhole_whole _) sE1 (Memref.isWhole_whole _)
          sG (Memref.isWhole_whole _) sA (Memref.isWhole_whole _) cc3_scratch4 cc3_scratch5 cc3_scratch6 cc3_scoped0 k3_pay81)
      = Scf.Loop.for k3_t2_loop k3_t2_ok ⟨⟩
        (k3_t2_body (F := F) L epV (Memref.isWhole_whole _) gV (Memref.isWhole_whole _) oV (Memref.isWhole_whole _) sE1 (Memref.isWhole_whole _) sE0 (Memref.isWhole_whole _)
          sG (Memref.isWhole_whole _) sA (Memref.isWhole_whole _) cc3_scratch4 cc3_scratch5 cc3_scratch6 cc3_scoped0) := rfl
theorem loop_t10 :
    Scf.Loop.for k3_t10_loop k3_t10_ok ⟨⟩
        (k3_t10_body (F := F) L epV (Memref.isWhole_whole _) gV (Memref.isWhole_whole _) oV (Memref.isWhole_whole _) sE0 (Memref.isWhole_whole _) sE1 (Memref.isWhole_whole _)
          sG (Memref.isWhole_whole _) sA (Memref.isWhole_whole _) cc3_scratch4 cc3_scratch5 cc3_scratch6 cc3_scoped0 k3_pay81)
      = Scf.Loop.for k3_t2_loop k3_t2_ok ⟨⟩
        (k3_t2_body (F := F) L epV (Memref.isWhole_whole _) gV (Memref.isWhole_whole _) oV (Memref.isWhole_whole _) sE0 (Memref.isWhole_whole _) sE1 (Memref.isWhole_whole _)
          sG (Memref.isWhole_whole _) sA (Memref.isWhole_whole _) cc3_scratch4 cc3_scratch5 cc3_scratch6 cc3_scoped0) := rfl
theorem loop_t11 :
    Scf.Loop.for k3_t11_loop k3_t11_ok ⟨⟩
        (k3_t11_body (F := F) L epV (Memref.isWhole_whole _) gV (Memref.isWhole_whole _) oV (Memref.isWhole_whole _) sE0 (Memref.isWhole_whole _) sE1 (Memref.isWhole_whole _)
          sG (Memref.isWhole_whole _) sA (Memref.isWhole_whole _) cc3_scratch4 cc3_scratch5 cc3_scratch6 cc3_scoped0 k3_pay81)
      = Scf.Loop.for k3_t2_loop k3_t2_ok ⟨⟩
        (k3_t2_body (F := F) L epV (Memref.isWhole_whole _) gV (Memref.isWhole_whole _) oV (Memref.isWhole_whole _) sE1 (Memref.isWhole_whole _) sE0 (Memref.isWhole_whole _)
          sG (Memref.isWhole_whole _) sA (Memref.isWhole_whole _) cc3_scratch4 cc3_scratch5 cc3_scratch6 cc3_scoped0) := rfl

end LoopEqs

/-! ## The tile's task -/

section Tile

variable [FloatOps F] (ep : Vec F S160000 .i32) (gall : Vec F S32x10000 .f32) (d : Dev nD) (L : grid3.Coords)

/-- The tile's row of a `32 × 10000` array, as the kernel slices it. -/
abbrev rowK (L : grid3.Coords) : Rect S32x10000 := Rect.unit (s := S32x10000) (k3_off1 L) S1x10000.size (k3_off1_inb L)
abbrev gRowK (L : grid3.Coords) : Memref sig .scVector .hbm S10000 .f32 :=
  ((gV : Memref sig .scVector .hbm S32x10000 .f32).slice (rowK L) (fun _ => rfl)).squeeze S10000 squeezes_S1x10000_S10000
abbrev oRowK (L : grid3.Coords) : Memref sig .scVector .hbm S10000 .f32 :=
  ((oV : Memref sig .scVector .hbm S32x10000 .f32).slice (rowK L) (fun _ => rfl)).squeeze S10000 squeezes_S1x10000_S10000
/-- Chunk `ci` of the edge words, as the kernel slices it. -/
abbrev epChunk (off : ℕ) (h : ∀ a, (![off] : Fin 1 → ℕ) a + S16000.size a ≤ S160000.size a) : Memref sig .scVector .hbm S16000 .i32 :=
  (epV : Memref sig .scVector .hbm S160000 .i32).slice (Rect.unit (s := S160000) ![off] S16000.size h) (fun _ => rfl)

omit [FloatOps F] in
theorem rowK_eq : rowK L = rowR (tw (F := F) (cQ L) (iQ L)) := by
  unfold rowK rowR Rect.part Rect.block
  congr 1 <;> funext a
  · rw [k3_off1_eq]
    match a with
    | 0 => simp [Shape.partIx, Shape.partSize, tw]; rfl
    | 1 => simp [Shape.partIx, Shape.partSize]
  · match a with
    | 0 => simp [Shape.partSize]
    | 1 => simp [Shape.partSize]

omit [FloatOps F] in
theorem set_gRowK : (gRowK L).view.set = rowSet (tw (F := F) (cQ L) (iQ L)) := by
  show (((gV : Memref sig .scVector .hbm S32x10000 .f32).view.slice (rowK L)).reshape S10000 squeezes_S1x10000_S10000.numel_eq).set
    = ((gV : Memref sig .scVector .hbm S32x10000 .f32).view.slice (rowR (tw (F := F) (cQ L) (iQ L)))).set
  rw [View.set_reshape]
  exact rowK_eq (F := F) L ▸ rfl
omit [FloatOps F] in
theorem set_oRowK : (oRowK L).view.set = rowSet (tw (F := F) (cQ L) (iQ L)) := by
  show (((oV : Memref sig .scVector .hbm S32x10000 .f32).view.slice (rowK L)).reshape S10000 squeezes_S1x10000_S10000.numel_eq).set
    = ((gV : Memref sig .scVector .hbm S32x10000 .f32).view.slice (rowR (tw (F := F) (cQ L) (iQ L)))).set
  rw [View.set_reshape]
  exact rowK_eq (F := F) L ▸ rfl

omit [FloatOps F] in
theorem pts_gRowK (f : Buf (Elt F) (gLoc d)) :
    ((gRowK L).view.loc (V d (cV L) (jV L)) ↦[(gRowK L).view.set]{fullShare} f : sProp 𝕄) = gLoc d ↦[rowSet (tw (F := F) (cQ L) (iQ L))]{fullShare} f := by
  rw [set_gRowK]
omit [FloatOps F] in
theorem pts_oRowK (f : Buf (Elt F) (oLoc d)) :
    ((oRowK L).view.loc (V d (cV L) (jV L)) ↦[(oRowK L).view.set]{fullShare} f : sProp 𝕄) = oLoc d ↦[rowSet (tw (F := F) (cQ L) (iQ L))]{fullShare} f := by
  rw [set_oRowK]
omit [FloatOps F] in
theorem pts_ep (q : PosShare TreeShare) (f : Buf (Elt F) (epLoc d)) :
    ((epV : Memref sig .scVector .hbm S160000 .i32).view.loc (V d (cV L) (jV L)) ↦{q} f : sProp 𝕄) = epLoc d ↦{q} f := rfl
omit [FloatOps F] in
theorem pts_s0 (f : Buf (Elt F) ((V d (cV L) (jV L)).loc cc3_scratch0)) :
    ((sE0 : Memref sig .scVector .vmem S16000 .i32).view.loc (V d (cV L) (jV L)) ↦{fullShare} f : sProp 𝕄) = (V d (cV L) (jV L)).loc cc3_scratch0 ↦{fullShare} f := rfl
omit [FloatOps F] in
theorem pts_s1 (f : Buf (Elt F) ((V d (cV L) (jV L)).loc cc3_scratch1)) :
    ((sE1 : Memref sig .scVector .vmem S16000 .i32).view.loc (V d (cV L) (jV L)) ↦{fullShare} f : sProp 𝕄) = (V d (cV L) (jV L)).loc cc3_scratch1 ↦{fullShare} f := rfl
omit [FloatOps F] in
theorem pts_s2 (f : Buf (Elt F) ((V d (cV L) (jV L)).loc cc3_scratch2)) :
    ((sG : Memref sig .scVector .vmem S10000 .f32).view.loc (V d (cV L) (jV L)) ↦{fullShare} f : sProp 𝕄) = (V d (cV L) (jV L)).loc cc3_scratch2 ↦{fullShare} f := rfl
omit [FloatOps F] in
theorem pts_s3 (f : Buf (Elt F) ((V d (cV L) (jV L)).loc cc3_scratch3)) :
    ((sA : Memref sig .scVector .vmem S10000 .f32).view.loc (V d (cV L) (jV L)) ↦{fullShare} f : sProp 𝕄) = (V d (cV L) (jV L)).loc cc3_scratch3 ↦{fullShare} f := rfl

/-- The tile's four transfer semaphores: the two edge buffers', the features' row's, the write-out's. -/
abbrev m0 : GSem nD τ sig := (V d (cV L) (jV L), .dma cc3_scratch4.sem)
abbrev m1 : GSem nD τ sig := (V d (cV L) (jV L), .dma cc3_scratch5.sem)
abbrev m2 : GSem nD τ sig := (V d (cV L) (jV L), .dma cc3_scratch6.sem)
abbrev m3 : GSem nD τ sig := (V d (cV L) (jV L), .dma cc3_scoped0.sem)

omit [FloatOps F] in
theorem cell_ne {thr : Thread nD τ} {a b : DmaSem sig} (h : a ≠ b) : ((thr, SemLoc.dma a) : GSem nD τ sig) ≠ (thr, SemLoc.dma b) :=
  fun e => h (SemLoc.dma.inj (Prod.mk.inj e).2)

omit [FloatOps F] in
theorem ownSems0_V :
    (ownSems0 (V d (cV L) (jV L)) : sProp 𝕄)
      = iprop(semVal (m0 d L) 0 ∗ semVal (m1 d L) 0 ∗ semVal (m2 d L) 0 ∗ semVal (m3 d L) 0
          ∗ bigSep (((((ownCells (V d (cV L) (jV L))).erase (m0 d L)).erase (m1 d L)).erase (m2 d L)).erase (m3 d L)) fun g => semVal g 0) := by
  unfold SparseCore.Cfg.ownSems0
  have h0 : m0 d L ∈ ownCells (sig := sig) (V d (cV L) (jV L)) :=
    (mem_ownCells (g := m0 d L)).mpr ⟨rfl, by show (SemLoc.dma cc3_scratch4.sem : SemLoc sig).isScoped .scVector = true; decide⟩
  have h1 : m1 d L ∈ ownCells (sig := sig) (V d (cV L) (jV L)) :=
    (mem_ownCells (g := m1 d L)).mpr ⟨rfl, by show (SemLoc.dma cc3_scratch5.sem : SemLoc sig).isScoped .scVector = true; decide⟩
  have h2 : m2 d L ∈ ownCells (sig := sig) (V d (cV L) (jV L)) :=
    (mem_ownCells (g := m2 d L)).mpr ⟨rfl, by show (SemLoc.dma cc3_scratch6.sem : SemLoc sig).isScoped .scVector = true; decide⟩
  have h3 : m3 d L ∈ ownCells (sig := sig) (V d (cV L) (jV L)) :=
    (mem_ownCells (g := m3 d L)).mpr ⟨rfl, by show (SemLoc.dma cc3_scoped0.sem : SemLoc sig).isScoped .scVector = true; decide⟩
  rw [SparseCore.bigSep_erase' h0,
    SparseCore.bigSep_erase' (Finset.mem_erase.mpr ⟨cell_ne (by decide), h1⟩),
    SparseCore.bigSep_erase' (Finset.mem_erase.mpr ⟨cell_ne (by decide), Finset.mem_erase.mpr ⟨cell_ne (by decide), h2⟩⟩),
    SparseCore.bigSep_erase' (Finset.mem_erase.mpr ⟨cell_ne (by decide), Finset.mem_erase.mpr ⟨cell_ne (by decide), Finset.mem_erase.mpr ⟨cell_ne (by decide), h3⟩⟩⟩)]

omit [FloatOps F] in
/-- The four scratch buffers are among the subcore's own. -/
theorem ownBufs_V :
    (ownBufs (V d (cV L) (jV L)) : sProp 𝕄)
      = iprop((∃ f, (V d (cV L) (jV L)).loc cc3_scratch0 ↦{fullShare} f) ∗ (∃ f, (V d (cV L) (jV L)).loc cc3_scratch1 ↦{fullShare} f)
          ∗ (∃ f, (V d (cV L) (jV L)).loc cc3_scratch2 ↦{fullShare} f) ∗ (∃ f, (V d (cV L) (jV L)).loc cc3_scratch3 ↦{fullShare} f)
          ∗ bigSep (((((ownRefs (τ := τ) (.scVector (cV L) (jV L))).erase ((Proc.scVector (cV L) (jV L)).devRef cc3_scratch0)).erase
              ((Proc.scVector (cV L) (jV L)).devRef cc3_scratch1)).erase ((Proc.scVector (cV L) (jV L)).devRef cc3_scratch2)).erase
              ((Proc.scVector (cV L) (jV L)).devRef cc3_scratch3))
              fun b => iprop(∃ f, ((d, b) : Loc nD τ sig) ↦{fullShare} f)) := by
  unfold SparseCore.Cfg.ownBufs
  have hm0 := SparseCore.Cfg.mem_ownRefs_of_owner (p := Proc.scVector (cV L) (jV L)) (b := (Proc.scVector (cV L) (jV L)).devRef cc3_scratch0) rfl
  have hm1 := SparseCore.Cfg.mem_ownRefs_of_owner (p := Proc.scVector (cV L) (jV L)) (b := (Proc.scVector (cV L) (jV L)).devRef cc3_scratch1) rfl
  have hm2 := SparseCore.Cfg.mem_ownRefs_of_owner (p := Proc.scVector (cV L) (jV L)) (b := (Proc.scVector (cV L) (jV L)).devRef cc3_scratch2) rfl
  have hm3 := SparseCore.Cfg.mem_ownRefs_of_owner (p := Proc.scVector (cV L) (jV L)) (b := (Proc.scVector (cV L) (jV L)).devRef cc3_scratch3) rfl
  have hne : ∀ {a b : Ref sig .scVector}, a ≠ b → (Proc.scVector (cV L) (jV L)).devRef a ≠ (Proc.scVector (cV L) (jV L)).devRef b :=
    fun h e => h (Proc.devRef_injective _ e)
  refine (SparseCore.bigSep_erase' hm0).trans ?_
  rw [SparseCore.bigSep_erase' (Finset.mem_erase.mpr ⟨hne (by decide), hm1⟩),
    SparseCore.bigSep_erase' (Finset.mem_erase.mpr ⟨hne (by decide), Finset.mem_erase.mpr ⟨hne (by decide), hm2⟩⟩),
    SparseCore.bigSep_erase' (Finset.mem_erase.mpr ⟨hne (by decide), Finset.mem_erase.mpr ⟨hne (by decide), Finset.mem_erase.mpr ⟨hne (by decide), hm3⟩⟩⟩)]

end Tile

/-! ## What the copies land, and the cleared accumulator -/

section Landed

variable [FloatOps F] (ep : Vec F S160000 .i32) (gall : Vec F S32x10000 .f32) (d : Dev nD) (L : grid3.Coords)

/-- What the copy of the sixteen thousand edge words from word `off` on lands in an edge buffer. -/
def chunkW (off : ℕ) (h : ∀ a, (![off] : Fin 1 → ℕ) a + S16000.size a ≤ S160000.size a) : S16000.Idx → Elt F .i32 :=
  ReadAs.same.apply (View.read (Elt F) (epChunk off h).view ep)

/-- Block `r` of trip `k` of the loop over chunk `ci` is block `1000 ci + 8 k + r` of the edge words. -/
theorem chunk_vals (off ci : ℕ) (hoff : off = 16000 * ci) (h : ∀ a, (![off] : Fin 1 → ℕ) a + S16000.size a ≤ S160000.size a)
    (k : Fin k3_t2_loop.trips) (r : Fin 8) (x : S16.Idx) :
    chunkW ep off h ((ldR k r).toLoadRect.idx x) = blk ep (1000 * ci + 8 * k.val + r.val) x := by
  subst hoff
  have h3 := congrFun (k3_off3_eq k r) 0
  simp only [Matrix.cons_val_zero] at h3
  have hk : k.val < 125 := lt_of_lt_of_eq k.isLt trips_t2
  have hr : r.val < 8 := r.isLt
  have hx : (x 0).val < 16 := (x 0).isLt
  have hci : 16000 * ci + 16000 ≤ 160000 := h 0
  unfold chunkW blk
  show View.read (Elt F) (epChunk (16000 * ci) h).view ep ((ldR k r).toLoadRect.idx x) = _
  rw [View.read_apply]
  refine (cast_eq _ _).trans ?_
  congr 1
  funext a
  have ha : a = (0 : Fin 1) := Subsingleton.elim (α := Fin 1) a 0
  subst ha
  apply Fin.ext
  show 16000 * ci + 1 * (k3_off3 k (BitVec.ofNat 32 r.val) 0 + 1 * (x 0).val) = (16 * (1000 * ci + 8 * k.val + r.val) + (x 0).val) % 160000
  rw [h3, Nat.mod_eq_of_lt (by omega)]; omega

theorem hfe0 (off ci : ℕ) (hoff : off = 16000 * ci) (h : ∀ a, (![off] : Fin 1 → ℕ) a + S16000.size a ≤ S160000.size a)
    (k : Fin k3_t2_loop.trips) (r : Fin 8) :
    (sE0 : Memref sig .scVector .vmem S16000 .i32).view.readAt (Elt F) (ldR k r).toLoadRect (chunkW ep off h) = blk ep (1000 * ci + 8 * k.val + r.val) :=
  funext fun x => chunk_vals ep off ci hoff h k r x
theorem hfe1 (off ci : ℕ) (hoff : off = 16000 * ci) (h : ∀ a, (![off] : Fin 1 → ℕ) a + S16000.size a ≤ S160000.size a)
    (k : Fin k3_t2_loop.trips) (r : Fin 8) :
    (sE1 : Memref sig .scVector .vmem S16000 .i32).view.readAt (Elt F) (ldR k r).toLoadRect (chunkW ep off h) = blk ep (1000 * ci + 8 * k.val + r.val) :=
  funext fun x => chunk_vals ep off ci hoff h k r x

/-- What the copy of the tile's row of the scaled features lands: that row. -/
theorem g_row : ReadAs.same.apply (View.read (Elt F) (gRowK L).view gall) = rowOf gall (tw (F := F) (cQ L) (iQ L)) := by
  funext n
  show View.read (Elt F) (gRowK L).view gall n = _
  rw [View.read_apply]
  refine (cast_eq _ _).trans ?_
  unfold rowOf
  congr 1
  have he : (gRowK L).view.emb n = (rowK L).emb (Shape.reshapeEquiv squeezes_S1x10000_S10000.numel_eq n) := rfl
  rw [he, Shape.reshapeEquiv_cons_one]
  have h1 := k3_off1_eq L
  funext a
  match a with
  | ⟨0, _⟩ =>
    apply Fin.ext
    show k3_off1 L 0 + 1 * 0 = (tw (F := F) (cQ L) (iQ L)).val
    rw [h1]; simp [tw]; rfl
  | ⟨1, _⟩ =>
    apply Fin.ext
    show k3_off1 L 1 + 1 * (n 0).val = (n 0).val
    rw [h1]; simp

omit [FloatOps F] in
/-- Where the tile's row of the result sits in the array: row `w`, the same column. -/
theorem oRowK_emb (x : S10000.Idx) :
    ((oRowK L).view.emb x 0).val = (tw (F := F) (cQ L) (iQ L)).val ∧ ((oRowK L).view.emb x 1).val = (x 0).val := by
  have he : (oRowK L).view.emb x = (rowK L).emb (Shape.reshapeEquiv squeezes_S1x10000_S10000.numel_eq x) := rfl
  rw [he, Shape.reshapeEquiv_cons_one]
  have h1 := k3_off1_eq L
  constructor
  · show k3_off1 L 0 + 1 * 0 = _
    rw [h1]; simp [tw]; rfl
  · show k3_off1 L 1 + 1 * (x 0).val = _
    rw [h1]; simp

/-- The call's result along the tile's row is the tile's accumulator. -/
theorem accT_emb (x : S10000.Idx) :
    accT ep gall ((oRowK L).view.emb x)
      = accRow ep (rowOf gall (tw (F := F) (cQ L) (iQ L))) (tw (F := F) (cQ L) (iQ L)) x := by
  obtain ⟨e0, e1⟩ := oRowK_emb (F := F) L x
  have hc : ∀ (w w' : Fin 32) (m m' : S10000.Idx), w = w' → m = m' →
      accRow ep (rowOf gall w) w m = accRow ep (rowOf gall w') w' m' := by
    intro w w' m m' h1 h2; rw [h1, h2]
  unfold accT
  refine hc _ _ _ _ (Fin.ext e0) ?_
  funext a
  have ha : a = (0 : Fin 1) := Subsingleton.elim (α := Fin 1) a 0
  subst ha
  exact Fin.ext e1

/-- The accumulator written out over row `w` of the result is that row of the call's result. -/
theorem o_row (fo : Buf (Elt F) (oLoc d)) (i : S32x10000.Idx) (hi : i ∈ rowSet (tw (F := F) (cQ L) (iQ L))) :
    (oRowK L).view.writes (Elt F) fo
      [⟨Rect.whole S10000, ReadAs.same.apply (View.read (Elt F) (sA : Memref sig .scVector .vmem S10000 .f32).view
          (accAfter ep (ReadAs.same.apply (View.read (Elt F) (gRowK L).view gall)) 10000))⟩] i = accT ep gall i := by
  have hi' : i ∈ (oRowK L).view.set := by rw [set_oRowK]; exact hi
  obtain ⟨x, -, rfl⟩ := Finset.mem_map.mp hi'
  rw [g_row (F := F) gall L]
  have h1 := View.read_writes_cons_emb (v := (oRowK L).view) fo (Rect.whole S10000)
    (ReadAs.same.apply (View.read (Elt F) (sA : Memref sig .scVector .vmem S10000 .f32).view
      (accAfter ep (rowOf gall (tw (F := F) (cQ L) (iQ L))) 10000))) [] x
  rw [Rect.emb_whole_apply, View.read_apply] at h1
  refine ((cast_eq _ _).symm.trans h1).trans ?_
  exact (accT_emb ep gall L x).symm

omit [FloatOps F] in
/-- A copy into the whole of a buffer replaces its contents. -/
theorem lands0 (f0 : Buf (Elt F) ((V d (cV L) (jV L)).loc cc3_scratch0)) (W : S16000.Idx → Elt F .i32) :
    ((sE0 : Memref sig .scVector .vmem S16000 .i32).view.loc (V d (cV L) (jV L)) ↦{fullShare}
        View.write (Elt F) (Memref.whole cc3_scratch0 : Memref sig .scVector .vmem S16000 .i32).view f0 W Finset.univ : sProp 𝕄)
      = ((sE0 : Memref sig .scVector .vmem S16000 .i32).view.loc (V d (cV L) (jV L)) ↦{fullShare} W) :=
  congrArg (fun f => ((sE0 : Memref sig .scVector .vmem S16000 .i32).view.loc (V d (cV L) (jV L)) ↦{fullShare} f : sProp 𝕄))
    (View.write_whole_univ (cc3_scratch0 : Ref sig .scVector) f0 W)
omit [FloatOps F] in
theorem lands1 (f0 : Buf (Elt F) ((V d (cV L) (jV L)).loc cc3_scratch1)) (W : S16000.Idx → Elt F .i32) :
    ((sE1 : Memref sig .scVector .vmem S16000 .i32).view.loc (V d (cV L) (jV L)) ↦{fullShare}
        View.write (Elt F) (Memref.whole cc3_scratch1 : Memref sig .scVector .vmem S16000 .i32).view f0 W Finset.univ : sProp 𝕄)
      = ((sE1 : Memref sig .scVector .vmem S16000 .i32).view.loc (V d (cV L) (jV L)) ↦{fullShare} W) :=
  congrArg (fun f => ((sE1 : Memref sig .scVector .vmem S16000 .i32).view.loc (V d (cV L) (jV L)) ↦{fullShare} f : sProp 𝕄))
    (View.write_whole_univ (cc3_scratch1 : Ref sig .scVector) f0 W)
omit [FloatOps F] in
theorem lands2 (f0 : Buf (Elt F) ((V d (cV L) (jV L)).loc cc3_scratch2)) (W : S10000.Idx → Elt F .f32) :
    ((sG : Memref sig .scVector .vmem S10000 .f32).view.loc (V d (cV L) (jV L)) ↦{fullShare}
        View.write (Elt F) (Memref.whole cc3_scratch2 : Memref sig .scVector .vmem S10000 .f32).view f0 W Finset.univ : sProp 𝕄)
      = ((sG : Memref sig .scVector .vmem S10000 .f32).view.loc (V d (cV L) (jV L)) ↦{fullShare} W) :=
  congrArg (fun f => ((sG : Memref sig .scVector .vmem S10000 .f32).view.loc (V d (cV L) (jV L)) ↦{fullShare} f : sProp 𝕄))
    (View.write_whole_univ (cc3_scratch2 : Ref sig .scVector) f0 W)

theorem trips_t1 : k3_t1_loop.trips = 625 := by decide

/-- One trip of the clearing loop: sixteen more words of the accumulator are zero. -/
theorem zero_step (k : Fin k3_t1_loop.trips) (f : Vec F S10000 .f32)
    (hf : ∀ n : S10000.Idx, (n 0).val < 16 * k.val → f n = zeroV n) (n : S10000.Idx) (hn : (n 0).val < 16 * (k.val + 1)) :
    (sA : Memref sig .scVector .vmem S10000 .f32).view.writes (Elt F) f
      [⟨Rect.unit (s := S10000) (k3_off2 k) S16.size (k3_off2_inb k), k3_pay82⟩] n = zeroV n := by
  refine (View.read_writes_cons_unit (sA : Memref sig .scVector .vmem S10000 .f32).view f (k3_off2_inb k) (k3_pay82 (F := F)) [] n (k3_off2_eq k)).trans ?_
  split
  · rfl
  · rename_i hne
    refine hf n ?_
    by_contra hge
    refine hne fun a => ?_
    obtain rfl : a = 0 := Subsingleton.elim _ _
    constructor
    · show 16 * k.val ≤ (n 0).val; omega
    · show (n 0).val < 16 * k.val + 16; omega

/-- After its 625 trips the accumulator is cleared. -/
theorem zero_all (fz : Vec F S10000 .f32) (hz : ∀ n : S10000.Idx, (n 0).val < 16 * k3_t1_loop.trips → fz n = zeroV n) : fz = zeroV :=
  funext fun n => hz n (by rw [trips_t1]; exact lt_of_lt_of_le (n 0).isLt (by decide))

end Landed

section TileBody

variable [FloatOps F] (ep : Vec F S160000 .i32) (gall : Vec F S32x10000 .f32)

set_option maxHeartbeats 40000000 in
/-- The task on vector subcore `(L 0, L 1)` of device `d`. -/
theorem tile_body (hF : (K (F := F)).Facts) (hidx : IdxOK ep) (d : Dev nD) (L : grid3.Coords)
    (O : CellTallies nD τ sig (HIx 2)) (W : Waits sig (HIx 2)) (hO : ∀ g, O g none = 0) :
    iprop(levAts (K (F := F)).L (K (F := F)).lev ∗ emp ∗ go ep gall d (cQ L) (iQ L)
        ∗ scopedBufs (V d (cV L) (jV L)) ∗ scopedSems0 (V d (cV L) (jV L)) ∗ owes (V d (cV L) (jV L)) O W)
      ⊢ wp frame (wpE (defs₀ (F := F)) 𝒱₀ (V d (cV L) (jV L)) none) Set.univ
          (cc3__sc_msg L (Memref.whole main_v1_scv) (Memref.isWhole_whole _) (Memref.whole main_v3_1_scv) (Memref.isWhole_whole _)
            (Memref.whole main_v4_scv) (Memref.isWhole_whole _) (Memref.whole cc3_scratch0) (Memref.isWhole_whole _)
            (Memref.whole cc3_scratch1) (Memref.isWhole_whole _) (Memref.whole cc3_scratch2) (Memref.isWhole_whole _)
            (Memref.whole cc3_scratch3) (Memref.isWhole_whole _) cc3_scratch4 cc3_scratch5 cc3_scratch6 cc3_scoped0)
          fun _ => iprop(td ep gall d (cQ L) (iQ L) ∗ scopedBufs (V d (cV L) (jV L)) ∗ scopedSems0 (V d (cV L) (jV L))
            ∗ ∃ W', ⌜∀ p ∈ W', p ∈ W ∨ p.2 = none⌝ ∗ owes (V d (cV L) (jV L)) O W') := by
  simp only [cc3__sc_msg_eq_skeleton]; unfold cc3__sc_msg_skel
  rw [(K (F := F)).scopedBufs_V hF d (cV L) (jV L), SparseCore.Cfg.scopedSems0_V (Val := Elt F) d (cV L) (jV L), ownSems0_V, ownBufs_V]
  unfold go
  iintro ⟨#Hlv, -, ⟨Hep, Hg, %fo, Ho⟩, ⟨⟨%f0, Hs0⟩, ⟨%f1, Hs1⟩, ⟨%f2, Hs2⟩, ⟨%f3, Hs3⟩, Hbufs⟩, ⟨Hm0, Hm1, Hm2, Hm3, Hsems⟩, HO⟩
  ihave Hmw := ((K (F := F)).mayWaits_none (thr := V d (cV L) (jV L)) hO) $$ Hlv
  ihave Hep' := (Entails.of_eq (pts_ep (F := F) d L _ _).symm) $$ Hep
  ihave Hg' := (Entails.of_eq (pts_gRowK (F := F) d L _).symm) $$ Hg
  ihave Ho' := (Entails.of_eq (pts_oRowK (F := F) d L _).symm) $$ Ho
  ihave Hs0' := (Entails.of_eq (pts_s0 (F := F) d L _).symm) $$ Hs0
  ihave Hs1' := (Entails.of_eq (pts_s1 (F := F) d L _).symm) $$ Hs1
  ihave Hs2' := (Entails.of_eq (pts_s2 (F := F) d L _).symm) $$ Hs2
  ihave Hs3' := (Entails.of_eq (pts_s3 (F := F) d L _).symm) $$ Hs3
  -- the two first copies start; the accumulator is cleared
  sl_exec
  sl_for (fun (k : ℕ) _ => (iprop(∃ f, ((sA : Memref sig .scVector .vmem S10000 .f32).view.loc (V d (cV L) (jV L)) ↦{fullShare} f)
      ∗ ⌜∀ n : S10000.Idx, (n 0).val < 16 * k → f n = zeroV n⌝) : sProp 𝕄)) $$ [Hs3']
  case region =>
    intro k _
    iintro ⟨%f, Hs, %hf⟩
    sl_exec
    sl_step
    iexists _
    isplitl [Hs]; · iexact Hs
    ipureintro
    exact zero_step k f hf
  · iexists f3; isplitl [Hs3']; · iexact Hs3'
    ipureintro; intro n hn; omega
  iintro %_ HI
  icases HI with ⟨%fz, Hs3, %hz⟩
  obtain rfl : fz = zeroV := zero_all fz hz
  -- chunk 0: the wait for it, its loop over edge buffer 0
  sl_exec
  ihave Hg2 := (Entails.of_eq (lands2 (F := F) d L _ _)) $$ Hs2'
  rw [wp_bind]
  ihave He0 := (Entails.of_eq (lands0 (F := F) d L _ _)) $$ Hs0'
  iapply (wp_wand_r frame _ _)
  isplitl [He0 Hg2 Hs3]
  · iapply (chunk_loop ep d L hidx sE0 sE1 (Memref.isWhole_whole _) (Memref.isWhole_whole _) fullShare
        (chunkW ep 0 inb_S160000_S16000_0) _ (1000 * 0) (hfe0 ep 0 0 rfl inb_S160000_S16000_0))
    isplitl [He0]; · iexact He0
    isplitl [Hg2]; · iexact Hg2
    iexact Hs3
  iintro %_ ⟨Hs0', Hg2, Hs3⟩
  -- chunk 1: the wait for it, its loop over edge buffer 1
  sl_exec
  rw [loop_t3 (F := F) L]
  rw [wp_bind]
  ihave He1 := (Entails.of_eq (lands1 (F := F) d L _ _)) $$ Hs1'
  iapply (wp_wand_r frame _ _)
  isplitl [He1 Hg2 Hs3]
  · iapply (chunk_loop ep d L hidx sE1 sE0 (Memref.isWhole_whole _) (Memref.isWhole_whole _) fullShare
        (chunkW ep 16000 inb_S160000_S16000_16000) _ (1000 * 1) (hfe1 ep 16000 1 rfl inb_S160000_S16000_16000))
    isplitl [He1]; · iexact He1
    isplitl [Hg2]; · iexact Hg2
    iexact Hs3
  iintro %_ ⟨Hs1', Hg2, Hs3⟩
  -- chunk 2: the wait for it, its loop over edge buffer 0
  sl_exec
  rw [loop_t4 (F := F) L]
  rw [wp_bind]
  ihave He0 := (Entails.of_eq (lands0 (F := F) d L _ _)) $$ Hs0'
  iapply (wp_wand_r frame _ _)
  isplitl [He0 Hg2 Hs3]
  · iapply (chunk_loop ep d L hidx sE0 sE1 (Memref.isWhole_whole _) (Memref.isWhole_whole _) fullShare
        (chunkW ep 32000 inb_S160000_S16000_32000) _ (1000 * 2) (hfe0 ep 32000 2 rfl inb_S160000_S16000_32000))
    isplitl [He0]; · iexact He0
    isplitl [Hg2]; · iexact Hg2
    iexact Hs3
  iintro %_ ⟨Hs0', Hg2, Hs3⟩
  -- chunk 3: the wait for it, its loop over edge buffer 1
  sl_exec
  rw [loop_t5 (F := F) L]
  rw [wp_bind]
  ihave He1 := (Entails.of_eq (lands1 (F := F) d L _ _)) $$ Hs1'
  iapply (wp_wand_r frame _ _)
  isplitl [He1 Hg2 Hs3]
  · iapply (chunk_loop ep d L hidx sE1 sE0 (Memref.isWhole_whole _) (Memref.isWhole_whole _) fullShare
        (chunkW ep 48000 inb_S160000_S16000_48000) _ (1000 * 3) (hfe1 ep 48000 3 rfl inb_S160000_S16000_48000))
    isplitl [He1]; · iexact He1
    isplitl [Hg2]; · iexact Hg2
    iexact Hs3
  iintro %_ ⟨Hs1', Hg2, Hs3⟩
  -- chunk 4: the wait for it, its loop over edge buffer 0
  sl_exec
  rw [loop_t6 (F := F) L]
  rw [wp_bind]
  ihave He0 := (Entails.of_eq (lands0 (F := F) d L _ _)) $$ Hs0'
  iapply (wp_wand_r frame _ _)
  isplitl [He0 Hg2 Hs3]
  · iapply (chunk_loop ep d L hidx sE0 sE1 (Memref.isWhole_whole _) (Memref.isWhole_whole _) fullShare
        (chunkW ep 64000 inb_S160000_S16000_64000) _ (1000 * 4) (hfe0 ep 64000 4 rfl inb_S160000_S16000_64000))
    isplitl [He0]; · iexact He0
    isplitl [Hg2]; · iexact Hg2
    iexact Hs3
  iintro %_ ⟨Hs0', Hg2, Hs3⟩
  -- chunk 5: the wait for it, its loop over edge buffer 1
  sl_exec
  rw [loop_t7 (F := F) L]
  rw [wp_bind]
  ihave He1 := (Entails.of_eq (lands1 (F := F) d L _ _)) $$ Hs1'
  iapply (wp_wand_r frame _ _)
  isplitl [He1 Hg2 Hs3]
  · iapply (chunk_loop ep d L hidx sE1 sE0 (Memref.isWhole_whole _) (Memref.isWhole_whole _) fullShare
        (chunkW ep 80000 inb_S160000_S16000_80000) _ (1000 * 5) (hfe1 ep 80000 5 rfl inb_S160000_S16000_80000))
    isplitl [He1]; · iexact He1
    isplitl [Hg2]; · iexact Hg2
    iexact Hs3
  iintro %_ ⟨Hs1', Hg2, Hs3⟩
  -- chunk 6: the wait for it, its loop over edge buffer 0
  sl_exec
  rw [loop_t8 (F := F) L]
  rw [wp_bind]
  ihave He0 := (Entails.of_eq (lands0 (F := F) d L _ _)) $$ Hs0'
  iapply (wp_wand_r frame _ _)
  isplitl [He0 Hg2 Hs3]
  · iapply (chunk_loop ep d L hidx sE0 sE1 (Memref.isWhole_whole _) (Memref.isWhole_whole _) fullShare
        (chunkW ep 96000 inb_S160000_S16000_96000) _ (1000 * 6) (hfe0 ep 96000 6 rfl inb_S160000_S16000_96000))
    isplitl [He0]; · iexact He0
    isplitl [Hg2]; · iexact Hg2
    iexact Hs3
  iintro %_ ⟨Hs0', Hg2, Hs3⟩
  -- chunk 7: the wait for it, its loop over edge buffer 1
  sl_exec
  rw [loop_t9 (F := F) L]
  rw [wp_bind]
  ihave He1 := (Entails.of_eq (lands1 (F := F) d L _ _)) $$ Hs1'
  iapply (wp_wand_r frame _ _)
  isplitl [He1 Hg2 Hs3]
  · iapply (chunk_loop ep d L hidx sE1 sE0 (Memref.isWhole_whole _) (Memref.isWhole_whole _) fullShare
        (chunkW ep 112000 inb_S160000_S16000_112000) _ (1000 * 7) (hfe1 ep 112000 7 rfl inb_S160000_S16000_112000))
    isplitl [He1]; · iexact He1
    isplitl [Hg2]; · iexact Hg2
    iexact Hs3
  iintro %_ ⟨Hs1', Hg2, Hs3⟩
  -- chunk 8: the wait for it, its loop over edge buffer 0
  sl_exec
  rw [loop_t10 (F := F) L]
  rw [wp_bind]
  ihave He0 := (Entails.of_eq (lands0 (F := F) d L _ _)) $$ Hs0'
  iapply (wp_wand_r frame _ _)
  isplitl [He0 Hg2 Hs3]
  · iapply (chunk_loop ep d L hidx sE0 sE1 (Memref.isWhole_whole _) (Memref.isWhole_whole _) fullShare
        (chunkW ep 128000 inb_S160000_S16000_128000) _ (1000 * 8) (hfe0 ep 128000 8 rfl inb_S160000_S16000_128000))
    isplitl [He0]; · iexact He0
    isplitl [Hg2]; · iexact Hg2
    iexact Hs3
  iintro %_ ⟨Hs0', Hg2, Hs3⟩
  -- chunk 9: the wait for it, its loop over edge buffer 1
  sl_exec
  rw [loop_t11 (F := F) L]
  rw [wp_bind]
  ihave He1 := (Entails.of_eq (lands1 (F := F) d L _ _)) $$ Hs1'
  iapply (wp_wand_r frame _ _)
  isplitl [He1 Hg2 Hs3]
  · iapply (chunk_loop ep d L hidx sE1 sE0 (Memref.isWhole_whole _) (Memref.isWhole_whole _) fullShare
        (chunkW ep 144000 inb_S160000_S16000_144000) _ (1000 * 9) (hfe1 ep 144000 9 rfl inb_S160000_S16000_144000))
    isplitl [He1]; · iexact He1
    isplitl [Hg2]; · iexact Hg2
    iexact Hs3
  iintro %_ ⟨Hs1', Hg2, Hs3⟩
  -- the accumulator is written out
  sl_exec
  sl_step
  unfold td
  isplitl [Hep' Hg' Ho']
  · isplitl [Hep']; · iapply (Entails.of_eq (pts_ep (F := F) d L _ _)); iexact Hep'
    isplitl [Hg']; · iapply (Entails.of_eq (pts_gRowK (F := F) d L _)); iexact Hg'
    iapply (Entails.of_eq (pointsTo_congr (ℓ := oLoc d) (q := fullShare) fun i hi => o_row ep gall d L fo i hi))
    iapply (Entails.of_eq (pts_oRowK (F := F) d L _))
    iexact Ho'
  isplitl [Hs0' Hs1' Hg2 Hs3 Hbufs]
  · isplitl [Hs0']; · iexists _; iexact Hs0'
    isplitl [Hs1']; · iexists _; iexact Hs1'
    isplitl [Hg2]; · iexists _; iexact Hg2
    isplitl [Hs3]; · iexists _; iexact Hs3
    iexact Hbufs
  isplitl [Hm0 Hm1 Hm2 Hm3 Hsems]
  · isplitl [Hm0]; · iexact Hm0
    isplitl [Hm1]; · iexact Hm1
    isplitl [Hm2]; · iexact Hm2
    isplitl [Hm3]; · iexact Hm3
    iexact Hsems
  iexists _; isplitr
  rotate_left
  · iexact HO
  · ipureintro; intro p hp
    repeat
      rcases Finset.mem_insert.mp hp with rfl | hp
      · exact .inr rfl
    exact .inl hp

end TileBody

/-! ## Splitting a SparseCore's operands among its tiles; the TensorCore's whole arrays -/

section Split

variable [FloatOps F] (ep : Vec F S160000 .i32) (gall : Vec F S32x10000 .f32)

omit [FloatOps F] in
theorem rowSet_eq (w : Fin 32) : rowSet w = (rowR w).set := by
  show ((View.whole (main_v3_1_scv : Ref sig .scVector)).slice (rowR w)).set = _
  rw [View.set_slice]; exact Finset.map_refl
omit [FloatOps F] in
theorem rows_disjoint {i j : Fin 32} (h : i ≠ j) : Disjoint (rowSet i) (rowSet j) := by
  rw [rowSet_eq, rowSet_eq]; exact Rect.part_disjoint hdiv32 h
omit [FloatOps F] in
theorem rows_cover : (Finset.univ : Finset (Fin 32)).biUnion rowSet = Finset.univ :=
  (Finset.biUnion_congr rfl fun i _ => rowSet_eq i).trans (Rect.biUnion_part hdiv32)

omit [FloatOps F] in
theorem tw_inj {c c' : Fin ((K (F := F)).nCore 1)} {i i' : Fin ((K (F := F)).nSub 1)} (h : tw c i = tw c' i') : c = c' ∧ i = i' := by
  have hc : c.val < 2 := c.isLt
  have hc' : c'.val < 2 := c'.isLt
  have h2 : 2 * i.val + c.val = 2 * i'.val + c'.val := congrArg Fin.val h
  exact ⟨Fin.ext (by omega), Fin.ext (by omega)⟩
omit [FloatOps F] in
theorem tw_surj (w : Fin 32) : ∃ (c : Fin ((K (F := F)).nCore 1)) (i : Fin ((K (F := F)).nSub 1)), tw c i = w :=
  ⟨⟨w.val % 2, Nat.mod_lt _ (by decide)⟩, ⟨w.val / 2, by have := w.isLt; show w.val / 2 < 16; omega⟩, Fin.ext (by show 2 * (w.val / 2) + w.val % 2 = w.val; omega)⟩

omit [FloatOps F] in
theorem rowsOf_disjoint : Disjoint (rowsOf (F := F) (0 : Fin 2)) (rowsOf (F := F) (1 : Fin 2)) := by
  unfold rowsOf
  refine (Finset.disjoint_biUnion_left _ _ _).mpr fun i _ => (Finset.disjoint_biUnion_right _ _ _).mpr fun j _ => rows_disjoint fun e => ?_
  exact absurd (congrArg Fin.val (tw_inj e).1) (show (0 : ℕ) ≠ 1 by decide)
omit [FloatOps F] in
theorem rowsOf_cover : rowsOf (F := F) (0 : Fin 2) ∪ rowsOf (F := F) (1 : Fin 2) = Finset.univ := by
  refine Finset.eq_univ_iff_forall.mpr fun x => ?_
  have hx : x ∈ (Finset.univ : Finset (Fin 32)).biUnion rowSet := by rw [rows_cover]; exact Finset.mem_univ _
  obtain ⟨w, -, hw⟩ := Finset.mem_biUnion.mp hx
  obtain ⟨c, i, rfl⟩ := tw_surj (F := F) w
  have hc : c = (0 : Fin 2) ∨ c = (1 : Fin 2) := by
    have : c.val < 2 := c.isLt
    rcases Nat.lt_or_ge c.val 1 with h | h
    · exact .inl (Fin.ext (by show c.val = 0; omega))
    · exact .inr (Fin.ext (by show c.val = 1; omega))
  rcases hc with rfl | rfl
  · exact Finset.mem_union_left _ (Finset.mem_biUnion.mpr ⟨i, Finset.mem_univ _, hw⟩)
  · exact Finset.mem_union_right _ (Finset.mem_biUnion.mpr ⟨i, Finset.mem_univ _, hw⟩)

omit [FloatOps F] in
theorem g_cores (d : Dev nD) (f : Buf (Elt F) (gLoc d)) :
    (gLoc d ↦{fullShare} f : sProp 𝕄) ⊣⊢ iprop((gLoc d ↦[rowsOf (F := F) (0 : Fin 2)]{fullShare} f) ∗ gLoc d ↦[rowsOf (F := F) (1 : Fin 2)]{fullShare} f) := by
  have h : (gLoc d ↦[rowsOf (F := F) (0 : Fin 2) ∪ rowsOf (F := F) (1 : Fin 2)]{fullShare} f : sProp 𝕄) ⊣⊢ _ := pointsTo_union (rowsOf_disjoint (F := F))
  rw [rowsOf_cover] at h; exact h
omit [FloatOps F] in
theorem o_cores (d : Dev nD) (f : Buf (Elt F) (oLoc d)) :
    (oLoc d ↦{fullShare} f : sProp 𝕄) ⊣⊢ iprop((oLoc d ↦[rowsOf (F := F) (0 : Fin 2)]{fullShare} f) ∗ oLoc d ↦[rowsOf (F := F) (1 : Fin 2)]{fullShare} f) := by
  have h : (oLoc d ↦[rowsOf (F := F) (0 : Fin 2) ∪ rowsOf (F := F) (1 : Fin 2)]{fullShare} f : sProp 𝕄) ⊣⊢ _ := pointsTo_union (rowsOf_disjoint (F := F))
  rw [rowsOf_cover] at h; exact h
omit [FloatOps F] in
theorem g_tiles (d : Dev nD) (c : Fin ((K (F := F)).nCore 1)) (f : Buf (Elt F) (gLoc d)) :
    (gLoc d ↦[rowsOf c]{fullShare} f : sProp 𝕄) = bigSep Finset.univ fun i : Fin ((K (F := F)).nSub 1) => gLoc d ↦[rowSet (tw c i)]{fullShare} f := by
  have h := pointsTo_biUnion (Ix := HIx 2) (Name := ℕ) (U := UU) (Lvl := ℕ) (ℓ := gLoc d) (q := fullShare) (f := f)
    (Finset.univ : Finset (Fin ((K (F := F)).nSub 1))) (fun i => rowSet (tw c i)) (fun i _ j _ h => rows_disjoint fun e => h (tw_inj e).2)
  rw [← h]; congr 1
omit [FloatOps F] in
theorem o_tiles (d : Dev nD) (c : Fin ((K (F := F)).nCore 1)) (f : Buf (Elt F) (oLoc d)) :
    (oLoc d ↦[rowsOf c]{fullShare} f : sProp 𝕄) = bigSep Finset.univ fun i : Fin ((K (F := F)).nSub 1) => oLoc d ↦[rowSet (tw c i)]{fullShare} f := by
  have h := pointsTo_biUnion (Ix := HIx 2) (Name := ℕ) (U := UU) (Lvl := ℕ) (ℓ := oLoc d) (q := fullShare) (f := f)
    (Finset.univ : Finset (Fin ((K (F := F)).nSub 1))) (fun i => rowSet (tw c i)) (fun i _ j _ h => rows_disjoint fun e => h (tw_inj e).2)
  rw [← h]; congr 1

omit [FloatOps F] in
/-- An entailment of the logic, in the form the separation-logic goals are stated in. -/
theorem ent' {P R : sProp 𝕄} (h : Idealize.SL.BI.Entails P R) : P ⊢ R := h

omit [FloatOps F] in
theorem qc_zero : qc (F := F) (0 : Fin 2) = fullShare.left := if_pos rfl
omit [FloatOps F] in
theorem qc_one : qc (F := F) (1 : Fin 2) = fullShare.right := if_neg Nat.one_ne_zero

theorem vecSplit (d : Dev nD) (c : Fin ((K (F := F)).nCore 1)) :
    st ep gall d c ⊢ |={Set.univ}=> iprop((bigSep Finset.univ fun i : Fin ((K (F := F)).nSub 1) => go ep gall d c i)
      ∗ ((bigSep Finset.univ fun i : Fin ((K (F := F)).nSub 1) => td ep gall d c i) -∗ dn ep gall d c)) := by
  unfold st go td dn
  rw [bigSep_sep', bigSep_sep', bigSep_sep', bigSep_sep', ← g_tiles d c gall, ← o_tiles d c (accT ep gall)]
  iintro ⟨Hep, Hg, %f, Ho⟩
  ihave Ht := (Transfers.pointsTo_toks_split (qc c) ((K (F := F)).nSub 1)) $$ Hep
  icases Ht with ⟨Hrem, Htoks⟩
  imodintro
  isplitl [Htoks Hg Ho]
  · isplitl [Htoks]; · iexact Htoks
    isplitl [Hg]; · iexact Hg
    ihave Ho' := (Entails.of_eq (o_tiles d c f)) $$ Ho
    iapply (ent' (bigSep_mono (s := (Finset.univ : Finset (Fin ((K (F := F)).nSub 1)))) (Φ := fun i => (oLoc d ↦[rowSet (tw c i)]{fullShare} f : sProp 𝕄))
      (Ψ := fun i => iprop(∃ f', oLoc d ↦[rowSet (tw c i)]{fullShare} f')) fun i _ => exists_intro (Φ := fun f' => (oLoc d ↦[rowSet (tw c i)]{fullShare} f' : sProp 𝕄)) f))
    iexact Ho'
  iintro ⟨Htoks, Hg, Ho⟩
  isplitl [Htoks Hrem]
  · iapply (Transfers.pointsTo_toks_join (qc c) ((K (F := F)).nSub 1))
    isplitl [Hrem] <;> iassumption
  isplitl [Hg] <;> iassumption

theorem st_intro (d : Dev nD) :
    iprop(((SparseCore.T d).loc main_v1 ↦{fullShare} ep) ∗ ((SparseCore.T d).loc main_v3_1 ↦{fullShare} gall)
        ∗ ∃ f, (SparseCore.T d).loc main_v4 ↦{fullShare} f)
      ⊢ (bigSep Finset.univ fun c : Fin ((K (F := F)).nCore 1) => st ep gall d c : sProp 𝕄) := by
  show _ ⊢ (bigSep (Finset.univ : Finset (Fin 2)) fun c => st ep gall d c)
  rw [bigSep_univ_two]
  unfold st
  rw [qc_zero, qc_one]
  iintro ⟨Hep, Hg, %f, Ho⟩
  ihave Hep2 := (pointsTo_share (PosShare.mem_left_op_right fullShare)).1 $$ Hep
  icases Hep2 with ⟨HepL, HepR⟩
  ihave Hg2 := (g_cores d gall).1 $$ Hg
  icases Hg2 with ⟨Hg0, Hg1⟩
  ihave Ho2 := (o_cores d f).1 $$ Ho
  icases Ho2 with ⟨Ho0, Ho1⟩
  isplitl [HepL Hg0 Ho0]
  · isplitl [HepL]; · iexact HepL
    isplitl [Hg0]; · iexact Hg0
    iexists f; iexact Ho0
  · isplitl [HepR]; · iexact HepR
    isplitl [Hg1]; · iexact Hg1
    iexists f; iexact Ho1

theorem dn_elim (d : Dev nD) :
    (bigSep Finset.univ fun c : Fin ((K (F := F)).nCore 1) => dn ep gall d c : sProp 𝕄)
      ⊢ iprop(((SparseCore.T d).loc main_v1 ↦{fullShare} ep) ∗ ((SparseCore.T d).loc main_v3_1 ↦{fullShare} gall)
        ∗ (SparseCore.T d).loc main_v4 ↦{fullShare} accT ep gall) := by
  show (bigSep (Finset.univ : Finset (Fin 2)) fun c => dn ep gall d c) ⊢ _
  rw [bigSep_univ_two]
  unfold dn
  rw [qc_zero, qc_one]
  iintro ⟨⟨HepL, Hg0, Ho0⟩, ⟨HepR, Hg1, Ho1⟩⟩
  isplitl [HepL HepR]
  · iapply (pointsTo_share (PosShare.mem_left_op_right fullShare)).2
    isplitl [HepL] <;> iassumption
  isplitl [Hg0 Hg1]
  · iapply (g_cores d gall).2
    isplitl [Hg0] <;> iassumption
  · iapply (o_cores d (accT ep gall)).2
    isplitl [Ho0] <;> iassumption

end Split

end Cert.KernelIdeal.Hand.Sc1

end
-- ==== Proof.Hand.R0.lean ====
/-
  The first TensorCore region of @main (pipeline 0, one point): the body reads the feature matrix, the layer's weight
  and the two rows of the edge list, and leaves in its two output windows the product  Wg^T x^T  and, per edge, the
  packed word  (src <<< 14) ||| dst.  Stated at a parameter: the TensorCore's buffer contents when the region is
  entered, and the tallies the core owes through the region, which the body never reads.
-/
import proofs.«207900_g17016660427224_cont_7to1_1372_35_alg».proof.Proof.Hand.Base
import proofs.«207900_g17016660427224_cont_7to1_1372_35_alg».proof.Proof.Gen.KernelIdeal.Launch
import proofs.«207900_g17016660427224_cont_7to1_1372_35_alg».proof.Proof.Gen.KernelIdeal.Skeleton
import proofs.«207900_g17016660427224_cont_7to1_1372_35_alg».proof.Proof.Gen.KernelIdeal.Points
import Idealize.ShloMosaic.Lib.Pipeline.FrameBody
import Idealize.ShloMosaic.Lib.Pipeline.FrameSuffix
import Idealize.ShloMosaic.Lib.Tactic

set_option maxRecDepth 16384

noncomputable section

namespace Cert.KernelIdeal.Hand.R0

open Cert.KernelIdeal Cert.KernelIdeal.Gen
open Idealize.ShloMosaic Idealize.ShloMosaic.TcCoe Idealize.ShloMosaic.Tactic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig (HIx 2) (Elt F) ℕ UU ℕ

-- the TensorCore's buffer contents when the region is entered
variable (V : (c : Dev nD) → (b : Ref sig .tc) → Buf (Elt F) ((c : Thread nD τ).loc b))
-- the tallies the core owes through the region (its start signals to the SparseCores for the later calls)
variable (O : CellTallies nD τ sig (HIx 2))
-- the bound on the pairs the core's waits have recorded when the region is entered, kept at every point
variable (B : Set (SemLoc sig × HIx 2))

/-! ## The windows' blocks -/

/-- Window w's block at point t, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current staging buffer holds its block at every point, for any proof data whose array is the
    entry contents and whose body leaves the block in place: the window is uncut and never idle. -/
theorem before_0_of {c : Dev nD} (dat : Dat τ (Elt F) (HIx 2) ℕ UU ℕ cfg0 c) (hA : dat.A 0 = V c (Pipeline.arrRef spec0 0))
    (hafter : ∀ t, dat.after 0 t = iblk V c 0 t) (t : Fin cfg0.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before_1_of {c : Dev nD} (dat : Dat τ (Elt F) (HIx 2) ℕ UU ℕ cfg0 c) (hA : dat.A 1 = V c (Pipeline.arrRef spec0 1))
    (hafter : ∀ t, dat.after 1 t = iblk V c 1 t) (t : Fin cfg0.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before_2_of {c : Dev nD} (dat : Dat τ (Elt F) (HIx 2) ℕ UU ℕ cfg0 c) (hA : dat.A 2 = V c (Pipeline.arrRef spec0 2))
    (hafter : ∀ t, dat.after 2 t = iblk V c 2 t) (t : Fin cfg0.N) (d) : dat.before 2 t d = iblk V c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-! ## The body's accesses -/

/-- The whole feature matrix, the whole weight, the edge list's row of sources and its row of destinations, and the
    two output buffers whole. -/
abbrev r_x : Rect S10000x128 := Rect.unit (s := S10000x128) ![0, 0] S10000x128.size inb_S10000x128_S10000x128_0_0
abbrev r_w : Rect S128x32 := Rect.unit (s := S128x32) ![0, 0] S128x32.size inb_S128x32_S128x32_0_0
abbrev r_src : Rect S2x160000 := Rect.unit (s := S2x160000) ![0, 0] S1x160000.size inb_S2x160000_S1x160000_0_0
abbrev r_dst : Rect S2x160000 := Rect.unit (s := S2x160000) ![1, 0] S1x160000.size inb_S2x160000_S1x160000_1_0
abbrev r_y : Rect S32x10000 := Rect.unit (s := S32x10000) ![0, 0] S32x10000.size inb_S32x10000_S32x10000_0_0
abbrev r_e : Rect S1x160000 := Rect.unit (s := S1x160000) ![0, 0] S1x160000.size inb_S1x160000_S1x160000_0_0

/-! ## What the body leaves in each output window's buffer -/

/-- Window 3's buffer after the body, from the input windows' blocks: its one store, the product of the transposed
    weight with the transposed features. -/
def out_3 (x0 : Vec F S10000x128 .f32) (x1 : Vec F S128x32 .f32) (x2 : Vec F S2x160000 .i32) : Vec F S32x10000 .f32 :=
  View.canon [⟨r_y, k0_pay1 (View.ld x1 r_w) (View.ld x0 r_x)⟩]

/-- Its store is the whole buffer, so it covers it. -/
theorem cover_3 (p0 : Vec F S32x10000 .f32) (y : S32x10000.Idx) :
    ∃ pc ∈ ([⟨r_y, p0⟩] : List (View.Piece (Elt F) S32x10000 .f32)), y ∈ pc.1.set :=
  View.cover_of_tiled [⟨r_y, p0⟩] S32x10000.size (by rfl) y

/-- Window 4's buffer after the body: its one store, the word packed of the edge list's two rows. -/
def out_4 (x0 : Vec F S10000x128 .f32) (x1 : Vec F S128x32 .f32) (x2 : Vec F S2x160000 .i32) : Vec F S1x160000 .i32 :=
  View.canon [⟨r_e, k0_pay2 (View.ld x2 r_src) (View.ld x2 r_dst)⟩]

/-- Its store is the whole buffer, so it covers it. -/
theorem cover_4 (p0 : Vec F S1x160000 .i32) (y : S1x160000.Idx) :
    ∃ pc ∈ ([⟨r_e, p0⟩] : List (View.Piece (Elt F) S1x160000 .i32)), y ∈ pc.1.set :=
  View.cover_of_tiled [⟨r_e, p0⟩] S1x160000.size (by rfl) y

/-! ## The body's triple -/

set_option maxHeartbeats 4000000 in
/-- The kernel body on whole staging memrefs, the inputs' at contents x0 x1 x2 and the outputs' at anything, runs to
    the continuation holding the inputs' as they were and each output's at its closed form of the inputs'. -/
theorem sound_kernel (c : Dev nD) (E : Set ℕ) (arg0 : Memref sig .tc .vmem S10000x128 .f32) (harg0 : arg0.IsWhole) (arg1 : Memref sig .tc .vmem S128x32 .f32) (harg1 : arg1.IsWhole) (arg2 : Memref sig .tc .vmem S2x160000 .i32) (harg2 : arg2.IsWhole) (arg3 : Memref sig .tc .vmem S32x10000 .f32) (harg3 : arg3.IsWhole) (arg4 : Memref sig .tc .vmem S1x160000 .i32) (harg4 : arg4.IsWhole)
    (x0 : Vec F S10000x128 .f32) (x1 : Vec F S128x32 .f32) (x2 : Vec F S2x160000 .i32) (K : PUnit → sProp 𝕄) :
    iprop(owns (c : Thread nD τ) arg0 fullShare x0 ∗ owns (c : Thread nD τ) arg1 fullShare x1 ∗ owns (c : Thread nD τ) arg2 fullShare x2 ∗ (∃ d, owns (c : Thread nD τ) arg3 fullShare d) ∗ (∃ d, owns (c : Thread nD τ) arg4 fullShare d)
        ∗ (iprop(owns (c : Thread nD τ) arg0 fullShare x0 ∗ owns (c : Thread nD τ) arg1 fullShare x1 ∗ owns (c : Thread nD τ) arg2 fullShare x2 ∗ owns (c : Thread nD τ) arg3 fullShare (out_3 x0 x1 x2) ∗ owns (c : Thread nD τ) arg4 fullShare (out_4 x0 x1 x2)) -∗ K ⟨⟩))
      ⊢ wp frame (wpE (defs₀ (F := F)) Variants.none c none) E (cc0__k1_body arg0 harg0 arg1 harg1 arg2 harg2 arg3 harg3 arg4 harg4) K := by
  simp only [cc0__k1_body_eq_skeleton]; unfold cc0__k1_body_skel
  unfold owns
  iintro ⟨⟨%f0, %hf0, H0⟩, ⟨%f1, %hf1, H1⟩, ⟨%f2, %hf2, H2⟩, ⟨%d3, %f3, -, H3⟩, ⟨%d4, %f4, -, H4⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists _; isplitr
    swap; · iexact H3
    ipureintro
    exact View.read_writes_eq_canon _ _ _ (cover_3 _)
  iexists _; isplitr
  swap; · iexact H4
  ipureintro
  exact View.read_writes_eq_canon _ _ _ (cover_4 _)

/-! ## The pipeline's proof data -/

/-- The region's invariant on core c: the core's scoped buffers that are no staging buffer of this pipeline, at some
    contents each, and its generator register at some state. -/
def ΦR (c : Dev nD) : sProp 𝕄 :=
  iprop(Pipeline.scopedRest (Ix := HIx 2) (Name := ℕ) (U := UU) (Lvl := ℕ) (Val := Elt F) spec0 c ∗ ∃ r, prngReg c r)

/-- The proof data of pipeline 0 on core c: the arrays as the region finds them; after the body each input's buffer
    at its block and each output's at its closed form of the input blocks; the invariant untouched; the tallies owed
    and the bound on the recorded waits the parameters' at every point; full shares. -/
def dat (c : Dev nD) : Dat τ (Elt F) (HIx 2) ℕ UU ℕ cfg0 c where
  A w := V c (Pipeline.arrRef spec0 w)
  after w t := match w with
    | ⟨0, _⟩ => iblk V c 0 t
    | ⟨1, _⟩ => iblk V c 1 t
    | ⟨2, _⟩ => iblk V c 2 t
    | ⟨3, _⟩ => out_3 (iblk V c 0 t) (iblk V c 1 t) (iblk V c 2 t)
    | ⟨4, _⟩ => out_4 (iblk V c 0 t) (iblk V c 1 t) (iblk V c 2 t)
  Φ _ := ΦR c
  q _ := fullShare
  owed _ := O
  recorded _ := B

/-- The proof data's arrays are the region-entry contents. -/
theorem A_eq (c : Dev nD) (w : Fin cfg0.W) : (dat V O B c).A w = V c (Pipeline.arrRef spec0 w) := by
  dsimp only [dat]

/-- What the body leaves, window by window. -/
theorem after_0 (c : Dev nD) (t : Fin cfg0.N) : (dat V O B c).after 0 t = iblk V c 0 t := by dsimp only [dat]
theorem after_1 (c : Dev nD) (t : Fin cfg0.N) : (dat V O B c).after 1 t = iblk V c 1 t := by dsimp only [dat]
theorem after_2 (c : Dev nD) (t : Fin cfg0.N) : (dat V O B c).after 2 t = iblk V c 2 t := by dsimp only [dat]
theorem after_3 (c : Dev nD) (t : Fin cfg0.N) : (dat V O B c).after 3 t = out_3 (iblk V c 0 t) (iblk V c 1 t) (iblk V c 2 t) := by dsimp only [dat]
theorem after_4 (c : Dev nD) (t : Fin cfg0.N) : (dat V O B c).after 4 t = out_4 (iblk V c 0 t) (iblk V c 1 t) (iblk V c 2 t) := by dsimp only [dat]

/-- Each input's current staging buffer holds its block at every point. -/
theorem before_0 (c : Dev nD) (t : Fin cfg0.N) (d) : (dat V O B c).before 0 t d = iblk V c 0 t :=
  before_0_of V (dat V O B c) (A_eq V O B c 0) (after_0 V O B c) t d
theorem before_1 (c : Dev nD) (t : Fin cfg0.N) (d) : (dat V O B c).before 1 t d = iblk V c 1 t :=
  before_1_of V (dat V O B c) (A_eq V O B c 1) (after_1 V O B c) t d
theorem before_2 (c : Dev nD) (t : Fin cfg0.N) (d) : (dat V O B c).before 2 t d = iblk V c 2 t :=
  before_2_of V (dat V O B c) (A_eq V O B c 2) (after_2 V O B c) t d

/-! ## The body obligation, at a generic point -/

/-- What the body is called with at point t, the windows one by one, -/
def bodyPre (c : Dev nD) (t : Fin cfg0.N) : sProp 𝕄 :=
  iprop((dat V O B c).Φ t.castSucc ∗ (dat V O B c).owesAt (none : HIx 2) t.castSucc
    ∗ (∃ d, owns (c : Thread nD τ) (st0_0 t) fullShare ((dat V O B c).before 0 t d))
    ∗ (∃ d, owns (c : Thread nD τ) (st0_1 t) fullShare ((dat V O B c).before 1 t d))
    ∗ (∃ d, owns (c : Thread nD τ) (st0_2 t) fullShare ((dat V O B c).before 2 t d))
    ∗ (∃ d, owns (c : Thread nD τ) (st0_3 t) fullShare ((dat V O B c).before 3 t d))
    ∗ (∃ d, owns (c : Thread nD τ) (st0_4 t) fullShare ((dat V O B c).before 4 t d)))

/-- and what it returns. -/
def bodyPost (c : Dev nD) (t : Fin cfg0.N) : sProp 𝕄 :=
  iprop((dat V O B c).Φ t.succ ∗ (dat V O B c).owesAt (none : HIx 2) t.succ
    ∗ owns (c : Thread nD τ) (st0_0 t) fullShare ((dat V O B c).after 0 t)
    ∗ owns (c : Thread nD τ) (st0_1 t) fullShare ((dat V O B c).after 1 t)
    ∗ owns (c : Thread nD τ) (st0_2 t) fullShare ((dat V O B c).after 2 t)
    ∗ owns (c : Thread nD τ) (st0_3 t) fullShare ((dat V O B c).after 3 t)
    ∗ owns (c : Thread nD τ) (st0_4 t) fullShare ((dat V O B c).after 4 t))

/-- The body at any point: the inputs' memrefs hold their blocks, so the body's triple applies; the invariant and the
    tallies the core owes pass through unread. -/
theorem sound_body (c : Dev nD) (t : Fin cfg0.N) :
    bodyPre V O B c t ⊢ wp frame (wpE (defs₀ (F := F)) Variants.none c none) Set.univ (bodyAt0 t) (fun _ => bodyPost V O B c t) := by
  unfold bodyPre bodyPost bodyAt0
  simp only [before_0, before_1, before_2]
  rw [show (dat V O B c).Φ t.succ = (dat V O B c).Φ t.castSucc from rfl,
    show (dat V O B c).owesAt (none : HIx 2) t.succ = (dat V O B c).owesAt (none : HIx 2) t.castSucc from rfl,
    after_0, after_1, after_2, after_3, after_4]
  iintro ⟨HΦ, Ho, ⟨%d0, H0⟩, ⟨%d1, H1⟩, ⟨%d2, H2⟩, ⟨%d3, H3⟩, ⟨%d4, H4⟩⟩
  iapply (sound_kernel c Set.univ _ _ _ _ _ _ _ _ _ _ (iblk V c 0 t) (iblk V c 1 t) (iblk V c 2 t) _)
  isplitl [H0]; · iexact H0
  isplitl [H1]; · iexact H1
  isplitl [H2]; · iexact H2
  isplitl [H3]; · iexists _; iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The body obligation, at every point. -/
theorem body_obligation (c : Dev nD) : Pipeline.BodyObligation (dat (F := F) V O B c) (defs₀ (F := F)) Variants.none (none : HIx 2) Set.univ := fun t => by
  rw [bigSep_W0, bigSep_W0]
  exact sound_body V O B c t

end Cert.KernelIdeal.Hand.R0

end
-- ==== Proof.Hand.R1.lean ====
/-
  Region 1 of @main (the second TensorCore call): from the 32 per-tile degree histograms and the projected features,
  the normalising factor dinv = rsqrt(1 + column sums of the histograms) and the scaled features gall = dinv * xwT.
  At a parameter `V` (the TensorCore's buffer contents when the region is entered) and a parameter `O` (the tallies
  the TensorCore owes through the region): each window's block, what the body leaves in each output window's staging
  buffer as a function of the input blocks, the body's triple, the pipeline's proof data and the body obligation.
-/
import proofs.«207900_g17016660427224_cont_7to1_1372_35_alg».proof.Proof.Hand.Base
import proofs.«207900_g17016660427224_cont_7to1_1372_35_alg».proof.Proof.Gen.KernelIdeal.Launch
import proofs.«207900_g17016660427224_cont_7to1_1372_35_alg».proof.Proof.Gen.KernelIdeal.Skeleton
import proofs.«207900_g17016660427224_cont_7to1_1372_35_alg».proof.Proof.Gen.KernelIdeal.Points
import Idealize.ShloMosaic.Lib.Pipeline.FrameBody
import Idealize.ShloMosaic.Lib.Pipeline.FrameSuffix
import Idealize.ShloMosaic.Lib.Tactic

-- membership in a rectangle whose long axis has 10000 coordinates: the structural look recurses once per coordinate
set_option maxRecDepth 16384

noncomputable section

namespace Cert.KernelIdeal.Hand.R1

open Cert.KernelIdeal Cert.KernelIdeal.Gen
open Idealize.ShloMosaic Idealize.ShloMosaic.TcCoe Idealize.ShloMosaic.Tactic
open Idealize.ShloMosaic.SparseCore (S T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig (HIx 2) (Elt F) ℕ UU ℕ

-- the TensorCore's buffer contents when the region is entered, and the tallies it owes through the region
variable (V : (c : Dev nD) → (b : Ref sig .tc) → Buf (Elt F) ((c : Thread nD τ).loc b))
variable (O : CellTallies nD τ sig (HIx 2))
-- a bound on the (cell, index) pairs the TensorCore's waits have recorded, kept through the region
variable (B : Set (SemLoc sig × HIx 2))

/-! ## The windows' blocks -/

/-- Window `w`'s block at point `t`, read off its array as the region finds it (`V`). -/
def iblk (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0's current staging buffer holds its block at every point, fetched there or not, for any proof
    data whose array is `V`'s and whose body leaves the block in place: the window is uncut and never idle. -/
theorem before_0_of {c : Dev nD} (dat : Dat τ (Elt F) (HIx 2) ℕ UU ℕ cfg2 c) (hA : dat.A 0 = V c (Pipeline.arrRef spec2 0))
    (hafter : ∀ t, dat.after 0 t = iblk V c 0 t) (t : Fin cfg2.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- The same of input window 1. -/
theorem before_1_of {c : Dev nD} (dat : Dat τ (Elt F) (HIx 2) ℕ UU ℕ cfg2 c) (hA : dat.A 1 = V c (Pipeline.arrRef spec2 1))
    (hafter : ∀ t, dat.after 1 t = iblk V c 1 t) (t : Fin cfg2.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-! ## The body's accesses -/

/-- The whole [32,10000] buffer. -/
abbrev r_0 : Rect S32x10000 := Rect.unit (s := S32x10000) ![0, 0] S32x10000.size inb_S32x10000_S32x10000_0_0
/-- The whole [1,10000] buffer. -/
abbrev r_1 : Rect S1x10000 := Rect.unit (s := S1x10000) ![0, 0] S1x10000.size inb_S1x10000_S1x10000_0_0

/-! ## What the body leaves in each output window's buffer -/

/-- Window 2's staging buffer after the body, from the input windows' blocks: its one store, of
    rsqrt(1 + the column sums of the histograms), over the whole buffer. -/
def out_2 (x0 : Vec F S32x10000 .f32) (x1 : Vec F S32x10000 .f32) : Vec F S1x10000 .f32 :=
  View.canon [⟨r_1, k2_pay1 (View.ld x0 r_0)⟩]

/-- Its one store tiles the buffer, so it covers it. -/
theorem cover_2 (p0 : Vec F S1x10000 .f32) (y : S1x10000.Idx) :
    ∃ pc ∈ ([⟨r_1, p0⟩] : List (View.Piece (Elt F) S1x10000 .f32)), y ∈ pc.1.set :=
  View.cover_of_tiled [⟨r_1, p0⟩] S1x10000.size (by rfl) y

/-- Window 3's staging buffer after the body, from the input windows' blocks: its one store, of the features
    scaled column by column by that factor, over the whole buffer. -/
def out_3 (x0 : Vec F S32x10000 .f32) (x1 : Vec F S32x10000 .f32) : Vec F S32x10000 .f32 :=
  View.canon [⟨r_0, k2_pay2 (View.ld x0 r_0) (View.ld x1 r_0)⟩]

/-- Its one store tiles the buffer, so it covers it. -/
theorem cover_3 (p0 : Vec F S32x10000 .f32) (y : S32x10000.Idx) :
    ∃ pc ∈ ([⟨r_0, p0⟩] : List (View.Piece (Elt F) S32x10000 .f32)), y ∈ pc.1.set :=
  View.cover_of_tiled [⟨r_0, p0⟩] S32x10000.size (by rfl) y

/-! ## The body's triple -/

set_option maxHeartbeats 1000000 in
/-- The kernel body on whole staging memrefs, the inputs' at read contents `x0`, `x1` and the outputs' at anything,
    runs to the continuation holding the inputs' as they were and each output's at `out_W` of the inputs'. -/
theorem sound_kernel (c : Dev nD) (E : Set ℕ) (arg0 : Memref sig .tc .vmem S32x10000 .f32) (harg0 : arg0.IsWhole) (arg1 : Memref sig .tc .vmem S32x10000 .f32) (harg1 : arg1.IsWhole) (arg2 : Memref sig .tc .vmem S1x10000 .f32) (harg2 : arg2.IsWhole) (arg3 : Memref sig .tc .vmem S32x10000 .f32) (harg3 : arg3.IsWhole)
    (x0 : Vec F S32x10000 .f32) (x1 : Vec F S32x10000 .f32) (K : PUnit → sProp 𝕄) :
    iprop(owns (c : Thread nD τ) arg0 fullShare x0 ∗ owns (c : Thread nD τ) arg1 fullShare x1 ∗ (∃ d, owns (c : Thread nD τ) arg2 fullShare d) ∗ (∃ d, owns (c : Thread nD τ) arg3 fullShare d)
        ∗ (iprop(owns (c : Thread nD τ) arg0 fullShare x0 ∗ owns (c : Thread nD τ) arg1 fullShare x1 ∗ owns (c : Thread nD τ) arg2 fullShare (out_2 x0 x1) ∗ owns (c : Thread nD τ) arg3 fullShare (out_3 x0 x1)) -∗ K ⟨⟩))
      ⊢ wp frame (wpE (defs₀ (F := F)) Variants.none c none) E (cc2__kd_body arg0 harg0 arg1 harg1 arg2 harg2 arg3 harg3) K := by
  simp only [cc2__kd_body_eq_skeleton]; unfold cc2__kd_body_skel
  unfold owns
  iintro ⟨⟨%f0, %hf0, H0⟩, ⟨%f1, %hf1, H1⟩, ⟨%d2, %f2, -, H2⟩, ⟨%d3, %f3, -, H3⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  isplitl [H2]
  · iexists _; isplitr
    swap; · iexact H2
    ipureintro
    exact View.read_writes_eq_canon _ _ _ (cover_2 _)
  iexists _; isplitr
  swap; · iexact H3
  ipureintro
  exact View.read_writes_eq_canon _ _ _ (cover_3 _)

/-! ## The pipeline's proof data -/

/-- The region's invariant on core `c`: the core's scoped buffers that are no staging buffer of this call, at some
    contents each, and its generator register at some state; the body neither reads nor describes them. -/
def ΦR (c : Dev nD) : sProp 𝕄 :=
  iprop(Pipeline.scopedRest (Ix := HIx 2) (Name := ℕ) (U := UU) (Lvl := ℕ) (Val := Elt F) spec2 c ∗ ∃ r, prngReg c r)

/-- The proof data of pipeline 1 on core `c`: the arrays as the region finds them (`V`); after the body each input's
    buffer at its block and each output's at `out_W` of the input blocks; the invariant `ΦR`; the tallies owed
    `O` throughout; full shares. -/
def dat (c : Dev nD) : Dat τ (Elt F) (HIx 2) ℕ UU ℕ cfg2 c where
  A w := V c (Pipeline.arrRef spec2 w)
  after w t := match w with
    | ⟨0, _⟩ => iblk V c 0 t
    | ⟨1, _⟩ => iblk V c 1 t
    | ⟨2, _⟩ => out_2 (iblk V c 0 t) (iblk V c 1 t)
    | ⟨3, _⟩ => out_3 (iblk V c 0 t) (iblk V c 1 t)
  Φ _ := ΦR c
  q _ := fullShare
  owed _ := O
  recorded _ := B

/-- The proof data's arrays are the region-entry contents. -/
theorem A_eq (c : Dev nD) (w : Fin cfg2.W) : (dat V O B c).A w = V c (Pipeline.arrRef spec2 w) := by
  dsimp only [dat]

/-- What the body leaves, window by window. -/
theorem after_0 (c : Dev nD) (t : Fin cfg2.N) : (dat V O B c).after 0 t = iblk V c 0 t := by dsimp only [dat]
theorem after_1 (c : Dev nD) (t : Fin cfg2.N) : (dat V O B c).after 1 t = iblk V c 1 t := by dsimp only [dat]
theorem after_2 (c : Dev nD) (t : Fin cfg2.N) : (dat V O B c).after 2 t = out_2 (iblk V c 0 t) (iblk V c 1 t) := by dsimp only [dat]
theorem after_3 (c : Dev nD) (t : Fin cfg2.N) : (dat V O B c).after 3 t = out_3 (iblk V c 0 t) (iblk V c 1 t) := by dsimp only [dat]

/-- Each input's current staging buffer holds its block at every point, fetched there or not. -/
theorem before_0 (c : Dev nD) (t : Fin cfg2.N) (d) : (dat V O B c).before 0 t d = iblk V c 0 t :=
  before_0_of V (dat V O B c) (A_eq V O B c 0) (after_0 V O B c) t d
theorem before_1 (c : Dev nD) (t : Fin cfg2.N) (d) : (dat V O B c).before 1 t d = iblk V c 1 t :=
  before_1_of V (dat V O B c) (A_eq V O B c 1) (after_1 V O B c) t d

/-! ## The body obligation, at a generic point -/

/-- What the body is called with at point `t`, the windows one by one, -/
def bodyPre (c : Dev nD) (t : Fin cfg2.N) : sProp 𝕄 :=
  iprop((dat V O B c).Φ t.castSucc ∗ (dat V O B c).owesAt (none : HIx 2) t.castSucc
    ∗ (∃ d, owns (c : Thread nD τ) (st2_0 t) fullShare ((dat V O B c).before 0 t d))
    ∗ (∃ d, owns (c : Thread nD τ) (st2_1 t) fullShare ((dat V O B c).before 1 t d))
    ∗ (∃ d, owns (c : Thread nD τ) (st2_2 t) fullShare ((dat V O B c).before 2 t d))
    ∗ (∃ d, owns (c : Thread nD τ) (st2_3 t) fullShare ((dat V O B c).before 3 t d)))

/-- and what it returns. -/
def bodyPost (c : Dev nD) (t : Fin cfg2.N) : sProp 𝕄 :=
  iprop((dat V O B c).Φ t.succ ∗ (dat V O B c).owesAt (none : HIx 2) t.succ
    ∗ owns (c : Thread nD τ) (st2_0 t) fullShare ((dat V O B c).after 0 t)
    ∗ owns (c : Thread nD τ) (st2_1 t) fullShare ((dat V O B c).after 1 t)
    ∗ owns (c : Thread nD τ) (st2_2 t) fullShare ((dat V O B c).after 2 t)
    ∗ owns (c : Thread nD τ) (st2_3 t) fullShare ((dat V O B c).after 3 t))

/-- The body at any point: the inputs' memrefs hold their blocks, so `sound_kernel` applies; the invariant and
    the core's tallies pass through unread. -/
theorem sound_body (c : Dev nD) (t : Fin cfg2.N) :
    bodyPre V O B c t ⊢ wp frame (wpE (defs₀ (F := F)) Variants.none c none) Set.univ (bodyAt2 t) (fun _ => bodyPost V O B c t) := by
  unfold bodyPre bodyPost bodyAt2
  simp only [before_0, before_1]
  rw [show (dat V O B c).Φ t.succ = (dat V O B c).Φ t.castSucc from rfl,
    show (dat V O B c).owesAt (none : HIx 2) t.succ = (dat V O B c).owesAt (none : HIx 2) t.castSucc from rfl,
    after_0, after_1, after_2, after_3]
  iintro ⟨HΦ, Ho, ⟨%d0, H0⟩, ⟨%d1, H1⟩, ⟨%d2, H2⟩, ⟨%d3, H3⟩⟩
  iapply (sound_kernel c Set.univ _ _ _ _ _ _ _ _ (iblk V c 0 t) (iblk V c 1 t) _)
  isplitl [H0]; · iexact H0
  isplitl [H1]; · iexact H1
  isplitl [H2]; · iexists _; iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation (c : Dev nD) : Pipeline.BodyObligation (dat (F := F) V O B c) (defs₀ (F := F)) Variants.none (none : HIx 2) Set.univ := fun t => by
  rw [bigSep_W2, bigSep_W2]
  exact sound_body V O B c t

end Cert.KernelIdeal.Hand.R1

end
-- ==== Proof.Hand.R2.lean ====
/-
  TensorCore region of pipeline 2 of @main (custom_call 4): the layer's combination step. On whole blocks, with
  accT and gall the two f32[32,10000] summands, dinv the f32[1,10000] row of inverse square-root degrees and bg the
  f32[32,1] bias column, the body leaves in its one output buffer

      max (dinv ⊙ (accT + gall) + bg, 0)

  (dinv broadcast down the rows, bg broadcast along the columns). The region is gridless: one point, every window
  the whole of its array. This module states, at the buffer contents the region is entered with (a parameter), each
  window's block, what the body leaves in the output buffer as a function of the input blocks, the body's triple, the
  pipeline's proof data and the body obligation. The units the core owes when the region is entered (a parameter) pass
  through the body unread.
-/
import proofs.«207900_g17016660427224_cont_7to1_1372_35_alg».proof.Proof.Hand.Base
import proofs.«207900_g17016660427224_cont_7to1_1372_35_alg».proof.Proof.Gen.KernelIdeal.Launch
import proofs.«207900_g17016660427224_cont_7to1_1372_35_alg».proof.Proof.Gen.KernelIdeal.Skeleton
import proofs.«207900_g17016660427224_cont_7to1_1372_35_alg».proof.Proof.Gen.KernelIdeal.Points
import Idealize.ShloMosaic.Lib.Pipeline.FrameBody
import Idealize.ShloMosaic.Lib.Pipeline.FrameSuffix
import Idealize.ShloMosaic.Lib.Tactic

set_option maxRecDepth 16384

noncomputable section

namespace Cert.KernelIdeal.Hand.R2

open Cert.KernelIdeal Cert.KernelIdeal.Gen
open Idealize.ShloMosaic Idealize.ShloMosaic.TcCoe Idealize.ShloMosaic.Tactic
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig (HIx 2) (Elt F) ℕ UU ℕ

-- the TensorCore's buffer contents when the region is entered
variable (V : (c : Dev nD) → (b : Ref sig .tc) → Buf (Elt F) ((c : Thread nD τ).loc b))
-- the units the core owes when the region is entered
variable (O : CellTallies nD τ sig (HIx 2))
-- the bound on the pairs the core's waits have recorded when the region is entered
variable (B : Set (SemLoc sig × HIx 2))

/-! ## The windows' blocks -/

/-- Window `w`'s block at point `t`, read off its array as the region finds it. -/
def iblk (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

/-- An input window's current staging buffer holds its block at every point, fetched there or not, for any proof
    data whose array is the entry contents' and whose body leaves the block in place: the window is uncut and never
    idle. One statement per input window. -/
theorem before_0_of {c : Dev nD} (dat : Dat τ (Elt F) (HIx 2) ℕ UU ℕ cfg4 c) (hA : dat.A 0 = V c (Pipeline.arrRef spec4 0))
    (hafter : ∀ t, dat.after 0 t = iblk V c 0 t) (t : Fin cfg4.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before_1_of {c : Dev nD} (dat : Dat τ (Elt F) (HIx 2) ℕ UU ℕ cfg4 c) (hA : dat.A 1 = V c (Pipeline.arrRef spec4 1))
    (hafter : ∀ t, dat.after 1 t = iblk V c 1 t) (t : Fin cfg4.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before_2_of {c : Dev nD} (dat : Dat τ (Elt F) (HIx 2) ℕ UU ℕ cfg4 c) (hA : dat.A 2 = V c (Pipeline.arrRef spec4 2))
    (hafter : ∀ t, dat.after 2 t = iblk V c 2 t) (t : Fin cfg4.N) (d) : dat.before 2 t d = iblk V c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before_3_of {c : Dev nD} (dat : Dat τ (Elt F) (HIx 2) ℕ UU ℕ cfg4 c) (hA : dat.A 3 = V c (Pipeline.arrRef spec4 3))
    (hafter : ∀ t, dat.after 3 t = iblk V c 3 t) (t : Fin cfg4.N) (d) : dat.before 3 t d = iblk V c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-! ## The body's accesses: each the whole of its buffer -/

abbrev r_mat : Rect S32x10000 := Rect.unit (s := S32x10000) ![0, 0] S32x10000.size inb_S32x10000_S32x10000_0_0
abbrev r_row : Rect S1x10000 := Rect.unit (s := S1x10000) ![0, 0] S1x10000.size inb_S1x10000_S1x10000_0_0
abbrev r_col : Rect S32x1 := Rect.unit (s := S32x1) ![0, 0] S32x1.size inb_S32x1_S32x1_0_0

/-! ## What the body leaves in the output window's buffer -/

/-- Window 4's staging buffer after the body, from the input windows' blocks (`x0` accT, `x1` gall, `x2` dinv,
    `x3` bg): its one store, of max (dinv ⊙ (accT + gall) + bg, 0), over the whole buffer. -/
def out_4 (x0 : Vec F S32x10000 .f32) (x1 : Vec F S32x10000 .f32) (x2 : Vec F S1x10000 .f32) (x3 : Vec F S32x1 .f32) : Vec F S32x10000 .f32 :=
  View.canon [⟨r_mat, k4_pay1 (View.ld x2 r_row) (View.ld x0 r_mat) (View.ld x1 r_mat) (View.ld x3 r_col)⟩]

/-- The store is the whole buffer, so it covers it. -/
theorem cover_4 (p0 : Vec F S32x10000 .f32) (y : S32x10000.Idx) :
    ∃ pc ∈ ([⟨r_mat, p0⟩] : List (View.Piece (Elt F) S32x10000 .f32)), y ∈ pc.1.set :=
  View.cover_of_tiled [⟨r_mat, p0⟩] S32x10000.size (by rfl) y

/-! ## The body's triple -/

set_option maxHeartbeats 1000000 in
/-- The kernel body on whole staging memrefs, the inputs' at read contents and the output's at anything, runs to the
    continuation holding the inputs' as they were and the output's at `out_4` of the inputs'. -/
theorem sound_kernel (c : Dev nD) (E : Set ℕ) (arg0 : Memref sig .tc .vmem S32x10000 .f32) (harg0 : arg0.IsWhole) (arg1 : Memref sig .tc .vmem S32x10000 .f32) (harg1 : arg1.IsWhole)
    (arg2 : Memref sig .tc .vmem S1x10000 .f32) (harg2 : arg2.IsWhole) (arg3 : Memref sig .tc .vmem S32x1 .f32) (harg3 : arg3.IsWhole) (arg4 : Memref sig .tc .vmem S32x10000 .f32) (harg4 : arg4.IsWhole)
    (x0 : Vec F S32x10000 .f32) (x1 : Vec F S32x10000 .f32) (x2 : Vec F S1x10000 .f32) (x3 : Vec F S32x1 .f32) (K : PUnit → sProp 𝕄) :
    iprop(owns (c : Thread nD τ) arg0 fullShare x0 ∗ owns (c : Thread nD τ) arg1 fullShare x1 ∗ owns (c : Thread nD τ) arg2 fullShare x2 ∗ owns (c : Thread nD τ) arg3 fullShare x3
        ∗ (∃ d, owns (c : Thread nD τ) arg4 fullShare d)
        ∗ (iprop(owns (c : Thread nD τ) arg0 fullShare x0 ∗ owns (c : Thread nD τ) arg1 fullShare x1 ∗ owns (c : Thread nD τ) arg2 fullShare x2 ∗ owns (c : Thread nD τ) arg3 fullShare x3
            ∗ owns (c : Thread nD τ) arg4 fullShare (out_4 x0 x1 x2 x3)) -∗ K ⟨⟩))
      ⊢ wp frame (wpE (defs₀ (F := F)) Variants.none c none) E (cc4__k2c_body arg0 harg0 arg1 harg1 arg2 harg2 arg3 harg3 arg4 harg4) K := by
  simp only [cc4__k2c_body_eq_skeleton]; unfold cc4__k2c_body_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover_4 _)

/-! ## The pipeline's proof data -/

/-- The region's invariant on core `c`: the core's scoped buffers that are no staging buffer, at some contents each,
    and its generator register at some state; the body uses neither. -/
def ΦR (c : Dev nD) : sProp 𝕄 :=
  iprop(Pipeline.scopedRest (Ix := HIx 2) (Name := ℕ) (U := UU) (Lvl := ℕ) (Val := Elt F) spec4 c ∗ ∃ r, prngReg c r)

/-- The proof data of pipeline 2 on core `c`: the arrays as the region finds them; after the body each input's buffer at
    its block and the output's at `out_4` of the input blocks; the invariant the scoped rest and the generator register,
    untouched; the core owing throughout what it owed at entry, its recorded pairs within the entry's bound; full shares. -/
def dat (c : Dev nD) : Dat τ (Elt F) (HIx 2) ℕ UU ℕ cfg4 c where
  A w := V c (Pipeline.arrRef spec4 w)
  after w t := match w with
    | ⟨0, _⟩ => iblk V c 0 t
    | ⟨1, _⟩ => iblk V c 1 t
    | ⟨2, _⟩ => iblk V c 2 t
    | ⟨3, _⟩ => iblk V c 3 t
    | ⟨4, _⟩ => out_4 (iblk V c 0 t) (iblk V c 1 t) (iblk V c 2 t) (iblk V c 3 t)
  Φ _ := ΦR c
  q _ := fullShare
  owed _ := O
  recorded _ := B

/-- The proof data's arrays are the region-entry contents. -/
theorem A_eq (c : Dev nD) (w : Fin cfg4.W) : (dat V O B c).A w = V c (Pipeline.arrRef spec4 w) := by
  dsimp only [dat]

/-- What the body leaves, window by window. -/
theorem after_0 (c : Dev nD) (t : Fin cfg4.N) : (dat V O B c).after 0 t = iblk V c 0 t := by dsimp only [dat]
theorem after_1 (c : Dev nD) (t : Fin cfg4.N) : (dat V O B c).after 1 t = iblk V c 1 t := by dsimp only [dat]
theorem after_2 (c : Dev nD) (t : Fin cfg4.N) : (dat V O B c).after 2 t = iblk V c 2 t := by dsimp only [dat]
theorem after_3 (c : Dev nD) (t : Fin cfg4.N) : (dat V O B c).after 3 t = iblk V c 3 t := by dsimp only [dat]
theorem after_4 (c : Dev nD) (t : Fin cfg4.N) :
    (dat V O B c).after 4 t = out_4 (iblk V c 0 t) (iblk V c 1 t) (iblk V c 2 t) (iblk V c 3 t) := by dsimp only [dat]

/-- Each input's current staging buffer holds its block at every point, fetched there or not. -/
theorem before_0 (c : Dev nD) (t : Fin cfg4.N) (d) : (dat V O B c).before 0 t d = iblk V c 0 t :=
  before_0_of V (dat V O B c) (A_eq V O B c 0) (after_0 V O B c) t d
theorem before_1 (c : Dev nD) (t : Fin cfg4.N) (d) : (dat V O B c).before 1 t d = iblk V c 1 t :=
  before_1_of V (dat V O B c) (A_eq V O B c 1) (after_1 V O B c) t d
theorem before_2 (c : Dev nD) (t : Fin cfg4.N) (d) : (dat V O B c).before 2 t d = iblk V c 2 t :=
  before_2_of V (dat V O B c) (A_eq V O B c 2) (after_2 V O B c) t d
theorem before_3 (c : Dev nD) (t : Fin cfg4.N) (d) : (dat V O B c).before 3 t d = iblk V c 3 t :=
  before_3_of V (dat V O B c) (A_eq V O B c 3) (after_3 V O B c) t d

/-! ## The body obligation, at a generic point -/

/-- What the body is called with at point `t`, the windows one by one, -/
def bodyPre (c : Dev nD) (t : Fin cfg4.N) : sProp 𝕄 :=
  iprop((dat V O B c).Φ t.castSucc ∗ (dat V O B c).owesAt (none : HIx 2) t.castSucc
    ∗ (∃ d, owns (c : Thread nD τ) (st4_0 t) fullShare ((dat V O B c).before 0 t d))
    ∗ (∃ d, owns (c : Thread nD τ) (st4_1 t) fullShare ((dat V O B c).before 1 t d))
    ∗ (∃ d, owns (c : Thread nD τ) (st4_2 t) fullShare ((dat V O B c).before 2 t d))
    ∗ (∃ d, owns (c : Thread nD τ) (st4_3 t) fullShare ((dat V O B c).before 3 t d))
    ∗ (∃ d, owns (c : Thread nD τ) (st4_4 t) fullShare ((dat V O B c).before 4 t d)))

/-- and what it returns. -/
def bodyPost (c : Dev nD) (t : Fin cfg4.N) : sProp 𝕄 :=
  iprop((dat V O B c).Φ t.succ ∗ (dat V O B c).owesAt (none : HIx 2) t.succ
    ∗ owns (c : Thread nD τ) (st4_0 t) fullShare ((dat V O B c).after 0 t)
    ∗ owns (c : Thread nD τ) (st4_1 t) fullShare ((dat V O B c).after 1 t)
    ∗ owns (c : Thread nD τ) (st4_2 t) fullShare ((dat V O B c).after 2 t)
    ∗ owns (c : Thread nD τ) (st4_3 t) fullShare ((dat V O B c).after 3 t)
    ∗ owns (c : Thread nD τ) (st4_4 t) fullShare ((dat V O B c).after 4 t))

/-- The body at any point: the inputs' memrefs hold their blocks, so the body's triple applies; the invariant and
    what the core owes pass through unread. -/
theorem sound_body (c : Dev nD) (t : Fin cfg4.N) :
    bodyPre V O B c t ⊢ wp frame (wpE (defs₀ (F := F)) Variants.none c none) Set.univ (bodyAt4 t) (fun _ => bodyPost V O B c t) := by
  unfold bodyPre bodyPost bodyAt4
  simp only [before_0, before_1, before_2, before_3]
  rw [show (dat V O B c).Φ t.succ = (dat V O B c).Φ t.castSucc from rfl,
    show (dat V O B c).owesAt (none : HIx 2) t.succ = (dat V O B c).owesAt (none : HIx 2) t.castSucc from rfl,
    after_0, after_1, after_2, after_3, after_4]
  iintro ⟨HΦ, Ho, ⟨%d0, H0⟩, ⟨%d1, H1⟩, ⟨%d2, H2⟩, ⟨%d3, H3⟩, ⟨%d4, H4⟩⟩
  iapply (sound_kernel c Set.univ _ _ _ _ _ _ _ _ _ _ (iblk V c 0 t) (iblk V c 1 t) (iblk V c 2 t) (iblk V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The library's body obligation, at every point. -/
theorem body_obligation (c : Dev nD) :
    Pipeline.BodyObligation (dat (F := F) V O B c) (defs₀ (F := F)) Variants.none (none : HIx 2) Set.univ := fun t => by
  rw [bigSep_W4, bigSep_W4]
  exact sound_body V O B c t

end Cert.KernelIdeal.Hand.R2

end
-- ==== Proof.Hand.R3.lean ====
/-
  TensorCore region of pipeline 3 of @main: the first dense layer, a [1,320000] row against a [320000,128] matrix,
  as twenty block products accumulated into one [1,128] block that is carried from grid point to grid point and
  written back once, after the last. At the first point the body zeroes the block, then at every point it adds the
  point's block product to what the block holds.
-/
import proofs.«207900_g17016660427224_cont_7to1_1372_35_alg».proof.Proof.Hand.Base
import proofs.«207900_g17016660427224_cont_7to1_1372_35_alg».proof.Proof.Gen.KernelIdeal.Launch
import proofs.«207900_g17016660427224_cont_7to1_1372_35_alg».proof.Proof.Gen.KernelIdeal.Skeleton
import proofs.«207900_g17016660427224_cont_7to1_1372_35_alg».proof.Proof.Gen.KernelIdeal.Points
import Idealize.ShloMosaic.Lib.Pipeline.FrameBody
import Idealize.ShloMosaic.Lib.Pipeline.FrameSuffix
import Idealize.ShloMosaic.Lib.Tactic

set_option maxRecDepth 16384

noncomputable section

namespace Cert.KernelIdeal.Hand.R3

open Cert.KernelIdeal Cert.KernelIdeal.Gen
open Idealize.ShloMosaic Idealize.ShloMosaic.TcCoe Idealize.ShloMosaic.Tactic
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig (HIx 2) (Elt F) ℕ UU ℕ

-- the TensorCore's buffer contents when the region is entered, the tallies the TensorCore owes through it, and the
-- bound on the pairs its waits have recorded
variable (V : (c : Dev nD) → (b : Ref sig .tc) → Buf (Elt F) ((c : Thread nD τ).loc b))
variable (O : CellTallies nD τ sig (HIx 2))
variable (B : Set (SemLoc sig × HIx 2))

/-! ## The windows' blocks -/

/-- Window w's block at point t, read off its array as the region finds it. -/
def iblk (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

/-- Input window 0's current staging buffer holds its block at every point, for any proof data whose array is the
    entry contents and whose body leaves the block in place. -/
theorem before_0_of {c : Dev nD} (dat : Dat τ (Elt F) (HIx 2) ℕ UU ℕ cfg5 c) (hA : dat.A 0 = V c (Pipeline.arrRef spec5 0))
    (hafter : ∀ t, dat.after 0 t = iblk V c 0 t) (t : Fin cfg5.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- Input window 1's likewise. -/
theorem before_1_of {c : Dev nD} (dat : Dat τ (Elt F) (HIx 2) ℕ UU ℕ cfg5 c) (hA : dat.A 1 = V c (Pipeline.arrRef spec5 1))
    (hafter : ∀ t, dat.after 1 t = iblk V c 1 t) (t : Fin cfg5.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-! ## The body's accesses -/

abbrev r_0 : Rect S1x16000 := Rect.unit (s := S1x16000) ![0, 0] S1x16000.size inb_S1x16000_S1x16000_0_0
abbrev r_1 : Rect S16000x128 := Rect.unit (s := S16000x128) ![0, 0] S16000x128.size inb_S16000x128_S16000x128_0_0
abbrev r_2 : Rect S1x128 := Rect.unit (s := S1x128) ![0, 0] S1x128.size inb_S1x128_S1x128_0_0

/-! ## The body's branch condition -/

/-- The condition of the body's one conditional, from the grid coordinates: the point is the first. -/
abbrev cond (i : grid5.Coords) : Prop :=
  (Scalar.cmpi .ne (Scalar.extui (Scalar.cmpi .eq (BitVec.ofNat 32 (i 0).val) 0#32)) 0#32) = 1#1

/-- It holds at the first point only: decided over the twenty points. -/
theorem hcond : ∀ t : Fin cfg5.N, cond (grid5.coords t) ↔ t.val = 0 :=
  (by decide +kernel : ∀ t : Fin grid5.N, cond (grid5.coords t) ↔ t.val = 0)

/-! ## What the body leaves in the output window's buffer -/

/-- At the first point: the zero fill, then over it the block product added to the zero block read back. -/
def out_first (x0 : Vec F S1x16000 .f32) (x1 : Vec F S16000x128 .f32) : Vec F S1x128 .f32 :=
  View.canon [⟨r_2, k5_pay2 (k5_pay1 (F := F)) (View.ld x0 r_0) (View.ld x1 r_1)⟩, ⟨r_2, k5_pay1 (F := F)⟩]

/-- At a later point: the block product added to what the block held. -/
def out_later (x0 : Vec F S1x16000 .f32) (x1 : Vec F S16000x128 .f32) (xo : Vec F S1x128 .f32) : Vec F S1x128 .f32 :=
  View.canon [⟨r_2, k5_pay2 (View.ld xo r_2) (View.ld x0 r_0) (View.ld x1 r_1)⟩]

theorem cover_first (p0 p1 : Vec F S1x128 .f32) (y : S1x128.Idx) :
    ∃ pc ∈ ([⟨r_2, p0⟩, ⟨r_2, p1⟩] : List (View.Piece (Elt F) S1x128 .f32)), y ∈ pc.1.set :=
  View.cover_of_tiled [⟨r_2, p0⟩, ⟨r_2, p1⟩] S1x128.size (by rfl) y

theorem cover_later (p0 : Vec F S1x128 .f32) (y : S1x128.Idx) :
    ∃ pc ∈ ([⟨r_2, p0⟩] : List (View.Piece (Elt F) S1x128 .f32)), y ∈ pc.1.set :=
  View.cover_of_tiled [⟨r_2, p0⟩] S1x128.size (by rfl) y

/-! ## The body's triple, per case -/

set_option maxHeartbeats 1000000 in
theorem sound_kernel_first (c : Dev nD) (E : Set ℕ) (i : grid5.Coords) (arg1 : Memref sig .tc .vmem S1x16000 .f32) (harg1 : arg1.IsWhole)
    (arg2 : Memref sig .tc .vmem S16000x128 .f32) (harg2 : arg2.IsWhole) (arg3 : Memref sig .tc .vmem S1x128 .f32) (harg3 : arg3.IsWhole)
    (hc : cond i) (x0 : Vec F S1x16000 .f32) (x1 : Vec F S16000x128 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out_first x0 x1)) -∗ K ⟨⟩))
      ⊢ wp frame (wpE (defs₀ (F := F)) Variants.none c none) E (cc5__fc1_body i arg1 harg1 arg2 harg2 arg3 harg3) K := by
  simp only [cc5__fc1_body_eq_skeleton]; unfold cc5__fc1_body_skel
  unfold owns
  iintro ⟨⟨%f0, %hf0, H0⟩, ⟨%f1, %hf1, H1⟩, ⟨%d2, %f2, -, H2⟩, Hk⟩
  subst hf0 hf1
  sl_exec (disch := first | exact hc)
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  sl_unfold_run_names
  rw [View.readCov_cons_toLoadRect]
  exact View.read_writes_eq_canon _ _ _ (cover_first _ _)

set_option maxHeartbeats 1000000 in
/-- The body at a later point, the output's buffer at the running contents xo: the conditional is skipped, the one
    store lays the block product added to xo over the buffer. -/
theorem sound_kernel_later (c : Dev nD) (E : Set ℕ) (i : grid5.Coords) (arg1 : Memref sig .tc .vmem S1x16000 .f32) (harg1 : arg1.IsWhole)
    (arg2 : Memref sig .tc .vmem S16000x128 .f32) (harg2 : arg2.IsWhole) (arg3 : Memref sig .tc .vmem S1x128 .f32) (harg3 : arg3.IsWhole)
    (hc : ¬cond i) (x0 : Vec F S1x16000 .f32) (x1 : Vec F S16000x128 .f32) (xo : Vec F S1x128 .f32) (K : PUnit → sProp 𝕄) :
    iprop(owns (c : Thread nD τ) arg1 fullShare x0 ∗ owns (c : Thread nD τ) arg2 fullShare x1 ∗ owns (c : Thread nD τ) arg3 fullShare xo
        ∗ (iprop(owns (c : Thread nD τ) arg1 fullShare x0 ∗ owns (c : Thread nD τ) arg2 fullShare x1 ∗ owns (c : Thread nD τ) arg3 fullShare (out_later x0 x1 xo)) -∗ K ⟨⟩))
      ⊢ wp frame (wpE (defs₀ (F := F)) Variants.none c none) E (cc5__fc1_body i arg1 harg1 arg2 harg2 arg3 harg3) K := by
  simp only [cc5__fc1_body_eq_skeleton]; unfold cc5__fc1_body_skel
  unfold owns
  iintro ⟨⟨%f0, %hf0, H0⟩, ⟨%f1, %hf1, H1⟩, ⟨%f2, %hf2, H2⟩, Hk⟩
  subst hf0 hf1 hf2
  sl_exec (disch := first | exact hc)
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover_later _)

/-! ## The body's triple, at any point -/

/-- What the body leaves in the output window's buffer at coordinates i, from the input blocks and what the buffer
    held: the first point's contents where the condition holds, a later point's elsewhere. -/
def out_2 (i : grid5.Coords) (x0 : Vec F S1x16000 .f32) (x1 : Vec F S16000x128 .f32) (xo : Vec F S1x128 .f32) : Vec F S1x128 .f32 :=
  open Classical in if cond i then out_first x0 x1 else out_later x0 x1 xo

theorem out_2_first {i : grid5.Coords} (hc : cond i) (x0 : Vec F S1x16000 .f32) (x1 : Vec F S16000x128 .f32) (xo : Vec F S1x128 .f32) :
    out_2 i x0 x1 xo = out_first x0 x1 := by unfold out_2; exact if_pos hc

theorem out_2_later {i : grid5.Coords} (hc : ¬cond i) (x0 : Vec F S1x16000 .f32) (x1 : Vec F S16000x128 .f32) (xo : Vec F S1x128 .f32) :
    out_2 i x0 x1 xo = out_later x0 x1 xo := by unfold out_2; exact if_neg hc

/-- The kernel body on whole staging memrefs, the inputs' at read contents x0, x1 and the output's at xo, runs to the
    continuation holding the inputs' as they were and the output's at out_2 of them: the two cases joined. -/
theorem sound_kernel (c : Dev nD) (E : Set ℕ) (i : grid5.Coords) (arg1 : Memref sig .tc .vmem S1x16000 .f32) (harg1 : arg1.IsWhole)
    (arg2 : Memref sig .tc .vmem S16000x128 .f32) (harg2 : arg2.IsWhole) (arg3 : Memref sig .tc .vmem S1x128 .f32) (harg3 : arg3.IsWhole)
    (x0 : Vec F S1x16000 .f32) (x1 : Vec F S16000x128 .f32) (xo : Vec F S1x128 .f32) (K : PUnit → sProp 𝕄) :
    iprop(owns (c : Thread nD τ) arg1 fullShare x0 ∗ owns (c : Thread nD τ) arg2 fullShare x1 ∗ owns (c : Thread nD τ) arg3 fullShare xo
        ∗ (iprop(owns (c : Thread nD τ) arg1 fullShare x0 ∗ owns (c : Thread nD τ) arg2 fullShare x1 ∗ owns (c : Thread nD τ) arg3 fullShare (out_2 i x0 x1 xo)) -∗ K ⟨⟩))
      ⊢ wp frame (wpE (defs₀ (F := F)) Variants.none c none) E (cc5__fc1_body i arg1 harg1 arg2 harg2 arg3 harg3) K := by
  by_cases hc : cond i
  · rw [out_2_first hc]
    iintro ⟨H0, H1, H2, Hk⟩
    iapply (sound_kernel_first c E i arg1 harg1 arg2 harg2 arg3 harg3 hc x0 x1 K)
    isplitl [H0]; · iexact H0
    isplitl [H1]; · iexact H1
    isplitl [H2]; · iexists _; iexact H2
    iexact Hk
  · rw [out_2_later hc]
    exact sound_kernel_later c E i arg1 harg1 arg2 harg2 arg3 harg3 hc x0 x1 xo K

/-! ## What the output holds after each point -/

theorem lt_N {n : ℕ} (hn : n < 20) : n < cfg5.N := lt_of_lt_of_eq hn N_5.symm

/-- THE ACCUMULATION. What the output's staging buffer holds after the body at position n: at the first point the
    first case's contents of the point's input blocks, at a later point the later case's, over what the point
    before left (the buffer is not written back between). -/
def outsAt (c : Dev nD) : (n : ℕ) → n < 20 → Vec F S1x128 .f32
  | 0, hn => out_first (iblk V c 0 ⟨0, lt_N hn⟩) (iblk V c 1 ⟨0, lt_N hn⟩)
  | n + 1, hn => out_later (iblk V c 0 ⟨n + 1, lt_N hn⟩) (iblk V c 1 ⟨n + 1, lt_N hn⟩) (outsAt c n (Nat.lt_of_succ_lt hn))

theorem outsAt_zero (c : Dev nD) (hn : 0 < 20) :
    outsAt V c 0 hn = out_first (iblk V c 0 ⟨0, lt_N hn⟩) (iblk V c 1 ⟨0, lt_N hn⟩) := rfl

theorem outsAt_succ (c : Dev nD) (n : ℕ) (hn : n + 1 < 20) :
    outsAt V c (n + 1) hn = out_later (iblk V c 0 ⟨n + 1, lt_N hn⟩) (iblk V c 1 ⟨n + 1, lt_N hn⟩) (outsAt V c n (Nat.lt_of_succ_lt hn)) := rfl

theorem N_lt (t : Fin cfg5.N) : t.val < 20 := lt_of_lt_of_eq t.isLt N_5

/-- outsAt at the first point, stated at the point. -/
theorem outsAt_first (c : Dev nD) (t : Fin cfg5.N) (h0 : t.val = 0) :
    outsAt V c t.val (N_lt t) = out_first (iblk V c 0 t) (iblk V c 1 t) := by
  obtain ⟨n, hn⟩ := t
  cases n with
  | zero => exact rfl
  | succ n => exact absurd h0 (Nat.succ_ne_zero n)

/-- outsAt at a later point, stated at the point: over what the point before left. -/
theorem outsAt_later (c : Dev nD) (t : Fin cfg5.N) (h0 : t.val ≠ 0) :
    outsAt V c t.val (N_lt t) = out_later (iblk V c 0 t) (iblk V c 1 t)
      (outsAt V c (t.val - 1) (Nat.lt_of_le_of_lt (Nat.sub_le _ _) (N_lt t))) := by
  obtain ⟨n, hn⟩ := t
  cases n with
  | zero => exact absurd rfl h0
  | succ n => exact rfl

/-! ## The pipeline's proof data -/

/-- The region's invariant on core c: the core's scoped buffers that are no staging buffer of this pipeline, at some
    contents each, and its generator register at some state. -/
def ΦR (c : Dev nD) : sProp 𝕄 :=
  iprop(Pipeline.scopedRest (Ix := HIx 2) (Name := ℕ) (U := UU) (Lvl := ℕ) (Val := Elt F) spec5 c ∗ ∃ r, prngReg c r)

/-- The proof data of pipeline 3 on core c: the arrays as the region finds them; after the body at point t each
    input's buffer at its block and the output's at outsAt; the invariant ΦR; the tallies O owed throughout; full shares. -/
def dat (c : Dev nD) : Dat τ (Elt F) (HIx 2) ℕ UU ℕ cfg5 c where
  A w := V c (Pipeline.arrRef spec5 w)
  after w t := match w with
    | ⟨0, _⟩ => iblk V c 0 t
    | ⟨1, _⟩ => iblk V c 1 t
    | ⟨2, _⟩ => outsAt V c t.val (N_lt t)
  Φ _ := ΦR c
  q _ := fullShare
  owed _ := O
  recorded _ := B

/-- The proof data's arrays are the region-entry contents. -/
theorem A_eq (c : Dev nD) (w : Fin cfg5.W) : (dat V O B c).A w = V c (Pipeline.arrRef spec5 w) := by
  dsimp only [dat]

/-- What the body leaves, window by window. -/
theorem after_0 (c : Dev nD) (t : Fin cfg5.N) : (dat V O B c).after 0 t = iblk V c 0 t := by dsimp only [dat]
theorem after_1 (c : Dev nD) (t : Fin cfg5.N) : (dat V O B c).after 1 t = iblk V c 1 t := by dsimp only [dat]
theorem after_2 (c : Dev nD) (t : Fin cfg5.N) : (dat V O B c).after 2 t = outsAt V c t.val (N_lt t) := by dsimp only [dat]

/-- Each input's current staging buffer holds its block at every point, fetched there or not. -/
theorem before_0 (c : Dev nD) (t : Fin cfg5.N) (d) : (dat V O B c).before 0 t d = iblk V c 0 t :=
  before_0_of V (dat V O B c) (A_eq V O B c 0) (after_0 V O B c) t d
theorem before_1 (c : Dev nD) (t : Fin cfg5.N) (d) : (dat V O B c).before 1 t d = iblk V c 1 t :=
  before_1_of V (dat V O B c) (A_eq V O B c 1) (after_1 V O B c) t d

/-- At a later point the output's staging buffer holds what the body left at the point before: the buffer is written
    back after the last point only, the window is live and uncut. -/
theorem before_2 (c : Dev nD) (t : Fin cfg5.N) (h0 : t.val ≠ 0) (d) :
    (dat V O B c).before 2 t d = outsAt V c (t.val - 1) (Nat.lt_of_le_of_lt (Nat.sub_le _ _) (N_lt t)) := by
  have hN : t.val < 20 := N_lt t
  rw [Dat.before_out_kept _ 2 rfl t h0 (Bool.eq_false_iff.mpr fun h => by have := (flush5_2 _).mp h; dsimp only at this; omega)
    (fun _ => rfl) (fun _ _ => rfl)]
  dsimp only [dat]

/-! ## The body obligation, at a generic point -/

/-- What the body is called with at point t, the windows one by one, -/
def bodyPre (c : Dev nD) (t : Fin cfg5.N) : sProp 𝕄 :=
  iprop((dat V O B c).Φ t.castSucc ∗ (dat V O B c).owesAt (none : HIx 2) t.castSucc
    ∗ (∃ d, owns (c : Thread nD τ) (st5_0 t) fullShare ((dat V O B c).before 0 t d))
    ∗ (∃ d, owns (c : Thread nD τ) (st5_1 t) fullShare ((dat V O B c).before 1 t d))
    ∗ (∃ d, owns (c : Thread nD τ) (st5_2 t) fullShare ((dat V O B c).before 2 t d)))

/-- and what it returns. -/
def bodyPost (c : Dev nD) (t : Fin cfg5.N) : sProp 𝕄 :=
  iprop((dat V O B c).Φ t.succ ∗ (dat V O B c).owesAt (none : HIx 2) t.succ
    ∗ owns (c : Thread nD τ) (st5_0 t) fullShare ((dat V O B c).after 0 t)
    ∗ owns (c : Thread nD τ) (st5_1 t) fullShare ((dat V O B c).after 1 t)
    ∗ owns (c : Thread nD τ) (st5_2 t) fullShare ((dat V O B c).after 2 t))

set_option maxHeartbeats 800000 in
/-- The body at any point: the inputs' memrefs hold their blocks; the closed form of the condition says which case the
    point is in; at a later point the output's memref holds what the point before left; so the case's triple applies;
    the invariant and what the core owes pass through unread. -/
theorem sound_body (c : Dev nD) (t : Fin cfg5.N) :
    bodyPre V O B c t ⊢ wp frame (wpE (defs₀ (F := F)) Variants.none c none) Set.univ (bodyAt5 t) (fun _ => bodyPost V O B c t) := by
  unfold bodyPre bodyPost bodyAt5
  simp only [before_0, before_1]
  rw [show (dat V O B c).Φ t.succ = (dat V O B c).Φ t.castSucc from rfl,
    show (dat V O B c).owesAt (none : HIx 2) t.succ = (dat V O B c).owesAt (none : HIx 2) t.castSucc from rfl,
    after_0, after_1, after_2]
  by_cases h0 : t.val = 0
  · rw [outsAt_first V c t h0]
    iintro ⟨HΦ, Ho, ⟨%d0, H0⟩, ⟨%d1, H1⟩, ⟨%d2, H2⟩⟩
    iapply (sound_kernel_first c Set.univ (grid5.coords t) _ _ _ _ _ _ ((hcond t).mpr h0) (iblk V c 0 t) (iblk V c 1 t) _)
    isplitl [H0]; · iexact H0
    isplitl [H1]; · iexact H1
    isplitl [H2]; · iexists _; iexact H2
    iintro ⟨H0, H1, H2⟩
    isplitl [HΦ]; · iexact HΦ
    isplitl [Ho]; · iexact Ho
    isplitl [H0]; · iexact H0
    isplitl [H1]; · iexact H1
    iexact H2
  · rw [outsAt_later V c t h0]
    simp only [before_2 V O B c t h0]
    iintro ⟨HΦ, Ho, ⟨%d0, H0⟩, ⟨%d1, H1⟩, ⟨%d2, H2⟩⟩
    iapply (sound_kernel_later c Set.univ (grid5.coords t) _ _ _ _ _ _ (fun h => h0 ((hcond t).mp h)) (iblk V c 0 t) (iblk V c 1 t) _ _)
    isplitl [H0]; · iexact H0
    isplitl [H1]; · iexact H1
    isplitl [H2]; · iexact H2
    iintro ⟨H0, H1, H2⟩
    isplitl [HΦ]; · iexact HΦ
    isplitl [Ho]; · iexact Ho
    isplitl [H0]; · iexact H0
    isplitl [H1]; · iexact H1
    iexact H2

/-- The library's body obligation, at every point. -/
theorem body_obligation (c : Dev nD) :
    Pipeline.BodyObligation (dat (F := F) V O B c) (defs₀ (F := F)) Variants.none (none : HIx 2) Set.univ := fun t => by
  rw [bigSep_W5, bigSep_W5]
  exact sound_body V O B c t

end Cert.KernelIdeal.Hand.R3

end
-- ==== Proof.Hand.R4.lean ====
/-
  The last TensorCore region of the program (the second dense layer): on whole staging buffers the body reads the
  hidden row, its bias, the weight matrix and the output bias, and stores  max (max (h + b1) 0 · W2 + b2) 0  over the
  whole output row. This module states, at any entry contents `V` of the TensorCore's buffers and any tallies `O`
  the core owes through the region: each window's block, the output row as a function of the input blocks, the
  body's triple, the pipeline's proof data and its body obligation.
-/
import proofs.«207900_g17016660427224_cont_7to1_1372_35_alg».proof.Proof.Hand.Base
import proofs.«207900_g17016660427224_cont_7to1_1372_35_alg».proof.Proof.Gen.KernelIdeal.Launch
import proofs.«207900_g17016660427224_cont_7to1_1372_35_alg».proof.Proof.Gen.KernelIdeal.Skeleton
import proofs.«207900_g17016660427224_cont_7to1_1372_35_alg».proof.Proof.Gen.KernelIdeal.Points
import Idealize.ShloMosaic.Lib.Pipeline.FrameBody
import Idealize.ShloMosaic.Lib.Pipeline.FrameSuffix
import Idealize.ShloMosaic.Lib.Tactic

-- membership in a rectangle of these extents is decided coordinate by coordinate along the long axis
set_option maxRecDepth 16384

noncomputable section

namespace Cert.KernelIdeal.Hand.R4

open Cert.KernelIdeal Cert.KernelIdeal.Gen
open Idealize.ShloMosaic Idealize.ShloMosaic.TcCoe Idealize.ShloMosaic.Tactic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig (HIx 2) (Elt F) ℕ UU ℕ

-- the TensorCore's buffer contents when the region is entered
variable (V : (c : Dev nD) → (b : Ref sig .tc) → Buf (Elt F) ((c : Thread nD τ).loc b))
-- the tallies the TensorCore owes through the region, which the body never reads
variable (O : CellTallies nD τ sig (HIx 2))
-- the bound on the pairs the core's waits have recorded, which the body never reads either
variable (B : Set (SemLoc sig × HIx 2))

/-! ## The windows' blocks -/

/-- Window `w`'s block at point `t`, read off its array as the region finds it (`V`). -/
def iblk (c : Dev nD) (w : Fin cfg6.W) (t : Fin cfg6.N) : ((cfg6.win w).xblock (cfg6.grid.coords t)).Idx → Elt F (cfg6.win w).elt :=
  ((cfg6.win w).blk t).view.read (Elt F) (V c (Pipeline.arrRef spec6 w))

/-- Input window 0's current staging buffer holds its block at every point, fetched there or not, for any proof
    data whose array is the entry contents' (`hA`) and whose body leaves the block in place (`hafter`): unfetched,
    the block index has not moved; the window is uncut and never idle. -/
theorem before_0_of {c : Dev nD} (dat : Dat τ (Elt F) (HIx 2) ℕ UU ℕ cfg6 c) (hA : dat.A 0 = V c (Pipeline.arrRef spec6 0))
    (hafter : ∀ t, dat.after 0 t = iblk V c 0 t) (t : Fin cfg6.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not, for any proof
    data whose array is the entry contents' (`hA`) and whose body leaves the block in place (`hafter`): unfetched,
    the block index has not moved; the window is uncut and never idle. -/
theorem before_1_of {c : Dev nD} (dat : Dat τ (Elt F) (HIx 2) ℕ UU ℕ cfg6 c) (hA : dat.A 1 = V c (Pipeline.arrRef spec6 1))
    (hafter : ∀ t, dat.after 1 t = iblk V c 1 t) (t : Fin cfg6.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, fetched there or not, for any proof
    data whose array is the entry contents' (`hA`) and whose body leaves the block in place (`hafter`): unfetched,
    the block index has not moved; the window is uncut and never idle. -/
theorem before_2_of {c : Dev nD} (dat : Dat τ (Elt F) (HIx 2) ℕ UU ℕ cfg6 c) (hA : dat.A 2 = V c (Pipeline.arrRef spec6 2))
    (hafter : ∀ t, dat.after 2 t = iblk V c 2 t) (t : Fin cfg6.N) (d) : dat.before 2 t d = iblk V c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's current staging buffer holds its block at every point, fetched there or not, for any proof
    data whose array is the entry contents' (`hA`) and whose body leaves the block in place (`hafter`): unfetched,
    the block index has not moved; the window is uncut and never idle. -/
theorem before_3_of {c : Dev nD} (dat : Dat τ (Elt F) (HIx 2) ℕ UU ℕ cfg6 c) (hA : dat.A 3 = V c (Pipeline.arrRef spec6 3))
    (hafter : ∀ t, dat.after 3 t = iblk V c 3 t) (t : Fin cfg6.N) (d) : dat.before 3 t d = iblk V c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-! ## The body's accesses -/

/-- The whole hidden row (and the whole bias row of the same shape). -/
abbrev r_h : Rect S1x128 := Rect.unit (s := S1x128) ![0, 0] S1x128.size inb_S1x128_S1x128_0_0
/-- The whole weight matrix. -/
abbrev r_w : Rect S128x10000 := Rect.unit (s := S128x10000) ![0, 0] S128x10000.size inb_S128x10000_S128x10000_0_0
/-- The whole output row (and the whole output bias). -/
abbrev r_o : Rect S1x10000 := Rect.unit (s := S1x10000) ![0, 0] S1x10000.size inb_S1x10000_S1x10000_0_0

/-! ## What the body leaves in the output window's buffer -/

/-- Window 4's staging buffer after the body, from the input windows' blocks: its one store, of
    max (max (x0 + x1) 0 · x2 + x3) 0, over the whole row. -/
def out_4 (x0 : Vec F S1x128 .f32) (x1 : Vec F S1x128 .f32) (x2 : Vec F S128x10000 .f32) (x3 : Vec F S1x10000 .f32) : Vec F S1x10000 .f32 :=
  View.canon [⟨r_o, k6_pay1 (View.ld x0 r_h) (View.ld x1 r_h) (View.ld x2 r_w) (View.ld x3 r_o)⟩]

/-- The one store is of the whole row, so it covers the buffer. -/
theorem cover_4 (p0 : Vec F S1x10000 .f32) (y : S1x10000.Idx) :
    ∃ pc ∈ ([⟨r_o, p0⟩] : List (View.Piece (Elt F) S1x10000 .f32)), y ∈ pc.1.set :=
  View.cover_of_tiled [⟨r_o, p0⟩] S1x10000.size (by rfl) y

/-! ## The body's triple -/

set_option maxHeartbeats 1000000 in
/-- The body on whole staging memrefs, the inputs' at read contents `xW` and the output's at anything, runs to the
    continuation holding the inputs' as they were and the output's at `out_4` of the inputs'. -/
theorem sound_kernel (c : Dev nD) (E : Set ℕ) (arg0 : Memref sig .tc .vmem S1x128 .f32) (harg0 : arg0.IsWhole) (arg1 : Memref sig .tc .vmem S1x128 .f32) (harg1 : arg1.IsWhole)
    (arg2 : Memref sig .tc .vmem S128x10000 .f32) (harg2 : arg2.IsWhole) (arg3 : Memref sig .tc .vmem S1x10000 .f32) (harg3 : arg3.IsWhole)
    (arg4 : Memref sig .tc .vmem S1x10000 .f32) (harg4 : arg4.IsWhole)
    (x0 : Vec F S1x128 .f32) (x1 : Vec F S1x128 .f32) (x2 : Vec F S128x10000 .f32) (x3 : Vec F S1x10000 .f32) (K : PUnit → sProp 𝕄) :
    iprop(owns (c : Thread nD τ) arg0 fullShare x0 ∗ owns (c : Thread nD τ) arg1 fullShare x1 ∗ owns (c : Thread nD τ) arg2 fullShare x2
        ∗ owns (c : Thread nD τ) arg3 fullShare x3 ∗ (∃ d, owns (c : Thread nD τ) arg4 fullShare d)
        ∗ (iprop(owns (c : Thread nD τ) arg0 fullShare x0 ∗ owns (c : Thread nD τ) arg1 fullShare x1 ∗ owns (c : Thread nD τ) arg2 fullShare x2
            ∗ owns (c : Thread nD τ) arg3 fullShare x3 ∗ owns (c : Thread nD τ) arg4 fullShare (out_4 x0 x1 x2 x3)) -∗ K ⟨⟩))
      ⊢ wp frame (wpE (defs₀ (F := F)) Variants.none c none) E (cc6__fc2_body arg0 harg0 arg1 harg1 arg2 harg2 arg3 harg3 arg4 harg4) K := by
  simp only [cc6__fc2_body_eq_skeleton]; unfold cc6__fc2_body_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover_4 _)

/-! ## The pipeline's proof data -/

/-- The region's invariant on core `c`: the core's scoped buffers that are no staging buffer, at some contents
    each, and its generator register at some state; the body uses neither. -/
def ΦR (c : Dev nD) : sProp 𝕄 :=
  iprop(Pipeline.scopedRest (Ix := HIx 2) (Name := ℕ) (U := UU) (Lvl := ℕ) (Val := Elt F) spec6 c ∗ ∃ r, prngReg c r)

/-- The proof data of the pipeline on core `c`: the arrays as the region finds them (`V`); after the body each
    input's buffer at its block and the output's at `out_4` of the input blocks; the invariant the scoped rest and
    the generator register, untouched; the tallies `O` owed and the bound `B` on the recorded pairs throughout; full shares. -/
def dat (c : Dev nD) : Dat τ (Elt F) (HIx 2) ℕ UU ℕ cfg6 c where
  A w := V c (Pipeline.arrRef spec6 w)
  after w t := match w with
    | ⟨0, _⟩ => iblk V c 0 t
    | ⟨1, _⟩ => iblk V c 1 t
    | ⟨2, _⟩ => iblk V c 2 t
    | ⟨3, _⟩ => iblk V c 3 t
    | ⟨4, _⟩ => out_4 (iblk V c 0 t) (iblk V c 1 t) (iblk V c 2 t) (iblk V c 3 t)
  Φ _ := ΦR c
  q _ := fullShare
  owed _ := O
  recorded _ := B

/-- The proof data's arrays are the region-entry contents. -/
theorem A_eq (c : Dev nD) (w : Fin cfg6.W) : (dat V O B c).A w = V c (Pipeline.arrRef spec6 w) := by
  dsimp only [dat]

/-- What the body leaves, window by window. -/
theorem after_0 (c : Dev nD) (t : Fin cfg6.N) : (dat V O B c).after 0 t = iblk V c 0 t := by dsimp only [dat]
theorem after_1 (c : Dev nD) (t : Fin cfg6.N) : (dat V O B c).after 1 t = iblk V c 1 t := by dsimp only [dat]
theorem after_2 (c : Dev nD) (t : Fin cfg6.N) : (dat V O B c).after 2 t = iblk V c 2 t := by dsimp only [dat]
theorem after_3 (c : Dev nD) (t : Fin cfg6.N) : (dat V O B c).after 3 t = iblk V c 3 t := by dsimp only [dat]
theorem after_4 (c : Dev nD) (t : Fin cfg6.N) :
    (dat V O B c).after 4 t = out_4 (iblk V c 0 t) (iblk V c 1 t) (iblk V c 2 t) (iblk V c 3 t) := by dsimp only [dat]

/-- Each input's current staging buffer holds its block at every point, fetched there or not. -/
theorem before_0 (c : Dev nD) (t : Fin cfg6.N) (d) : (dat V O B c).before 0 t d = iblk V c 0 t :=
  before_0_of V (dat V O B c) (A_eq V O B c 0) (after_0 V O B c) t d
theorem before_1 (c : Dev nD) (t : Fin cfg6.N) (d) : (dat V O B c).before 1 t d = iblk V c 1 t :=
  before_1_of V (dat V O B c) (A_eq V O B c 1) (after_1 V O B c) t d
theorem before_2 (c : Dev nD) (t : Fin cfg6.N) (d) : (dat V O B c).before 2 t d = iblk V c 2 t :=
  before_2_of V (dat V O B c) (A_eq V O B c 2) (after_2 V O B c) t d
theorem before_3 (c : Dev nD) (t : Fin cfg6.N) (d) : (dat V O B c).before 3 t d = iblk V c 3 t :=
  before_3_of V (dat V O B c) (A_eq V O B c 3) (after_3 V O B c) t d

/-! ## The body obligation, at a generic point -/

/-- What the body is called with at point `t`, the windows one by one, -/
def bodyPre (c : Dev nD) (t : Fin cfg6.N) : sProp 𝕄 :=
  iprop((dat V O B c).Φ t.castSucc ∗ (dat V O B c).owesAt (none : HIx 2) t.castSucc
    ∗ (∃ d, owns (c : Thread nD τ) (st6_0 t) fullShare ((dat V O B c).before 0 t d))
    ∗ (∃ d, owns (c : Thread nD τ) (st6_1 t) fullShare ((dat V O B c).before 1 t d))
    ∗ (∃ d, owns (c : Thread nD τ) (st6_2 t) fullShare ((dat V O B c).before 2 t d))
    ∗ (∃ d, owns (c : Thread nD τ) (st6_3 t) fullShare ((dat V O B c).before 3 t d))
    ∗ (∃ d, owns (c : Thread nD τ) (st6_4 t) fullShare ((dat V O B c).before 4 t d)))

/-- and what it returns. -/
def bodyPost (c : Dev nD) (t : Fin cfg6.N) : sProp 𝕄 :=
  iprop((dat V O B c).Φ t.succ ∗ (dat V O B c).owesAt (none : HIx 2) t.succ
    ∗ owns (c : Thread nD τ) (st6_0 t) fullShare ((dat V O B c).after 0 t)
    ∗ owns (c : Thread nD τ) (st6_1 t) fullShare ((dat V O B c).after 1 t)
    ∗ owns (c : Thread nD τ) (st6_2 t) fullShare ((dat V O B c).after 2 t)
    ∗ owns (c : Thread nD τ) (st6_3 t) fullShare ((dat V O B c).after 3 t)
    ∗ owns (c : Thread nD τ) (st6_4 t) fullShare ((dat V O B c).after 4 t))

/-- The body at any point: the inputs' memrefs hold their blocks, so the body's triple applies; the invariant and
    what the core owes pass through unread. -/
theorem sound_body (c : Dev nD) (t : Fin cfg6.N) :
    bodyPre V O B c t ⊢ wp frame (wpE (defs₀ (F := F)) Variants.none c none) Set.univ (bodyAt6 t) (fun _ => bodyPost V O B c t) := by
  unfold bodyPre bodyPost bodyAt6
  simp only [before_0, before_1, before_2, before_3]
  rw [show (dat V O B c).Φ t.succ = (dat V O B c).Φ t.castSucc from rfl,
    show (dat V O B c).owesAt (none : HIx 2) t.succ = (dat V O B c).owesAt (none : HIx 2) t.castSucc from rfl,
    after_0, after_1, after_2, after_3, after_4]
  iintro ⟨HΦ, Ho, ⟨%d0, H0⟩, ⟨%d1, H1⟩, ⟨%d2, H2⟩, ⟨%d3, H3⟩, ⟨%d4, H4⟩⟩
  iapply (sound_kernel c Set.univ _ _ _ _ _ _ _ _ _ _ (iblk V c 0 t) (iblk V c 1 t) (iblk V c 2 t) (iblk V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The library's body obligation, at every point. -/
theorem body_obligation (c : Dev nD) :
    Pipeline.BodyObligation (dat (F := F) V O B c) (defs₀ (F := F)) Variants.none (none : HIx 2) Set.univ := fun t => by
  rw [bigSep_W6, bigSep_W6]
  exact sound_body V O B c t

end Cert.KernelIdeal.Hand.R4

end
-- ==== Proof.Hand.Steps.lean ====
/-
  Each TensorCore region of @main as one step of the TensorCore's proof inside the SparseCore program, and each host
  operation likewise: from the boundary, every unscoped buffer held at a valuation, the generator register and the
  TensorCore's state between two SparseCore calls, a region's call runs to the same with the valuation updated at the
  region's arrays; a host operation to the valuation at the operation's result.
-/
import proofs.«207900_g17016660427224_cont_7to1_1372_35_alg».proof.Proof.Hand.Base
import proofs.«207900_g17016660427224_cont_7to1_1372_35_alg».proof.Proof.Hand.R0
import proofs.«207900_g17016660427224_cont_7to1_1372_35_alg».proof.Proof.Hand.R1
import proofs.«207900_g17016660427224_cont_7to1_1372_35_alg».proof.Proof.Hand.R2
import proofs.«207900_g17016660427224_cont_7to1_1372_35_alg».proof.Proof.Hand.R3
import proofs.«207900_g17016660427224_cont_7to1_1372_35_alg».proof.Proof.Hand.R4
import Idealize.ShloMosaic.Lib.Pipeline.RegionsLoop
import Idealize.ShloMosaic.Lib.Pipeline.FrameSuffix
import Idealize.ShloMosaic.Lib.StableHlo.Run
import Idealize.ShloMosaic.Lib.Tactic

noncomputable section

namespace Cert.KernelIdeal.Hand.Steps

open Cert.KernelIdeal Cert.KernelIdeal.Gen
open Idealize.ShloMosaic Idealize.ShloMosaic.TcCoe Idealize.ShloMosaic.Tactic
open Idealize.ShloMosaic.SparseCore (S T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig (HIx 2) (Elt F) ℕ UU ℕ

/-- The contents of every buffer of a device. -/
abbrev Val : Type := Valuation τ sig (Elt F)
/-- The TensorCore's unscoped references. -/
abbrev UC : Finset (DevRef τ sig) := Pipeline.ucRefs τ sig

/-! ## A region, at any pipeline -/

section Generic

variable (p : Fin 5)
variable (pd : (q : Fin 5) → (c : Dev nD) → Dat τ (Elt F) (HIx 2) ℕ UU ℕ (Pipeline.pin (pcfgs (F := F)) adm q) c)
variable (W : Val (F := F)) (O : CellTallies nD τ sig (HIx 2)) (B : Set (SemLoc sig × HIx 2))

/-- The contents at the region's exit: the pipeline's arrays at what it leaves, every other buffer as entered. -/
def nextG (c : Dev nD) : Val (F := F) :=
  Pipeline.withArrays (Pipeline.pin (pcfgs (F := F)) adm p).spec c W fun w => (pd p c).arrAt w (Pipeline.pin (pcfgs (F := F)) adm p).N

/-- What the region's step asks of the pipeline's proof data: the arrays read off the entry contents, full shares, the
    invariant the scoped rest and the generator register, the same tallies owed throughout and the recorded pairs within
    the same set throughout, and the body obligation. -/
structure RegHyp : Prop where
  hA : ∀ c w, (pd p c).A w = W (Proc.devRef .tc (Pipeline.arrRef (Pipeline.pin (pcfgs (F := F)) adm p).spec w))
  hq : ∀ c w, (pd p c).q w = fullShare
  hΦ : ∀ c t, (pd p c).Φ t = iprop(Pipeline.scopedRest (Ix := HIx 2) (Name := ℕ) (U := UU) (Lvl := ℕ) (Val := Elt F) (Pipeline.pin (pcfgs (F := F)) adm p).spec c ∗ ∃ r, prngReg c r)
  howed : ∀ c t, (pd p c).owed t = O
  hrec : ∀ c t, (pd p c).recorded t = B
  hbody : ∀ c, BodyObligation (pd p c) (defs₀ (F := F)) Variants.none (none : HIx 2) Set.univ

end Generic

section Seg

variable {p : Fin 5} (lf : Pipeline.LaunchFacts (nD := nD) (τ := τ) cfgs p)
variable {pd : (q : Fin 5) → (c : Dev nD) → Dat τ (Elt F) (HIx 2) ℕ UU ℕ (Pipeline.pin (pcfgs (F := F)) adm q) c}
variable {W : Val (F := F)} {O : CellTallies nD τ sig (HIx 2)} {B : Set (SemLoc sig × HIx 2)}

/-- What the core holds between two steps: every unscoped buffer at a valuation, the generator register at some state, and
    the tallies it owes with its recorded pairs within a set. -/
abbrev Tst (W : Val (F := F)) (O : CellTallies nD τ sig (HIx 2)) (B : Set (SemLoc sig × HIx 2)) (c : Dev nD) : sProp 𝕄 :=
  iprop(StableHlo.held (c : Thread nD τ) UC W ∗ (∃ r, prngReg c r) ∗ Pipeline.owesWithin c O B)

theorem nextG_arr (lf : Pipeline.LaunchFacts (nD := nD) (τ := τ) cfgs p) (c : Dev nD) (w : Fin (Pipeline.pin (pcfgs (F := F)) adm p).W) :
    nextG p pd W c (Proc.devRef .tc (Pipeline.arrRef (Pipeline.pin (pcfgs (F := F)) adm p).spec w))
      = (pd p c).arrAt w (Pipeline.pin (pcfgs (F := F)) adm p).N := by
  unfold nextG; exact Pipeline.withArrays_arr _ lf.win.arr_inj c _ _ w

theorem nextG_of_ne (c : Dev nD) (b : Ref sig .tc) (hb : ∀ w, Pipeline.arrRef (Pipeline.pin (pcfgs (F := F)) adm p).spec w ≠ b) :
    nextG p pd W c (Proc.devRef .tc b) = W (Proc.devRef .tc b) := by
  unfold nextG; exact Pipeline.withArrays_of_ne _ c _ _ b hb

set_option backward.isDefEq.respectTransparency.types false in
/-- The region over the thread state: entered from every unscoped buffer at the entry contents, left with the pipeline's
    arrays at what it leaves; the generator register into the invariant and out; the tallies owed pass through, the
    pipeline's own waits recorded at the index of no call. -/
def reg (h : RegHyp p pd W O B) (hO : ∀ g, O g none = 0) (hB : ∀ sm : SemLoc sig, (sm, (none : HIx 2)) ∈ B) :
    Pipeline.RegionSeg (pcfgs (F := F)) adm pd (none : HIx 2) defs₀ 𝒱₀ (K (F := F)).L (K (F := F)).lev p where
  win := lf.win.to₀
  block_pos := lf.block_pos
  stage_whole := lf.stage_whole
  K := PEmpty
  osem k := k.elim
  ho := Pipeline.OwnSemFacts.none _
  hbody c := (h.hbody c).loose
  hwaits c := Pipeline.cellsWaits_intro (Pipeline.pin (pcfgs (F := F)) adm) pd (none : HIx 2) p c fun w s t => by
    rw [h.howed c t]; exact (K (F := F)).mayWait_none _ hO
  pre c := Tst W O B c
  post c := Tst (nextG p pd W c) O B c
  X c := iprop(∃ r, prngReg c r)
  Y c := iprop(∃ r, prngReg c r)
  Z c := Pipeline.unscopedRest (Ix := HIx 2) (Name := ℕ) (U := UU) (Lvl := ℕ) (Pipeline.pin (pcfgs (F := F)) adm p).spec c (fun b => W b)
  hentry c := by
    rw [Pipeline.ownSems0_none]
    have hsplit := Pipeline.arrays_of_unscopedBufs (p := p) (pcfgs (F := F)) adm pd lf.win lf.arr_whole c
      ((pd p c).share_full (h.hq c)) (fun b => W b) (h.hA c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin Pipeline.Dat.bound
      rw [h.howed c 0, h.hrec c 0]
      icases HO with ⟨%W', %hW', HO⟩; iexists W'; isplitr; · ipureintro; exact hW'.trans Set.subset_union_left
      iexact HO
    isplitl [Hp]; · iexact Hp
    iexact Hrest
  hin c := by
    rw [h.hΦ c 0]
    iintro ⟨Hp, -, Hr⟩
    isplitl [Hr]; · iexact Hr
    iexact Hp
  hout c := by
    rw [Pipeline.ownSems0_none, h.hΦ c (Fin.last _)]
    iintro ⟨Hr, Hp⟩
    isplitl [Hp]; · iexact Hp
    isplitr; · iempintro
    iexact Hr
  hexit c := by
    have hjoin := Pipeline.unscopedBufs_of_arrays (p := p) (pcfgs (F := F)) adm (Ix := HIx 2) (Name := ℕ) (U := UU) (Lvl := ℕ)
      lf.win lf.arr_whole c pd ((pd p c).share_full (h.hq c))
      (fun b => W b) (fun b => nextG p pd W c b) ((pd p c).arrAt · (Pipeline.pin (pcfgs (F := F)) adm p).N)
      (fun w => (nextG_arr lf c w).symm)
      (fun b hb => nextG_of_ne c b fun w e => hb (Finset.mem_image.mpr ⟨w, Finset.mem_univ _, e⟩))
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin Pipeline.Dat.bound
    rw [h.howed c (Fin.last _), h.hrec c (Fin.last _)]
    icases HO with ⟨%W', %hW', HO⟩; iexists W'; isplitr
    · ipureintro; exact hW'.trans (Set.union_subset le_rfl (by rintro _ ⟨w, s, rfl⟩; exact hB _))
    iexact HO

end Seg

section Step

variable {p : Fin 5} (lf : Pipeline.LaunchFacts (nD := nD) (τ := τ) cfgs p)
variable {pd : (q : Fin 5) → (c : Dev nD) → Dat τ (Elt F) (HIx 2) ℕ UU ℕ (Pipeline.pin (pcfgs (F := F)) adm q) c}
variable {W : Val (F := F)}

/-- The pairs the TensorCore of a device may have recorded before call n: those at a level at most 8 n. -/
abbrev Bn (d : Dev nD) (n : ℕ) : Set (SemLoc sig × HIx 2) := {q | (K (F := F)).lev (T d, q.1) q.2 ≤ 8 * n}

/-- Nothing the TensorCore owes sits at the index of no call. -/
theorem Otc_none (d : Dev nD) (n : ℕ) (g : GSem nD τ sig) : (K (F := F)).Otc d n g none = 0 := by
  by_contra h
  have := SparseCore.Cfg.lev_of_Otc_pos (K := K (F := F)) (Nat.pos_of_ne_zero h); rw [SparseCore.Cfg.lev_none] at this; omega

set_option backward.isDefEq.respectTransparency.types false in
/-- ONE REGION as a step of the TensorCore between two SparseCore calls: the call of the pipeline's entry, lifted into
    the SparseCore program, from the boundary, the unscoped buffers at a valuation, the generator register, the
    TensorCore's state before call n and the pipeline's ghost state, to the same at the valuation the region leaves. -/
theorem region_step_gen (lf : Pipeline.LaunchFacts (nD := nD) (τ := τ) cfgs p) (P : (K (F := F)).Pay (nD := nD) (Val := Elt F) (Name := ℕ) (U := UU)) (κ : GSem nD τ sig → ℕ) (d : Dev nD) (n : ℕ)
    (h : RegHyp p pd W ((K (F := F)).Otc d n) (Bn (F := F) d n)) (Φ : PUnit → sProp 𝕄) :
    iprop((K (F := F)).ctx EH P κ ∗ boundary (SparseCore.T d) ∗ StableHlo.held (SparseCore.T d) UC W ∗ (∃ r, prngReg d r) ∗ (K (F := F)).tcSt EH d n
        ∗ (Pipeline.cellsGhost (Pipeline.pin (pcfgs (F := F)) adm) EP p d ∗ Pipeline.toksInit (Pipeline.pin (pcfgs (F := F)) adm) EP p d)
        ∗ (iprop(boundary (SparseCore.T d) ∗ StableHlo.held (SparseCore.T d) UC (nextG p pd W d) ∗ (∃ r, prngReg d r) ∗ (K (F := F)).tcSt EH d n) -∗ Φ ⟨⟩))
      ⊢ wp frame (wpE ((K (F := F)).defs (D (F := F))) 𝒱 (SparseCore.T d) none) Set.univ (Prog.lift (.customCall (SparseCore.inner (Pipeline.entry p)) ())) Φ := by
  refine .trans ?_ ((K (F := F)).wp_liftProg (D (F := F)) 𝒱 (SparseCore.T d) Set.univ none (Prog.lift (.customCall (Pipeline.entry p) ())) Φ)
  unfold SparseCore.Cfg.tcSt
  iintro ⟨#Hctx, Hb, Hh, Hr, ⟨⟨%W', %hW', HO⟩, Hst⟩, ⟨Hg, Ht⟩, Hk⟩
  have hB : ∀ sm : SemLoc sig, (sm, (none : HIx 2)) ∈ Bn (F := F) d n := fun sm => show (K (F := F)).lev (T d, sm) none ≤ 8 * n from Nat.zero_le _
  have hstep := Pipeline.RegionSeg.wp (pcfgs (F := F)) adm pd (none : HIx 2) cellOf_inj EP defs₀ 𝒱₀ (K (F := F)).L (K (F := F)).lev
    (reg lf h (Otc_none d n) hB) d none (fun _ hu => nomatch hu) (fun _ => .ret ⟨⟩) Φ
  rw [show (reg lf h (Otc_none d n) hB).post d = Tst (nextG p pd W d) ((K (F := F)).Otc d n) (Bn (F := F) d n) d from rfl,
    show (reg lf h (Otc_none d n) hB).pre d = Tst W ((K (F := F)).Otc d n) (Bn (F := F) d n) d from rfl] at hstep
  iapply hstep
  isplitl [Hk Hst]
  · iintro ⟨Hb, Hh, Hr, %W'', %hW'', HO⟩
    rw [wp_ret]; imodintro
    iapply Hk
    isplitl [Hb]; · iexact Hb
    isplitl [Hh]; · iexact Hh
    isplitl [Hr]; · iexact Hr
    isplitl [HO]
    · iexists W''; isplitr; · ipureintro; exact fun q hq => hW'' hq
      iexact HO
    iexact Hst
  isplitl [Hb]; · iexact Hb
  isplitl [Hh Hr HO]
  · isplitl [Hh]; · iexact Hh
    isplitl [Hr]; · iexact Hr
    iexists W'; isplitr; · ipureintro; exact fun q hq => hW' q hq
    iexact HO
  isplitr; · iapply (SparseCore.Cfg.ctx_levAts κ); iexact Hctx
  isplitl [Hg]; · iexact Hg
  iexact Ht

end Step

/-! ## The five pipelines' proof data, and each region's step -/

section Regions

/-- A valuation read at the TensorCore's references: what a region's proof data take as the entry contents. -/
abbrev VW (W : Val (F := F)) : (c : Dev nD) → (b : Ref sig .tc) → Buf (Elt F) ((c : Thread nD τ).loc b) := fun _ b => W b

variable (O : CellTallies nD τ sig (HIx 2)) (B : Set (SemLoc sig × HIx 2))

/-- Every pipeline's proof data at the same entry contents, tallies owed and bound on the recorded pairs: a literal match,
    so that the pinned configuration at a numeral reduces to the printed one. A region's step reads its own pipeline's
    only. -/
def pdats (W : Val (F := F)) : (p : Fin 5) → (c : Dev nD) → Dat τ (Elt F) (HIx 2) ℕ UU ℕ (Pipeline.pin (pcfgs (F := F)) adm p) c
  | ⟨0, _⟩ => fun c => R0.dat (VW W) O B c
  | ⟨1, _⟩ => fun c => R1.dat (VW W) O B c
  | ⟨2, _⟩ => fun c => R2.dat (VW W) O B c
  | ⟨3, _⟩ => fun c => R3.dat (VW W) O B c
  | ⟨4, _⟩ => fun c => R4.dat (VW W) O B c

/-! ### Pipeline 0 -/

theorem hyp_0 (W : Val (F := F)) : RegHyp 0 (pdats O B W) W O B where
  hA c w := R0.A_eq (VW W) O B c w
  hq _ _ := rfl
  hΦ _ _ := rfl
  howed _ _ := rfl
  hrec _ _ := rfl
  hbody c := R0.body_obligation (VW W) O B c

/-- The contents pipeline 0's region leaves: its arrays at what the pipeline leaves (the inputs as entered, each output's
    write-backs folded), every other buffer as entered. -/
def next_0 (d : Dev nD) (W : Val (F := F)) : Val (F := F) :=
  Pipeline.withArrays spec0 d W fun w => (R0.dat (VW W) O B d).arrAt w cfg0.N

theorem next_0_arr (d : Dev nD) (W : Val (F := F)) (w : Fin cfg0.W) :
    next_0 O B d W (Proc.devRef .tc (Pipeline.arrRef spec0 w)) = (R0.dat (VW W) O B d).arrAt w cfg0.N := by
  unfold next_0; exact Pipeline.withArrays_arr spec0 launch0.win.arr_inj d _ _ w

theorem next_0_of_ne (d : Dev nD) (W : Val (F := F)) (b : Ref sig .tc) (hb : ∀ w, Pipeline.arrRef spec0 w ≠ b) :
    next_0 O B d W (Proc.devRef .tc b) = W (Proc.devRef .tc b) := by
  unfold next_0; exact Pipeline.withArrays_of_ne spec0 d _ _ b hb

theorem nextG_0 (d : Dev nD) (W : Val (F := F)) : nextG 0 (pdats O B W) W d = next_0 O B d W := rfl

/-! ### Pipeline 1 -/

theorem hyp_1 (W : Val (F := F)) : RegHyp 1 (pdats O B W) W O B where
  hA c w := R1.A_eq (VW W) O B c w
  hq _ _ := rfl
  hΦ _ _ := rfl
  howed _ _ := rfl
  hrec _ _ := rfl
  hbody c := R1.body_obligation (VW W) O B c

/-- The contents pipeline 1's region leaves: its arrays at what the pipeline leaves (the inputs as entered, each output's
    write-backs folded), every other buffer as entered. -/
def next_1 (d : Dev nD) (W : Val (F := F)) : Val (F := F) :=
  Pipeline.withArrays spec2 d W fun w => (R1.dat (VW W) O B d).arrAt w cfg2.N

theorem next_1_arr (d : Dev nD) (W : Val (F := F)) (w : Fin cfg2.W) :
    next_1 O B d W (Proc.devRef .tc (Pipeline.arrRef spec2 w)) = (R1.dat (VW W) O B d).arrAt w cfg2.N := by
  unfold next_1; exact Pipeline.withArrays_arr spec2 launch2.win.arr_inj d _ _ w

theorem next_1_of_ne (d : Dev nD) (W : Val (F := F)) (b : Ref sig .tc) (hb : ∀ w, Pipeline.arrRef spec2 w ≠ b) :
    next_1 O B d W (Proc.devRef .tc b) = W (Proc.devRef .tc b) := by
  unfold next_1; exact Pipeline.withArrays_of_ne spec2 d _ _ b hb

theorem nextG_1 (d : Dev nD) (W : Val (F := F)) : nextG 1 (pdats O B W) W d = next_1 O B d W := rfl

/-! ### Pipeline 2 -/

theorem hyp_2 (W : Val (F := F)) : RegHyp 2 (pdats O B W) W O B where
  hA c w := R2.A_eq (VW W) O B c w
  hq _ _ := rfl
  hΦ _ _ := rfl
  howed _ _ := rfl
  hrec _ _ := rfl
  hbody c := R2.body_obligation (VW W) O B c

/-- The contents pipeline 2's region leaves: its arrays at what the pipeline leaves (the inputs as entered, each output's
    write-backs folded), every other buffer as entered. -/
def next_2 (d : Dev nD) (W : Val (F := F)) : Val (F := F) :=
  Pipeline.withArrays spec4 d W fun w => (R2.dat (VW W) O B d).arrAt w cfg4.N

theorem next_2_arr (d : Dev nD) (W : Val (F := F)) (w : Fin cfg4.W) :
    next_2 O B d W (Proc.devRef .tc (Pipeline.arrRef spec4 w)) = (R2.dat (VW W) O B d).arrAt w cfg4.N := by
  unfold next_2; exact Pipeline.withArrays_arr spec4 launch4.win.arr_inj d _ _ w

theorem next_2_of_ne (d : Dev nD) (W : Val (F := F)) (b : Ref sig .tc) (hb : ∀ w, Pipeline.arrRef spec4 w ≠ b) :
    next_2 O B d W (Proc.devRef .tc b) = W (Proc.devRef .tc b) := by
  unfold next_2; exact Pipeline.withArrays_of_ne spec4 d _ _ b hb

theorem nextG_2 (d : Dev nD) (W : Val (F := F)) : nextG 2 (pdats O B W) W d = next_2 O B d W := rfl

/-! ### Pipeline 3 -/

theorem hyp_3 (W : Val (F := F)) : RegHyp 3 (pdats O B W) W O B where
  hA c w := R3.A_eq (VW W) O B c w
  hq _ _ := rfl
  hΦ _ _ := rfl
  howed _ _ := rfl
  hrec _ _ := rfl
  hbody c := R3.body_obligation (VW W) O B c

/-- The contents pipeline 3's region leaves: its arrays at what the pipeline leaves (the inputs as entered, each output's
    write-backs folded), every other buffer as entered. -/
def next_3 (d : Dev nD) (W : Val (F := F)) : Val (F := F) :=
  Pipeline.withArrays spec5 d W fun w => (R3.dat (VW W) O B d).arrAt w cfg5.N

theorem next_3_arr (d : Dev nD) (W : Val (F := F)) (w : Fin cfg5.W) :
    next_3 O B d W (Proc.devRef .tc (Pipeline.arrRef spec5 w)) = (R3.dat (VW W) O B d).arrAt w cfg5.N := by
  unfold next_3; exact Pipeline.withArrays_arr spec5 launch5.win.arr_inj d _ _ w

theorem next_3_of_ne (d : Dev nD) (W : Val (F := F)) (b : Ref sig .tc) (hb : ∀ w, Pipeline.arrRef spec5 w ≠ b) :
    next_3 O B d W (Proc.devRef .tc b) = W (Proc.devRef .tc b) := by
  unfold next_3; exact Pipeline.withArrays_of_ne spec5 d _ _ b hb

theorem nextG_3 (d : Dev nD) (W : Val (F := F)) : nextG 3 (pdats O B W) W d = next_3 O B d W := rfl

/-! ### Pipeline 4 -/

theorem hyp_4 (W : Val (F := F)) : RegHyp 4 (pdats O B W) W O B where
  hA c w := R4.A_eq (VW W) O B c w
  hq _ _ := rfl
  hΦ _ _ := rfl
  howed _ _ := rfl
  hrec _ _ := rfl
  hbody c := R4.body_obligation (VW W) O B c

/-- The contents pipeline 4's region leaves: its arrays at what the pipeline leaves (the inputs as entered, each output's
    write-backs folded), every other buffer as entered. -/
def next_4 (d : Dev nD) (W : Val (F := F)) : Val (F := F) :=
  Pipeline.withArrays spec6 d W fun w => (R4.dat (VW W) O B d).arrAt w cfg6.N

theorem next_4_arr (d : Dev nD) (W : Val (F := F)) (w : Fin cfg6.W) :
    next_4 O B d W (Proc.devRef .tc (Pipeline.arrRef spec6 w)) = (R4.dat (VW W) O B d).arrAt w cfg6.N := by
  unfold next_4; exact Pipeline.withArrays_arr spec6 launch6.win.arr_inj d _ _ w

theorem next_4_of_ne (d : Dev nD) (W : Val (F := F)) (b : Ref sig .tc) (hb : ∀ w, Pipeline.arrRef spec6 w ≠ b) :
    next_4 O B d W (Proc.devRef .tc b) = W (Proc.devRef .tc b) := by
  unfold next_4; exact Pipeline.withArrays_of_ne spec6 d _ _ b hb

theorem nextG_4 (d : Dev nD) (W : Val (F := F)) : nextG 4 (pdats O B W) W d = next_4 O B d W := rfl

end Regions

section Steps

/-- REGION 0 as a step of the TensorCore before SparseCore call n. -/
theorem region_step_0 (P : (K (F := F)).Pay (nD := nD) (Val := Elt F) (Name := ℕ) (U := UU)) (κ : GSem nD τ sig → ℕ) (d : Dev nD) (n : ℕ) (W : Val (F := F)) (Φ : PUnit → sProp 𝕄) :
    iprop((K (F := F)).ctx EH P κ ∗ boundary (SparseCore.T d) ∗ StableHlo.held (SparseCore.T d) UC W ∗ (∃ r, prngReg d r) ∗ (K (F := F)).tcSt EH d n
        ∗ (Pipeline.cellsGhost (Pipeline.pin (pcfgs (F := F)) adm) EP 0 d ∗ Pipeline.toksInit (Pipeline.pin (pcfgs (F := F)) adm) EP 0 d)
        ∗ (iprop(boundary (SparseCore.T d) ∗ StableHlo.held (SparseCore.T d) UC (next_0 ((K (F := F)).Otc d n) (Bn (F := F) d n) d W) ∗ (∃ r, prngReg d r) ∗ (K (F := F)).tcSt EH d n) -∗ Φ ⟨⟩))
      ⊢ wp frame (wpE ((K (F := F)).defs (D (F := F))) 𝒱 (SparseCore.T d) none) Set.univ (Prog.lift (.customCall (SparseCore.inner (Pipeline.entry 0)) ())) Φ := by
  rw [← nextG_0]
  exact region_step_gen launch0 P κ d n (hyp_0 _ _ W) Φ

/-- REGION 1 as a step of the TensorCore before SparseCore call n. -/
theorem region_step_1 (P : (K (F := F)).Pay (nD := nD) (Val := Elt F) (Name := ℕ) (U := UU)) (κ : GSem nD τ sig → ℕ) (d : Dev nD) (n : ℕ) (W : Val (F := F)) (Φ : PUnit → sProp 𝕄) :
    iprop((K (F := F)).ctx EH P κ ∗ boundary (SparseCore.T d) ∗ StableHlo.held (SparseCore.T d) UC W ∗ (∃ r, prngReg d r) ∗ (K (F := F)).tcSt EH d n
        ∗ (Pipeline.cellsGhost (Pipeline.pin (pcfgs (F := F)) adm) EP 1 d ∗ Pipeline.toksInit (Pipeline.pin (pcfgs (F := F)) adm) EP 1 d)
        ∗ (iprop(boundary (SparseCore.T d) ∗ StableHlo.held (SparseCore.T d) UC (next_1 ((K (F := F)).Otc d n) (Bn (F := F) d n) d W) ∗ (∃ r, prngReg d r) ∗ (K (F := F)).tcSt EH d n) -∗ Φ ⟨⟩))
      ⊢ wp frame (wpE ((K (F := F)).defs (D (F := F))) 𝒱 (SparseCore.T d) none) Set.univ (Prog.lift (.customCall (SparseCore.inner (Pipeline.entry 1)) ())) Φ := by
  rw [← nextG_1]
  exact region_step_gen launch2 P κ d n (hyp_1 _ _ W) Φ

/-- REGION 2 as a step of the TensorCore before SparseCore call n. -/
theorem region_step_2 (P : (K (F := F)).Pay (nD := nD) (Val := Elt F) (Name := ℕ) (U := UU)) (κ : GSem nD τ sig → ℕ) (d : Dev nD) (n : ℕ) (W : Val (F := F)) (Φ : PUnit → sProp 𝕄) :
    iprop((K (F := F)).ctx EH P κ ∗ boundary (SparseCore.T d) ∗ StableHlo.held (SparseCore.T d) UC W ∗ (∃ r, prngReg d r) ∗ (K (F := F)).tcSt EH d n
        ∗ (Pipeline.cellsGhost (Pipeline.pin (pcfgs (F := F)) adm) EP 2 d ∗ Pipeline.toksInit (Pipeline.pin (pcfgs (F := F)) adm) EP 2 d)
        ∗ (iprop(boundary (SparseCore.T d) ∗ StableHlo.held (SparseCore.T d) UC (next_2 ((K (F := F)).Otc d n) (Bn (F := F) d n) d W) ∗ (∃ r, prngReg d r) ∗ (K (F := F)).tcSt EH d n) -∗ Φ ⟨⟩))
      ⊢ wp frame (wpE ((K (F := F)).defs (D (F := F))) 𝒱 (SparseCore.T d) none) Set.univ (Prog.lift (.customCall (SparseCore.inner (Pipeline.entry 2)) ())) Φ := by
  rw [← nextG_2]
  exact region_step_gen launch4 P κ d n (hyp_2 _ _ W) Φ

/-- REGION 3 as a step of the TensorCore before SparseCore call n. -/
theorem region_step_3 (P : (K (F := F)).Pay (nD := nD) (Val := Elt F) (Name := ℕ) (U := UU)) (κ : GSem nD τ sig → ℕ) (d : Dev nD) (n : ℕ) (W : Val (F := F)) (Φ : PUnit → sProp 𝕄) :
    iprop((K (F := F)).ctx EH P κ ∗ boundary (SparseCore.T d) ∗ StableHlo.held (SparseCore.T d) UC W ∗ (∃ r, prngReg d r) ∗ (K (F := F)).tcSt EH d n
        ∗ (Pipeline.cellsGhost (Pipeline.pin (pcfgs (F := F)) adm) EP 3 d ∗ Pipeline.toksInit (Pipeline.pin (pcfgs (F := F)) adm) EP 3 d)
        ∗ (iprop(boundary (SparseCore.T d) ∗ StableHlo.held (SparseCore.T d) UC (next_3 ((K (F := F)).Otc d n) (Bn (F := F) d n) d W) ∗ (∃ r, prngReg d r) ∗ (K (F := F)).tcSt EH d n) -∗ Φ ⟨⟩))
      ⊢ wp frame (wpE ((K (F := F)).defs (D (F := F))) 𝒱 (SparseCore.T d) none) Set.univ (Prog.lift (.customCall (SparseCore.inner (Pipeline.entry 3)) ())) Φ := by
  rw [← nextG_3]
  exact region_step_gen launch5 P κ d n (hyp_3 _ _ W) Φ

/-- REGION 4 as a step of the TensorCore before SparseCore call n. -/
theorem region_step_4 (P : (K (F := F)).Pay (nD := nD) (Val := Elt F) (Name := ℕ) (U := UU)) (κ : GSem nD τ sig → ℕ) (d : Dev nD) (n : ℕ) (W : Val (F := F)) (Φ : PUnit → sProp 𝕄) :
    iprop((K (F := F)).ctx EH P κ ∗ boundary (SparseCore.T d) ∗ StableHlo.held (SparseCore.T d) UC W ∗ (∃ r, prngReg d r) ∗ (K (F := F)).tcSt EH d n
        ∗ (Pipeline.cellsGhost (Pipeline.pin (pcfgs (F := F)) adm) EP 4 d ∗ Pipeline.toksInit (Pipeline.pin (pcfgs (F := F)) adm) EP 4 d)
        ∗ (iprop(boundary (SparseCore.T d) ∗ StableHlo.held (SparseCore.T d) UC (next_4 ((K (F := F)).Otc d n) (Bn (F := F) d n) d W) ∗ (∃ r, prngReg d r) ∗ (K (F := F)).tcSt EH d n) -∗ Φ ⟨⟩))
      ⊢ wp frame (wpE ((K (F := F)).defs (D (F := F))) 𝒱 (SparseCore.T d) none) Set.univ (Prog.lift (.customCall (SparseCore.inner (Pipeline.entry 4)) ())) Φ := by
  rw [← nextG_4]
  exact region_step_gen launch6 P κ d n (hyp_4 _ _ W) Φ

/-- A HOST OPERATION as a step: over the unscoped buffers, from a valuation to the operation's result at it. -/
theorem host_step (op : HloOp τ sig (Elt F)) (hsub : op.bufs ⊆ UC) (hfresh : op.fresh = ∅) (d : Dev nD) (W : Val (F := F)) (Φ : PUnit → sProp 𝕄) :
    iprop(boundary (SparseCore.T d) ∗ StableHlo.held (SparseCore.T d) UC W
        ∗ (iprop(boundary (SparseCore.T d) ∗ StableHlo.held (SparseCore.T d) UC (op.result W)) -∗ Φ ⟨⟩))
      ⊢ wp frame (wpE ((K (F := F)).defs (D (F := F))) 𝒱 (SparseCore.T d) none) Set.univ (hlo rfl op fun _ => .ret PUnit.unit) Φ := by
  iintro ⟨Hb, Hh, Hk⟩
  iapply (StableHlo.wp_hlo_within 𝒱 (SparseCore.T d) none Set.univ (op := op) (S := UC) hsub (V := W) (hf := hfresh)) $$ [Hb Hh]
  · isplitl [Hb]; · iexact Hb
    iexact Hh
  iintro ⟨Hb, Hh⟩
  rw [wp_ret]; imodintro
  iapply Hk
  isplitl [Hb] <;> iassumption

end Steps

end Cert.KernelIdeal.Hand.Steps

end
-- ==== Proof.Hand.Pre.lean ====
/-
  What the precondition gives the proof. The precondition is the conjunction, over the eight argument arrays, of
  "every float entry is smaller in absolute value than +∞" and "every entry of the edge list lies in [0, 9999]",
  each an elementwise comparison reduced by `and` over all axes. Read back at one element it says: the edge list's
  words are node numbers; and, at the extended reals, every float entry is a real.

  The first body packs an edge (src, dst) into the one word  (src <<< 14) ||| dst ; the tile kernels read it back as
  word &&& 16383  (the destination) and  word >>> 14 , arithmetic (the source). Since a node number is below
  10000 < 2¹⁴ the two fields do not overlap and the word is non-negative: the low field is dst, the high field is src.
-/
import proofs.«207900_g17016660427224_cont_7to1_1372_35_alg».proof.Proof.Hand.Base
import proofs.«207900_g17016660427224_cont_7to1_1372_35_alg».proof.Proof.Gen.Pre_input_domain
import proofs.«207900_g17016660427224_cont_7to1_1372_35_alg».proof.Proof.Gen.KernelIdeal.Skeleton
import Idealize.ShloMosaic.Lib.StableHlo.Predicate
import Idealize.ShloMosaic.Lib.ReduceAll
import Idealize.ShloMosaic.Lib.Pipeline.FrameBody
import Idealize.ShloMosaic.PureOps.Ideal

noncomputable section

namespace Cert.KernelIdeal.Hand.Pre

open Cert.KernelIdeal Cert.KernelIdeal.Gen
open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

/-- The result of a reduction over all axes has one index. -/
instance subsingleton_scalarIdx : Subsingleton Cert.Pre_input_domain.S_.Idx := ⟨fun a b => funext fun d => d.elim0⟩

/-! ## The precondition, read back at one element -/

section Decode

variable {F : FTy → Type} [FloatOps F] [Cert.Pre_input_domain.Facts]

/-- The float conjunct at one entry: |x| < +∞, as the comparison's bit. -/
abbrev FinF (x : F .f32) : Prop :=
  FloatOps.cmpf .olt (FloatOps.hostAbsf x) (FloatOps.ofBits .f32 0x7F800000#32) = 1#1

/-- The integer conjunct at one word: 0 ≤ v and v ≤ 9999, signed, as the conjunction's bit. -/
abbrev RangeI (v : BitVec 32) : Prop := IntOp.andi (IntOp.cmpi .sge v 0#32) (IntOp.cmpi .sle v 9999#32) = 1#1

/-- The predicate is all ones exactly when each of its eight reductions is: every entry of each array passes its
    comparison. -/
theorem decode (a0 : FVec F Cert.Pre_input_domain.S10000x128 .f32) (a1 : IVec Cert.Pre_input_domain.S2x160000 32)
    (a2 : FVec F Cert.Pre_input_domain.S128x32 .f32) (a3 : FVec F Cert.Pre_input_domain.S32 .f32)
    (a4 : FVec F Cert.Pre_input_domain.S320000x128 .f32) (a5 : FVec F Cert.Pre_input_domain.S128 .f32)
    (a6 : FVec F Cert.Pre_input_domain.S128x10000 .f32) (a7 : FVec F Cert.Pre_input_domain.S10000 .f32)
    (h : Cert.Pre_input_domain.fn (F := F) a0 a1 a2 a3 a4 a5 a6 a7 = fun _ => 1#1) :
    (∀ i, FinF (a0 i)) ∧ (∀ i, FinF (a2 i)) ∧ (∀ i, FinF (a3 i)) ∧ (∀ i, FinF (a4 i)) ∧ (∀ i, FinF (a5 i))
      ∧ (∀ i, FinF (a6 i)) ∧ (∀ i, FinF (a7 i)) ∧ ∀ i, RangeI (a1 i) := by
  have e := congrFun h (fun d => d.elim0)
  dsimp only [Cert.Pre_input_domain.fn, Cert.Pre_input_domain.fn_part1, Cert.Pre_input_domain.fn_part2, andi] at e
  obtain ⟨e33, e39⟩ := IntOp.andi_eq_one.1 e
  obtain ⟨e28, e32⟩ := IntOp.andi_eq_one.1 e33
  obtain ⟨e23, e27⟩ := IntOp.andi_eq_one.1 e28
  obtain ⟨e18, e22⟩ := IntOp.andi_eq_one.1 e23
  obtain ⟨e13, e17⟩ := IntOp.andi_eq_one.1 e18
  obtain ⟨e8, e12⟩ := IntOp.andi_eq_one.1 e13
  obtain ⟨e3, e7⟩ := IntOp.andi_eq_one.1 e8
  refine ⟨fun i => ?_, fun i => ?_, fun i => ?_, fun i => ?_, fun i => ?_, fun i => ?_, fun i => ?_, fun i => ?_⟩
  · exact Host.reduce_andi_all _ _ _ _ _ e3 i
  · exact Host.reduce_andi_all _ _ _ _ _ e7 i
  · exact Host.reduce_andi_all _ _ _ _ _ e12 i
  · exact Host.reduce_andi_all _ _ _ _ _ e17 i
  · exact Host.reduce_andi_all _ _ _ _ _ e22 i
  · exact Host.reduce_andi_all _ _ _ _ _ e27 i
  · exact Host.reduce_andi_all _ _ _ _ _ e32 i
  · exact Host.reduce_andi_all _ _ _ _ _ e39 i

/-- The two signed comparisons' bits say what they compare. -/
theorem range_of_bits (v : BitVec 32) (e : RangeI v) : 0 ≤ v.toInt ∧ v.toInt ≤ 9999 := by
  obtain ⟨e1, e2⟩ := IntOp.andi_eq_one.1 e
  have h0 : (0#32 : BitVec 32).toInt = 0 := by decide
  have h9 : (9999#32 : BitVec 32).toInt = 9999 := by decide
  simp only [IntOp.cmpi, StableHlo.Predicate.ofBool_eq_one_iff, BitVec.sle, decide_eq_true_eq, h0, h9] at e1 e2
  exact ⟨e1, e2⟩

/-- Every word of the edge list is a node number. -/
theorem edge_range (a0 : FVec F Cert.Pre_input_domain.S10000x128 .f32) (a1 : IVec Cert.Pre_input_domain.S2x160000 32)
    (a2 : FVec F Cert.Pre_input_domain.S128x32 .f32) (a3 : FVec F Cert.Pre_input_domain.S32 .f32)
    (a4 : FVec F Cert.Pre_input_domain.S320000x128 .f32) (a5 : FVec F Cert.Pre_input_domain.S128 .f32)
    (a6 : FVec F Cert.Pre_input_domain.S128x10000 .f32) (a7 : FVec F Cert.Pre_input_domain.S10000 .f32)
    (h : Cert.Pre_input_domain.fn (F := F) a0 a1 a2 a3 a4 a5 a6 a7 = fun _ => 1#1) :
    ∀ i : Cert.Pre_input_domain.S2x160000.Idx, 0 ≤ (a1 i).toInt ∧ (a1 i).toInt ≤ 9999 :=
  fun i => range_of_bits _ ((decode a0 a1 a2 a3 a4 a5 a6 a7 h).2.2.2.2.2.2.2 i)

end Decode

/-! ## The packed edge word -/

/-- A signed word in [0, 9999] is its unsigned value, below 10000. -/
theorem small_of_range (a : BitVec 32) (ha : 0 ≤ a.toInt ∧ a.toInt ≤ 9999) : a.toNat < 10000 := by
  have h := ha.1; have h' := ha.2
  rw [BitVec.toInt_eq_toNat_cond] at h h'
  split at h <;> omega

/-- The packed word's value: the fields do not overlap, so the `or` is a sum, and nothing is shifted out. -/
theorem packed_toNat (a b : BitVec 32) (ha : a.toNat < 10000) (hb : b.toNat < 10000) :
    (IntOp.ori (IntOp.shli .vector a 14#32) b).toNat = a.toNat * 16384 + b.toNat := by
  have h14 : (14#32 : BitVec 32).toNat = 14 := by decide
  unfold IntOp.ori IntOp.shli
  rw [if_pos (by rw [h14]; decide)]
  rw [BitVec.toNat_or, BitVec.shiftLeft_eq', h14, BitVec.toNat_shiftLeft, Nat.shiftLeft_eq,
    Nat.mod_eq_of_lt (by omega)]
  have e : a.toNat * 2 ^ 14 = a.toNat <<< 14 := (Nat.shiftLeft_eq _ _).symm
  rw [e, ← Nat.shiftLeft_add_eq_or_of_lt (by omega : b.toNat < 2 ^ 14), Nat.shiftLeft_eq]

/-- The low fourteen bits of the packed word are the destination. -/
theorem pack_lo (a b : BitVec 32) (ha : 0 ≤ a.toInt ∧ a.toInt ≤ 9999) (hb : 0 ≤ b.toInt ∧ b.toInt ≤ 9999) :
    IntOp.andi (IntOp.ori (IntOp.shli .vector a 14#32) b) 16383#32 = b ∧ b.toNat < 10000 := by
  have ha' := small_of_range a ha
  have hb' := small_of_range b hb
  refine ⟨?_, hb'⟩
  apply BitVec.eq_of_toNat_eq
  unfold IntOp.andi
  rw [BitVec.toNat_and, packed_toNat a b ha' hb']
  have e : (16383#32 : BitVec 32).toNat = 2 ^ 14 - 1 := by decide
  rw [e, Nat.and_two_pow_sub_one_eq_mod]
  omega

/-- The packed word is non-negative, so its arithmetic shift right by fourteen is the logical one: the source. -/
theorem pack_hi (a b : BitVec 32) (ha : 0 ≤ a.toInt ∧ a.toInt ≤ 9999) (hb : 0 ≤ b.toInt ∧ b.toInt ≤ 9999) :
    IntOp.shrsi .vector (IntOp.ori (IntOp.shli .vector a 14#32) b) 14#32 = a ∧ a.toNat < 10000 := by
  have ha' := small_of_range a ha
  have hb' := small_of_range b hb
  refine ⟨?_, ha'⟩
  have h14 : (14#32 : BitVec 32).toNat = 14 := by decide
  have hp := packed_toNat a b ha' hb'
  have hm : (IntOp.ori (IntOp.shli .vector a 14#32) b).msb = false :=
    BitVec.msb_eq_false_iff_two_mul_lt.mpr (by rw [hp]; omega)
  unfold IntOp.shrsi
  rw [if_pos (by rw [h14]; decide), BitVec.sshiftRight_eq', h14, BitVec.sshiftRight_eq_of_msb_false hm]
  apply BitVec.eq_of_toNat_eq
  rw [BitVec.toNat_ushiftRight, hp, Nat.shiftRight_eq_div_pow]
  omega

section Pack

variable {F : FTy → Type} [FloatOps F]

/-- Row 0 of the edge list (the sources) and row 1 (the destinations), as the first body's two loads read them. -/
abbrev rowSrc : Rect S2x160000 := Rect.unit (s := S2x160000) ![0, 0] S1x160000.size inb_S2x160000_S1x160000_0_0
abbrev rowDst : Rect S2x160000 := Rect.unit (s := S2x160000) ![1, 0] S1x160000.size inb_S2x160000_S1x160000_1_0

/-- The first body's packed word, lane by lane. -/
theorem k0_pay2_apply (v4 v7 : Vec F S1x160000 .i32) (x : S1x160000.Idx) :
    k0_pay2 (F := F) v4 v7 x = IntOp.ori (IntOp.shli .vector (v4 x) 14#32) (v7 x) := rfl

/-- The tile kernels' two field reads, lane by lane. -/
theorem andi_k1_pay3_apply (v : IVec S16 32) (l : S16.Idx) : andi v k1_pay3 l = IntOp.andi (v l) 16383#32 := rfl
theorem k3_pay1_apply (v : Vec F S16 .i32) (l : S16.Idx) : k3_pay1 (F := F) v l = IntOp.shrsi .vector (v l) 14#32 := rfl

/-- Of an edge list of node numbers, every word the first body packs reads back as its edge: the low field is the
    destination, the high field the source, both node numbers. -/
theorem pack_ok (a1 : IVec S2x160000 32) (h : ∀ i : S2x160000.Idx, 0 ≤ (a1 i).toInt ∧ (a1 i).toInt ≤ 9999)
    (x : S1x160000.Idx) :
    (IntOp.andi (k0_pay2 (F := F) (View.ld (Val := Elt F) (e' := .i32) a1 rowSrc) (View.ld (Val := Elt F) (e' := .i32) a1 rowDst) x) 16383#32
        = a1 (rowDst.idx x)
      ∧ (IntOp.andi (k0_pay2 (F := F) (View.ld (Val := Elt F) (e' := .i32) a1 rowSrc) (View.ld (Val := Elt F) (e' := .i32) a1 rowDst) x) 16383#32).toNat < 10000)
    ∧ (IntOp.shrsi .vector (k0_pay2 (F := F) (View.ld (Val := Elt F) (e' := .i32) a1 rowSrc) (View.ld (Val := Elt F) (e' := .i32) a1 rowDst) x) 14#32
        = a1 (rowSrc.idx x)
      ∧ (IntOp.shrsi .vector (k0_pay2 (F := F) (View.ld (Val := Elt F) (e' := .i32) a1 rowSrc) (View.ld (Val := Elt F) (e' := .i32) a1 rowDst) x) 14#32).toNat < 10000) := by
  have hs := h (rowSrc.idx x)
  have hd := h (rowDst.idx x)
  have lo := pack_lo (a1 (rowSrc.idx x)) (a1 (rowDst.idx x)) hs hd
  have hi := pack_hi (a1 (rowSrc.idx x)) (a1 (rowDst.idx x)) hs hd
  refine ⟨⟨lo.1, ?_⟩, ⟨hi.1, ?_⟩⟩
  · exact lo.1.symm ▸ lo.2
  · exact hi.1.symm ▸ hi.2

end Pack

/-! ## At the extended reals: every float entry is a real -/

section Finite

variable [Cert.Pre_input_domain.Facts]

/-- An extended real smaller in absolute value than +∞ is a real. -/
theorem real_of_fin (x : Ideal .f32) (e : FinF (F := Ideal) x) : ∃ r : ℝ, x = (r : EReal) := by
  have htop : Ideal.ofBits .f32 0x7F800000#32 = ⊤ := by simp [Ideal.ofBits, Ideal.ieee]
  have e' : Ideal.cmp .olt (max x (-x)) (Ideal.ofBits .f32 0x7F800000#32) = 1#1 := e
  rw [htop] at e'
  simp only [Ideal.cmp, StableHlo.Predicate.ofBool_eq_one_iff, decide_eq_true_eq] at e'
  induction x using EReal.rec with
  | bot => simp at e'
  | coe r => exact ⟨r, rfl⟩
  | top => simp at e'

/-- Under the precondition every entry of each of the seven float arrays is a real. -/
theorem finite_of_pre (a0 : FVec Ideal Cert.Pre_input_domain.S10000x128 .f32) (a1 : IVec Cert.Pre_input_domain.S2x160000 32)
    (a2 : FVec Ideal Cert.Pre_input_domain.S128x32 .f32) (a3 : FVec Ideal Cert.Pre_input_domain.S32 .f32)
    (a4 : FVec Ideal Cert.Pre_input_domain.S320000x128 .f32) (a5 : FVec Ideal Cert.Pre_input_domain.S128 .f32)
    (a6 : FVec Ideal Cert.Pre_input_domain.S128x10000 .f32) (a7 : FVec Ideal Cert.Pre_input_domain.S10000 .f32)
    (h : Cert.Pre_input_domain.fn (F := Ideal) a0 a1 a2 a3 a4 a5 a6 a7 = fun _ => 1#1) :
    (∀ i, ∃ r : ℝ, a0 i = (r : EReal)) ∧ (∀ i, ∃ r : ℝ, a2 i = (r : EReal)) ∧ (∀ i, ∃ r : ℝ, a3 i = (r : EReal))
      ∧ (∀ i, ∃ r : ℝ, a4 i = (r : EReal)) ∧ (∀ i, ∃ r : ℝ, a5 i = (r : EReal)) ∧ (∀ i, ∃ r : ℝ, a6 i = (r : EReal))
      ∧ (∀ i, ∃ r : ℝ, a7 i = (r : EReal)) := by
  obtain ⟨h0, h2, h3, h4, h5, h6, h7, -⟩ := decode a0 a1 a2 a3 a4 a5 a6 a7 h
  exact ⟨fun i => real_of_fin _ (h0 i), fun i => real_of_fin _ (h2 i), fun i => real_of_fin _ (h3 i),
    fun i => real_of_fin _ (h4 i), fun i => real_of_fin _ (h5 i), fun i => real_of_fin _ (h6 i),
    fun i => real_of_fin _ (h7 i)⟩

end Finite

end Cert.KernelIdeal.Hand.Pre

end
-- ==== Proof.Hand.R0Rd.lean ====
/-
  The first TensorCore region, read back: what each of its pipeline's arrays holds when the region ends, as a function of
  the TensorCore's buffer contents when it is entered. The region has one point and every window's block is its whole
  array, so an input's array is untouched and an output's array is what the body leaves in its window: the product
  Wg^T x^T , and per edge the packed word  (src <<< 14) ||| dst , whose two fields read back as the edge when the edge
  list's words are node numbers.
-/
import proofs.«207900_g17016660427224_cont_7to1_1372_35_alg».proof.Proof.Hand.R0
import proofs.«207900_g17016660427224_cont_7to1_1372_35_alg».proof.Proof.Hand.Pre
import Idealize.ShloMosaic.Lib.Pipeline.Value

set_option maxRecDepth 16384

noncomputable section

namespace Cert.KernelIdeal.Hand.R0

open Cert.KernelIdeal Cert.KernelIdeal.Gen
open Idealize.ShloMosaic Idealize.ShloMosaic.TcCoe Idealize.ShloMosaic.Tactic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig (HIx 2) (Elt F) ℕ UU ℕ

variable (V : (c : Dev nD) → (b : Ref sig .tc) → Buf (Elt F) ((c : Thread nD τ).loc b))
variable (O : CellTallies nD τ sig (HIx 2))
variable (B : Set (SemLoc sig × HIx 2))

/-! ## The one point's blocks are the arrays -/

theorem hz : (![0, 0] : Fin 2 → Nat) = fun _ => 0 := funext fun a => by fin_cases a <;> rfl

/-- Each window's one block is its whole array: read through the block, contents of the array's shape are
    themselves (the block's offsets are 0 times the sizes, its strides 1). -/
theorem read_blk_0 (t : Fin cfg0.N) (X : Vec F S10000x128 .f32) : ((cfg0.win 0).blk t).view.read (Elt F) X = X := by
  funext j
  show X (((cfg0.win 0).blk t).view.emb j) = X j
  refine congrArg X ?_
  funext a; apply Fin.ext
  match a with
  | ⟨0, _⟩ => show win0_0.index t (0 : Fin 2) * 10000 + 1 * (j 0).val = (j 0).val; have h : win0_0.index t (0 : Fin 2) = 0 := rfl; omega
  | ⟨1, _⟩ => show win0_0.index t (1 : Fin 2) * 128 + 1 * (j 1).val = (j 1).val; have h : win0_0.index t (1 : Fin 2) = 0 := rfl; omega
theorem read_blk_1 (t : Fin cfg0.N) (X : Vec F S128x32 .f32) : ((cfg0.win 1).blk t).view.read (Elt F) X = X := by
  funext j
  show X (((cfg0.win 1).blk t).view.emb j) = X j
  refine congrArg X ?_
  funext a; apply Fin.ext
  match a with
  | ⟨0, _⟩ => show win0_1.index t (0 : Fin 2) * 128 + 1 * (j 0).val = (j 0).val; have h : win0_1.index t (0 : Fin 2) = 0 := rfl; omega
  | ⟨1, _⟩ => show win0_1.index t (1 : Fin 2) * 32 + 1 * (j 1).val = (j 1).val; have h : win0_1.index t (1 : Fin 2) = 0 := rfl; omega
theorem read_blk_2 (t : Fin cfg0.N) (X : Vec F S2x160000 .i32) : ((cfg0.win 2).blk t).view.read (Elt F) X = X := by
  funext j
  show X (((cfg0.win 2).blk t).view.emb j) = X j
  refine congrArg X ?_
  funext a; apply Fin.ext
  match a with
  | ⟨0, _⟩ => show win0_2.index t (0 : Fin 2) * 2 + 1 * (j 0).val = (j 0).val; have h : win0_2.index t (0 : Fin 2) = 0 := rfl; omega
  | ⟨1, _⟩ => show win0_2.index t (1 : Fin 2) * 160000 + 1 * (j 1).val = (j 1).val; have h : win0_2.index t (1 : Fin 2) = 0 := rfl; omega
theorem read_blk_3 (t : Fin cfg0.N) (X : Vec F S32x10000 .f32) : ((cfg0.win 3).blk t).view.read (Elt F) X = X := by
  funext j
  show X (((cfg0.win 3).blk t).view.emb j) = X j
  refine congrArg X ?_
  funext a; apply Fin.ext
  match a with
  | ⟨0, _⟩ => show win0_3.index t (0 : Fin 2) * 32 + 1 * (j 0).val = (j 0).val; have h : win0_3.index t (0 : Fin 2) = 0 := rfl; omega
  | ⟨1, _⟩ => show win0_3.index t (1 : Fin 2) * 10000 + 1 * (j 1).val = (j 1).val; have h : win0_3.index t (1 : Fin 2) = 0 := rfl; omega
theorem read_blk_4 (t : Fin cfg0.N) (X : Vec F S1x160000 .i32) : ((cfg0.win 4).blk t).view.read (Elt F) X = X := by
  funext j
  show X (((cfg0.win 4).blk t).view.emb j) = X j
  refine congrArg X ?_
  funext a; apply Fin.ext
  match a with
  | ⟨0, _⟩ => show win0_4.index t (0 : Fin 2) * 1 + 1 * (j 0).val = (j 0).val; have h : win0_4.index t (0 : Fin 2) = 0 := rfl; omega
  | ⟨1, _⟩ => show win0_4.index t (1 : Fin 2) * 160000 + 1 * (j 1).val = (j 1).val; have h : win0_4.index t (1 : Fin 2) = 0 := rfl; omega

/-- So each input window's block at the point is its array as the region finds it. -/
theorem iblk_whole_0 (c : Dev nD) (t : Fin cfg0.N) : iblk V c 0 t = V c (Pipeline.arrRef spec0 0) := by
  unfold iblk; exact read_blk_0 t _
theorem iblk_whole_1 (c : Dev nD) (t : Fin cfg0.N) : iblk V c 1 t = V c (Pipeline.arrRef spec0 1) := by
  unfold iblk; exact read_blk_1 t _
theorem iblk_whole_2 (c : Dev nD) (t : Fin cfg0.N) : iblk V c 2 t = V c (Pipeline.arrRef spec0 2) := by
  unfold iblk; exact read_blk_2 t _

/-! ## The input arrays when the region ends -/

/-- No write-back touches an input's array: it ends at its entry contents. -/
theorem arrAt_in_0 (c : Dev nD) : (dat V O B c).arrAt 0 cfg0.N = V c (Pipeline.arrRef spec0 0) :=
  ((dat V O B c).arrAt_in 0 rfl _).trans (A_eq V O B c 0)
theorem arrAt_in_1 (c : Dev nD) : (dat V O B c).arrAt 1 cfg0.N = V c (Pipeline.arrRef spec0 1) :=
  ((dat V O B c).arrAt_in 1 rfl _).trans (A_eq V O B c 1)
theorem arrAt_in_2 (c : Dev nD) : (dat V O B c).arrAt 2 cfg0.N = V c (Pipeline.arrRef spec0 2) :=
  ((dat V O B c).arrAt_in 2 rfl _).trans (A_eq V O B c 2)

/-! ## The output arrays when the region ends -/

/-- What the point writes back of window 3 is the block of the product of the entry arrays. -/
theorem flushed_3_eq (c : Dev nD) (t : Fin cfg0.N) :
    (dat V O B c).flushed 3 t = ((cfg0.win 3).blk t).view.read (Elt F)
      (out_3 (V c (Pipeline.arrRef spec0 0)) (V c (Pipeline.arrRef spec0 1)) (V c (Pipeline.arrRef spec0 2))) := by
  show (cfg0.win 3).cut (grid0.coords t) ((dat V O B c).after 3 t) = _
  rw [after_3, iblk_whole_0, iblk_whole_1, iblk_whole_2, read_blk_3]
  rfl
/-- and of window 4 the block of the packed words of the entry edge list. -/
theorem flushed_4_eq (c : Dev nD) (t : Fin cfg0.N) :
    (dat V O B c).flushed 4 t = ((cfg0.win 4).blk t).view.read (Elt F)
      (out_4 (V c (Pipeline.arrRef spec0 0)) (V c (Pipeline.arrRef spec0 1)) (V c (Pipeline.arrRef spec0 2))) := by
  show (cfg0.win 4).cut (grid0.coords t) ((dat V O B c).after 4 t) = _
  rw [after_4, iblk_whole_0, iblk_whole_1, iblk_whole_2, read_blk_4]
  rfl

/-- An index of the array is in the point's block iff each coordinate is in the block's range on its axis. -/
theorem mem_blk_3 (t : Fin cfg0.N) (i : S32x10000.Idx) :
    i ∈ ((cfg0.win 3).blk t).view.set ↔ ∀ a : Fin 2, win0_3.index t a * S32x10000.size a ≤ (i a).val ∧ (i a).val < win0_3.index t a * S32x10000.size a + S32x10000.size a := by
  show i ∈ ((View.whole main_v0_0).slice (win0_3.rect t)).set ↔ _
  rw [View.set_slice_whole, Rect.mem_set_unit]
  exact Iff.rfl
theorem mem_blk_4 (t : Fin cfg0.N) (i : S1x160000.Idx) :
    i ∈ ((cfg0.win 4).blk t).view.set ↔ ∀ a : Fin 2, win0_4.index t a * S1x160000.size a ≤ (i a).val ∧ (i a).val < win0_4.index t a * S1x160000.size a + S1x160000.size a := by
  show i ∈ ((View.whole main_v0_1).slice (win0_4.rect t)).set ↔ _
  rw [View.set_slice_whole, Rect.mem_set_unit]
  exact Iff.rfl

/-- The one point's block holds every index of the array. -/
theorem covered_3 (i : S32x10000.Idx) : ∃ t : Fin cfg0.N, (cfg0.win 3).flush t = true ∧ i ∈ ((cfg0.win 3).blk t).view.set := by
  refine ⟨t0_0, flush0_3 t0_0, ?_⟩
  rw [mem_blk_3]
  intro a
  match a with
  | ⟨0, _⟩ =>
    show win0_3.index t0_0 (0 : Fin 2) * 32 ≤ (i 0).val ∧ (i 0).val < win0_3.index t0_0 (0 : Fin 2) * 32 + 32
    have h : win0_3.index t0_0 (0 : Fin 2) = 0 := rfl
    have hi : (i 0).val < 32 := (i 0).isLt
    omega
  | ⟨1, _⟩ =>
    show win0_3.index t0_0 (1 : Fin 2) * 10000 ≤ (i 1).val ∧ (i 1).val < win0_3.index t0_0 (1 : Fin 2) * 10000 + 10000
    have h : win0_3.index t0_0 (1 : Fin 2) = 0 := rfl
    have hi : (i 1).val < 10000 := (i 1).isLt
    omega
theorem covered_4 (i : S1x160000.Idx) : ∃ t : Fin cfg0.N, (cfg0.win 4).flush t = true ∧ i ∈ ((cfg0.win 4).blk t).view.set := by
  refine ⟨t0_0, flush0_4 t0_0, ?_⟩
  rw [mem_blk_4]
  intro a
  match a with
  | ⟨0, _⟩ =>
    show win0_4.index t0_0 (0 : Fin 2) * 1 ≤ (i 0).val ∧ (i 0).val < win0_4.index t0_0 (0 : Fin 2) * 1 + 1
    have h : win0_4.index t0_0 (0 : Fin 2) = 0 := rfl
    have hi : (i 0).val < 1 := (i 0).isLt
    omega
  | ⟨1, _⟩ =>
    show win0_4.index t0_0 (1 : Fin 2) * 160000 ≤ (i 1).val ∧ (i 1).val < win0_4.index t0_0 (1 : Fin 2) * 160000 + 160000
    have h : win0_4.index t0_0 (1 : Fin 2) = 0 := rfl
    have hi : (i 1).val < 160000 := (i 1).isLt
    omega

/-- The arrays after the region: each output's closed form of the entry arrays. -/
theorem arrAt_out_3 (c : Dev nD) : (dat V O B c).arrAt 3 cfg0.N
    = out_3 (V c (Pipeline.arrRef spec0 0)) (V c (Pipeline.arrRef spec0 1)) (V c (Pipeline.arrRef spec0 2)) :=
  (dat V O B c).arrAt_eq_of_cover 3 _ (fun t _ => flushed_3_eq V O B c t) covered_3
theorem arrAt_out_4 (c : Dev nD) : (dat V O B c).arrAt 4 cfg0.N
    = out_4 (V c (Pipeline.arrRef spec0 0)) (V c (Pipeline.arrRef spec0 1)) (V c (Pipeline.arrRef spec0 2)) :=
  (dat V O B c).arrAt_eq_of_cover 4 _ (fun t _ => flushed_4_eq V O B c t) covered_4

/-! ## The packed edge word, entry by entry -/

/-- Window 4's contents at an entry: the word packed of the edge list's two rows there. -/
theorem out_4_apply (x0 : Vec F S10000x128 .f32) (x1 : Vec F S128x32 .f32) (x2 : Vec F S2x160000 .i32) (y : S1x160000.Idx) :
    out_4 x0 x1 x2 y
      = k0_pay2 (F := F) (View.ld (Val := Elt F) (e' := .i32) x2 Pre.rowSrc) (View.ld (Val := Elt F) (e' := .i32) x2 Pre.rowDst) y := by
  unfold out_4
  rw [View.canon_unit_zero hz]

/-- Of an edge list of node numbers, every packed word reads back as its edge: the low fourteen bits are the
    destination, the arithmetic shift right by fourteen is the source, both node numbers. -/
theorem out_4_ok (x0 : Vec F S10000x128 .f32) (x1 : Vec F S128x32 .f32) (x2 : IVec S2x160000 32)
    (h : ∀ i : S2x160000.Idx, 0 ≤ (x2 i).toInt ∧ (x2 i).toInt ≤ 9999) (y : S1x160000.Idx) :
    (IntOp.andi (out_4 (F := F) x0 x1 x2 y) 16383#32 = x2 (Pre.rowDst.idx y)
      ∧ (IntOp.andi (out_4 (F := F) x0 x1 x2 y) 16383#32).toNat < 10000)
    ∧ (IntOp.shrsi .vector (out_4 (F := F) x0 x1 x2 y) 14#32 = x2 (Pre.rowSrc.idx y)
      ∧ (IntOp.shrsi .vector (out_4 (F := F) x0 x1 x2 y) 14#32).toNat < 10000) := by
  rw [out_4_apply]
  exact Pre.pack_ok (F := F) x2 h y

end Cert.KernelIdeal.Hand.R0

end
-- ==== Proof.Hand.R1Rd.lean ====
/-
  Region 1 of @main, read back: what each array of the call holds when the region ends, as a function of the
  TensorCore's buffer contents `V` at the region's entry. The call has no grid and every window's block is its whole
  array, so an input array is left as found and an output array ends at what the one point's body leaves in its
  staging buffer: dinv = rsqrt(1 + column sums of the histograms) and gall = dinv * xwT, of the whole input arrays.
-/
import proofs.«207900_g17016660427224_cont_7to1_1372_35_alg».proof.Proof.Hand.R1
import Idealize.ShloMosaic.Lib.Pipeline.Value

set_option maxRecDepth 16384

noncomputable section

namespace Cert.KernelIdeal.Hand.R1

open Cert.KernelIdeal Cert.KernelIdeal.Gen
open Idealize.ShloMosaic Idealize.ShloMosaic.TcCoe Idealize.ShloMosaic.Tactic
open Idealize.ShloMosaic.SparseCore (S T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig (HIx 2) (Elt F) ℕ UU ℕ

variable (V : (c : Dev nD) → (b : Ref sig .tc) → Buf (Elt F) ((c : Thread nD τ).loc b))
variable (O : CellTallies nD τ sig (HIx 2))
variable (B : Set (SemLoc sig × HIx 2))

/-- An input window's array is never written: it ends the region at its entry contents. -/
theorem arrAt_in_0 (c : Dev nD) : (dat V O B c).arrAt 0 cfg2.N = V c (Pipeline.arrRef spec2 0) :=
  ((dat V O B c).arrAt_in 0 rfl _).trans (A_eq V O B c 0)
theorem arrAt_in_1 (c : Dev nD) : (dat V O B c).arrAt 1 cfg2.N = V c (Pipeline.arrRef spec2 1) :=
  ((dat V O B c).arrAt_in 1 rfl _).trans (A_eq V O B c 1)

/-- The one point's block of each window is its whole array: an index of the block is that index of the array. -/
theorem emb_blk_0 (t : Fin cfg2.N) (j : ((cfg2.win 0).xblock (cfg2.grid.coords t)).Idx) : ((cfg2.win 0).blk t).view.emb j = j := by
  funext a; apply Fin.ext
  match a with
  | ⟨0, _⟩ => show (0 : Nat) * 32 + 1 * (j 0).val = (j 0).val; omega
  | ⟨1, _⟩ => show (0 : Nat) * 10000 + 1 * (j 1).val = (j 1).val; omega
theorem emb_blk_1 (t : Fin cfg2.N) (j : ((cfg2.win 1).xblock (cfg2.grid.coords t)).Idx) : ((cfg2.win 1).blk t).view.emb j = j := by
  funext a; apply Fin.ext
  match a with
  | ⟨0, _⟩ => show (0 : Nat) * 32 + 1 * (j 0).val = (j 0).val; omega
  | ⟨1, _⟩ => show (0 : Nat) * 10000 + 1 * (j 1).val = (j 1).val; omega
theorem emb_blk_2 (t : Fin cfg2.N) (j : ((cfg2.win 2).xblock (cfg2.grid.coords t)).Idx) : ((cfg2.win 2).blk t).view.emb j = j := by
  funext a; apply Fin.ext
  match a with
  | ⟨0, _⟩ => show (0 : Nat) * 1 + 1 * (j 0).val = (j 0).val; omega
  | ⟨1, _⟩ => show (0 : Nat) * 10000 + 1 * (j 1).val = (j 1).val; omega
theorem emb_blk_3 (t : Fin cfg2.N) (j : ((cfg2.win 3).xblock (cfg2.grid.coords t)).Idx) : ((cfg2.win 3).blk t).view.emb j = j := by
  funext a; apply Fin.ext
  match a with
  | ⟨0, _⟩ => show (0 : Nat) * 32 + 1 * (j 0).val = (j 0).val; omega
  | ⟨1, _⟩ => show (0 : Nat) * 10000 + 1 * (j 1).val = (j 1).val; omega

/-- So each input window's block, at the one point, is its whole array as the region finds it. -/
theorem iblk_whole_0 (c : Dev nD) (t : Fin cfg2.N) : iblk V c 0 t = V c (Pipeline.arrRef spec2 0) := by
  funext j
  unfold iblk
  rw [View.read_apply, emb_blk_0]
  rfl
theorem iblk_whole_1 (c : Dev nD) (t : Fin cfg2.N) : iblk V c 1 t = V c (Pipeline.arrRef spec2 1) := by
  funext j
  unfold iblk
  rw [View.read_apply, emb_blk_1]
  rfl

/-- For a window whose block is the whole array, what a write-back writes of contents `X` of the staging buffer is
    `X` read through the block. -/
theorem cut_eq_read_2 (t : Fin cfg2.N) (X : Vec F S1x10000 .f32) :
    (cfg2.win 2).cut (grid2.coords t) X = ((cfg2.win 2).blk t).view.read (Elt F) X := by
  funext j
  rw [View.read_apply, emb_blk_2]
  rfl
theorem cut_eq_read_3 (t : Fin cfg2.N) (X : Vec F S32x10000 .f32) :
    (cfg2.win 3).cut (grid2.coords t) X = ((cfg2.win 3).blk t).view.read (Elt F) X := by
  funext j
  rw [View.read_apply, emb_blk_3]
  rfl

/-- What the one point writes back of output window 2 is the whole of `out_2` of the input arrays. -/
theorem flushed_2_eq (c : Dev nD) (t : Fin cfg2.N) :
    (dat V O B c).flushed 2 t = ((cfg2.win 2).blk t).view.read (Elt F) (out_2 (V c (Pipeline.arrRef spec2 0)) (V c (Pipeline.arrRef spec2 1))) := by
  show (cfg2.win 2).cut (grid2.coords t) ((dat V O B c).after 2 t) = _
  rw [after_2, iblk_whole_0, iblk_whole_1]
  exact cut_eq_read_2 t _
theorem flushed_3_eq (c : Dev nD) (t : Fin cfg2.N) :
    (dat V O B c).flushed 3 t = ((cfg2.win 3).blk t).view.read (Elt F) (out_3 (V c (Pipeline.arrRef spec2 0)) (V c (Pipeline.arrRef spec2 1))) := by
  show (cfg2.win 3).cut (grid2.coords t) ((dat V O B c).after 3 t) = _
  rw [after_3, iblk_whole_0, iblk_whole_1]
  exact cut_eq_read_3 t _

/-- An index of the array is in the point's block iff each coordinate is in the block's range on its axis. -/
theorem mem_blk_2 (t : Fin cfg2.N) (i : S1x10000.Idx) :
    i ∈ ((cfg2.win 2).blk t).view.set ↔ ∀ a : Fin 2, win2_2.index t a * S1x10000.size a ≤ (i a).val ∧ (i a).val < win2_2.index t a * S1x10000.size a + S1x10000.size a := by
  show i ∈ ((View.whole main_v3_0).slice (win2_2.rect t)).set ↔ _
  rw [View.set_slice_whole, Rect.mem_set_unit]
  exact Iff.rfl
theorem mem_blk_3 (t : Fin cfg2.N) (i : S32x10000.Idx) :
    i ∈ ((cfg2.win 3).blk t).view.set ↔ ∀ a : Fin 2, win2_3.index t a * S32x10000.size a ≤ (i a).val ∧ (i a).val < win2_3.index t a * S32x10000.size a + S32x10000.size a := by
  show i ∈ ((View.whole main_v3_1).slice (win2_3.rect t)).set ↔ _
  rw [View.set_slice_whole, Rect.mem_set_unit]
  exact Iff.rfl

/-- The one point's block covers the array. -/
theorem cover_blk_2 (i : S1x10000.Idx) : ∃ t : Fin cfg2.N, (cfg2.win 2).flush t = true ∧ i ∈ ((cfg2.win 2).blk t).view.set := by
  refine ⟨t2_0, flush2_2 t2_0, ?_⟩
  rw [mem_blk_2]
  intro a
  match a with
  | ⟨0, _⟩ => show (0 : Nat) * 1 ≤ (i 0).val ∧ (i 0).val < 0 * 1 + 1; have h : (i 0).val < 1 := (i 0).isLt; omega
  | ⟨1, _⟩ => show (0 : Nat) * 10000 ≤ (i 1).val ∧ (i 1).val < 0 * 10000 + 10000; have h : (i 1).val < 10000 := (i 1).isLt; omega
theorem cover_blk_3 (i : S32x10000.Idx) : ∃ t : Fin cfg2.N, (cfg2.win 3).flush t = true ∧ i ∈ ((cfg2.win 3).blk t).view.set := by
  refine ⟨t2_0, flush2_3 t2_0, ?_⟩
  rw [mem_blk_3]
  intro a
  match a with
  | ⟨0, _⟩ => show (0 : Nat) * 32 ≤ (i 0).val ∧ (i 0).val < 0 * 32 + 32; have h : (i 0).val < 32 := (i 0).isLt; omega
  | ⟨1, _⟩ => show (0 : Nat) * 10000 ≤ (i 1).val ∧ (i 1).val < 0 * 10000 + 10000; have h : (i 1).val < 10000 := (i 1).isLt; omega

/-- Each output array ends the region at `out_W` of the input arrays as the region finds them. -/
theorem arrAt_out_2 (c : Dev nD) : (dat V O B c).arrAt 2 cfg2.N = out_2 (V c (Pipeline.arrRef spec2 0)) (V c (Pipeline.arrRef spec2 1)) :=
  (dat V O B c).arrAt_eq_of_cover 2 _ (fun t _ => flushed_2_eq V O B c t) cover_blk_2
theorem arrAt_out_3 (c : Dev nD) : (dat V O B c).arrAt 3 cfg2.N = out_3 (V c (Pipeline.arrRef spec2 0)) (V c (Pipeline.arrRef spec2 1)) :=
  (dat V O B c).arrAt_eq_of_cover 3 _ (fun t _ => flushed_3_eq V O B c t) cover_blk_3

end Cert.KernelIdeal.Hand.R1

end
-- ==== Proof.Hand.R2Rd.lean ====
/-
  The read-backs of the TensorCore region of pipeline 2 of @main (custom_call 4): what each of the pipeline's arrays
  holds when the region ends, as a function of the buffer contents the region is entered with. The region has one
  point and every window's block is the whole of its array, so an input array (accT, gall, dinv, bg) is as the region
  found it, and the output array is what the one point writes back:

      max (dinv ⊙ (accT + gall) + bg, 0)

  of the input arrays as the region found them.
-/
import proofs.«207900_g17016660427224_cont_7to1_1372_35_alg».proof.Proof.Hand.R2
import Idealize.ShloMosaic.Lib.Pipeline.Value

set_option maxRecDepth 16384

noncomputable section

namespace Cert.KernelIdeal.Hand.R2

open Cert.KernelIdeal Cert.KernelIdeal.Gen
open Idealize.ShloMosaic Idealize.ShloMosaic.TcCoe Idealize.ShloMosaic.Tactic
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

-- the TensorCore's buffer contents when the region is entered
variable (V : (c : Dev nD) → (b : Ref sig .tc) → Buf (Elt F) ((c : Thread nD τ).loc b))
-- the units the core owes when the region is entered
variable (O : CellTallies nD τ sig (HIx 2))
-- the bound on the pairs the core's waits have recorded when the region is entered
variable (B : Set (SemLoc sig × HIx 2))

/-! ## A whole window's block is its array

The region has one point and every window's block is the whole of its array at block index 0: reading a block off
contents of the array's shape gives the contents back. -/

theorem read_blk_0 (t : Fin cfg4.N) (X : Vec F S32x10000 .f32) : (((cfg4.win 0).blk t).view.read (Elt F) X : Vec F S32x10000 .f32) = X := by
  funext j
  show X (((cfg4.win 0).blk t).view.emb j) = X j
  refine congrArg X ?_
  funext a; apply Fin.ext
  match a with
  | ⟨0, _⟩ => show 0 * 32 + 1 * (j 0).val = (j 0).val; omega
  | ⟨1, _⟩ => show 0 * 10000 + 1 * (j 1).val = (j 1).val; omega
theorem read_blk_1 (t : Fin cfg4.N) (X : Vec F S32x10000 .f32) : (((cfg4.win 1).blk t).view.read (Elt F) X : Vec F S32x10000 .f32) = X := by
  funext j
  show X (((cfg4.win 1).blk t).view.emb j) = X j
  refine congrArg X ?_
  funext a; apply Fin.ext
  match a with
  | ⟨0, _⟩ => show 0 * 32 + 1 * (j 0).val = (j 0).val; omega
  | ⟨1, _⟩ => show 0 * 10000 + 1 * (j 1).val = (j 1).val; omega
theorem read_blk_2 (t : Fin cfg4.N) (X : Vec F S1x10000 .f32) : (((cfg4.win 2).blk t).view.read (Elt F) X : Vec F S1x10000 .f32) = X := by
  funext j
  show X (((cfg4.win 2).blk t).view.emb j) = X j
  refine congrArg X ?_
  funext a; apply Fin.ext
  match a with
  | ⟨0, _⟩ => show 0 * 1 + 1 * (j 0).val = (j 0).val; omega
  | ⟨1, _⟩ => show 0 * 10000 + 1 * (j 1).val = (j 1).val; omega
theorem read_blk_3 (t : Fin cfg4.N) (X : Vec F S32x1 .f32) : (((cfg4.win 3).blk t).view.read (Elt F) X : Vec F S32x1 .f32) = X := by
  funext j
  show X (((cfg4.win 3).blk t).view.emb j) = X j
  refine congrArg X ?_
  funext a; apply Fin.ext
  match a with
  | ⟨0, _⟩ => show 0 * 32 + 1 * (j 0).val = (j 0).val; omega
  | ⟨1, _⟩ => show 0 * 1 + 1 * (j 1).val = (j 1).val; omega
theorem read_blk_4 (t : Fin cfg4.N) (X : Vec F S32x10000 .f32) : (((cfg4.win 4).blk t).view.read (Elt F) X : Vec F S32x10000 .f32) = X := by
  funext j
  show X (((cfg4.win 4).blk t).view.emb j) = X j
  refine congrArg X ?_
  funext a; apply Fin.ext
  match a with
  | ⟨0, _⟩ => show 0 * 32 + 1 * (j 0).val = (j 0).val; omega
  | ⟨1, _⟩ => show 0 * 10000 + 1 * (j 1).val = (j 1).val; omega

/-- Each input window's block at the one point is its whole array as the region finds it. -/
theorem iblk_whole_0 (c : Dev nD) (t : Fin cfg4.N) : (iblk V c 0 t : Vec F S32x10000 .f32) = (V c (Pipeline.arrRef spec4 0) : Vec F S32x10000 .f32) := by
  unfold iblk; exact read_blk_0 t _
theorem iblk_whole_1 (c : Dev nD) (t : Fin cfg4.N) : (iblk V c 1 t : Vec F S32x10000 .f32) = (V c (Pipeline.arrRef spec4 1) : Vec F S32x10000 .f32) := by
  unfold iblk; exact read_blk_1 t _
theorem iblk_whole_2 (c : Dev nD) (t : Fin cfg4.N) : (iblk V c 2 t : Vec F S1x10000 .f32) = (V c (Pipeline.arrRef spec4 2) : Vec F S1x10000 .f32) := by
  unfold iblk; exact read_blk_2 t _
theorem iblk_whole_3 (c : Dev nD) (t : Fin cfg4.N) : (iblk V c 3 t : Vec F S32x1 .f32) = (V c (Pipeline.arrRef spec4 3) : Vec F S32x1 .f32) := by
  unfold iblk; exact read_blk_3 t _

/-! ## The input arrays: never written -/

theorem arrAt_in_0 (c : Dev nD) : (dat V O B c).arrAt 0 cfg4.N = V c (Pipeline.arrRef spec4 0) :=
  ((dat V O B c).arrAt_in 0 rfl _).trans (A_eq V O B c 0)
theorem arrAt_in_1 (c : Dev nD) : (dat V O B c).arrAt 1 cfg4.N = V c (Pipeline.arrRef spec4 1) :=
  ((dat V O B c).arrAt_in 1 rfl _).trans (A_eq V O B c 1)
theorem arrAt_in_2 (c : Dev nD) : (dat V O B c).arrAt 2 cfg4.N = V c (Pipeline.arrRef spec4 2) :=
  ((dat V O B c).arrAt_in 2 rfl _).trans (A_eq V O B c 2)
theorem arrAt_in_3 (c : Dev nD) : (dat V O B c).arrAt 3 cfg4.N = V c (Pipeline.arrRef spec4 3) :=
  ((dat V O B c).arrAt_in 3 rfl _).trans (A_eq V O B c 3)

/-! ## The output array: what the one point writes back -/

/-- What the point writes back to the output's array is the block (the whole) of max (dinv ⊙ (accT + gall) + bg, 0) of
    the input arrays as the region finds them. -/
theorem flushed_eq_4 (c : Dev nD) (t : Fin cfg4.N) :
    (dat V O B c).flushed 4 t = ((cfg4.win 4).blk t).view.read (Elt F)
      (out_4 (V c (Pipeline.arrRef spec4 0)) (V c (Pipeline.arrRef spec4 1)) (V c (Pipeline.arrRef spec4 2)) (V c (Pipeline.arrRef spec4 3))) := by
  show (cfg4.win 4).cut (grid4.coords t) ((dat V O B c).after 4 t) = _
  rw [after_4, iblk_whole_0, iblk_whole_1, iblk_whole_2, iblk_whole_3, read_blk_4]
  rfl

/-- An index of the array is in the point's block iff each coordinate is in the block's range on its axis. -/
theorem mem_blk_4 (t : Fin cfg4.N) (i : S32x10000.Idx) :
    i ∈ ((cfg4.win 4).blk t).view.set ↔ ∀ a : Fin 2, win4_4.index t a * S32x10000.size a ≤ (i a).val ∧ (i a).val < win4_4.index t a * S32x10000.size a + S32x10000.size a := by
  show i ∈ ((View.whole main_v6).slice (win4_4.rect t)).set ↔ _
  rw [View.set_slice_whole, Rect.mem_set_unit]
  exact Iff.rfl

/-- Every index of the output's array is in the one point's block, which is written back. -/
theorem covered_4 (i : S32x10000.Idx) : ∃ t : Fin cfg4.N, (cfg4.win 4).flush t = true ∧ i ∈ ((cfg4.win 4).blk t).view.set := by
  refine ⟨t4_0, flush4_4 t4_0, ?_⟩
  rw [mem_blk_4]
  intro a
  match a with
  | ⟨0, _⟩ => show 0 * 32 ≤ (i 0).val ∧ (i 0).val < 0 * 32 + 32; have h : (i 0).val < 32 := (i 0).isLt; omega
  | ⟨1, _⟩ => show 0 * 10000 ≤ (i 1).val ∧ (i 1).val < 0 * 10000 + 10000; have h : (i 1).val < 10000 := (i 1).isLt; omega

/-- The output's array when the region ends: max (dinv ⊙ (accT + gall) + bg, 0) of the input arrays as the region
    finds them. -/
theorem arrAt_out_4 (c : Dev nD) :
    (dat V O B c).arrAt 4 cfg4.N
      = out_4 (V c (Pipeline.arrRef spec4 0)) (V c (Pipeline.arrRef spec4 1)) (V c (Pipeline.arrRef spec4 2)) (V c (Pipeline.arrRef spec4 3)) :=
  (dat V O B c).arrAt_eq_of_cover 4 _ (fun t _ => flushed_eq_4 V O B c t) covered_4

end Cert.KernelIdeal.Hand.R2

end
-- ==== Proof.Hand.R3Rd.lean ====
/-
  What pipeline 3's arrays hold when the region ends, and its input blocks as slices of their arrays. The two inputs
  are never written back: they end as the region found them. The one output block is the whole [1,128] array, written
  back after the last of the twenty points only: the array ends holding what the accumulation left at point 19. The
  block of the row at point n is its columns [16000 n, 16000 n + 16000); the block of the matrix at point n is its
  rows [16000 n, 16000 n + 16000).
-/
import proofs.«207900_g17016660427224_cont_7to1_1372_35_alg».proof.Proof.Hand.R3
import Idealize.ShloMosaic.Lib.Pipeline.Value
import Idealize.ShloMosaic.Lib.Tactic

set_option maxRecDepth 16384

noncomputable section

namespace Cert.KernelIdeal.Hand.R3

open Cert.KernelIdeal Cert.KernelIdeal.Gen
open Idealize.ShloMosaic Idealize.ShloMosaic.TcCoe Idealize.ShloMosaic.Tactic
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (V : (c : Dev nD) → (b : Ref sig .tc) → Buf (Elt F) ((c : Thread nD τ).loc b))
variable (O : CellTallies nD τ sig (HIx 2))
variable (B : Set (SemLoc sig × HIx 2))

/-! ## The inputs' arrays: as the region found them -/

theorem arrAt_in_0 (c : Dev nD) : (dat V O B c).arrAt 0 cfg5.N = V c (Pipeline.arrRef spec5 0) :=
  ((dat V O B c).arrAt_in 0 rfl _).trans (A_eq V O B c 0)

theorem arrAt_in_1 (c : Dev nD) : (dat V O B c).arrAt 1 cfg5.N = V c (Pipeline.arrRef spec5 1) :=
  ((dat V O B c).arrAt_in 1 rfl _).trans (A_eq V O B c 1)

/-! ## The payloads through the whole staging buffers -/

theorem hz : (![0, 0] : Fin 2 → Nat) = fun _ => 0 := funext fun a => by fin_cases a <;> rfl

/-- A later point leaves the block product added to what the block held: its one covering store's payload, whose loads
    read the whole buffers. -/
theorem out_later_eq (x0 : Vec F S1x16000 .f32) (x1 : Vec F S16000x128 .f32) (xo : Vec F S1x128 .f32) :
    out_later x0 x1 xo = k5_pay2 xo x0 x1 := by
  unfold out_later
  rw [View.canon_unit_zero hz]
  simp only [View.ld_unit_zero (S := S1x128) hz, View.ld_unit_zero (S := S1x16000) hz, View.ld_unit_zero (S := S16000x128) hz]

/-- The first point leaves the block product added to the zero block: the zero fill lies under the covering store. -/
theorem out_first_eq (x0 : Vec F S1x16000 .f32) (x1 : Vec F S16000x128 .f32) :
    out_first x0 x1 = k5_pay2 (k5_pay1 (F := F)) x0 x1 := by
  unfold out_first
  rw [View.canon_cons_unit_zero (S := S1x128) hz]
  simp only [View.ld_unit_zero (S := S1x16000) hz, View.ld_unit_zero (S := S16000x128) hz]

/-! ## The output's array: what the accumulation left at the last point -/

/-- The last point. -/
abbrev t_last : Fin cfg5.N := ⟨19, lt_N (by decide)⟩

/-- The one write-back, at point 19, writes the accumulated block: block (0, 0) of the [1,128] array read through zero
    offsets is the array. -/
theorem flushed_eq (c : Dev nD) (t : Fin cfg5.N) (hf : (cfg5.win 2).flush t = true) :
    (dat V O B c).flushed 2 t = ((cfg5.win 2).blk t).view.read (Elt F) (outsAt V c 19 (by decide)) := by
  have hN : t.val < 20 := N_lt t
  have h19 : t.val = 19 := by have := (flush5_2 t).mp hf; omega
  obtain rfl : t = t_last := Fin.ext h19
  show (cfg5.win 2).cut (grid5.coords t_last) ((dat V O B c).after 2 t_last) = _
  rw [after_2]
  have hz' : (fun a => win5_2.index t_last a * main_v9.ty.shape.size a) = fun _ => 0 := funext fun a => by fin_cases a <;> decide +kernel
  exact (Memref.read_access_unit_zero (Elt F) main_v9 hz' (fun a => by rw [congrFun hz' a]; simp) (outsAt V c 19 (by decide))).symm

/-- So the output array ends holding what the accumulation left at point 19: that point's block covers it. -/
theorem arrAt_out_2 (c : Dev nD) : (dat V O B c).arrAt 2 cfg5.N = outsAt V c 19 (by decide) :=
  (dat V O B c).arrAt_eq_of_cover 2 (outsAt V c 19 (by decide)) (flushed_eq V O B c) fun i =>
    ⟨t_last, (flush5_2 t_last).mpr rfl, by
      show i ∈ ((View.whole main_v9).slice (win5_2.rect t_last)).set
      rw [View.set_slice_whole, Rect.mem_set_unit]
      intro a
      have h0 : (i 0 : Nat) < 1 := (i 0).isLt
      have h1 : (i 1 : Nat) < 128 := (i 1).isLt
      match a with
      | ⟨0, _⟩ => show win5_2.index t_last 0 * win5_2.size 0 ≤ (i 0 : Nat) ∧ (i 0 : Nat) < win5_2.index t_last 0 * win5_2.size 0 + win5_2.xsize (grid5.coords t_last) 0
                  rw [show win5_2.index t_last 0 * win5_2.size 0 = 0 from by decide +kernel, show win5_2.xsize (grid5.coords t_last) 0 = 1 from by decide +kernel]; omega
      | ⟨1, _⟩ => show win5_2.index t_last 1 * win5_2.size 1 ≤ (i 1 : Nat) ∧ (i 1 : Nat) < win5_2.index t_last 1 * win5_2.size 1 + win5_2.xsize (grid5.coords t_last) 1
                  rw [show win5_2.index t_last 1 * win5_2.size 1 = 0 from by decide +kernel, show win5_2.xsize (grid5.coords t_last) 1 = 128 from by decide +kernel]; omega⟩

/-! ## The input blocks as slices of their arrays -/

/-- The index maps of the two inputs, decided over the grid: the row's block index is (0, t), the matrix's (t, 0). -/
theorem idx_0 : ∀ t : Fin cfg5.N, win5_0.index t 0 = 0 ∧ win5_0.index t 1 = t.val :=
  (by decide +kernel : ∀ t : Fin grid5.N, win5_0.index t 0 = 0 ∧ win5_0.index t 1 = t.val)
theorem idx_1 : ∀ t : Fin cfg5.N, win5_1.index t 0 = t.val ∧ win5_1.index t 1 = 0 :=
  (by decide +kernel : ∀ t : Fin grid5.N, win5_1.index t 0 = t.val ∧ win5_1.index t 1 = 0)

/-- Column j of the row's block at point t, in the row: column 16000 t + j. -/
abbrev ix0 (t : Fin cfg5.N) (j : S1x16000.Idx) : S1x320000.Idx :=
  fun a => match a with
    | ⟨0, _⟩ => j 0
    | ⟨1, _⟩ => ⟨16000 * t.val + (j 1).val, by have h1 : (j 1).val < 16000 := (j 1).isLt; have := N_lt t; show _ < 320000; omega⟩

/-- Entry (r, l) of the matrix's block at point t, in the matrix: row 16000 t + r, column l. -/
abbrev ix1 (t : Fin cfg5.N) (j : S16000x128.Idx) : S320000x128.Idx :=
  fun a => match a with
    | ⟨0, _⟩ => ⟨16000 * t.val + (j 0).val, by have h1 : (j 0).val < 16000 := (j 0).isLt; have := N_lt t; show _ < 320000; omega⟩
    | ⟨1, _⟩ => j 1

/-- The row's block at point t is its columns [16000 t, 16000 t + 16000). -/
theorem iblk_0_apply (c : Dev nD) (t : Fin cfg5.N) (j : S1x16000.Idx) :
    (iblk V c 0 t : Vec F S1x16000 .f32) j = (V c main_v8 : S1x320000.Idx → Elt F .f32) (ix0 t j) := by
  have hi := idx_0 t
  unfold iblk
  rw [View.read_apply]
  show V c main_v8 _ = V c main_v8 _
  congr 1
  funext a
  apply Fin.ext
  match a with
  | ⟨0, _⟩ => show win5_0.index t 0 * 1 + 1 * (j 0).val = (j 0).val; rw [hi.1]; omega
  | ⟨1, _⟩ => show win5_0.index t 1 * 16000 + 1 * (j 1).val = 16000 * t.val + (j 1).val; rw [hi.2]; omega

/-- The matrix's block at point t is its rows [16000 t, 16000 t + 16000). -/
theorem iblk_1_apply (c : Dev nD) (t : Fin cfg5.N) (j : S16000x128.Idx) :
    (iblk V c 1 t : Vec F S16000x128 .f32) j = (V c main_arg4 : S320000x128.Idx → Elt F .f32) (ix1 t j) := by
  have hi := idx_1 t
  unfold iblk
  rw [View.read_apply]
  show V c main_arg4 _ = V c main_arg4 _
  congr 1
  funext a
  apply Fin.ext
  match a with
  | ⟨0, _⟩ => show win5_1.index t 0 * 16000 + 1 * (j 0).val = 16000 * t.val + (j 0).val; rw [hi.1]; omega
  | ⟨1, _⟩ => show win5_1.index t 1 * 128 + 1 * (j 1).val = (j 1).val; rw [hi.2]; omega

end Cert.KernelIdeal.Hand.R3

end
-- ==== Proof.Hand.R4Rd.lean ====
/-
  The last TensorCore region, read back: what each of the pipeline's arrays holds when the region ends, as a
  function of the contents `V` the region found. The four input arrays are never written. The region has one
  point and the output window's block is the whole output row, so the point's write-back is the array: it ends
  holding the body's result at the input arrays,  max (max (h + b1) 0 · W2 + b2) 0.
-/
import proofs.«207900_g17016660427224_cont_7to1_1372_35_alg».proof.Proof.Hand.R4
import Idealize.ShloMosaic.Lib.Pipeline.Value

set_option maxRecDepth 16384

noncomputable section

namespace Cert.KernelIdeal.Hand.R4

open Cert.KernelIdeal Cert.KernelIdeal.Gen
open Idealize.ShloMosaic Idealize.ShloMosaic.TcCoe Idealize.ShloMosaic.Tactic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig (HIx 2) (Elt F) ℕ UU ℕ

-- the TensorCore's buffer contents when the region is entered
variable (V : (c : Dev nD) → (b : Ref sig .tc) → Buf (Elt F) ((c : Thread nD τ).loc b))
-- the tallies the TensorCore owes through the region and the bound on its recorded pairs
variable (O : CellTallies nD τ sig (HIx 2))
variable (B : Set (SemLoc sig × HIx 2))

/-! ## The input arrays when the region ends: never written -/

theorem arrAt_in_0 (c : Dev nD) : (dat V O B c).arrAt 0 cfg6.N = V c (Pipeline.arrRef spec6 0) :=
  ((dat V O B c).arrAt_in 0 rfl _).trans (A_eq V O B c 0)
theorem arrAt_in_1 (c : Dev nD) : (dat V O B c).arrAt 1 cfg6.N = V c (Pipeline.arrRef spec6 1) :=
  ((dat V O B c).arrAt_in 1 rfl _).trans (A_eq V O B c 1)
theorem arrAt_in_2 (c : Dev nD) : (dat V O B c).arrAt 2 cfg6.N = V c (Pipeline.arrRef spec6 2) :=
  ((dat V O B c).arrAt_in 2 rfl _).trans (A_eq V O B c 2)
theorem arrAt_in_3 (c : Dev nD) : (dat V O B c).arrAt 3 cfg6.N = V c (Pipeline.arrRef spec6 3) :=
  ((dat V O B c).arrAt_in 3 rfl _).trans (A_eq V O B c 3)

/-! ## The one point's input blocks are the whole arrays -/

/-- The region has one point and every window's block is its whole array at block index 0: read through the
    block, the array is itself (index `0 · size + 1 · j = j` on every axis). -/
theorem iblk_whole_0 (c : Dev nD) (t : Fin cfg6.N) : iblk V c 0 t = V c (Pipeline.arrRef spec6 0) := by
  funext j
  show V c (Pipeline.arrRef spec6 0) (((cfg6.win 0).blk t).view.emb j) = V c (Pipeline.arrRef spec6 0) j
  congr 1
  funext a; apply Fin.ext
  show 0 * S1x128.size a + 1 * (j a).val = (j a).val
  omega
theorem iblk_whole_1 (c : Dev nD) (t : Fin cfg6.N) : iblk V c 1 t = V c (Pipeline.arrRef spec6 1) := by
  funext j
  show V c (Pipeline.arrRef spec6 1) (((cfg6.win 1).blk t).view.emb j) = V c (Pipeline.arrRef spec6 1) j
  congr 1
  funext a; apply Fin.ext
  show 0 * S1x128.size a + 1 * (j a).val = (j a).val
  omega
theorem iblk_whole_2 (c : Dev nD) (t : Fin cfg6.N) : iblk V c 2 t = V c (Pipeline.arrRef spec6 2) := by
  funext j
  show V c (Pipeline.arrRef spec6 2) (((cfg6.win 2).blk t).view.emb j) = V c (Pipeline.arrRef spec6 2) j
  congr 1
  funext a; apply Fin.ext
  show 0 * S128x10000.size a + 1 * (j a).val = (j a).val
  omega
theorem iblk_whole_3 (c : Dev nD) (t : Fin cfg6.N) : iblk V c 3 t = V c (Pipeline.arrRef spec6 3) := by
  funext j
  show V c (Pipeline.arrRef spec6 3) (((cfg6.win 3).blk t).view.emb j) = V c (Pipeline.arrRef spec6 3) j
  congr 1
  funext a; apply Fin.ext
  show 0 * S1x10000.size a + 1 * (j a).val = (j a).val
  omega

/-! ## The output array when the region ends -/

/-- Any contents of the output row, read through the point's block (the whole row), are themselves. -/
theorem read_blk_4 (t : Fin cfg6.N) (G : Vec F S1x10000 .f32) : ((cfg6.win 4).blk t).view.read (Elt F) G = G := by
  funext j
  show G (((cfg6.win 4).blk t).view.emb j) = G j
  refine congrArg G ?_
  funext a; apply Fin.ext
  show 0 * S1x10000.size a + 1 * (j a).val = (j a).val
  omega

/-- The write-back moves all of the staging buffer: the window is uncut. -/
theorem cut_4 (t : Fin cfg6.N) (X : Vec F S1x10000 .f32) : (cfg6.win 4).cut (grid6.coords t) X = X := rfl

/-- What the point writes back to the output row is the body's result at the input arrays, read through the block
    (the whole row). -/
theorem flushed_4_eq (c : Dev nD) (t : Fin cfg6.N) :
    (dat V O B c).flushed 4 t = ((cfg6.win 4).blk t).view.read (Elt F)
      (out_4 (V c (Pipeline.arrRef spec6 0)) (V c (Pipeline.arrRef spec6 1)) (V c (Pipeline.arrRef spec6 2)) (V c (Pipeline.arrRef spec6 3))) := by
  show (cfg6.win 4).cut (grid6.coords t) ((dat V O B c).after 4 t) = _
  rw [after_4, iblk_whole_0, iblk_whole_1, iblk_whole_2, iblk_whole_3, read_blk_4, cut_4]

/-- An index of the output row is in the point's block iff each coordinate is in the block's range on its axis. -/
theorem mem_blk_4 (t : Fin cfg6.N) (i : S1x10000.Idx) :
    i ∈ ((cfg6.win 4).blk t).view.set ↔ ∀ a : Fin 2, win6_4.index t a * S1x10000.size a ≤ (i a).val ∧ (i a).val < win6_4.index t a * S1x10000.size a + S1x10000.size a := by
  show i ∈ ((View.whole main_v12).slice (win6_4.rect t)).set ↔ _
  rw [View.set_slice_whole, Rect.mem_set_unit]
  exact Iff.rfl

/-- Every index of the output row is in the one point's block. -/
theorem cover_blk_4 (i : S1x10000.Idx) : ∃ t : Fin cfg6.N, (cfg6.win 4).flush t = true ∧ i ∈ ((cfg6.win 4).blk t).view.set :=
  ⟨t6_0, flush6_4 t6_0, by
    rw [mem_blk_4]
    intro a
    show 0 * S1x10000.size a ≤ (i a).val ∧ (i a).val < 0 * S1x10000.size a + S1x10000.size a
    have h : (i a).val < S1x10000.size a := (i a).isLt
    omega⟩

/-- The output row when the region ends: the body's result at the arrays the region found — the one point's
    block is the whole row, so its write-back is the array. -/
theorem arrAt_out_4 (c : Dev nD) : (dat V O B c).arrAt 4 cfg6.N
    = out_4 (V c (Pipeline.arrRef spec6 0)) (V c (Pipeline.arrRef spec6 1)) (V c (Pipeline.arrRef spec6 2)) (V c (Pipeline.arrRef spec6 3)) :=
  (dat V O B c).arrAt_eq_of_cover 4 _ (fun t _ => flushed_4_eq V O B c t) cover_blk_4

end Cert.KernelIdeal.Hand.R4

end
-- ==== Proof.Hand.Chain.lean ====
/-
  The contents of the TensorCore's buffers at each boundary of @main, from the launch to the return: a fold through
  the five regions, the six host operations and the two SparseCore calls; the arguments end as launched, and the
  result is the composition of the stages' functions at the launch arrays.
-/
import proofs.«207900_g17016660427224_cont_7to1_1372_35_alg».proof.Proof.Hand.Steps
import proofs.«207900_g17016660427224_cont_7to1_1372_35_alg».proof.Proof.Hand.Sc0
import proofs.«207900_g17016660427224_cont_7to1_1372_35_alg».proof.Proof.Hand.Sc1
import proofs.«207900_g17016660427224_cont_7to1_1372_35_alg».proof.Proof.Hand.R0Rd
import proofs.«207900_g17016660427224_cont_7to1_1372_35_alg».proof.Proof.Hand.R1Rd
import proofs.«207900_g17016660427224_cont_7to1_1372_35_alg».proof.Proof.Hand.R2Rd
import proofs.«207900_g17016660427224_cont_7to1_1372_35_alg».proof.Proof.Hand.R3Rd
import proofs.«207900_g17016660427224_cont_7to1_1372_35_alg».proof.Proof.Hand.R4Rd

noncomputable section

namespace Cert.KernelIdeal.Hand.Chain

open Cert.KernelIdeal Cert.KernelIdeal.Gen
open Idealize.ShloMosaic Idealize.ShloMosaic.TcCoe Idealize.ShloMosaic.Tactic
open Idealize.ShloMosaic.SparseCore (S T)
open Idealize.ShloMosaic.SparseCore.Cfg (HIx Pay)
open Idealize.SL Idealize.SL.RA Idealize.SL.BI
open Idealize.ShloMosaic.Rounds
open Idealize.ShloMosaic.Pipeline (Dat Cfg Window BodyObligation cellOf)

variable {F : FTy → Type} [FloatOps F]

/-! ## The host operations -/

abbrev opV1 : HloOp τ sig (Elt F) := StableHlo.reshape main_v0_1 main_v1 rfl shapeCasts_S1x160000_S160000
abbrev opV5 : HloOp τ sig (Elt F) := StableHlo.reshape main_arg3 main_v5 rfl shapeCasts_S32_S32x1
abbrev opV7 : HloOp τ sig (Elt F) :=
  StableHlo.unary main_v6 main_v7 ((transpose S10000x32 [1, 0] · transposes_S32x10000_S10000x32_1_0) : (⟨S32x10000, .f32⟩ : BufTy).Contents (Elt F) → (⟨S10000x32, .f32⟩ : BufTy).Contents (Elt F))
abbrev opV8 : HloOp τ sig (Elt F) := StableHlo.reshape main_v7 main_v8 rfl shapeCasts_S10000x32_S1x320000
abbrev opV10 : HloOp τ sig (Elt F) := StableHlo.reshape main_arg5 main_v10 rfl shapeCasts_S128_S1x128
abbrev opV11 : HloOp τ sig (Elt F) := StableHlo.reshape main_arg7 main_v11 rfl shapeCasts_S10000_S1x10000

/-! ## The contents at each boundary -/

variable (m : (ℓ : Loc nD τ sig) → Buf (Elt F) ℓ)

/-- At the launch. -/
def W0 (d : Dev nD) : Steps.Val (F := F) := fun b => m (d, b)
/-- After region 0. -/
def W1 (d : Dev nD) : Steps.Val (F := F) := Steps.next_0 ((K (F := F)).Otc d 0) (Steps.Bn (F := F) d 0) d (W0 m d)
/-- After the packed edge words' reshape. -/
def W2 (d : Dev nD) : Steps.Val (F := F) := (opV1 (F := F)).result (W1 m d)
/-- After SparseCore call 0: the degree histograms. -/
def W3 (d : Dev nD) : Steps.Val (F := F) :=
  Function.update (W2 m d) (Proc.devRef .tc main_v2) (Sc0.degP (F := F) (W2 m d (Proc.devRef .tc main_v1)))
/-- After region 1. -/
def W4 (d : Dev nD) : Steps.Val (F := F) := Steps.next_1 ((K (F := F)).Otc d 1) (Steps.Bn (F := F) d 1) d (W3 m d)
/-- After SparseCore call 1: the accumulated messages. -/
def W5 (d : Dev nD) : Steps.Val (F := F) :=
  Function.update (W4 m d) (Proc.devRef .tc main_v4)
    (Sc1.accT (F := F) (W4 m d (Proc.devRef .tc main_v1)) (W4 m d (Proc.devRef .tc main_v3_1)))
/-- After the bias's reshape. -/
def W6 (d : Dev nD) : Steps.Val (F := F) := (opV5 (F := F)).result (W5 m d)
/-- After region 2. -/
def W7 (d : Dev nD) : Steps.Val (F := F) := Steps.next_2 ((K (F := F)).Otc d 2) (Steps.Bn (F := F) d 2) d (W6 m d)
/-- After the transpose. -/
def W8 (d : Dev nD) : Steps.Val (F := F) := (opV7 (F := F)).result (W7 m d)
/-- After the flattening reshape. -/
def W9 (d : Dev nD) : Steps.Val (F := F) := (opV8 (F := F)).result (W8 m d)
/-- After region 3. -/
def W10 (d : Dev nD) : Steps.Val (F := F) := Steps.next_3 ((K (F := F)).Otc d 2) (Steps.Bn (F := F) d 2) d (W9 m d)
/-- After the first dense bias's reshape. -/
def W11 (d : Dev nD) : Steps.Val (F := F) := (opV10 (F := F)).result (W10 m d)
/-- After the second dense bias's reshape. -/
def W12 (d : Dev nD) : Steps.Val (F := F) := (opV11 (F := F)).result (W11 m d)
/-- After region 4: at the return. -/
def W13 (d : Dev nD) : Steps.Val (F := F) := Steps.next_4 ((K (F := F)).Otc d 2) (Steps.Bn (F := F) d 2) d (W12 m d)

/-! ## What each step leaves untouched -/

section Keep

variable (d : Dev nD)

/-- Region 0 leaves every buffer that is no output of its own as entered: an input array by the pipeline's read-back,
    any other buffer because the region does not hold it. -/
theorem keep_next_0 (O : CellTallies nD τ sig (HIx 2)) (B : Set (SemLoc sig × HIx 2)) (W : Steps.Val (F := F)) (b : Ref sig .tc) (h3 : Pipeline.arrRef spec0 3 ≠ b) (h4 : Pipeline.arrRef spec0 4 ≠ b) :
    Steps.next_0 O B d W (Proc.devRef .tc b) = W (Proc.devRef .tc b) := by
  by_cases h : ∃ w, Pipeline.arrRef spec0 w = b
  · obtain ⟨w, rfl⟩ := h
    fin_cases w
    · exact (Steps.next_0_arr O B d W 0).trans (R0.arrAt_in_0 (Steps.VW W) O B d)
    · exact (Steps.next_0_arr O B d W 1).trans (R0.arrAt_in_1 (Steps.VW W) O B d)
    · exact (Steps.next_0_arr O B d W 2).trans (R0.arrAt_in_2 (Steps.VW W) O B d)
    · exact absurd rfl h3
    · exact absurd rfl h4
  · exact Steps.next_0_of_ne O B d W b fun w e => h ⟨w, e⟩

/-- Region 1 leaves every buffer that is no output of its own as entered: an input array by the pipeline's read-back,
    any other buffer because the region does not hold it. -/
theorem keep_next_1 (O : CellTallies nD τ sig (HIx 2)) (B : Set (SemLoc sig × HIx 2)) (W : Steps.Val (F := F)) (b : Ref sig .tc) (h2 : Pipeline.arrRef spec2 2 ≠ b) (h3 : Pipeline.arrRef spec2 3 ≠ b) :
    Steps.next_1 O B d W (Proc.devRef .tc b) = W (Proc.devRef .tc b) := by
  by_cases h : ∃ w, Pipeline.arrRef spec2 w = b
  · obtain ⟨w, rfl⟩ := h
    fin_cases w
    · exact (Steps.next_1_arr O B d W 0).trans (R1.arrAt_in_0 (Steps.VW W) O B d)
    · exact (Steps.next_1_arr O B d W 1).trans (R1.arrAt_in_1 (Steps.VW W) O B d)
    · exact absurd rfl h2
    · exact absurd rfl h3
  · exact Steps.next_1_of_ne O B d W b fun w e => h ⟨w, e⟩

/-- Region 2 leaves every buffer that is no output of its own as entered: an input array by the pipeline's read-back,
    any other buffer because the region does not hold it. -/
theorem keep_next_2 (O : CellTallies nD τ sig (HIx 2)) (B : Set (SemLoc sig × HIx 2)) (W : Steps.Val (F := F)) (b : Ref sig .tc) (h4 : Pipeline.arrRef spec4 4 ≠ b) :
    Steps.next_2 O B d W (Proc.devRef .tc b) = W (Proc.devRef .tc b) := by
  by_cases h : ∃ w, Pipeline.arrRef spec4 w = b
  · obtain ⟨w, rfl⟩ := h
    fin_cases w
    · exact (Steps.next_2_arr O B d W 0).trans (R2.arrAt_in_0 (Steps.VW W) O B d)
    · exact (Steps.next_2_arr O B d W 1).trans (R2.arrAt_in_1 (Steps.VW W) O B d)
    · exact (Steps.next_2_arr O B d W 2).trans (R2.arrAt_in_2 (Steps.VW W) O B d)
    · exact (Steps.next_2_arr O B d W 3).trans (R2.arrAt_in_3 (Steps.VW W) O B d)
    · exact absurd rfl h4
  · exact Steps.next_2_of_ne O B d W b fun w e => h ⟨w, e⟩

/-- Region 3 leaves every buffer that is no output of its own as entered: an input array by the pipeline's read-back,
    any other buffer because the region does not hold it. -/
theorem keep_next_3 (O : CellTallies nD τ sig (HIx 2)) (B : Set (SemLoc sig × HIx 2)) (W : Steps.Val (F := F)) (b : Ref sig .tc) (h2 : Pipeline.arrRef spec5 2 ≠ b) :
    Steps.next_3 O B d W (Proc.devRef .tc b) = W (Proc.devRef .tc b) := by
  by_cases h : ∃ w, Pipeline.arrRef spec5 w = b
  · obtain ⟨w, rfl⟩ := h
    fin_cases w
    · exact (Steps.next_3_arr O B d W 0).trans (R3.arrAt_in_0 (Steps.VW W) O B d)
    · exact (Steps.next_3_arr O B d W 1).trans (R3.arrAt_in_1 (Steps.VW W) O B d)
    · exact absurd rfl h2
  · exact Steps.next_3_of_ne O B d W b fun w e => h ⟨w, e⟩

/-- Region 4 leaves every buffer that is no output of its own as entered: an input array by the pipeline's read-back,
    any other buffer because the region does not hold it. -/
theorem keep_next_4 (O : CellTallies nD τ sig (HIx 2)) (B : Set (SemLoc sig × HIx 2)) (W : Steps.Val (F := F)) (b : Ref sig .tc) (h4 : Pipeline.arrRef spec6 4 ≠ b) :
    Steps.next_4 O B d W (Proc.devRef .tc b) = W (Proc.devRef .tc b) := by
  by_cases h : ∃ w, Pipeline.arrRef spec6 w = b
  · obtain ⟨w, rfl⟩ := h
    fin_cases w
    · exact (Steps.next_4_arr O B d W 0).trans (R4.arrAt_in_0 (Steps.VW W) O B d)
    · exact (Steps.next_4_arr O B d W 1).trans (R4.arrAt_in_1 (Steps.VW W) O B d)
    · exact (Steps.next_4_arr O B d W 2).trans (R4.arrAt_in_2 (Steps.VW W) O B d)
    · exact (Steps.next_4_arr O B d W 3).trans (R4.arrAt_in_3 (Steps.VW W) O B d)
    · exact absurd rfl h4
  · exact Steps.next_4_of_ne O B d W b fun w e => h ⟨w, e⟩

theorem keep1 (b : Ref sig .tc) (h3 : main_v0_0 ≠ b) (h4 : main_v0_1 ≠ b) : W1 m d (Proc.devRef .tc b) = W0 m d (Proc.devRef .tc b) :=
  keep_next_0 d _ _ _ b h3 h4

theorem keep2 (b : Ref sig .tc) (h : b ≠ main_v1) : W2 m d (Proc.devRef .tc b) = W1 m d (Proc.devRef .tc b) :=
  StableHlo.reshape_result_ne (x := main_v0_1) (y := main_v1) _ _ _ _ (W1 m d) h

theorem keep3 (b : Ref sig .tc) (h : b ≠ main_v2) : W3 m d (Proc.devRef .tc b) = W2 m d (Proc.devRef .tc b) :=
  Function.update_of_ne (StableHlo.devRef_ne_of_ne h) _ _

theorem keep4 (b : Ref sig .tc) (h2 : main_v3_0 ≠ b) (h3 : main_v3_1 ≠ b) : W4 m d (Proc.devRef .tc b) = W3 m d (Proc.devRef .tc b) :=
  keep_next_1 d _ _ _ b h2 h3

theorem keep5 (b : Ref sig .tc) (h : b ≠ main_v4) : W5 m d (Proc.devRef .tc b) = W4 m d (Proc.devRef .tc b) :=
  Function.update_of_ne (StableHlo.devRef_ne_of_ne h) _ _

theorem keep6 (b : Ref sig .tc) (h : b ≠ main_v5) : W6 m d (Proc.devRef .tc b) = W5 m d (Proc.devRef .tc b) :=
  StableHlo.reshape_result_ne (x := main_arg3) (y := main_v5) _ _ _ _ (W5 m d) h

theorem keep7 (b : Ref sig .tc) (h4 : main_v6 ≠ b) : W7 m d (Proc.devRef .tc b) = W6 m d (Proc.devRef .tc b) :=
  keep_next_2 d _ _ _ b h4

theorem keep8 (b : Ref sig .tc) (h : b ≠ main_v7) : W8 m d (Proc.devRef .tc b) = W7 m d (Proc.devRef .tc b) :=
  StableHlo.unary_result_ne (x := main_v6) (y := main_v7) _ _ _ (W7 m d) h

theorem keep9 (b : Ref sig .tc) (h : b ≠ main_v8) : W9 m d (Proc.devRef .tc b) = W8 m d (Proc.devRef .tc b) :=
  StableHlo.reshape_result_ne (x := main_v7) (y := main_v8) _ _ _ _ (W8 m d) h

theorem keep10 (b : Ref sig .tc) (h2 : main_v9 ≠ b) : W10 m d (Proc.devRef .tc b) = W9 m d (Proc.devRef .tc b) :=
  keep_next_3 d _ _ _ b h2

theorem keep11 (b : Ref sig .tc) (h : b ≠ main_v10) : W11 m d (Proc.devRef .tc b) = W10 m d (Proc.devRef .tc b) :=
  StableHlo.reshape_result_ne (x := main_arg5) (y := main_v10) _ _ _ _ (W10 m d) h

theorem keep12 (b : Ref sig .tc) (h : b ≠ main_v11) : W12 m d (Proc.devRef .tc b) = W11 m d (Proc.devRef .tc b) :=
  StableHlo.reshape_result_ne (x := main_arg7) (y := main_v11) _ _ _ _ (W11 m d) h

theorem keep13 (b : Ref sig .tc) (h4 : main_v12 ≠ b) : W13 m d (Proc.devRef .tc b) = W12 m d (Proc.devRef .tc b) :=
  keep_next_4 d _ _ _ b h4

end Keep

/-! ## The stages' values, from the launch arrays -/

section Stages

variable (d : Dev nD)

/-- The launch arrays: the arguments of @main as the launch memory holds them. -/
abbrev a0 : Vec F S10000x128 .f32 := m ((SparseCore.T d).loc main_arg0)
abbrev a1 : Vec F S2x160000 .i32 := m ((SparseCore.T d).loc main_arg1)
abbrev a2 : Vec F S128x32 .f32 := m ((SparseCore.T d).loc main_arg2)
abbrev a3 : Vec F S32 .f32 := m ((SparseCore.T d).loc main_arg3)
abbrev a4 : Vec F S320000x128 .f32 := m ((SparseCore.T d).loc main_arg4)
abbrev a5 : Vec F S128 .f32 := m ((SparseCore.T d).loc main_arg5)
abbrev a6 : Vec F S128x10000 .f32 := m ((SparseCore.T d).loc main_arg6)
abbrev a7 : Vec F S10000 .f32 := m ((SparseCore.T d).loc main_arg7)

/-- Region 0: the transposed product of the features and the weights, and the packed edge words. -/
def xwT : Vec F S32x10000 .f32 := R0.out_3 (a0 m d) (a2 m d) (a1 m d)
def pk : Vec F S1x160000 .i32 := R0.out_4 (a0 m d) (a2 m d) (a1 m d)
/-- The packed edge words as one row. -/
def ep : Vec F S160000 .i32 := shapeCast S160000 (pk m d) shapeCasts_S1x160000_S160000
/-- SparseCore call 0: the tiles' degree histograms. -/
def degP : Vec F S32x10000 .f32 := Sc0.degP (F := F) (ep m d)
/-- Region 1: the inverse square roots of the degrees, and the scaled features. -/
def dinv : Vec F S1x10000 .f32 := R1.out_2 (degP m d) (xwT m d)
def gall : Vec F S32x10000 .f32 := R1.out_3 (degP m d) (xwT m d)
/-- SparseCore call 1: the accumulated messages. -/
def acc : Vec F S32x10000 .f32 := Sc1.accT (F := F) (ep m d) (gall m d)
/-- The bias as a column. -/
def bgc : Vec F S32x1 .f32 := shapeCast S32x1 (a3 m d) shapeCasts_S32_S32x1
/-- Region 2: the layer's output, transposed. -/
def h1T : Vec F S32x10000 .f32 := R2.out_4 (acc m d) (gall m d) (dinv m d) (bgc m d)
/-- Its transpose, and that flattened to one row. -/
def h1 : Vec F S10000x32 .f32 := transpose S10000x32 [1, 0] (h1T m d) transposes_S32x10000_S10000x32_1_0
def h2 : Vec F S1x320000 .f32 := shapeCast S1x320000 (h1 m d) shapeCasts_S10000x32_S1x320000
/-- The dense biases as rows. -/
def b1r : Vec F S1x128 .f32 := shapeCast S1x128 (a5 m d) shapeCasts_S128_S1x128
def b2r : Vec F S1x10000 .f32 := shapeCast S1x10000 (a7 m d) shapeCasts_S10000_S1x10000
/-- Region 3: the first dense layer's accumulated product, over the contents region 3 is entered at. -/
def h3pre : Vec F S1x128 .f32 := R3.outsAt (Steps.VW (W9 m d)) d 19 (by decide)
/-- Region 4: the result. -/
def out : Vec F S1x10000 .f32 := R4.out_4 (h3pre m d) (b1r m d) (a6 m d) (b2r m d)

end Stages

/-! ## Each boundary's contents at the buffers the later stages read -/

section Values

variable (d : Dev nD)

theorem W0_apply (b : DevRef τ sig) : W0 m d b = m (d, b) := rfl

theorem W1_v0_0 : W1 m d (Proc.devRef .tc main_v0_0) = xwT m d :=
  (Steps.next_0_arr _ _ d _ 3).trans (R0.arrAt_out_3 (Steps.VW (W0 m d)) _ _ d)
theorem W1_v0_1 : W1 m d (Proc.devRef .tc main_v0_1) = pk m d :=
  (Steps.next_0_arr _ _ d _ 4).trans (R0.arrAt_out_4 (Steps.VW (W0 m d)) _ _ d)

theorem W2_v1 : W2 m d (Proc.devRef .tc main_v1) = ep m d := by
  have h := StableHlo.reshape_result' (τ := τ) (x := main_v0_1) (y := main_v1) rfl shapeCasts_S1x160000_S160000 ⟨by decide, rfl⟩ ⟨by decide, rfl⟩ (W1 m d)
  rw [W1_v0_1] at h
  exact h
theorem W2_v0_0 : W2 m d (Proc.devRef .tc main_v0_0) = xwT m d :=
  ((keep2 m d main_v0_0 (by decide))).trans (W1_v0_0 m d)

theorem W3_v2 : W3 m d (Proc.devRef .tc main_v2) = degP m d :=
  (Function.update_self _ _ _).trans (congrArg (Sc0.degP (F := F)) (W2_v1 m d))
theorem W3_v0_0 : W3 m d (Proc.devRef .tc main_v0_0) = xwT m d :=
  ((keep3 m d main_v0_0 (by decide))).trans (W2_v0_0 m d)
theorem W3_v1 : W3 m d (Proc.devRef .tc main_v1) = ep m d :=
  ((keep3 m d main_v1 (by decide))).trans (W2_v1 m d)

theorem W4_v3_0 : W4 m d (Proc.devRef .tc main_v3_0) = dinv m d := by
  refine (Steps.next_1_arr _ _ d _ 2).trans ((R1.arrAt_out_2 (Steps.VW (W3 m d)) _ _ d).trans ?_)
  show R1.out_2 (W3 m d (Proc.devRef .tc main_v2)) (W3 m d (Proc.devRef .tc main_v0_0)) = _
  rw [W3_v2, W3_v0_0] <;> rfl

theorem W4_v3_1 : W4 m d (Proc.devRef .tc main_v3_1) = gall m d := by
  refine (Steps.next_1_arr _ _ d _ 3).trans ((R1.arrAt_out_3 (Steps.VW (W3 m d)) _ _ d).trans ?_)
  show R1.out_3 (W3 m d (Proc.devRef .tc main_v2)) (W3 m d (Proc.devRef .tc main_v0_0)) = _
  rw [W3_v2, W3_v0_0] <;> rfl

theorem W4_v1 : W4 m d (Proc.devRef .tc main_v1) = ep m d :=
  ((keep4 m d main_v1 (by decide) (by decide))).trans (W3_v1 m d)

/-- Both SparseCore calls read the same packed edge words: region 1 does not hold them. -/
theorem W_ep : W2 m d (Proc.devRef .tc main_v1) = W4 m d (Proc.devRef .tc main_v1) :=
  (((keep4 m d main_v1 (by decide) (by decide)).trans (keep3 m d main_v1 (by decide)))).symm

theorem W5_v4 : W5 m d (Proc.devRef .tc main_v4) = acc m d :=
  (Function.update_self _ _ _).trans (congrArg₂ (Sc1.accT (F := F)) (W4_v1 m d) (W4_v3_1 m d))
theorem W5_v3_1 : W5 m d (Proc.devRef .tc main_v3_1) = gall m d :=
  ((keep5 m d main_v3_1 (by decide))).trans (W4_v3_1 m d)
theorem W5_v3_0 : W5 m d (Proc.devRef .tc main_v3_0) = dinv m d :=
  ((keep5 m d main_v3_0 (by decide))).trans (W4_v3_0 m d)
theorem W5_arg3 : W5 m d (Proc.devRef .tc main_arg3) = a3 m d :=
  ((keep5 m d main_arg3 (by decide)).trans ((keep4 m d main_arg3 (by decide) (by decide)).trans ((keep3 m d main_arg3 (by decide)).trans ((keep2 m d main_arg3 (by decide)).trans (keep1 m d main_arg3 (by decide) (by decide))))))

theorem W6_v5 : W6 m d (Proc.devRef .tc main_v5) = bgc m d := by
  have h := StableHlo.reshape_result' (τ := τ) (x := main_arg3) (y := main_v5) rfl shapeCasts_S32_S32x1 ⟨by decide, rfl⟩ ⟨by decide, rfl⟩ (W5 m d)
  rw [W5_arg3] at h
  exact h
theorem W6_v4 : W6 m d (Proc.devRef .tc main_v4) = acc m d :=
  ((keep6 m d main_v4 (by decide))).trans (W5_v4 m d)
theorem W6_v3_1 : W6 m d (Proc.devRef .tc main_v3_1) = gall m d :=
  ((keep6 m d main_v3_1 (by decide))).trans (W5_v3_1 m d)
theorem W6_v3_0 : W6 m d (Proc.devRef .tc main_v3_0) = dinv m d :=
  ((keep6 m d main_v3_0 (by decide))).trans (W5_v3_0 m d)

theorem W7_v6 : W7 m d (Proc.devRef .tc main_v6) = h1T m d := by
  refine (Steps.next_2_arr _ _ d _ 4).trans ((R2.arrAt_out_4 (Steps.VW (W6 m d)) _ _ d).trans ?_)
  show R2.out_4 (W6 m d (Proc.devRef .tc main_v4)) (W6 m d (Proc.devRef .tc main_v3_1)) (W6 m d (Proc.devRef .tc main_v3_0)) (W6 m d (Proc.devRef .tc main_v5)) = _
  rw [W6_v4, W6_v3_1, W6_v3_0, W6_v5] <;> rfl

theorem W8_v7 : W8 m d (Proc.devRef .tc main_v7) = h1 m d := by
  have h := StableHlo.unary_result' (τ := τ) (x := main_v6) (y := main_v7)
    ((transpose S10000x32 [1, 0] · transposes_S32x10000_S10000x32_1_0) : (⟨S32x10000, .f32⟩ : BufTy).Contents (Elt F) → (⟨S10000x32, .f32⟩ : BufTy).Contents (Elt F))
    ⟨by decide, rfl⟩ ⟨by decide, rfl⟩ (W7 m d)
  rw [W7_v6] at h
  exact h

theorem W9_v8 : W9 m d (Proc.devRef .tc main_v8) = h2 m d := by
  have h := StableHlo.reshape_result' (τ := τ) (x := main_v7) (y := main_v8) rfl shapeCasts_S10000x32_S1x320000 ⟨by decide, rfl⟩ ⟨by decide, rfl⟩ (W8 m d)
  rw [W8_v7] at h
  exact h
theorem W9_arg4 : W9 m d (Proc.devRef .tc main_arg4) = a4 m d :=
  ((keep9 m d main_arg4 (by decide)).trans ((keep8 m d main_arg4 (by decide)).trans ((keep7 m d main_arg4 (by decide)).trans ((keep6 m d main_arg4 (by decide)).trans ((keep5 m d main_arg4 (by decide)).trans ((keep4 m d main_arg4 (by decide) (by decide)).trans ((keep3 m d main_arg4 (by decide)).trans ((keep2 m d main_arg4 (by decide)).trans (keep1 m d main_arg4 (by decide) (by decide))))))))))

theorem W10_v9 : W10 m d (Proc.devRef .tc main_v9) = h3pre m d :=
  (Steps.next_3_arr _ _ d _ 2).trans (R3.arrAt_out_2 (Steps.VW (W9 m d)) _ _ d)
theorem W10_arg5 : W10 m d (Proc.devRef .tc main_arg5) = a5 m d :=
  ((keep10 m d main_arg5 (by decide)).trans ((keep9 m d main_arg5 (by decide)).trans ((keep8 m d main_arg5 (by decide)).trans ((keep7 m d main_arg5 (by decide)).trans ((keep6 m d main_arg5 (by decide)).trans ((keep5 m d main_arg5 (by decide)).trans ((keep4 m d main_arg5 (by decide) (by decide)).trans ((keep3 m d main_arg5 (by decide)).trans ((keep2 m d main_arg5 (by decide)).trans (keep1 m d main_arg5 (by decide) (by decide)))))))))))

theorem W11_v10 : W11 m d (Proc.devRef .tc main_v10) = b1r m d := by
  have h := StableHlo.reshape_result' (τ := τ) (x := main_arg5) (y := main_v10) rfl shapeCasts_S128_S1x128 ⟨by decide, rfl⟩ ⟨by decide, rfl⟩ (W10 m d)
  rw [W10_arg5] at h
  exact h
theorem W11_v9 : W11 m d (Proc.devRef .tc main_v9) = h3pre m d :=
  ((keep11 m d main_v9 (by decide))).trans (W10_v9 m d)
theorem W11_arg7 : W11 m d (Proc.devRef .tc main_arg7) = a7 m d :=
  ((keep11 m d main_arg7 (by decide)).trans ((keep10 m d main_arg7 (by decide)).trans ((keep9 m d main_arg7 (by decide)).trans ((keep8 m d main_arg7 (by decide)).trans ((keep7 m d main_arg7 (by decide)).trans ((keep6 m d main_arg7 (by decide)).trans ((keep5 m d main_arg7 (by decide)).trans ((keep4 m d main_arg7 (by decide) (by decide)).trans ((keep3 m d main_arg7 (by decide)).trans ((keep2 m d main_arg7 (by decide)).trans (keep1 m d main_arg7 (by decide) (by decide))))))))))))

theorem W12_v11 : W12 m d (Proc.devRef .tc main_v11) = b2r m d := by
  have h := StableHlo.reshape_result' (τ := τ) (x := main_arg7) (y := main_v11) rfl shapeCasts_S10000_S1x10000 ⟨by decide, rfl⟩ ⟨by decide, rfl⟩ (W11 m d)
  rw [W11_arg7] at h
  exact h
theorem W12_v10 : W12 m d (Proc.devRef .tc main_v10) = b1r m d :=
  ((keep12 m d main_v10 (by decide))).trans (W11_v10 m d)
theorem W12_v9 : W12 m d (Proc.devRef .tc main_v9) = h3pre m d :=
  ((keep12 m d main_v9 (by decide))).trans (W11_v9 m d)
theorem W12_arg6 : W12 m d (Proc.devRef .tc main_arg6) = a6 m d :=
  ((keep12 m d main_arg6 (by decide)).trans ((keep11 m d main_arg6 (by decide)).trans ((keep10 m d main_arg6 (by decide)).trans ((keep9 m d main_arg6 (by decide)).trans ((keep8 m d main_arg6 (by decide)).trans ((keep7 m d main_arg6 (by decide)).trans ((keep6 m d main_arg6 (by decide)).trans ((keep5 m d main_arg6 (by decide)).trans ((keep4 m d main_arg6 (by decide) (by decide)).trans ((keep3 m d main_arg6 (by decide)).trans ((keep2 m d main_arg6 (by decide)).trans (keep1 m d main_arg6 (by decide) (by decide)))))))))))))

/-- The result at the return, over the contents region 4 is entered at. -/
theorem W13_v12 : W13 m d (Proc.devRef .tc main_v12)
    = R4.out_4 (W12 m d (Proc.devRef .tc main_v9)) (W12 m d (Proc.devRef .tc main_v10)) (W12 m d (Proc.devRef .tc main_arg6)) (W12 m d (Proc.devRef .tc main_v11)) :=
  (Steps.next_4_arr _ _ d _ 4).trans (R4.arrAt_out_4 (Steps.VW (W12 m d)) _ _ d)

/-- THE RESULT: the composition of the stages at the launch arrays. -/
theorem W13_out : W13 m d (Proc.devRef .tc main_v12) = out m d := by
  rw [W13_v12, W12_v9, W12_v10, W12_arg6, W12_v11] <;> rfl

/-! ### The arguments end as launched -/
theorem W13_arg0 : W13 m d (Proc.devRef .tc main_arg0) = m ((SparseCore.T d).loc main_arg0) :=
  ((keep13 m d main_arg0 (by decide)).trans ((keep12 m d main_arg0 (by decide)).trans ((keep11 m d main_arg0 (by decide)).trans ((keep10 m d main_arg0 (by decide)).trans ((keep9 m d main_arg0 (by decide)).trans ((keep8 m d main_arg0 (by decide)).trans ((keep7 m d main_arg0 (by decide)).trans ((keep6 m d main_arg0 (by decide)).trans ((keep5 m d main_arg0 (by decide)).trans ((keep4 m d main_arg0 (by decide) (by decide)).trans ((keep3 m d main_arg0 (by decide)).trans ((keep2 m d main_arg0 (by decide)).trans (keep1 m d main_arg0 (by decide) (by decide))))))))))))))
theorem W13_arg1 : W13 m d (Proc.devRef .tc main_arg1) = m ((SparseCore.T d).loc main_arg1) :=
  ((keep13 m d main_arg1 (by decide)).trans ((keep12 m d main_arg1 (by decide)).trans ((keep11 m d main_arg1 (by decide)).trans ((keep10 m d main_arg1 (by decide)).trans ((keep9 m d main_arg1 (by decide)).trans ((keep8 m d main_arg1 (by decide)).trans ((keep7 m d main_arg1 (by decide)).trans ((keep6 m d main_arg1 (by decide)).trans ((keep5 m d main_arg1 (by decide)).trans ((keep4 m d main_arg1 (by decide) (by decide)).trans ((keep3 m d main_arg1 (by decide)).trans ((keep2 m d main_arg1 (by decide)).trans (keep1 m d main_arg1 (by decide) (by decide))))))))))))))
theorem W13_arg2 : W13 m d (Proc.devRef .tc main_arg2) = m ((SparseCore.T d).loc main_arg2) :=
  ((keep13 m d main_arg2 (by decide)).trans ((keep12 m d main_arg2 (by decide)).trans ((keep11 m d main_arg2 (by decide)).trans ((keep10 m d main_arg2 (by decide)).trans ((keep9 m d main_arg2 (by decide)).trans ((keep8 m d main_arg2 (by decide)).trans ((keep7 m d main_arg2 (by decide)).trans ((keep6 m d main_arg2 (by decide)).trans ((keep5 m d main_arg2 (by decide)).trans ((keep4 m d main_arg2 (by decide) (by decide)).trans ((keep3 m d main_arg2 (by decide)).trans ((keep2 m d main_arg2 (by decide)).trans (keep1 m d main_arg2 (by decide) (by decide))))))))))))))
theorem W13_arg3 : W13 m d (Proc.devRef .tc main_arg3) = m ((SparseCore.T d).loc main_arg3) :=
  ((keep13 m d main_arg3 (by decide)).trans ((keep12 m d main_arg3 (by decide)).trans ((keep11 m d main_arg3 (by decide)).trans ((keep10 m d main_arg3 (by decide)).trans ((keep9 m d main_arg3 (by decide)).trans ((keep8 m d main_arg3 (by decide)).trans ((keep7 m d main_arg3 (by decide)).trans ((keep6 m d main_arg3 (by decide)).trans ((keep5 m d main_arg3 (by decide)).trans ((keep4 m d main_arg3 (by decide) (by decide)).trans ((keep3 m d main_arg3 (by decide)).trans ((keep2 m d main_arg3 (by decide)).trans (keep1 m d main_arg3 (by decide) (by decide))))))))))))))
theorem W13_arg4 : W13 m d (Proc.devRef .tc main_arg4) = m ((SparseCore.T d).loc main_arg4) :=
  ((keep13 m d main_arg4 (by decide)).trans ((keep12 m d main_arg4 (by decide)).trans ((keep11 m d main_arg4 (by decide)).trans ((keep10 m d main_arg4 (by decide)).trans ((keep9 m d main_arg4 (by decide)).trans ((keep8 m d main_arg4 (by decide)).trans ((keep7 m d main_arg4 (by decide)).trans ((keep6 m d main_arg4 (by decide)).trans ((keep5 m d main_arg4 (by decide)).trans ((keep4 m d main_arg4 (by decide) (by decide)).trans ((keep3 m d main_arg4 (by decide)).trans ((keep2 m d main_arg4 (by decide)).trans (keep1 m d main_arg4 (by decide) (by decide))))))))))))))
theorem W13_arg5 : W13 m d (Proc.devRef .tc main_arg5) = m ((SparseCore.T d).loc main_arg5) :=
  ((keep13 m d main_arg5 (by decide)).trans ((keep12 m d main_arg5 (by decide)).trans ((keep11 m d main_arg5 (by decide)).trans ((keep10 m d main_arg5 (by decide)).trans ((keep9 m d main_arg5 (by decide)).trans ((keep8 m d main_arg5 (by decide)).trans ((keep7 m d main_arg5 (by decide)).trans ((keep6 m d main_arg5 (by decide)).trans ((keep5 m d main_arg5 (by decide)).trans ((keep4 m d main_arg5 (by decide) (by decide)).trans ((keep3 m d main_arg5 (by decide)).trans ((keep2 m d main_arg5 (by decide)).trans (keep1 m d main_arg5 (by decide) (by decide))))))))))))))
theorem W13_arg6 : W13 m d (Proc.devRef .tc main_arg6) = m ((SparseCore.T d).loc main_arg6) :=
  ((keep13 m d main_arg6 (by decide)).trans ((keep12 m d main_arg6 (by decide)).trans ((keep11 m d main_arg6 (by decide)).trans ((keep10 m d main_arg6 (by decide)).trans ((keep9 m d main_arg6 (by decide)).trans ((keep8 m d main_arg6 (by decide)).trans ((keep7 m d main_arg6 (by decide)).trans ((keep6 m d main_arg6 (by decide)).trans ((keep5 m d main_arg6 (by decide)).trans ((keep4 m d main_arg6 (by decide) (by decide)).trans ((keep3 m d main_arg6 (by decide)).trans ((keep2 m d main_arg6 (by decide)).trans (keep1 m d main_arg6 (by decide) (by decide))))))))))))))
theorem W13_arg7 : W13 m d (Proc.devRef .tc main_arg7) = m ((SparseCore.T d).loc main_arg7) :=
  ((keep13 m d main_arg7 (by decide)).trans ((keep12 m d main_arg7 (by decide)).trans ((keep11 m d main_arg7 (by decide)).trans ((keep10 m d main_arg7 (by decide)).trans ((keep9 m d main_arg7 (by decide)).trans ((keep8 m d main_arg7 (by decide)).trans ((keep7 m d main_arg7 (by decide)).trans ((keep6 m d main_arg7 (by decide)).trans ((keep5 m d main_arg7 (by decide)).trans ((keep4 m d main_arg7 (by decide) (by decide)).trans ((keep3 m d main_arg7 (by decide)).trans ((keep2 m d main_arg7 (by decide)).trans (keep1 m d main_arg7 (by decide) (by decide))))))))))))))

end Values

end Cert.KernelIdeal.Hand.Chain

end
-- ==== Proof.Hand.Launch.lean ====
/-
  The program as one run of the SparseCore launch theorem: two tile-kernel calls over the five TensorCore pipelines.
  The ghost state at the launch is the handshake cells' rounds beside the staging cells' rounds, each at round 0 with
  all its duties' tokens; the launch element splits into the two, and the staging cells' part funds every pipeline's
  cells and tokens on every device. What the handshakes carry is each call's arrays: the packed edge words and the
  histogram rows for the degree call, the words, the scaled features and the accumulated rows for the message call.
  On the TensorCore @main is walked statement by statement over the unscoped arrays held at a valuation: a region
  moves the valuation to what its pipeline leaves, a host operation to the operation's result, and a SparseCore call
  takes its arrays out of the held set, hands them to the SparseCores and puts them back with the result array at
  the tiles' folds. The last valuation is read off the final memory.
-/
import proofs.«207900_g17016660427224_cont_7to1_1372_35_alg».proof.Proof.Hand.Base
import proofs.«207900_g17016660427224_cont_7to1_1372_35_alg».proof.Proof.Hand.Sc0
import proofs.«207900_g17016660427224_cont_7to1_1372_35_alg».proof.Proof.Hand.Sc1
import proofs.«207900_g17016660427224_cont_7to1_1372_35_alg».proof.Proof.Hand.Steps
import proofs.«207900_g17016660427224_cont_7to1_1372_35_alg».proof.Proof.Hand.Chain
import Idealize.ShloMosaic.Lib.SparseCore.Launch
import Idealize.ShloMosaic.Lib.StableHlo.Run
import Idealize.ShloMosaic.Lib.Pipeline.Kit
import Idealize.ShloMosaic.Lib.Pipeline.Frame
import Idealize.ShloMosaic.Lib.Tactic

noncomputable section

namespace Cert.KernelIdeal.Hand.Launch

open Cert.KernelIdeal Cert.KernelIdeal.Gen
open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic

variable {F : FTy → Type}

local notation "𝕄" => MT nD τ sig (HIx 2) (Elt F) ℕ UU ℕ

/-! ## The launch element of the ghost state -/

/-- The launch element splits into the handshakes' rounds and the staging cells' rounds (the counters' unit is let go). -/
theorem ownU_split (a : UH) (b : UP) (c : Counters) :
    (ownU (a, (b, c)) : sProp 𝕄) ⊢ iprop(BI.own (EH a) ∗ BI.own (EP b)) := by
  iintro Hu
  ihave H := (ownU_pair _ _) $$ Hu
  icases H with ⟨HH, HR⟩
  ihave H2 := (own_pair_emb (embR : Emb (UP × Counters) 𝕄) b c) $$ HR
  icases H2 with ⟨HP, -⟩
  isplitl [HH]; · iexact HH
  iexact HP

/-- The launch element: every handshake cell and every staging cell at round 0 with all its duties' tokens. -/
def u₀ : UU :=
  (initOf (K (F := F)).hsCells (K (F := F)).hsToks,
    (initOf (Pipeline.cells (nD := nD) (τ := τ) cfgs cellOf_inj) (Pipeline.launchToks (nD := nD) (τ := τ) cfgs cellOf_inj), 1))

/-- What @main's proof starts from on device `d`: each pipeline's staging cells' ghost state and duties' tokens. -/
def G (d : Dev nD) : sProp 𝕄 :=
  bigSep (Finset.univ : Finset (Fin 5)) fun p =>
    iprop(Pipeline.cellsGhost (Pipeline.pin (pcfgs (F := F)) adm) EP p d ∗ Pipeline.toksInit (Pipeline.pin (pcfgs (F := F)) adm) EP p d)

theorem hu₀_core : (ownU (u₀ (F := F)) : sProp 𝕄)
    ⊢ |={Set.univ}=> iprop(BI.own (EH (initOf (K (F := F)).hsCells (K (F := F)).hsToks)) ∗ bigSep Finset.univ (G (F := F))) := by
  unfold u₀
  iintro Hu
  ihave H := (ownU_split _ _ _) $$ Hu
  icases H with ⟨HH, HP⟩
  imod (Pipeline.fund_ghost (nD := nD) (τ := τ) (Pipeline.pin (pcfgs (F := F)) adm) EP cellOf_inj) $$ HP with ⟨Hg, Ht⟩
  imodintro
  isplitl [HH]; · iexact HH
  unfold G
  rw [bigSep_congr (fun (d : Dev nD) _ => bigSep_sep' (Finset.univ : Finset (Fin 5)) _ _), bigSep_sep']
  isplitl [Hg]; · iexact Hg
  iexact Ht

/-! ## What the handshakes carry -/

variable [FloatOps F]

variable (ep : Dev nD → Vec F S160000 .i32) (gall : Dev nD → Vec F S32x10000 .f32)

/-- Call 0 carries the packed edge words and the histogram rows; call 1 the words, the scaled features and the
    accumulated rows. Neither kernel's proof consumes anything of the launch's. -/
def P : (K (F := F)).Pay (nD := nD) (Val := Elt F) (Name := ℕ) (U := UU) where
  st := fun q d => match q with
    | 0 => fun c => Sc0.st (ep d) d c
    | 1 => fun c => Sc1.st (ep d) (gall d) d c
  dn := fun q d => match q with
    | 0 => fun c => Sc0.dn (ep d) d c
    | 1 => fun c => Sc1.dn (ep d) (gall d) d c
  go := fun q d => match q with
    | 0 => fun c i => Sc0.go (ep d) d c i
    | 1 => fun c i => Sc1.go (ep d) (gall d) d c i
  td := fun q d => match q with
    | 0 => fun c i => Sc0.td (ep d) d c i
    | 1 => fun c i => Sc1.td (ep d) (gall d) d c i
  x := fun _ _ => iprop(emp)

instance P_storable : (P (F := F) ep gall).IsStorable where
  st q d := match q with
    | 0 => fun c => (inferInstance : BI.Storable (upEmb : UEmb _ 𝕄) (Sc0.st (ep d) d c))
    | 1 => fun c => (inferInstance : BI.Storable (upEmb : UEmb _ 𝕄) (Sc1.st (ep d) (gall d) d c))
  dn q d := match q with
    | 0 => fun c => (inferInstance : BI.Storable (upEmb : UEmb _ 𝕄) (Sc0.dn (ep d) d c))
    | 1 => fun c => (inferInstance : BI.Storable (upEmb : UEmb _ 𝕄) (Sc1.dn (ep d) (gall d) d c))
  go q d := match q with
    | 0 => fun c i => (inferInstance : BI.Storable (upEmb : UEmb _ 𝕄) (Sc0.go (ep d) d c i))
    | 1 => fun c i => (inferInstance : BI.Storable (upEmb : UEmb _ 𝕄) (Sc1.go (ep d) (gall d) d c i))
  td q d := match q with
    | 0 => fun c i => (inferInstance : BI.Storable (upEmb : UEmb _ 𝕄) (Sc0.td (ep d) d c i))
    | 1 => fun c i => (inferInstance : BI.Storable (upEmb : UEmb _ 𝕄) (Sc1.td (ep d) (gall d) d c i))

/-! ## The tile kernels' obligations -/

def coordsV1 (c : Fin (grid1.bound 0)) (s : Fin (grid1.bound 1)) : grid1.Coords :=
  fun | 0 => c | 1 => s | ⟨_ + 2, h⟩ => absurd h (Nat.not_lt.2 (Nat.le_add_left _ _))
def coordsV3 (c : Fin (grid3.bound 0)) (s : Fin (grid3.bound 1)) : grid3.Coords :=
  fun | 0 => c | 1 => s | ⟨_ + 2, h⟩ => absurd h (Nat.not_lt.2 (Nat.le_add_left _ _))

theorem defs₀_vector1 (c : Fin τ.nSC) (s : Fin τ.nSub) :
    defs₀ (F := F) (.scVector c s) 1 ()
      = SparseCore.onTile hcore1 hsub1 (fun c s => cc1__sc_deg (coordsV1 c s) (Memref.whole main_v1_scv) (Memref.isWhole_whole _) (Memref.whole main_v2_scv) (Memref.isWhole_whole _)
          (Memref.whole cc1_scratch0) (Memref.isWhole_whole _) (Memref.whole cc1_scratch1) (Memref.isWhole_whole _) cc1_scratch2 cc1_scoped0) ⟨⟩ c s := rfl

theorem defs₀_vector3 (c : Fin τ.nSC) (s : Fin τ.nSub) :
    defs₀ (F := F) (.scVector c s) 3 ()
      = SparseCore.onTile hcore3 hsub3 (fun c s => cc3__sc_msg (coordsV3 c s) (Memref.whole main_v1_scv) (Memref.isWhole_whole _) (Memref.whole main_v3_1_scv) (Memref.isWhole_whole _) (Memref.whole main_v4_scv) (Memref.isWhole_whole _)
          (Memref.whole cc3_scratch0) (Memref.isWhole_whole _) (Memref.whole cc3_scratch1) (Memref.isWhole_whole _) (Memref.whole cc3_scratch2) (Memref.isWhole_whole _) (Memref.whole cc3_scratch3) (Memref.isWhole_whole _)
          cc3_scratch4 cc3_scratch5 cc3_scratch6 cc3_scoped0) ⟨⟩ c s := rfl

omit [FloatOps F] in
theorem obl_post {thr : Thread nD τ} {A B C : sProp 𝕄} {O : CellTallies nD τ sig (HIx 2)} {W : Waits sig (HIx 2)} {q : Fin 2} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

theorem tileObl0 (hpre : ∀ d, Sc0.IdxOK (ep d)) : (K (F := F)).TileObl (D (F := F)) 𝒱 (P ep gall) v₀ 0 := by
  intro d c i O W hO _ _
  simp only [show (P ep gall).ox = fun _ _ => 0 from rfl, add_zero]
  change _ ⊢ wp _ _ _ (Pipeline.liftProg (defs₀ (F := F) (.scVector ((K (F := F)).core 0 c) ((K (F := F)).sub 0 i)) 1 ())) _
  refine BI.Entails.trans ?_ (Pipeline.wp_liftProg (D (F := F)) (Pipeline.defs_kernel pcfgs defs₀) 𝒱₀ _ Set.univ none _ _)
  have hc : ((K (F := F)).core 0 c).val < grid1.bound 0 ∧ ((K (F := F)).sub 0 i).val < grid1.bound 1 := ⟨c.isLt, i.isLt⟩
  rw [defs₀_vector1]; simp only [SparseCore.onTile, hc, and_self, ↓reduceDIte]
  exact (Sc0.tile_body (ep d) facts (hpre d) d (coordsV1 ⟨_, hc.1⟩ ⟨_, hc.2⟩) O W hO).trans (wp_mono frame _ _ fun _ => obl_post)

theorem tileObl1 (hpre : ∀ d, Sc1.IdxOK (ep d)) : (K (F := F)).TileObl (D (F := F)) 𝒱 (P ep gall) v₀ 1 := by
  intro d c i O W hO _ _
  simp only [show (P ep gall).ox = fun _ _ => 0 from rfl, add_zero]
  change _ ⊢ wp _ _ _ (Pipeline.liftProg (defs₀ (F := F) (.scVector ((K (F := F)).core 1 c) ((K (F := F)).sub 1 i)) 3 ())) _
  refine BI.Entails.trans ?_ (Pipeline.wp_liftProg (D (F := F)) (Pipeline.defs_kernel pcfgs defs₀) 𝒱₀ _ Set.univ none _ _)
  have hc : ((K (F := F)).core 1 c).val < grid3.bound 0 ∧ ((K (F := F)).sub 1 i).val < grid3.bound 1 := ⟨c.isLt, i.isLt⟩
  rw [defs₀_vector3]; simp only [SparseCore.onTile, hc, and_self, ↓reduceDIte]
  exact (Sc1.tile_body (ep d) (gall d) facts (hpre d) d (coordsV3 ⟨_, hc.1⟩ ⟨_, hc.2⟩) O W hO).trans (wp_mono frame _ _ fun _ => obl_post)

theorem vecSplit0 : (K (F := F)).VecSplit (P ep gall) 0 :=
  SparseCore.Cfg.VecSplit.of_plain fun d c => Sc0.vecSplit (ep d) d c
theorem vecSplit1 : (K (F := F)).VecSplit (P ep gall) 1 :=
  SparseCore.Cfg.VecSplit.of_plain fun d c => Sc1.vecSplit (ep d) (gall d) d c

/-! ## The TensorCore's arrays, held at a valuation -/

/-- The TensorCore's unscoped references: @main's arrays. -/
abbrev UC : Finset (DevRef τ sig) := Pipeline.ucRefs τ sig

abbrev v1' : DevRef τ sig := Proc.devRef .tc (main_v1 : Ref sig .tc)
abbrev v2' : DevRef τ sig := Proc.devRef .tc (main_v2 : Ref sig .tc)
abbrev v3_1' : DevRef τ sig := Proc.devRef .tc (main_v3_1 : Ref sig .tc)
abbrev v4' : DevRef τ sig := Proc.devRef .tc (main_v4 : Ref sig .tc)

omit [FloatOps F] in
theorem mem_uc (b : Ref sig .tc) (h : ¬ (Proc.devRef .tc b : DevRef τ sig).isScoped) : Proc.devRef .tc b ∈ UC :=
  Finset.mem_filter.mpr ⟨StableHlo.devRef_mem_tcRefs b, h⟩

omit [FloatOps F] in
/-- One array out of a held set. -/
theorem held_erase (d : Dev nD) {S : Finset (DevRef τ sig)} {b : DevRef τ sig} (hb : b ∈ S) (W : Valuation τ sig (Elt F)) :
    (held (T d) S W : sProp 𝕄) = iprop(((d, b) ↦{fullShare} W b) ∗ held (T d) (S.erase b) W) := by
  unfold held; exact SparseCore.bigSep_erase' hb

omit [FloatOps F] in
/-- The others do not see an update at it. -/
theorem held_update_erase (d : Dev nD) (S : Finset (DevRef τ sig)) (b : DevRef τ sig) (W : Valuation τ sig (Elt F)) (x : b.ty.Contents (Elt F)) :
    (held (T d) (S.erase b) (Function.update W b x) : sProp 𝕄) = held (T d) (S.erase b) W :=
  StableHlo.held_congr _ fun b' hb' => Function.update_of_ne (Finset.ne_of_mem_erase hb') _ _

omit [FloatOps F] in
/-- A held set at a valuation updated at one array: that array at the new contents, the others as they were. -/
theorem held_update (d : Dev nD) {S : Finset (DevRef τ sig)} {b : DevRef τ sig} (hb : b ∈ S) (W : Valuation τ sig (Elt F)) (x : b.ty.Contents (Elt F)) :
    (held (T d) S (Function.update W b x) : sProp 𝕄) = iprop(((d, b) ↦{fullShare} x) ∗ held (T d) (S.erase b) W) := by
  rw [held_erase d hb, Function.update_self, held_update_erase]

/-! ## The two SparseCore calls on the TensorCore -/

/-- What call 0 takes for the two SparseCores, from the whole arrays; and what it hands back, as whole arrays. -/
theorem st0_intro (d : Dev nD) :
    iprop((Sc0.epLoc d ↦{fullShare} ep d) ∗ ∃ f, Sc0.dgLoc d ↦{fullShare} f)
      ⊢ (bigSep Finset.univ fun c : Fin ((K (F := F)).nCore 0) => (P ep gall).st 0 d c : sProp 𝕄) := Sc0.st_intro (ep d) d
theorem dn0_elim (d : Dev nD) :
    (bigSep Finset.univ fun c : Fin ((K (F := F)).nCore 0) => (P ep gall).dn 0 d c : sProp 𝕄)
      ⊢ iprop((Sc0.epLoc d ↦{fullShare} ep d) ∗ Sc0.dgLoc d ↦{fullShare} Sc0.degP (ep d)) := Sc0.dn_elim (ep d) d
/-- The same of call 1. -/
theorem st1_intro (d : Dev nD) :
    iprop((Sc1.epLoc d ↦{fullShare} ep d) ∗ (Sc1.gLoc d ↦{fullShare} gall d) ∗ ∃ f, (SparseCore.T d).loc main_v4 ↦{fullShare} f)
      ⊢ (bigSep Finset.univ fun c : Fin ((K (F := F)).nCore 1) => (P ep gall).st 1 d c : sProp 𝕄) := Sc1.st_intro (ep d) (gall d) d
theorem dn1_elim (d : Dev nD) :
    (bigSep Finset.univ fun c : Fin ((K (F := F)).nCore 1) => (P ep gall).dn 1 d c : sProp 𝕄)
      ⊢ iprop((Sc1.epLoc d ↦{fullShare} ep d) ∗ (Sc1.gLoc d ↦{fullShare} gall d) ∗ (SparseCore.T d).loc main_v4 ↦{fullShare} Sc1.accT (ep d) (gall d)) := Sc1.dn_elim (ep d) (gall d) d

/-- Call 0: the packed words and the histogram array leave the held set for the SparseCores and come back, the
    histogram at the tiles' folds. -/
theorem run0 (κ : GSem nD τ sig → ℕ) (d : Dev nD) (W : Valuation τ sig (Elt F)) (hep : ep d = W v1') {Φ : PUnit → sProp 𝕄} :
    iprop((K (F := F)).ctx EH (P ep gall) κ ∗ (K (F := F)).tcSt EH d 0 ∗ held (T d) UC W
        ∗ (((K (F := F)).tcSt EH d 1 ∗ held (T d) UC (Function.update W v2' (Sc0.degP (W v1')))) -∗ Φ ⟨⟩))
      ⊢ wp frame (wpE ((K (F := F)).defs (D (F := F))) 𝒱 (T d) none) Set.univ ((K (F := F)).run d 0) Φ := by
  rw [← hep]
  have m2 : v2' ∈ UC := mem_uc main_v2 (by decide)
  have m1 : v1' ∈ UC.erase v2' := Finset.mem_erase.mpr ⟨StableHlo.devRef_ne_of_ne (by decide), mem_uc main_v1 (by decide)⟩
  have e1 : (((d, v1') : Loc nD τ sig) ↦{fullShare} W v1' : sProp 𝕄) = (Sc0.epLoc d ↦{fullShare} ep d) := by rw [hep]
  rw [held_update d m2, held_erase d m2, held_erase d m1, e1]
  iintro ⟨#Hctx, Hst, ⟨H2, H1, Hrest⟩, Hk⟩
  iapply ((K (F := F)).wp_run (D (F := F)) 𝒱 (EH := EH) (P := P ep gall) κ d 0) $$ [Hst H1 H2 Hrest Hk]
  isplitr; · iexact Hctx
  isplitl [Hst]; · iexact Hst
  isplitl [H1 H2]
  · iapply (st0_intro ep gall d)
    isplitl [H1]; · iexact H1
    iexists _; iexact H2
  iintro ⟨Hst, Hdn⟩
  ihave Hdn' := (dn0_elim ep gall d) $$ Hdn
  icases Hdn' with ⟨H1, H2⟩
  iapply Hk
  isplitl [Hst]; · iexact Hst
  isplitl [H2]; · iexact H2
  isplitl [H1]; · iexact H1
  iexact Hrest

/-- Call 1: the packed words, the scaled features and the accumulator array leave and come back, the accumulator at
    the tiles' sums. -/
theorem run1 (κ : GSem nD τ sig → ℕ) (d : Dev nD) (W : Valuation τ sig (Elt F)) (hep : ep d = W v1') (hg : gall d = W v3_1') {Φ : PUnit → sProp 𝕄} :
    iprop((K (F := F)).ctx EH (P ep gall) κ ∗ (K (F := F)).tcSt EH d 1 ∗ held (T d) UC W
        ∗ (((K (F := F)).tcSt EH d 2 ∗ held (T d) UC (Function.update W v4' (Sc1.accT (W v1') (W v3_1')))) -∗ Φ ⟨⟩))
      ⊢ wp frame (wpE ((K (F := F)).defs (D (F := F))) 𝒱 (T d) none) Set.univ ((K (F := F)).run d 1) Φ := by
  rw [← hep, ← hg]
  have m4 : v4' ∈ UC := mem_uc main_v4 (by decide)
  have m1 : v1' ∈ UC.erase v4' := Finset.mem_erase.mpr ⟨StableHlo.devRef_ne_of_ne (by decide), mem_uc main_v1 (by decide)⟩
  have m3 : v3_1' ∈ (UC.erase v4').erase v1' :=
    Finset.mem_erase.mpr ⟨StableHlo.devRef_ne_of_ne (by decide), Finset.mem_erase.mpr ⟨StableHlo.devRef_ne_of_ne (by decide), mem_uc main_v3_1 (by decide)⟩⟩
  have e1 : (((d, v1') : Loc nD τ sig) ↦{fullShare} W v1' : sProp 𝕄) = (Sc1.epLoc d ↦{fullShare} ep d) := by rw [hep]
  have e3 : (((d, v3_1') : Loc nD τ sig) ↦{fullShare} W v3_1' : sProp 𝕄) = (Sc1.gLoc d ↦{fullShare} gall d) := by rw [hg]
  rw [held_update d m4, held_erase d m4, held_erase d m1, held_erase d m3, e1, e3]
  iintro ⟨#Hctx, Hst, ⟨H4, H1, H3, Hrest⟩, Hk⟩
  iapply ((K (F := F)).wp_run (D (F := F)) 𝒱 (EH := EH) (P := P ep gall) κ d 1) $$ [Hst H1 H3 H4 Hrest Hk]
  isplitr; · iexact Hctx
  isplitl [Hst]; · iexact Hst
  isplitl [H1 H3 H4]
  · iapply (st1_intro ep gall d)
    isplitl [H1]; · iexact H1
    isplitl [H3]; · iexact H3
    iexists _; iexact H4
  iintro ⟨Hst, Hdn⟩
  ihave Hdn' := (dn1_elim ep gall d) $$ Hdn
  icases Hdn' with ⟨H1, H3, H4⟩
  iapply Hk
  isplitl [Hst]; · iexact Hst
  isplitl [H4]; · iexact H4
  isplitl [H1]; · iexact H1
  isplitl [H3]; · iexact H3
  iexact Hrest

/-! ## The launch element, whole; the final assertion read off the final memory -/

omit [FloatOps F] in
theorem bigSep_emp' {I : Type} (s : Finset I) : (bigSep s fun _ => iprop(emp)) = (iprop(emp) : sProp 𝕄) := bigSep_emp_const s

theorem hu₀ : (ownU (u₀ (F := F)) : sProp 𝕄)
    ⊢ |={Set.univ}=> iprop(BI.own (EH (initOf (K (F := F)).hsCells (K (F := F)).hsToks)) ∗ bigSep Finset.univ (G (F := F))
        ∗ bigSep Finset.univ fun thr : Thread nD τ => bigSep Finset.univ fun q : Fin 2 => (P ep gall).x q thr) := by
  iintro Hu
  imod (hu₀_core (F := F)) $$ Hu with ⟨HH, HG⟩
  imodintro
  isplitl [HH]; · iexact HH
  isplitl [HG]; · iexact HG
  unfold P; dsimp only
  rw [show (bigSep Finset.univ fun _ : Thread nD τ => bigSep Finset.univ fun _ : Fin 2 => (iprop(emp) : sProp 𝕄)) = iprop(emp) from by
    rw [bigSep_congr fun _ _ => bigSep_emp' _, bigSep_emp']]
  iempintro

variable (Wn : Dev nD → Valuation τ sig (Elt F))

/-- What @main leaves the claim: every array of the TensorCore at the last valuation. -/
abbrev FIN (d : Dev nD) : sProp 𝕄 := held (T d) UC (Wn d)

def fq (d : Dev nD) (s' : Phys nD τ sig (Elt F)) : Prop := ∀ b ∈ UC, s'.mem.mem (d, b) = Wn d b

omit [FloatOps F] in
theorem hfin (d : Dev nD) (s' : Phys nD τ sig (Elt F)) : iprop(FIN Wn d ∗ SI s') ⊢ (⌜fq Wn d s'⌝ : sProp 𝕄) := by
  unfold FIN held
  iintro ⟨H, HSI⟩
  ihave %h := (SI_pointsTo_bufs_agree (c := d) (qs := fun _ => fullShare) (F := Wn d) UC) $$ [HSI H]
  · isplitl [HSI]; · iexact HSI
    iexact H
  ipureintro
  exact h

/-! ## @main's host operations and the valuation after each statement -/

omit [FloatOps F] in
theorem pair_sub_uc {x y : Ref sig .tc} (hx : ¬ (Proc.devRef .tc x : DevRef τ sig).isScoped) (hy : ¬ (Proc.devRef .tc y : DevRef τ sig).isScoped) :
    ({Proc.devRef .tc x, Proc.devRef .tc y} : Finset (DevRef τ sig)) ⊆ UC := by
  intro b hb
  rcases Finset.mem_insert.mp hb with rfl | hb
  · exact mem_uc x hx
  · rw [Finset.mem_singleton.mp hb]; exact mem_uc y hy

theorem hsub1 : (Chain.opV1 (F := F)).bufs ⊆ UC := pair_sub_uc (x := main_v0_1) (y := main_v1) (by decide) (by decide)
theorem hsub5 : (Chain.opV5 (F := F)).bufs ⊆ UC := pair_sub_uc (x := main_arg3) (y := main_v5) (by decide) (by decide)
theorem hsub7 : (Chain.opV7 (F := F)).bufs ⊆ UC := pair_sub_uc (x := main_v6) (y := main_v7) (by decide) (by decide)
theorem hsub8 : (Chain.opV8 (F := F)).bufs ⊆ UC := pair_sub_uc (x := main_v7) (y := main_v8) (by decide) (by decide)
theorem hsub10 : (Chain.opV10 (F := F)).bufs ⊆ UC := pair_sub_uc (x := main_arg5) (y := main_v10) (by decide) (by decide)
theorem hsub11 : (Chain.opV11 (F := F)).bufs ⊆ UC := pair_sub_uc (x := main_arg7) (y := main_v11) (by decide) (by decide)

variable (m : (ℓ : Loc nD τ sig) → Buf (Elt F) ℓ) (ρ : Dev nD → PrngReg)

/-- The packed edge words both calls read (as the reshape left them), and the scaled features call 1 reads (as region 1
    left them). -/
def epOf (d : Dev nD) : Vec F S160000 .i32 := Chain.W2 m d v1'
def gallOf (d : Dev nD) : Vec F S32x10000 .f32 := Chain.W4 m d v3_1'

/-- The words are still in place at call 1: neither call 0 nor region 1 writes them. -/
theorem W4_v1 (d : Dev nD) : Chain.W4 m d v1' = Chain.W2 m d v1' := by
  unfold Chain.W4
  rw [Steps.next_1_of_ne _ _ d (Chain.W3 m d) main_v1 (by decide)]
  exact Function.update_of_ne (StableHlo.devRef_ne_of_ne (by decide)) _ _

/-! ## @main on the TensorCore -/

set_option maxHeartbeats 1600000 in
theorem hmain (κ : GSem nD τ sig → ℕ) (d : Dev nD) :
    iprop((K (F := F)).ctx EH (P (epOf m) (gallOf m)) κ ∗ (K (F := F)).tcSt EH d 0 ∗ (K (F := F)).tcRes m ρ d ∗ G (F := F) d)
      ⊢ wp frame (wpE ((K (F := F)).defs (D (F := F))) 𝒱 (SparseCore.T d) none) Set.univ (main d)
          fun _ => iprop((K (F := F)).tcSt EH d 2 ∗ FIN (Chain.W13 m) d) := by
  unfold SparseCore.Cfg.tcRes G
  rw [show unscopedBufs d (fun b => m ((SparseCore.T d).loc b)) = held (SparseCore.T d) UC (Chain.W0 m d) from Pipeline.unscopedBufs_held d (Chain.W0 m d),
    bigSep_W0]
  simp only [main, wp_bind, wp_pure]
  iintro ⟨#Hctx, Hst, ⟨Hb, Hh, -, Hp⟩, ⟨G0, G1, G2, G3, G4⟩⟩
  -- region 0
  iapply (Steps.region_step_0 (P (epOf m) (gallOf m)) κ d 0 (Chain.W0 m d) _) $$ [Hst Hb Hh Hp G0 G1 G2 G3 G4]
  isplitr; · iexact Hctx
  isplitl [Hb]; · iexact Hb
  isplitl [Hh]; · iexact Hh
  isplitl [Hp]; · iexists _; iexact Hp
  isplitl [Hst]; · iexact Hst
  isplitl [G0]; · iexact G0
  iintro ⟨Hb, Hh, Hp, Hst⟩
  -- the packed words reshaped
  iapply (Steps.host_step (Chain.opV1 (F := F)) hsub1 rfl d (Chain.W1 m d) _) $$ [Hst Hb Hh Hp G1 G2 G3 G4]
  isplitl [Hb]; · iexact Hb
  isplitl [Hh]; · iexact Hh
  iintro ⟨Hb, Hh⟩
  -- SparseCore call 0
  iapply (run0 (epOf m) (gallOf m) κ d (Chain.W2 m d) rfl) $$ [Hst Hb Hh Hp G1 G2 G3 G4]
  isplitr; · iexact Hctx
  isplitl [Hst]; · iexact Hst
  isplitl [Hh]; · iexact Hh
  iintro ⟨Hst, Hh⟩
  -- region 1
  iapply (Steps.region_step_1 (P (epOf m) (gallOf m)) κ d 1 (Chain.W3 m d) _) $$ [Hst Hb Hh Hp G1 G2 G3 G4]
  isplitr; · iexact Hctx
  isplitl [Hb]; · iexact Hb
  isplitl [Hh]; · iexact Hh
  isplitl [Hp]; · iexact Hp
  isplitl [Hst]; · iexact Hst
  isplitl [G1]; · iexact G1
  iintro ⟨Hb, Hh, Hp, Hst⟩
  -- SparseCore call 1
  iapply (run1 (epOf m) (gallOf m) κ d (Chain.W4 m d) (W4_v1 m d).symm rfl) $$ [Hst Hb Hh Hp G2 G3 G4]
  isplitr; · iexact Hctx
  isplitl [Hst]; · iexact Hst
  isplitl [Hh]; · iexact Hh
  iintro ⟨Hst, Hh⟩
  -- the bias reshaped
  iapply (Steps.host_step (Chain.opV5 (F := F)) hsub5 rfl d (Chain.W5 m d) _) $$ [Hst Hb Hh Hp G2 G3 G4]
  isplitl [Hb]; · iexact Hb
  isplitl [Hh]; · iexact Hh
  iintro ⟨Hb, Hh⟩
  -- region 2
  iapply (Steps.region_step_2 (P (epOf m) (gallOf m)) κ d 2 (Chain.W6 m d) _) $$ [Hst Hb Hh Hp G2 G3 G4]
  isplitr; · iexact Hctx
  isplitl [Hb]; · iexact Hb
  isplitl [Hh]; · iexact Hh
  isplitl [Hp]; · iexact Hp
  isplitl [Hst]; · iexact Hst
  isplitl [G2]; · iexact G2
  iintro ⟨Hb, Hh, Hp, Hst⟩
  -- the transpose and the reshape to one row
  iapply (Steps.host_step (Chain.opV7 (F := F)) hsub7 rfl d (Chain.W7 m d) _) $$ [Hst Hb Hh Hp G3 G4]
  isplitl [Hb]; · iexact Hb
  isplitl [Hh]; · iexact Hh
  iintro ⟨Hb, Hh⟩
  iapply (Steps.host_step (Chain.opV8 (F := F)) hsub8 rfl d (Chain.W8 m d) _) $$ [Hst Hb Hh Hp G3 G4]
  isplitl [Hb]; · iexact Hb
  isplitl [Hh]; · iexact Hh
  iintro ⟨Hb, Hh⟩
  -- region 3
  iapply (Steps.region_step_3 (P (epOf m) (gallOf m)) κ d 2 (Chain.W9 m d) _) $$ [Hst Hb Hh Hp G3 G4]
  isplitr; · iexact Hctx
  isplitl [Hb]; · iexact Hb
  isplitl [Hh]; · iexact Hh
  isplitl [Hp]; · iexact Hp
  isplitl [Hst]; · iexact Hst
  isplitl [G3]; · iexact G3
  iintro ⟨Hb, Hh, Hp, Hst⟩
  -- the second dense layer's biases reshaped
  iapply (Steps.host_step (Chain.opV10 (F := F)) hsub10 rfl d (Chain.W10 m d) _) $$ [Hst Hb Hh Hp G4]
  isplitl [Hb]; · iexact Hb
  isplitl [Hh]; · iexact Hh
  iintro ⟨Hb, Hh⟩
  iapply (Steps.host_step (Chain.opV11 (F := F)) hsub11 rfl d (Chain.W11 m d) _) $$ [Hst Hb Hh Hp G4]
  isplitl [Hb]; · iexact Hb
  isplitl [Hh]; · iexact Hh
  iintro ⟨Hb, Hh⟩
  -- region 4
  iapply (Steps.region_step_4 (P (epOf m) (gallOf m)) κ d 2 (Chain.W12 m d) _) $$ [Hst Hb Hh Hp G4]
  isplitr; · iexact Hctx
  isplitl [Hb]; · iexact Hb
  isplitl [Hh]; · iexact Hh
  isplitl [Hp]; · iexact Hp
  isplitl [Hst]; · iexact Hst
  isplitl [G4]; · iexact G4
  iintro ⟨-, Hh, -, Hst⟩
  imodintro
  isplitl [Hst]; · iexact Hst
  iexact Hh

/-! ## The program's run -/

/-- From a launch memory whose packed edge words (as @main's first region and reshape leave them) name nodes in range:
    every weakly fair execution of the device's threads terminates, nothing faulting, and the TensorCore's arrays end at
    the last valuation of the fold through @main. -/
theorem run_main [∀ e, Nonempty (Elt F e)] (hpre0 : ∀ d, Sc0.IdxOK (epOf m d)) (hpre1 : ∀ d, Sc1.IdxOK (epOf m d)) :
    θ_run (Cert.KernelIdeal.defs (F := F)) (Cert.KernelIdeal.threads (F := F)) ⟨m, fun _ => 0, ρ⟩
      (fun r => ∀ d : Dev nD, ∀ b ∈ UC, r.2.mem (d, b) = Chain.W13 m d b) :=
  SparseCore.Cfg.θ_run_sc (K := K (F := F)) (D := D (F := F)) (𝒱 := 𝒱) (EH := EH) (P := P (epOf m) (gallOf m)) facts v₀
    (fun q hq => match q with | 0 => nomatch hq | 1 => nomatch hq)
    (fun q _ => match q with | 0 => tileObl0 (epOf m) (gallOf m) hpre0 | 1 => tileObl1 (epOf m) (gallOf m) hpre1)
    (fun q _ => match q with | 0 => vecSplit0 (epOf m) (gallOf m) | 1 => vecSplit1 (epOf m) (gallOf m))
    m ρ main (G (F := F)) (FIN (Chain.W13 m)) (u₀ (F := F)) (sep_elim_left.trans (hu₀ (epOf m) (gallOf m))) (hmain m ρ)
    (fq (Chain.W13 m)) (hfin (Chain.W13 m)) _ (fun _ h => h)

end Cert.KernelIdeal.Hand.Launch

end
-- ==== Proof.Hand.Idx.lean ====
/-
  The index facts the two SparseCore calls need, from the range of the edge list. The host reshapes the first region's
  packed edge words from [1,160000] to [160000]: word j of the result is word (0, j) of the operand. When every word of
  the edge list is a node number, every packed word's low fourteen bits are its edge's destination and its arithmetic
  shift right by fourteen is its edge's source, both below 10000.
-/
import proofs.«207900_g17016660427224_cont_7to1_1372_35_alg».proof.Proof.Hand.R0Rd
import proofs.«207900_g17016660427224_cont_7to1_1372_35_alg».proof.Proof.Hand.Pre
import proofs.«207900_g17016660427224_cont_7to1_1372_35_alg».proof.Proof.Hand.Sc0
import proofs.«207900_g17016660427224_cont_7to1_1372_35_alg».proof.Proof.Hand.Sc1
import Idealize.ShloMosaic.Lib.Pipeline.Value
import Idealize.ShloMosaic.Lib.ValueLayout

noncomputable section

namespace Cert.KernelIdeal.Hand.Idx

open Cert.KernelIdeal Cert.KernelIdeal.Gen
open Idealize.ShloMosaic Idealize.ShloMosaic.ValueIdx

variable {F : FTy → Type} [FloatOps F]

/-! ## The host's reshape of the packed edge words -/

/-- The reshape's result function: the operand read in row-major order at the result's shape. -/
def rs (v : Vec F S1x160000 .i32) : Vec F S160000 .i32 := shapeCast S160000 v shapeCasts_S1x160000_S160000

/-- Word j of the result is word (0, j) of the operand. -/
theorem rs_apply (v : Vec F S1x160000 .i32) (j : Fin 160000) : rs v (ix1 j) = v (ix2 (0 : Fin 1) j) :=
  shapeCast_1a_a_apply v shapeCasts_S1x160000_S160000 j

/-! ## The two rows of the edge list, at an edge -/

/-- Column j of the destinations' row is entry (1, j) of the edge list, -/
theorem rowDst_idx (j : Fin 160000) : Pre.rowDst.idx (ix2 (0 : Fin 1) j) = ix2 (1 : Fin 2) j := by
  funext a
  apply Fin.ext
  match a with
  | ⟨0, _⟩ => show 1 + 1 * 0 = 1; omega
  | ⟨1, _⟩ => show 0 + 1 * j.val = j.val; omega

/-- and of the sources' row entry (0, j). -/
theorem rowSrc_idx (j : Fin 160000) : Pre.rowSrc.idx (ix2 (0 : Fin 1) j) = ix2 (0 : Fin 2) j := by
  funext a
  apply Fin.ext
  match a with
  | ⟨0, _⟩ => show 0 + 1 * 0 = 0; omega
  | ⟨1, _⟩ => show 0 + 1 * j.val = j.val; omega

/-! ## The packed words' fields -/

/-- The low fourteen bits of packed word j are edge j's destination. -/
theorem lo_eq (x0 : Vec F S10000x128 .f32) (x1 : Vec F S128x32 .f32) (x2 : IVec S2x160000 32)
    (h : ∀ i : S2x160000.Idx, 0 ≤ (x2 i).toInt ∧ (x2 i).toInt ≤ 9999) (j : Fin 160000) :
    IntOp.andi (rs (R0.out_4 (F := F) x0 x1 x2) (ix1 j)) 16383#32 = x2 (ix2 (1 : Fin 2) j) := by
  rw [rs_apply]
  exact ((R0.out_4_ok (F := F) x0 x1 x2 h (ix2 (0 : Fin 1) j)).1.1).trans (congrArg x2 (rowDst_idx j))

/-- The arithmetic shift right by fourteen of packed word j is edge j's source. -/
theorem hi_eq (x0 : Vec F S10000x128 .f32) (x1 : Vec F S128x32 .f32) (x2 : IVec S2x160000 32)
    (h : ∀ i : S2x160000.Idx, 0 ≤ (x2 i).toInt ∧ (x2 i).toInt ≤ 9999) (j : Fin 160000) :
    IntOp.shrsi .vector (rs (R0.out_4 (F := F) x0 x1 x2) (ix1 j)) 14#32 = x2 (ix2 (0 : Fin 2) j) := by
  rw [rs_apply]
  exact ((R0.out_4_ok (F := F) x0 x1 x2 h (ix2 (0 : Fin 1) j)).2.1).trans (congrArg x2 (rowSrc_idx j))

/-- Every packed word's destination field names a node: what the degree call needs. -/
theorem idxOK0 (x0 : Vec F S10000x128 .f32) (x1 : Vec F S128x32 .f32) (x2 : IVec S2x160000 32)
    (h : ∀ i : S2x160000.Idx, 0 ≤ (x2 i).toInt ∧ (x2 i).toInt ≤ 9999) : Sc0.IdxOK (F := F) (rs (R0.out_4 (F := F) x0 x1 x2)) := fun j => by
  obtain ⟨j0, rfl⟩ : ∃ j0 : Fin 160000, j = ix1 j0 := ⟨j 0, eq_ix1 j⟩
  rw [rs_apply]
  exact (R0.out_4_ok (F := F) x0 x1 x2 h (ix2 (0 : Fin 1) j0)).1.2

/-- Every packed word's two fields name nodes: what the message call needs. -/
theorem idxOK1 (x0 : Vec F S10000x128 .f32) (x1 : Vec F S128x32 .f32) (x2 : IVec S2x160000 32)
    (h : ∀ i : S2x160000.Idx, 0 ≤ (x2 i).toInt ∧ (x2 i).toInt ≤ 9999) : Sc1.IdxOK (F := F) (rs (R0.out_4 (F := F) x0 x1 x2)) := fun j => by
  obtain ⟨j0, rfl⟩ : ∃ j0 : Fin 160000, j = ix1 j0 := ⟨j 0, eq_ix1 j⟩
  rw [rs_apply]
  exact ⟨(R0.out_4_ok (F := F) x0 x1 x2 h (ix2 (0 : Fin 1) j0)).1.2, (R0.out_4_ok (F := F) x0 x1 x2 h (ix2 (0 : Fin 1) j0)).2.2⟩

end Cert.KernelIdeal.Hand.Idx

end
-- ==== Proof.Hand.Spec.lean ====
/-
  The result of the graph-convolution network as ONE mathematical function of its eight argument
  arrays, over the extended reals, index by index.

  For node features x : [10000,128], an edge list e : [2,160000] of 32-bit words (row 0 the source node,
  row 1 the destination node of each edge), a convolution weight Wg : [128,32] with bias bg : [32], and two
  dense layers W1 : [320000,128], b1 : [128], W2 : [128,10000], b2 : [10000]:

    xw n h   = Σ_k x[n,k] · Wg[k,h]
    deg n    = 1 + Σ_j [dst j = n]                       (the self loop counts once)
    dinv n   = 1 / √(deg n)
    agg n h  = Σ_j [dst j = n] xw (src j) h · (dinv (src j) · dinv n)  +  xw n h · (dinv n · dinv n)  +  bg h
    h1 n h   = max (agg n h) 0
    h3 k     = max (Σ_c h1 (c / 32) (c % 32) · W1[c,k] + b1 k) 0        (c runs over the 320000 flattened pairs)
    G k'     = max (Σ_k h3 k · W2[k,k'] + b2 k') 0
-/
import Idealize.ShloMosaic.PureOps.Ideal
import Idealize.ShloMosaic.Lib.ValueIdx

noncomputable section

open scoped BigOperators

namespace Cert.KernelIdeal.Hand.Spec

open Idealize.ShloMosaic Idealize.ShloMosaic.ValueIdx

/-- The node a word names: its value as a natural number, kept below the node count. -/
def node (w : BitVec 32) : Fin 10000 := ⟨min w.toNat 9999, by omega⟩

/-- A word below the node count names the node of that number. -/
theorem node_val_of_lt {w : BitVec 32} (h : w.toNat < 10000) : (node w).val = w.toNat := by
  show min w.toNat 9999 = w.toNat
  omega

/-- The source word of edge `j`: row 0 of the edge list. -/
def srcW (e : (⟨2, ![2, 160000]⟩ : Shape).Idx → BitVec 32) (j : Fin 160000) : BitVec 32 := e (ix2 (0 : Fin 2) j)
/-- The destination word of edge `j`: row 1 of the edge list. -/
def dstW (e : (⟨2, ![2, 160000]⟩ : Shape).Idx → BitVec 32) (j : Fin 160000) : BitVec 32 := e (ix2 (1 : Fin 2) j)

/-- The source node of edge `j`. -/
def src (e : (⟨2, ![2, 160000]⟩ : Shape).Idx → BitVec 32) (j : Fin 160000) : Fin 10000 := node (srcW e j)
/-- The destination of edge `j`, as a natural number. -/
def dst (e : (⟨2, ![2, 160000]⟩ : Shape).Idx → BitVec 32) (j : Fin 160000) : ℕ := (dstW e j).toNat

variable (x : (⟨2, ![10000, 128]⟩ : Shape).Idx → EReal) (e : (⟨2, ![2, 160000]⟩ : Shape).Idx → BitVec 32)
  (Wg : (⟨2, ![128, 32]⟩ : Shape).Idx → EReal) (bg : (⟨1, ![32]⟩ : Shape).Idx → EReal)
  (W1 : (⟨2, ![320000, 128]⟩ : Shape).Idx → EReal) (b1 : (⟨1, ![128]⟩ : Shape).Idx → EReal)
  (W2 : (⟨2, ![128, 10000]⟩ : Shape).Idx → EReal) (b2 : (⟨1, ![10000]⟩ : Shape).Idx → EReal)

/-- The features times the convolution weight. -/
def xw (n : Fin 10000) (h : Fin 32) : EReal := ∑ k : Fin 128, x (ix2 n k) * Wg (ix2 k h)

/-- The degree of node `n`: one for its self loop, and one per edge that ends at it. -/
def deg (n : Fin 10000) : EReal := 1 + ∑ j : Fin 160000, if dst e j = n.val then (1 : EReal) else 0

/-- The reciprocal square root of the degree. -/
def dinv (n : Fin 10000) : EReal := Ideal.rsqrt (deg e n)

/-- The symmetrically normalised sum over the edges that end at `n`, then the self loop's term, then the bias. -/
def agg (n : Fin 10000) (h : Fin 32) : EReal :=
  (∑ j : Fin 160000, if dst e j = n.val then xw x Wg (src e j) h * (dinv e (src e j) * dinv e n) else 0)
    + xw x Wg n h * (dinv e n * dinv e n) + bg (ix1 h)

/-- The convolution layer's output. -/
def h1 (n : Fin 10000) (h : Fin 32) : EReal := max (agg x e Wg bg n h) 0

/-- The convolution layer's output flattened row by row: entry `c` is node `c / 32`, feature `c % 32`. -/
def h1flat (c : Fin 320000) : EReal :=
  h1 x e Wg bg ⟨c.val / 32, by have := c.isLt; omega⟩ ⟨c.val % 32, Nat.mod_lt _ (by norm_num)⟩

/-- The first dense layer. -/
def h3 (k : Fin 128) : EReal :=
  max ((∑ c : Fin 320000, h1flat x e Wg bg c * W1 (ix2 c k)) + b1 (ix1 k)) 0

/-- The network's output: the second dense layer. -/
def G : (⟨2, ![1, 10000]⟩ : Shape).Idx → EReal := fun i =>
  max ((∑ k : Fin 128, h3 x e Wg bg W1 b1 k * W2 (ix2 k (i 1))) + b2 (ix1 (i 1))) 0

/-- A degree is at least one: a sum of ones and zeros is not negative. -/
theorem one_le_deg (n : Fin 10000) : 1 ≤ deg e n := by
  unfold deg
  have h0 : (0 : EReal) ≤ ∑ j : Fin 160000, if dst e j = n.val then (1 : EReal) else 0 :=
    Finset.sum_nonneg fun j _ => by split_ifs <;> norm_num
  exact le_add_of_nonneg_right h0

/-- The word of the float one is the real one. -/
theorem ofBits_one : Ideal.ofBits .f32 0x3F800000#32 = 1 := by
  simp [Ideal.ofBits, Ideal.ieee, -EReal.coe_mul]; norm_num

end Cert.KernelIdeal.Hand.Spec

end
-- ==== Proof.Hand.Ref.lean ====
/-
  The reference computation read as the network's mathematical function: the index operations it is made of (gathers and
  scatter-adds by node numbers, the edge list joined with one self loop per node) read at an index, then every stage of
  the computation at an index, down to the statement that the last stage is the specification's function of the
  argument arrays whenever every word of the edge list is a node number.
-/
import proofs.«207900_g17016660427224_cont_7to1_1372_35_alg».proof.Proof.ReadP
import proofs.«207900_g17016660427224_cont_7to1_1372_35_alg».proof.Defs
import proofs.«207900_g17016660427224_cont_7to1_1372_35_alg».proof.Proof.Gen.Pre_input_domain
import proofs.«207900_g17016660427224_cont_7to1_1372_35_alg».proof.Proof.Hand.Spec

noncomputable section

open scoped BigOperators

namespace Cert.ReferenceIdeal.Hand

open Cert.ReferenceIdeal Cert.ReferenceIdeal.Read Idealize.ShloMosaic Idealize.SL.Sem Idealize.ShloMosaic.ValueIdx
open Cert.KernelIdeal.Hand

/-! ## Sums over index sets -/

/-- A rank-1 index set is its coordinate's range … -/
def idxEquiv1 {n : Nat} : (⟨1, ![n]⟩ : Shape).Idx ≃ Fin n where
  toFun i := i 0
  invFun a := ix1 a
  left_inv i := (eq_ix1 i).symm
  right_inv _ := rfl

/-- … so a sum over it is the sum over the coordinate. -/
theorem sum_idx1 {M : Type*} [AddCommMonoid M] {n : Nat} (f : (⟨1, ![n]⟩ : Shape).Idx → M) :
    ∑ i, f i = ∑ a : Fin n, f (ix1 a) := by
  rw [← Equiv.sum_comp (idxEquiv1 (n := n)).symm f]
  rfl

/-- A sum over the edge list followed by one self loop per node: the edges' part, then the loops' part. -/
theorem sum_split {M : Type*} [AddCommMonoid M] (f : Fin 170000 → M) :
    ∑ a : Fin 170000, f a
      = ∑ j : Fin 160000, f ⟨j.val, by omega⟩ + ∑ l : Fin 10000, f ⟨160000 + l.val, by omega⟩ :=
  Fin.sum_univ_add (a := 160000) (b := 10000) (f : Fin (160000 + 10000) → M)

/-- A sum over all nodes of a term that vanishes off node `n` is the term at `n`. -/
theorem sum_loop {M : Type*} [AddCommMonoid M] (n : Fin 10000) (g : Fin 10000 → M) :
    (∑ l : Fin 10000, if l.val = n.val then g l else 0) = g n := by
  rw [Finset.sum_eq_single n]
  · rw [if_pos rfl]
  · intro b _ hb; rw [if_neg (fun h => hb (Fin.ext h))]
  · intro h; exact absurd (Finset.mem_univ n) h

/-! ## The extended reals -/

/-- The coercion of a finite sum of reals is the sum of the coercions. -/
theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A count of ones and zeros with one added is a real number that is at least one. -/
theorem one_add_count {ι : Type*} [Fintype ι] (p : ι → Prop) [DecidablePred p] :
    ∃ r : ℝ, 1 ≤ r ∧ (1 + ∑ j : ι, if p j then (1 : EReal) else 0) = (r : EReal) := by
  refine ⟨1 + ∑ j : ι, if p j then (1 : ℝ) else 0, ?_, ?_⟩
  · exact le_add_of_nonneg_right (Finset.sum_nonneg fun j _ => by split_ifs <;> norm_num)
  · rw [EReal.coe_add, coe_sum]
    congr 1
    refine Finset.sum_congr rfl fun j _ => ?_
    split_ifs <;> simp

/-- For a real number that is at least one, "its reciprocal square root where it is positive, else zero" is its
    reciprocal square root. -/
theorem where_pos_eq_rsqrt {r : ℝ} (h : 1 ≤ r) :
    Scalar.select (Ideal.cmp .ogt (r : EReal) 0) (Ideal.div 1 (Ideal.sqrt (r : EReal))) (0 : EReal)
      = Ideal.rsqrt (r : EReal) := by
  have hr0 : 0 < r := by linarith
  have hs : 0 < Real.sqrt r := Real.sqrt_pos.mpr hr0
  have hc : Ideal.cmp .ogt (r : EReal) 0 = 1#1 := by
    show BitVec.ofBool (decide ((0 : EReal) < (r : EReal))) = 1#1
    rw [decide_eq_true (by exact_mod_cast hr0)]
    rfl
  rw [hc, select_one, Ideal.sqrt_coe, if_neg (not_lt.mpr hr0.le), Ideal.rsqrt_coe, if_neg (not_lt.mpr hr0.le),
    if_neg hr0.ne', Ideal.div_coe hs.ne', one_mul, one_div]

variable [Facts]

/-- A word read as a signed number and kept inside the node range. -/
def clampNode (w : BitVec 32) : Fin 10000 := ⟨min w.toInt.toNat 9999, by omega⟩

/-- The index word of entry `j` of a column of index words. -/
abbrev colIdx (j : Fin 170000) : S170000x1.Idx := ix2 j (0 : Fin 1)

/-- Gathering entries of a vector by a column of node numbers reads the vector at the clamped number. -/
theorem gather1_apply {α : Type} (x : S10000.Idx → α) (idx : IVec S170000x1 32) (j : S170000.Idx) :
    Host.gather gather_S10000_S170000x1_S170000_n_0_n_n_0_1_1 x idx j = x (ix1 (clampNode (idx (colIdx (j 0))))) := by
  unfold Host.gather
  congr 1
  funext a
  obtain rfl : a = 0 := Subsingleton.elim _ _
  refine Fin.ext ?_
  show gather_S10000_S170000x1_S170000_n_0_n_n_0_1_1.start j idx 0
      + gather_S10000_S170000x1_S170000_n_0_n_n_0_1_1.batchCoord j 0
      + gather_S10000_S170000x1_S170000_n_0_n_n_0_1_1.offCoord j 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ gather_S10000_S170000x1_S170000_n_0_n_n_0_1_1.startIndexMap from List.mem_singleton.mpr rfl)]
  have hsi : gather_S10000_S170000x1_S170000_n_0_n_n_0_1_1.siIdx j
      ⟨List.idxOf (0 : Fin 1) gather_S10000_S170000x1_S170000_n_0_n_n_0_1_1.startIndexMap,
        List.idxOf_lt_length_iff.2 (List.mem_singleton.mpr rfl)⟩ = colIdx (j 0) := by
    funext b; refine Fin.ext ?_
    match b with
    | ⟨0, _⟩ => rfl
    | ⟨1, _⟩ => rfl
  rw [hsi]
  rfl

/-- Gathering rows of a table by a column of node numbers reads the table's row at the clamped number. -/
theorem gather2_apply {α : Type} (x : S10000x32.Idx → α) (idx : IVec S170000x1 32) (j : S170000x32.Idx) :
    Host.gather gather_S10000x32_S170000x1_S170000x32_1_0_n_n_0_1_132 x idx j
      = x (ix2 (clampNode (idx (colIdx (j 0)))) (j 1)) := by
  unfold Host.gather
  congr 1
  funext a
  refine Fin.ext ?_
  show gather_S10000x32_S170000x1_S170000x32_1_0_n_n_0_1_132.start j idx a
      + gather_S10000x32_S170000x1_S170000x32_1_0_n_n_0_1_132.batchCoord j a
      + gather_S10000x32_S170000x1_S170000x32_1_0_n_n_0_1_132.offCoord j a = _
  rw [GatherDims.batchCoord_eq_zero _ _ _ List.not_mem_nil]
  simp only [Nat.add_zero]
  match a with
  | ⟨0, _⟩ =>
    rw [GatherDims.offCoord_eq_zero _ _ _ (fun h => ((GatherDims.mem_sKept _ _).mp h).1 (List.mem_singleton.mpr rfl))]
    simp only [Nat.add_zero]
    unfold GatherDims.start
    rw [dif_pos (show (⟨0, by decide⟩ : Fin 2) ∈ gather_S10000x32_S170000x1_S170000x32_1_0_n_n_0_1_132.startIndexMap
      from List.mem_singleton.mpr rfl)]
    have hsi : gather_S10000x32_S170000x1_S170000x32_1_0_n_n_0_1_132.siIdx j
        ⟨List.idxOf (⟨0, by decide⟩ : Fin 2) gather_S10000x32_S170000x1_S170000x32_1_0_n_n_0_1_132.startIndexMap,
          List.idxOf_lt_length_iff.2 (List.mem_singleton.mpr rfl)⟩ = colIdx (j 0) := by
      funext b; refine Fin.ext ?_
      match b with
      | ⟨0, _⟩ => rfl
      | ⟨1, _⟩ => rfl
    rw [hsi]
    rfl
  | ⟨1, _⟩ =>
    have hs : gather_S10000x32_S170000x1_S170000x32_1_0_n_n_0_1_132.start j idx 1 = 0 := by
      unfold GatherDims.start
      exact dif_neg (show ¬ (1 : Fin 2) ∈ ([0] : List (Fin 2)) by decide)
    have ho : gather_S10000x32_S170000x1_S170000x32_1_0_n_n_0_1_132.offCoord j 1 = (j 1).val := by
      unfold GatherDims.offCoord
      exact (dif_pos (show (1 : Fin 2) ∈ S10000x32.kept (([0] : List (Fin 2)) ++ []) by decide)).trans rfl
    show gather_S10000x32_S170000x1_S170000x32_1_0_n_n_0_1_132.start j idx 1
      + gather_S10000x32_S170000x1_S170000x32_1_0_n_n_0_1_132.offCoord j 1 = (j 1).val
    rw [hs, ho, Nat.zero_add]

/-! ## Node numbers as words -/

/-- A word below the node count read as a signed number is its value as a natural number. -/
theorem toInt_of_lt {w : BitVec 32} (h : w.toNat < 10000) : w.toInt = (w.toNat : ℤ) := by
  rw [BitVec.toInt_eq_toNat_cond, if_pos (by have : (2 : ℕ) ^ 32 = 4294967296 := by norm_num
                                             omega)]

/-- A word below the node count is not negative, so wrapping negative numbers around leaves it alone. -/
theorem wrap_eq {w : BitVec 32} (h : w.toNat < 10000) :
    Scalar.select (IntOp.cmpi .slt w 0#32) (IntOp.addi w 10000#32) w = w := by
  have hc : IntOp.cmpi .slt w 0#32 = 0#1 := by
    show BitVec.ofBool (w.slt 0#32) = 0#1
    have hf : w.slt 0#32 = false := by
      simp [BitVec.slt, toInt_of_lt h]
    rw [hf]; rfl
  rw [hc, select_zero]

/-- The clamped signed reading of a word below the node count is the node of that number. -/
theorem clampNode_val {w : BitVec 32} (h : w.toNat < 10000) : (clampNode w).val = w.toNat := by
  show min w.toInt.toNat 9999 = w.toNat
  rw [toInt_of_lt h, Int.toNat_natCast]
  omega

/-- The word of a node number is below the node count. -/
theorem ofNat_toNat (l : Fin 10000) : (BitVec.ofNat 32 l.val).toNat = l.val := by
  rw [BitVec.toNat_ofNat]
  exact Nat.mod_eq_of_lt (by have := l.isLt; have : (2 : ℕ) ^ 32 = 4294967296 := by norm_num
                             omega)

/-- A word below the node count, read signed, is node `n`'s number exactly when its value is. -/
theorem toInt_eq_iff {w : BitVec 32} (h : w.toNat < 10000) (n : ℕ) : w.toInt = (n : ℤ) ↔ w.toNat = n := by
  rw [toInt_of_lt h]; exact Nat.cast_inj

/-! ## The scatter-add by node numbers -/

/-- An update of a vector scatter lands on entry `i` exactly when its index word, read signed, is `i`'s number. -/
theorem scatter1_resultIdx (idx : IVec S170000x1 32) (j : S170000.Idx) (i : S10000.Idx) :
    scatter_S10000_S170000x1_S170000_n_0_0_1.resultIdx? j idx = some i
      ↔ (idx (colIdx (j 0))).toInt = ((i 0).val : ℤ) := by
  have hs : scatter_S10000_S170000x1_S170000_n_0_0_1.start j idx 0 = (idx (colIdx (j 0))).toInt := by
    unfold ScatterDims.start
    rw [dif_pos (show (0 : Fin 1) ∈ scatter_S10000_S170000x1_S170000_n_0_0_1.scatterDimsToOperandDims
      from List.mem_singleton.mpr rfl)]
    have hsi : scatter_S10000_S170000x1_S170000_n_0_0_1.siIdx j
        ⟨List.idxOf (0 : Fin 1) scatter_S10000_S170000x1_S170000_n_0_0_1.scatterDimsToOperandDims,
          List.idxOf_lt_length_iff.2 (List.mem_singleton.mpr rfl)⟩ = colIdx (j 0) := by
      funext b; refine Fin.ext ?_
      match b with
      | ⟨0, _⟩ => rfl
      | ⟨1, _⟩ => rfl
    rw [hsi]
  have hw : scatter_S10000_S170000x1_S170000_n_0_0_1.window j 0 = 0 := by
    unfold ScatterDims.window
    exact dif_neg (show ¬ (0 : Fin 1) ∈ S10000.kept ([0] : List (Fin 1)) by decide)
  have hi : (i 0).val < 10000 := (i 0).isLt
  unfold ScatterDims.resultIdx?
  constructor
  · intro h
    split at h
    · rename_i hall
      have h2 := congrArg (fun f : S10000.Idx => (f 0).val) (Option.some.inj h)
      have h3 := hall 0
      simp only [hs, hw, Nat.cast_zero, add_zero] at h2 h3
      omega
    · exact absurd h (by simp)
  · intro hv
    have hall : ∀ a, 0 ≤ scatter_S10000_S170000x1_S170000_n_0_0_1.start j idx a
          + scatter_S10000_S170000x1_S170000_n_0_0_1.window j a
        ∧ scatter_S10000_S170000x1_S170000_n_0_0_1.start j idx a
          + scatter_S10000_S170000x1_S170000_n_0_0_1.window j a < S10000.size a := by
      intro a
      obtain rfl : a = 0 := Subsingleton.elim _ _
      rw [hs, hw, hv]
      show (0 : ℤ) ≤ ((i 0).val : ℤ) + ((0 : ℕ) : ℤ) ∧ ((i 0).val : ℤ) + ((0 : ℕ) : ℤ) < ((10000 : ℕ) : ℤ)
      omega
    rw [dif_pos hall]
    congr 1
    funext a
    obtain rfl : a = 0 := Subsingleton.elim _ _
    refine Fin.ext ?_
    show (scatter_S10000_S170000x1_S170000_n_0_0_1.start j idx 0
      + scatter_S10000_S170000x1_S170000_n_0_0_1.window j 0).toNat = (i 0).val
    rw [hs, hw, hv]
    simp

/-- An update of a table scatter lands on entry `i` exactly when its index word, read signed, is `i`'s row and
    its column is `i`'s column. -/
theorem scatter2_resultIdx (idx : IVec S170000x1 32) (j : S170000x32.Idx) (i : S10000x32.Idx) :
    scatter_S10000x32_S170000x1_S170000x32_1_0_0_1.resultIdx? j idx = some i
      ↔ (idx (colIdx (j 0))).toInt = ((i 0).val : ℤ) ∧ j 1 = i 1 := by
  have hs0 : scatter_S10000x32_S170000x1_S170000x32_1_0_0_1.start j idx 0 = (idx (colIdx (j 0))).toInt := by
    unfold ScatterDims.start
    rw [dif_pos (show (0 : Fin 2) ∈ scatter_S10000x32_S170000x1_S170000x32_1_0_0_1.scatterDimsToOperandDims
      from List.mem_singleton.mpr rfl)]
    have hsi : scatter_S10000x32_S170000x1_S170000x32_1_0_0_1.siIdx j
        ⟨List.idxOf (0 : Fin 2) scatter_S10000x32_S170000x1_S170000x32_1_0_0_1.scatterDimsToOperandDims,
          List.idxOf_lt_length_iff.2 (List.mem_singleton.mpr rfl)⟩ = colIdx (j 0) := by
      funext b; refine Fin.ext ?_
      match b with
      | ⟨0, _⟩ => rfl
      | ⟨1, _⟩ => rfl
    rw [hsi]
  have hs1 : scatter_S10000x32_S170000x1_S170000x32_1_0_0_1.start j idx 1 = 0 := by
    unfold ScatterDims.start
    exact dif_neg (show ¬ (1 : Fin 2) ∈ ([0] : List (Fin 2)) by decide)
  have hw0 : scatter_S10000x32_S170000x1_S170000x32_1_0_0_1.window j 0 = 0 := by
    unfold ScatterDims.window
    exact dif_neg (show ¬ (0 : Fin 2) ∈ S10000x32.kept ([0] : List (Fin 2)) by decide)
  have hw1 : scatter_S10000x32_S170000x1_S170000x32_1_0_0_1.window j 1 = (j 1).val := by
    unfold ScatterDims.window
    exact (dif_pos (show (1 : Fin 2) ∈ S10000x32.kept ([0] : List (Fin 2)) by decide)).trans rfl
  have hi0 : (i 0).val < 10000 := (i 0).isLt
  have hi1 : (i 1).val < 32 := (i 1).isLt
  have hj1 : (j 1).val < 32 := (j 1).isLt
  unfold ScatterDims.resultIdx?
  constructor
  · intro h
    split at h
    · rename_i hall
      have h20 := congrArg (fun f : S10000x32.Idx => (f 0).val) (Option.some.inj h)
      have h21 := congrArg (fun f : S10000x32.Idx => (f 1).val) (Option.some.inj h)
      have h3 := hall 0
      simp only [hs0, hw0, hs1, hw1, Nat.cast_zero, add_zero, zero_add] at h20 h21 h3
      refine ⟨by omega, Fin.ext ?_⟩
      simpa using h21
    · exact absurd h (by simp)
  · rintro ⟨hv, hc⟩
    have hall : ∀ a, 0 ≤ scatter_S10000x32_S170000x1_S170000x32_1_0_0_1.start j idx a
          + scatter_S10000x32_S170000x1_S170000x32_1_0_0_1.window j a
        ∧ scatter_S10000x32_S170000x1_S170000x32_1_0_0_1.start j idx a
          + scatter_S10000x32_S170000x1_S170000x32_1_0_0_1.window j a < S10000x32.size a := by
      intro a
      match a with
      | ⟨0, _⟩ =>
        show (0 : ℤ) ≤ scatter_S10000x32_S170000x1_S170000x32_1_0_0_1.start j idx 0
            + scatter_S10000x32_S170000x1_S170000x32_1_0_0_1.window j 0
          ∧ scatter_S10000x32_S170000x1_S170000x32_1_0_0_1.start j idx 0
            + scatter_S10000x32_S170000x1_S170000x32_1_0_0_1.window j 0 < ((10000 : ℕ) : ℤ)
        rw [hs0, hw0, hv]; omega
      | ⟨1, _⟩ =>
        show (0 : ℤ) ≤ scatter_S10000x32_S170000x1_S170000x32_1_0_0_1.start j idx 1
            + scatter_S10000x32_S170000x1_S170000x32_1_0_0_1.window j 1
          ∧ scatter_S10000x32_S170000x1_S170000x32_1_0_0_1.start j idx 1
            + scatter_S10000x32_S170000x1_S170000x32_1_0_0_1.window j 1 < ((32 : ℕ) : ℤ)
        rw [hs1, hw1]; omega
    rw [dif_pos hall]
    congr 1
    funext a
    refine Fin.ext ?_
    match a with
    | ⟨0, _⟩ =>
      show (scatter_S10000x32_S170000x1_S170000x32_1_0_0_1.start j idx 0
        + scatter_S10000x32_S170000x1_S170000x32_1_0_0_1.window j 0).toNat = (i 0).val
      rw [hs0, hw0, hv]; simp
    | ⟨1, _⟩ =>
      show (scatter_S10000x32_S170000x1_S170000x32_1_0_0_1.start j idx 1
        + scatter_S10000x32_S170000x1_S170000x32_1_0_0_1.window j 1).toNat = (i 1).val
      rw [hs1, hw1, hc]; simp

/-- The scatter-add at the extended reals: the operand's entry plus the sum of the updates that land on it. -/
theorem scatterAdd_apply {s si u : Shape} {w : Nat} (d : ScatterDims s si u) (x : FVec Ideal s .f32) (idx : IVec si w)
    (upd : FVec Ideal u .f32) (i : s.Idx) :
    Host.scatterAdd (F := Ideal) d x idx upd i
      = x i + ∑ j ∈ Finset.univ.filter (fun j => d.resultIdx? j idx = some i), upd j := rfl

/-! ## The edge list followed by the self loops -/

/-- An entry of the joined list among the first 160000 is the edge list's entry. -/
theorem concat_edge {α : Type} (x₁ : S160000.Idx → α) (x₂ : S10000.Idx → α) (j : Fin 160000) :
    concatenate S170000 0 [⟨S160000, x₁⟩, ⟨S10000, x₂⟩] Facts₀.concatenates_S160000_S10000_S170000_d0
        (ix1 (⟨j.val, by omega⟩ : Fin 170000)) = x₁ (ix1 j) :=
  concatenate_pair_apply_left (t := S170000) 0 x₁ x₂ Facts₀.concatenates_S160000_S10000_S170000_d0
    (ix1 (⟨j.val, by omega⟩ : Fin 170000)) rfl (ix1 j) (fun b => by
    obtain rfl : b = 0 := Subsingleton.elim _ _
    rfl)

/-- An entry of the joined list after the first 160000 is the self loops' entry. -/
theorem concat_loop {α : Type} (x₁ : S160000.Idx → α) (x₂ : S10000.Idx → α) (l : Fin 10000) :
    concatenate S170000 0 [⟨S160000, x₁⟩, ⟨S10000, x₂⟩] Facts₀.concatenates_S160000_S10000_S170000_d0
        (ix1 (⟨160000 + l.val, by omega⟩ : Fin 170000)) = x₂ (ix1 l) :=
  concatenate_pair_apply_right (t := S170000) 0 x₁ x₂ Facts₀.concatenates_S160000_S10000_S170000_d0
    (ix1 (⟨160000 + l.val, by omega⟩ : Fin 170000)) rfl rfl (ix1 l) (fun b hb => by
    obtain rfl : b = 0 := Subsingleton.elim _ _
    exact absurd rfl hb) (by
    show l.val + 160000 = 160000 + l.val
    omega)

/-! ## The reference, stage by stage -/

/-- Entry `j` of the edge list inside the list of edges followed by self loops. -/
abbrev edgeIx (j : Fin 160000) : Fin 170000 := ⟨j.val, by omega⟩
/-- The self loop of node `l` inside the list of edges followed by self loops. -/
abbrev loopIx (l : Fin 10000) : Fin 170000 := ⟨160000 + l.val, by omega⟩

/-- The clamped signed reading of a word below the node count is the node it names. -/
theorem clampNode_node {w : BitVec 32} (h : w.toNat < 10000) : clampNode w = Spec.node w :=
  Fin.ext (by rw [clampNode_val h, Spec.node_val_of_lt h])

/-- The clamped signed reading of a node number's word is the node. -/
theorem clampNode_ofNat (l : Fin 10000) : clampNode (BitVec.ofNat 32 l.val) = l :=
  Fin.ext (by rw [clampNode_val (by rw [ofNat_toNat]; exact l.isLt), ofNat_toNat])

/-- A sum over one row of a table of a term that vanishes off column `h` is the term at `h`. -/
theorem sum_col {M : Type*} [AddCommMonoid M] (P : Prop) [Decidable P] (h : Fin 32) (f : Fin 32 → M) :
    (∑ h' : Fin 32, if P ∧ h' = h then f h' else 0) = if P then f h else 0 := by
  rw [Finset.sum_eq_single h]
  · by_cases hp : P
    · rw [if_pos ⟨hp, rfl⟩, if_pos hp]
    · rw [if_neg (fun hh => hp hh.1), if_neg hp]
  · intro b _ hb; rw [if_neg (fun hh => hb hh.2)]
  · intro hh; exact absurd (Finset.mem_univ h) hh

section Stages

variable (x0 : (⟨S10000x128, .f32⟩ : BufTy).Contents (Elt Ideal)) (e : (⟨S2x160000, .i32⟩ : BufTy).Contents (Elt Ideal))
  (x2 : (⟨S128x32, .f32⟩ : BufTy).Contents (Elt Ideal)) (x3 : (⟨S32, .f32⟩ : BufTy).Contents (Elt Ideal))
  (x4 : (⟨S320000x128, .f32⟩ : BufTy).Contents (Elt Ideal)) (x5 : (⟨S128, .f32⟩ : BufTy).Contents (Elt Ideal))
  (x6 : (⟨S128x10000, .f32⟩ : BufTy).Contents (Elt Ideal)) (x7 : (⟨S10000, .f32⟩ : BufTy).Contents (Elt Ideal))

/-! ### The source and destination words of the edges and of the self loops -/

theorem v3_edge (j : Fin 160000) : val_main_v3 (F := Ideal) e (ix1 (edgeIx j)) = Spec.srcW e j := by
  unfold val_main_v3
  rw [concat_edge (val_main_v2 (F := Ideal) e) (val_main_v0 (F := Ideal)) j, val_main_v2_apply, val_main_v1_apply]
  show e _ = e _
  congr 1
  funext a
  match a with
  | ⟨0, _⟩ => rfl
  | ⟨1, _⟩ => exact Fin.ext (Nat.mod_eq_of_lt j.isLt)

theorem v3_loop (l : Fin 10000) : val_main_v3 (F := Ideal) e (ix1 (loopIx l)) = BitVec.ofNat 32 l.val := by
  unfold val_main_v3
  rw [concat_loop (val_main_v2 (F := Ideal) e) (val_main_v0 (F := Ideal)) l]
  rfl

theorem v6_edge (j : Fin 160000) : val_main_v6 (F := Ideal) e (ix1 (edgeIx j)) = Spec.dstW e j := by
  unfold val_main_v6
  rw [concat_edge (val_main_v5 (F := Ideal) e) (val_main_v0 (F := Ideal)) j, val_main_v5_apply, val_main_v4_apply]
  show e _ = e _
  congr 1
  funext a
  match a with
  | ⟨0, _⟩ => rfl
  | ⟨1, _⟩ => exact Fin.ext (Nat.mod_eq_of_lt j.isLt)

theorem v6_loop (l : Fin 10000) : val_main_v6 (F := Ideal) e (ix1 (loopIx l)) = BitVec.ofNat 32 l.val := by
  unfold val_main_v6
  rw [concat_loop (val_main_v5 (F := Ideal) e) (val_main_v0 (F := Ideal)) l]
  rfl

/-! ### Wrapping negative numbers around leaves node numbers alone -/

theorem v12_eq (i : S170000.Idx) (h : BitVec.toNat (val_main_v6 (F := Ideal) e i) < 10000) :
    val_main_v12 (F := Ideal) e i = val_main_v6 (F := Ideal) e i := by
  rw [val_main_v12_apply, val_main_v9_apply, val_main_v11_apply, val_main_v8_apply, val_main_c_apply,
    val_main_v10_apply, val_main_c_0_apply]
  exact wrap_eq h

theorem v26_eq (i : S170000.Idx) (h : BitVec.toNat (val_main_v3 (F := Ideal) e i) < 10000) :
    val_main_v26 (F := Ideal) e i = val_main_v3 (F := Ideal) e i := by
  rw [val_main_v26_apply, val_main_v23_apply, val_main_v25_apply, val_main_v22_apply, val_main_c_5_apply,
    val_main_v24_apply, val_main_c_6_apply]
  exact wrap_eq h

theorem v33_eq (i : S170000.Idx) (h : BitVec.toNat (val_main_v6 (F := Ideal) e i) < 10000) :
    val_main_v33 (F := Ideal) e i = val_main_v6 (F := Ideal) e i := by
  rw [val_main_v33_apply, val_main_v30_apply, val_main_v32_apply, val_main_v29_apply, val_main_c_7_apply,
    val_main_v31_apply, val_main_c_8_apply]
  exact wrap_eq h

theorem v42_eq (i : S170000.Idx) (h : BitVec.toNat (val_main_v3 (F := Ideal) e i) < 10000) :
    val_main_v42 (F := Ideal) e i = val_main_v3 (F := Ideal) e i := by
  rw [val_main_v42_apply, val_main_v39_apply, val_main_v41_apply, val_main_v38_apply, val_main_c_9_apply,
    val_main_v40_apply, val_main_c_10_apply]
  exact wrap_eq h

theorem v53_eq (i : S170000.Idx) (h : BitVec.toNat (val_main_v6 (F := Ideal) e i) < 10000) :
    val_main_v53 (F := Ideal) e i = val_main_v6 (F := Ideal) e i := by
  rw [val_main_v53_apply, val_main_v50_apply, val_main_v52_apply, val_main_v49_apply, val_main_c_12_apply,
    val_main_v51_apply, val_main_c_13_apply]
  exact wrap_eq h

/-! ### The columns of index words -/

theorem idx13 (a : Fin 170000) : idx_main_v13 (colIdx a) = ix1 a := by
  funext d
  match d with
  | ⟨0, _⟩ => rfl

theorem v13_edge (hE : ∀ i, BitVec.toNat (e i) < 10000) (j : Fin 160000) :
    val_main_v13 (F := Ideal) e (colIdx (edgeIx j)) = Spec.dstW e j := by
  rw [val_main_v13_apply, idx13, v12_eq e (ix1 (edgeIx j)) (by rw [v6_edge]; exact hE _), v6_edge]

theorem v13_loop (l : Fin 10000) :
    val_main_v13 (F := Ideal) e (colIdx (loopIx l)) = BitVec.ofNat 32 l.val := by
  rw [val_main_v13_apply, idx13, v12_eq e (ix1 (loopIx l)) (by rw [v6_loop, ofNat_toNat]; exact l.isLt), v6_loop]

theorem idx27 (a : Fin 170000) : idx_main_v27 (colIdx a) = ix1 a := by
  funext d
  match d with
  | ⟨0, _⟩ => rfl

theorem v27_edge (hE : ∀ i, BitVec.toNat (e i) < 10000) (j : Fin 160000) :
    val_main_v27 (F := Ideal) e (colIdx (edgeIx j)) = Spec.srcW e j := by
  rw [val_main_v27_apply, idx27, v26_eq e (ix1 (edgeIx j)) (by rw [v3_edge]; exact hE _), v3_edge]

theorem v27_loop (l : Fin 10000) :
    val_main_v27 (F := Ideal) e (colIdx (loopIx l)) = BitVec.ofNat 32 l.val := by
  rw [val_main_v27_apply, idx27, v26_eq e (ix1 (loopIx l)) (by rw [v3_loop, ofNat_toNat]; exact l.isLt), v3_loop]

theorem idx34 (a : Fin 170000) : idx_main_v34 (colIdx a) = ix1 a := by
  funext d
  match d with
  | ⟨0, _⟩ => rfl

theorem v34_edge (hE : ∀ i, BitVec.toNat (e i) < 10000) (j : Fin 160000) :
    val_main_v34 (F := Ideal) e (colIdx (edgeIx j)) = Spec.dstW e j := by
  rw [val_main_v34_apply, idx34, v33_eq e (ix1 (edgeIx j)) (by rw [v6_edge]; exact hE _), v6_edge]

theorem v34_loop (l : Fin 10000) :
    val_main_v34 (F := Ideal) e (colIdx (loopIx l)) = BitVec.ofNat 32 l.val := by
  rw [val_main_v34_apply, idx34, v33_eq e (ix1 (loopIx l)) (by rw [v6_loop, ofNat_toNat]; exact l.isLt), v6_loop]

theorem idx43 (a : Fin 170000) : idx_main_v43 (colIdx a) = ix1 a := by
  funext d
  match d with
  | ⟨0, _⟩ => rfl

theorem v43_edge (hE : ∀ i, BitVec.toNat (e i) < 10000) (j : Fin 160000) :
    val_main_v43 (F := Ideal) e (colIdx (edgeIx j)) = Spec.srcW e j := by
  rw [val_main_v43_apply, idx43, v42_eq e (ix1 (edgeIx j)) (by rw [v3_edge]; exact hE _), v3_edge]

theorem v43_loop (l : Fin 10000) :
    val_main_v43 (F := Ideal) e (colIdx (loopIx l)) = BitVec.ofNat 32 l.val := by
  rw [val_main_v43_apply, idx43, v42_eq e (ix1 (loopIx l)) (by rw [v3_loop, ofNat_toNat]; exact l.isLt), v3_loop]

theorem idx54 (a : Fin 170000) : idx_main_v54 (colIdx a) = ix1 a := by
  funext d
  match d with
  | ⟨0, _⟩ => rfl

theorem v54_edge (hE : ∀ i, BitVec.toNat (e i) < 10000) (j : Fin 160000) :
    val_main_v54 (F := Ideal) e (colIdx (edgeIx j)) = Spec.dstW e j := by
  rw [val_main_v54_apply, idx54, v53_eq e (ix1 (edgeIx j)) (by rw [v6_edge]; exact hE _), v6_edge]

theorem v54_loop (l : Fin 10000) :
    val_main_v54 (F := Ideal) e (colIdx (loopIx l)) = BitVec.ofNat 32 l.val := by
  rw [val_main_v54_apply, idx54, v53_eq e (ix1 (loopIx l)) (by rw [v6_loop, ofNat_toNat]; exact l.isLt), v6_loop]

/-! ### The degree and its reciprocal square root -/

theorem v15_eq (hE : ∀ i, BitVec.toNat (e i) < 10000) (n : Fin 10000) :
    val_main_v15 (F := Ideal) e (ix1 n) = Spec.deg e n := by
  refine (scatterAdd_apply _ _ _ _ _).trans ?_
  rw [Finset.sum_filter, sum_idx1 (n := 170000), sum_split]
  rw [val_main_v7_apply, val_main_cst_apply, Ideal.ofBits_def, Ideal.ofBits_zero_f32, zero_add]
  unfold Spec.deg
  rw [add_comm (1 : EReal)]
  refine congrArg₂ (fun u v : EReal => u + v) ?_ ?_
  · refine Finset.sum_congr rfl fun j _ => ?_
    refine if_congr ?_ ?_ rfl
    · refine (scatter1_resultIdx _ _ _).trans ?_
      show (val_main_v13 (F := Ideal) e (colIdx (edgeIx j))).toInt = ((n.val : ℕ) : ℤ) ↔ _
      rw [v13_edge e hE]
      exact toInt_eq_iff (hE _) n.val
    · rw [val_main_v14_apply, val_main_cst_1_apply, Ideal.ofBits_def, Spec.ofBits_one]
  · refine Eq.trans (Finset.sum_congr rfl fun l _ => ?_) (sum_loop n (fun _ => (1 : EReal)))
    show _ = if l.val = n.val then (1 : EReal) else 0
    refine if_congr ?_ ?_ rfl
    · refine (scatter1_resultIdx _ _ _).trans ?_
      show (val_main_v13 (F := Ideal) e (colIdx (loopIx l))).toInt = ((n.val : ℕ) : ℤ) ↔ _
      have hl : (BitVec.ofNat 32 l.val).toNat < 10000 := by rw [ofNat_toNat]; exact l.isLt
      rw [v13_loop, toInt_eq_iff hl, ofNat_toNat]
    · rw [val_main_v14_apply, val_main_cst_1_apply, Ideal.ofBits_def, Spec.ofBits_one]

theorem v21_eq (hE : ∀ i, BitVec.toNat (e i) < 10000) (n : Fin 10000) :
    val_main_v21 (F := Ideal) e (ix1 n) = Spec.dinv e n := by
  rw [val_main_v21_apply, val_main_v17_apply, val_main_v20_apply, val_main_v18_apply, val_main_v19_apply,
    val_main_cst_3_apply, val_main_v16_apply, val_main_cst_2_apply, val_main_call0_v1_apply,
    val_main_call0_v0_apply, val_main_cst_4_apply, v15_eq e hE n]
  obtain ⟨r, hr, hd⟩ := one_add_count (fun j : Fin 160000 => Spec.dst e j = n.val)
  have hdeg : Spec.deg e n = (r : EReal) := hd
  unfold Spec.dinv
  rw [hdeg]
  simp only [Ideal.ofBits_def, Ideal.ofBits_zero_f32, Spec.ofBits_one]
  exact where_pos_eq_rsqrt hr

/-! ### The gathers -/

theorem v28_edge (hE : ∀ i, BitVec.toNat (e i) < 10000) (j : Fin 160000) :
    val_main_v28 (F := Ideal) e (ix1 (edgeIx j)) = Spec.dinv e (Spec.src e j) := by
  refine (gather1_apply _ _ _).trans ?_
  show val_main_v21 (F := Ideal) e (ix1 (clampNode (val_main_v27 (F := Ideal) e (colIdx (edgeIx j))))) = _
  rw [v27_edge e hE, clampNode_node (w := Spec.srcW e j) (hE _)]
  exact v21_eq e hE (Spec.src e j)

theorem v28_loop (hE : ∀ i, BitVec.toNat (e i) < 10000) (l : Fin 10000) :
    val_main_v28 (F := Ideal) e (ix1 (loopIx l)) = Spec.dinv e l := by
  refine (gather1_apply _ _ _).trans ?_
  show val_main_v21 (F := Ideal) e (ix1 (clampNode (val_main_v27 (F := Ideal) e (colIdx (loopIx l))))) = _
  rw [v27_loop, clampNode_ofNat]
  exact v21_eq e hE l

theorem v35_edge (hE : ∀ i, BitVec.toNat (e i) < 10000) (j : Fin 160000) :
    val_main_v35 (F := Ideal) e (ix1 (edgeIx j)) = Spec.dinv e (Spec.node (Spec.dstW e j)) := by
  refine (gather1_apply _ _ _).trans ?_
  show val_main_v21 (F := Ideal) e (ix1 (clampNode (val_main_v34 (F := Ideal) e (colIdx (edgeIx j))))) = _
  rw [v34_edge e hE, clampNode_node (w := Spec.dstW e j) (hE _)]
  exact v21_eq e hE _

theorem v35_loop (hE : ∀ i, BitVec.toNat (e i) < 10000) (l : Fin 10000) :
    val_main_v35 (F := Ideal) e (ix1 (loopIx l)) = Spec.dinv e l := by
  refine (gather1_apply _ _ _).trans ?_
  show val_main_v21 (F := Ideal) e (ix1 (clampNode (val_main_v34 (F := Ideal) e (colIdx (loopIx l))))) = _
  rw [v34_loop, clampNode_ofNat]
  exact v21_eq e hE l

theorem v37_eq (n : Fin 10000) (h : Fin 32) : val_main_v37 (F := Ideal) x0 x2 (ix2 n h) = Spec.xw x0 x2 n h := by
  rw [val_main_v37_apply]
  unfold Spec.xw
  refine Finset.sum_congr rfl fun k _ => ?_
  have h1 : lidx_main_v37 (ix2 n h) k = ix2 n k :=
    funext fun a => Fin.ext (by match a with | ⟨0, _⟩ => rfl | ⟨1, _⟩ => rfl)
  have h2 : ridx_main_v37 (ix2 n h) k = ix2 k h :=
    funext fun a => Fin.ext (by match a with | ⟨0, _⟩ => rfl | ⟨1, _⟩ => rfl)
  rw [h1, h2]

theorem v44_edge (hE : ∀ i, BitVec.toNat (e i) < 10000) (j : Fin 160000) (h : Fin 32) :
    val_main_v44 (F := Ideal) x0 e x2 (ix2 (edgeIx j) h) = Spec.xw x0 x2 (Spec.src e j) h := by
  refine (gather2_apply _ _ _).trans ?_
  show val_main_v37 (F := Ideal) x0 x2 (ix2 (clampNode (val_main_v43 (F := Ideal) e (colIdx (edgeIx j)))) h) = _
  rw [v43_edge e hE, clampNode_node (w := Spec.srcW e j) (hE _)]
  exact v37_eq x0 x2 (Spec.src e j) h

theorem v44_loop (l : Fin 10000) (h : Fin 32) :
    val_main_v44 (F := Ideal) x0 e x2 (ix2 (loopIx l) h) = Spec.xw x0 x2 l h := by
  refine (gather2_apply _ _ _).trans ?_
  show val_main_v37 (F := Ideal) x0 x2 (ix2 (clampNode (val_main_v43 (F := Ideal) e (colIdx (loopIx l)))) h) = _
  rw [v43_loop, clampNode_ofNat]
  exact v37_eq x0 x2 l h

/-! ### The messages -/

theorem v46_eq (a : Fin 170000) (h : Fin 32) :
    val_main_v46 (F := Ideal) e (ix2 a h)
      = val_main_v28 (F := Ideal) e (ix1 a) * val_main_v35 (F := Ideal) e (ix1 a) := by
  rw [val_main_v46_apply, val_main_v45_apply]
  have hi : idx_main_v45 (idx_main_v46 (ix2 a h)) = ix1 a := by
    funext d
    match d with
    | ⟨0, _⟩ => rfl
  rw [hi, val_main_v36_apply]
  rfl

theorem v47_edge (hE : ∀ i, BitVec.toNat (e i) < 10000) (j : Fin 160000) (h : Fin 32) :
    val_main_v47 (F := Ideal) x0 e x2 (ix2 (edgeIx j) h)
      = Spec.xw x0 x2 (Spec.src e j) h * (Spec.dinv e (Spec.src e j) * Spec.dinv e (Spec.node (Spec.dstW e j))) := by
  rw [val_main_v47_apply, v44_edge x0 e x2 hE, v46_eq, v28_edge e hE, v35_edge e hE]
  rfl

theorem v47_loop (hE : ∀ i, BitVec.toNat (e i) < 10000) (l : Fin 10000) (h : Fin 32) :
    val_main_v47 (F := Ideal) x0 e x2 (ix2 (loopIx l) h)
      = Spec.xw x0 x2 l h * (Spec.dinv e l * Spec.dinv e l) := by
  rw [val_main_v47_apply, v44_loop x0 e x2, v46_eq, v28_loop e hE, v35_loop e hE]
  rfl

/-! ### The scatter-add of the messages, the bias and the rectifier -/

theorem v55_eq (hE : ∀ i, BitVec.toNat (e i) < 10000) (n : Fin 10000) (h : Fin 32) :
    val_main_v55 (F := Ideal) x0 e x2 (ix2 n h)
      = (∑ j : Fin 160000, if Spec.dst e j = n.val
            then Spec.xw x0 x2 (Spec.src e j) h * (Spec.dinv e (Spec.src e j) * Spec.dinv e n) else 0)
          + Spec.xw x0 x2 n h * (Spec.dinv e n * Spec.dinv e n) := by
  refine (scatterAdd_apply _ _ _ _ _).trans ?_
  rw [Finset.sum_filter, sum_idx2 (n0 := 170000) (n1 := 32)]
  rw [val_main_v48_apply, val_main_cst_11_apply, Ideal.ofBits_def, Ideal.ofBits_zero_f32, zero_add]
  have hrow : ∀ a : Fin 170000,
      (∑ h' : Fin 32, if scatter_S10000x32_S170000x1_S170000x32_1_0_0_1.resultIdx? (ix2 a h')
            (val_main_v54 (F := Ideal) e) = some (ix2 n h)
          then val_main_v47 (F := Ideal) x0 e x2 (ix2 a h') else 0)
        = if (val_main_v54 (F := Ideal) e (colIdx a)).toInt = ((n.val : ℕ) : ℤ)
          then val_main_v47 (F := Ideal) x0 e x2 (ix2 a h) else 0 := by
    intro a
    rw [← sum_col ((val_main_v54 (F := Ideal) e (colIdx a)).toInt = ((n.val : ℕ) : ℤ)) h
      (fun h' => val_main_v47 (F := Ideal) x0 e x2 (ix2 a h'))]
    refine Finset.sum_congr rfl fun h' _ => ?_
    refine if_congr ?_ rfl rfl
    exact scatter2_resultIdx _ _ _
  rw [Finset.sum_congr rfl fun a _ => hrow a, sum_split]
  refine congrArg₂ (fun u v : EReal => u + v) ?_ ?_
  · refine Finset.sum_congr rfl fun j _ => ?_
    show (if (val_main_v54 (F := Ideal) e (colIdx (edgeIx j))).toInt = ((n.val : ℕ) : ℤ)
      then val_main_v47 (F := Ideal) x0 e x2 (ix2 (edgeIx j) h) else 0) = _
    rw [v54_edge e hE, v47_edge x0 e x2 hE]
    by_cases hc : Spec.dst e j = n.val
    · have hn : Spec.node (Spec.dstW e j) = n := Fin.ext (by rw [Spec.node_val_of_lt (w := Spec.dstW e j) (hE _)]; exact hc)
      rw [if_pos (show (Spec.dstW e j).toInt = ((n.val : ℕ) : ℤ) from (toInt_eq_iff (hE _) n.val).mpr hc), if_pos hc, hn]
    · rw [if_neg (show ¬ (Spec.dstW e j).toInt = ((n.val : ℕ) : ℤ) from
        fun hh => hc ((toInt_eq_iff (hE _) n.val).mp hh)), if_neg hc]
  · refine Eq.trans (Finset.sum_congr rfl fun l _ => ?_)
      (sum_loop n (fun l => Spec.xw x0 x2 l h * (Spec.dinv e l * Spec.dinv e l)))
    show (if (val_main_v54 (F := Ideal) e (colIdx (loopIx l))).toInt = ((n.val : ℕ) : ℤ)
      then val_main_v47 (F := Ideal) x0 e x2 (ix2 (loopIx l) h) else 0)
      = if l.val = n.val then Spec.xw x0 x2 l h * (Spec.dinv e l * Spec.dinv e l) else 0
    rw [v54_loop, v47_loop x0 e x2 hE]
    refine if_congr ?_ rfl rfl
    have hl : (BitVec.ofNat 32 l.val).toNat < 10000 := by rw [ofNat_toNat]; exact l.isLt
    rw [toInt_eq_iff hl, ofNat_toNat]

theorem v59_eq (hE : ∀ i, BitVec.toNat (e i) < 10000) (n : Fin 10000) (h : Fin 32) :
    val_main_v59 (F := Ideal) x0 e x2 x3 (ix2 n h) = Spec.h1 x0 e x2 x3 n h := by
  rw [val_main_v59_apply, val_main_v58_apply, v55_eq x0 e x2 hE, val_main_v57_apply, val_main_v56_apply,
    val_main_call1_v0_apply, val_main_call1_cst_apply, Ideal.ofBits_def, Ideal.ofBits_zero_f32]
  have hi : idx_main_v56 (idx_main_v57 (ix2 n h)) = ix1 h := by
    funext d
    match d with
    | ⟨0, _⟩ => rfl
  rw [hi]
  rfl

/-! ### The two dense layers -/

theorem v60_eq (hE : ∀ i, BitVec.toNat (e i) < 10000) (c : Fin 320000) :
    val_main_v60 (F := Ideal) x0 e x2 x3 (ix2 (0 : Fin 1) c) = Spec.h1flat x0 e x2 x3 c := by
  rw [val_main_v60_apply]
  have hi : idx_main_v60 (ix2 (0 : Fin 1) c)
      = ix2 (⟨c.val / 32, by have := c.isLt; omega⟩ : Fin 10000) (⟨c.val % 32, Nat.mod_lt _ (by norm_num)⟩ : Fin 32) :=
    funext fun a => Fin.ext (by
      match a with
      | ⟨0, _⟩ => show (0 * 320000 + c.val) / 32 = c.val / 32; omega
      | ⟨1, _⟩ => show (0 * 320000 + c.val) % 32 = c.val % 32; omega)
  rw [hi]
  exact v59_eq x0 e x2 x3 hE _ _

theorem v64_eq (hE : ∀ i, BitVec.toNat (e i) < 10000) (k : Fin 128) :
    val_main_v64 (F := Ideal) x0 e x2 x3 x4 x5 (ix2 (0 : Fin 1) k) = Spec.h3 x0 e x2 x3 x4 x5 k := by
  rw [val_main_v64_apply, val_main_v63_apply, val_main_v61_apply, val_main_v62_apply,
    val_main_call2_v0_apply, val_main_call2_cst_apply, Ideal.ofBits_def, Ideal.ofBits_zero_f32]
  have hb : idx_main_v62 (ix2 (0 : Fin 1) k) = ix1 k := by
    funext d
    match d with
    | ⟨0, _⟩ => rfl
  rw [hb]
  have hs : (∑ c : Fin 320000, val_main_v60 (F := Ideal) x0 e x2 x3 (lidx_main_v61 (ix2 (0 : Fin 1) k) c)
        * x4 (ridx_main_v61 (ix2 (0 : Fin 1) k) c))
      = ∑ c : Fin 320000, Spec.h1flat x0 e x2 x3 c * x4 (ix2 c k) := by
    refine Finset.sum_congr rfl fun c _ => ?_
    have h1 : lidx_main_v61 (ix2 (0 : Fin 1) k) c = ix2 (0 : Fin 1) c :=
      funext fun a => Fin.ext (by match a with | ⟨0, _⟩ => rfl | ⟨1, _⟩ => rfl)
    have h2 : ridx_main_v61 (ix2 (0 : Fin 1) k) c = ix2 c k :=
      funext fun a => Fin.ext (by match a with | ⟨0, _⟩ => rfl | ⟨1, _⟩ => rfl)
    rw [h1, h2, v60_eq x0 e x2 x3 hE]
  rw [hs]
  rfl

/-- THE REFERENCE IS THE NETWORK'S FUNCTION: its last stage, index by index, for an edge list of node numbers. -/
theorem ref_eq_spec (hE : ∀ i, BitVec.toNat (e i) < 10000) :
    val_main_v68 (F := Ideal) x0 e x2 x3 x4 x5 x6 x7 = Spec.G x0 e x2 x3 x4 x5 x6 x7 := by
  funext i
  obtain ⟨p, q, rfl⟩ : ∃ (p : Fin 1) (q : Fin 10000), i = ix2 p q := ⟨i 0, i 1, eq_ix2 i⟩
  obtain rfl : p = 0 := Subsingleton.elim _ _
  rw [val_main_v68_apply, val_main_v67_apply, val_main_v65_apply, val_main_v66_apply,
    val_main_call3_v0_apply, val_main_call3_cst_apply, Ideal.ofBits_def, Ideal.ofBits_zero_f32]
  have hb : idx_main_v66 (ix2 (0 : Fin 1) q) = ix1 q := by
    funext d
    match d with
    | ⟨0, _⟩ => rfl
  rw [hb]
  have hs : (∑ k : Fin 128, val_main_v64 (F := Ideal) x0 e x2 x3 x4 x5 (lidx_main_v65 (ix2 (0 : Fin 1) q) k)
        * x6 (ridx_main_v65 (ix2 (0 : Fin 1) q) k))
      = ∑ k : Fin 128, Spec.h3 x0 e x2 x3 x4 x5 k * x6 (ix2 k q) := by
    refine Finset.sum_congr rfl fun k _ => ?_
    have h1 : lidx_main_v65 (ix2 (0 : Fin 1) q) k = ix2 (0 : Fin 1) k :=
      funext fun a => Fin.ext (by match a with | ⟨0, _⟩ => rfl | ⟨1, _⟩ => rfl)
    have h2 : ridx_main_v65 (ix2 (0 : Fin 1) q) k = ix2 k q :=
      funext fun a => Fin.ext (by match a with | ⟨0, _⟩ => rfl | ⟨1, _⟩ => rfl)
    rw [h1, h2, v64_eq x0 e x2 x3 x4 x5 hE]
  rw [hs]
  rfl

end Stages

/-! ## The run -/

/-- A word whose signed reading is a node number is below the node count. -/
theorem toNat_lt_of_range {w : BitVec 32} (h0 : 0 ≤ w.toInt) (h1 : w.toInt ≤ 9999) : w.toNat < 10000 := by
  have h2 : (2 : ℕ) ^ 32 = 4294967296 := by norm_num
  have h3 := w.isLt
  rw [BitVec.toInt_eq_toNat_cond] at h0 h1
  split_ifs at h0 h1 with h <;> omega

/-- THE REFERENCE RUN'S RESULT is the network's function of the argument arrays, for an edge list of node numbers. -/
theorem result_eq (m' : (ℓ : Loc nD τ sig) → Buf (Elt Ideal) ℓ) (c : Dev nD)
    (hrange : ∀ i, 0 ≤ BitVec.toInt ((m' ((c.tc : Thread nD τ).loc main_arg1)) i)
      ∧ BitVec.toInt ((m' ((c.tc : Thread nD τ).loc main_arg1)) i) ≤ 9999) :
    Cert.ReferenceIdeal.Value.res_main_v68 (F := Ideal) m' c
      = Spec.G (m' ((c.tc : Thread nD τ).loc main_arg0)) (m' ((c.tc : Thread nD τ).loc main_arg1))
          (m' ((c.tc : Thread nD τ).loc main_arg2)) (m' ((c.tc : Thread nD τ).loc main_arg3))
          (m' ((c.tc : Thread nD τ).loc main_arg4)) (m' ((c.tc : Thread nD τ).loc main_arg5))
          (m' ((c.tc : Thread nD τ).loc main_arg6)) (m' ((c.tc : Thread nD τ).loc main_arg7)) := by
  rw [Read.val_main_v68_eq]
  exact ref_eq_spec _ _ _ _ _ _ _ _ (fun i => toNat_lt_of_range (hrange i).1 (hrange i).2)

/-- The reference runs, terminates without a fault, and leaves its arguments unchanged. -/
theorem frame_ri : Cert.frame_ReferenceIdeal := fun m ρ _ =>
  (θ_run Cert.ReferenceIdeal.defs _ _).mono (fun _ h c => (h c).2) (Cert.ReferenceIdeal.Value.run (F := Ideal) m ρ)

end Cert.ReferenceIdeal.Hand

end
-- ==== Proof.Hand.ValLib.lean ====
/-
  Pure lemmas for the value side of this proof, at the ideal (extended-real) float values.

  * An indexed store with add, read at an index: the element there before plus the sum of the stored lanes whose mask
    bit is set and whose index is that index; a gather read at a lane is the base at the lane's index.
  * A left fold of such stores over a family of vectors: the element before plus the sum over all (vector, lane) pairs
    that hit the index.
  * Sums over ℕ-indexed terms in blocks: a sum over blocks of a sum inside the block is the sum over the whole range;
    a run of full vectors followed by a masked tail vector that overlaps the run covers the range exactly once.
  * Coercion of finite real sums into the extended reals, and the algebra that joins a normalised graph-convolution
    written as  dinv·(Σ dinv·xw + dinv·xw)  with the one written as  Σ xw·(dinv·dinv) + xw·(dinv·dinv).
  * A left fold of additions from zero is the finite sum.
-/
import Idealize.ShloMosaic.PureOps.Ideal.Laws
import Mathlib.Algebra.BigOperators.Fin
import Mathlib.Algebra.BigOperators.Intervals
import Mathlib.Data.EReal.Operations
import Mathlib.Tactic.Ring
import Mathlib.Tactic.Linarith

noncomputable section

namespace Cert.KernelIdeal.Hand.ValLib

open Idealize.ShloMosaic
open scoped BigOperators

/-! ## The indexed store with add and the gather, read at an index -/

section Indexed
variable {s : Shape} {d : Fin 1 → Nat}

/-- Two multi-indices with equal coordinate values are equal. -/
theorem idx_eq_iff (j i : s.Idx) : (∀ a, (j a).val = (i a).val) ↔ j = i :=
  ⟨fun h => funext fun a => Fin.ext (h a), fun h a => by rw [h]⟩

/-- A gather read at a lane: the base memory at the index the lane names. -/
theorem loadIdx_apply {t : Shape} {e : EltTy} (f : Vec Ideal s e) (idxs : Fin s.rank → IVec t 32)
    (h : ∀ a x, (idxs a x).toNat < s.size a) (x : t.Idx) : loadIdx f idxs h x = f (idxAt idxs h x) := rfl

/-- What lane `k` of a store adds at index `n`: its value when its mask bit is set and its index is `n`, else nothing. -/
def lane (idxs : Fin s.rank → IVec ⟨1, d⟩ 32) (v : Vec Ideal ⟨1, d⟩ .f32) (mask : IVec ⟨1, d⟩ 1)
    (h : ∀ a x, (idxs a x).toNat < s.size a) (n : s.Idx) (k : Fin (d 0)) : EReal :=
  if mask (Shape.ofLane k) = 1 ∧ idxAt idxs h (Shape.ofLane k) = n then v (Shape.ofLane k) else 0

/-- One lane's step of the store, read at an index. -/
private theorem step_apply (idxs : Fin s.rank → IVec ⟨1, d⟩ 32) (v : Vec Ideal ⟨1, d⟩ .f32) (mask : IVec ⟨1, d⟩ 1)
    (h : ∀ a x, (idxs a x).toNat < s.size a) (g : Vec Ideal s .f32) (k : Fin (d 0)) (n : s.Idx) :
    (if mask (Shape.ofLane k) = 1 then
        (fun j : s.Idx => if (∀ a, (j a).val = (idxAt idxs h (Shape.ofLane k) a).val)
          then Elt.idxAdd (F := Ideal) .f32 (g (idxAt idxs h (Shape.ofLane k))) (v (Shape.ofLane k)) else g j)
      else g) n = (g n : EReal) + lane idxs v mask h n k := by
  unfold lane
  by_cases hm : mask (Shape.ofLane k) = 1
  · by_cases hn : idxAt idxs h (Shape.ofLane k) = n
    · have h1 : ∀ a, (n a).val = (idxAt idxs h (Shape.ofLane k) a).val := (idx_eq_iff _ _).mpr hn.symm
      simp only [if_pos hm, if_pos h1, if_pos (And.intro hm hn)]
      rw [hn]; rfl
    · have h1 : ¬ ∀ a, (n a).val = (idxAt idxs h (Shape.ofLane k) a).val := fun h' => hn ((idx_eq_iff _ _).mp h').symm
      have h2 : ¬ (mask (Shape.ofLane k) = 1 ∧ idxAt idxs h (Shape.ofLane k) = n) := fun h' => hn h'.2
      simp only [if_pos hm, if_neg h1, if_neg h2, add_zero]
  · have h2 : ¬ (mask (Shape.ofLane k) = 1 ∧ idxAt idxs h (Shape.ofLane k) = n) := fun h' => hm h'.1
    simp only [if_neg hm, if_neg h2, add_zero]

private theorem foldl_apply (idxs : Fin s.rank → IVec ⟨1, d⟩ 32) (v : Vec Ideal ⟨1, d⟩ .f32) (mask : IVec ⟨1, d⟩ 1)
    (h : ∀ a x, (idxs a x).toNat < s.size a) (L : List (Fin (d 0))) (f : Vec Ideal s .f32) (n : s.Idx) :
    L.foldl (fun g k =>
        if mask (Shape.ofLane k) = 1 then
          (fun j : s.Idx => if (∀ a, (j a).val = (idxAt idxs h (Shape.ofLane k) a).val)
            then Elt.idxAdd (F := Ideal) .f32 (g (idxAt idxs h (Shape.ofLane k))) (v (Shape.ofLane k)) else g j)
        else g) f n = (f n : EReal) + (L.map (lane idxs v mask h n)).sum := by
  induction L generalizing f with
  | nil => simp
  | cons k L ih =>
    rw [List.foldl_cons, ih, step_apply, List.map_cons, List.sum_cons, add_assoc]

/-- **The indexed store with add, read at an index**: the element there before, plus the stored lanes whose mask bit is
    set and whose index is that index. -/
theorem storeIdx_add_apply (f : Vec Ideal s .f32) (idxs : Fin s.rank → IVec ⟨1, d⟩ 32) (v : Vec Ideal ⟨1, d⟩ .f32)
    (mask : IVec ⟨1, d⟩ 1) (h : ∀ a x, (idxs a x).toNat < s.size a) (n : s.Idx) :
    storeIdx f idxs v mask true h n = (f n : EReal) + ∑ k : Fin (d 0), lane idxs v mask h n k := by
  rw [Fin.sum_univ_def]
  exact foldl_apply idxs v mask h _ f n

/-- **A left fold of indexed stores with add over a list of vectors**, read at an index: the element before plus, over
    the list and the lanes, what each lane adds there. -/
theorem foldl_storeIdx_add_apply {ι : Type} (idxs : ι → Fin s.rank → IVec ⟨1, d⟩ 32) (v : ι → Vec Ideal ⟨1, d⟩ .f32)
    (mask : ι → IVec ⟨1, d⟩ 1) (h : ∀ i a x, (idxs i a x).toNat < s.size a) (L : List ι) (f : Vec Ideal s .f32) (n : s.Idx) :
    L.foldl (fun g i => storeIdx g (idxs i) (v i) (mask i) true (h i)) f n
      = (f n : EReal) + (L.map fun i => ∑ k : Fin (d 0), lane (idxs i) (v i) (mask i) (h i) n k).sum := by
  induction L generalizing f with
  | nil => simp
  | cons i L ih => rw [List.foldl_cons, ih, storeIdx_add_apply, List.map_cons, List.sum_cons, add_assoc]

/-- The same over the vectors `0 … m-1` in order. -/
theorem foldl_finRange_storeIdx_add_apply {m : Nat} (idxs : Fin m → Fin s.rank → IVec ⟨1, d⟩ 32) (v : Fin m → Vec Ideal ⟨1, d⟩ .f32)
    (mask : Fin m → IVec ⟨1, d⟩ 1) (h : ∀ i a x, (idxs i a x).toNat < s.size a) (f : Vec Ideal s .f32) (n : s.Idx) :
    (List.finRange m).foldl (fun g i => storeIdx g (idxs i) (v i) (mask i) true (h i)) f n
      = (f n : EReal) + ∑ i : Fin m, ∑ k : Fin (d 0), lane (idxs i) (v i) (mask i) (h i) n k := by
  rw [foldl_storeIdx_add_apply, Fin.sum_univ_def]

/-- **A left fold of conditional adds**, read at a place: each step `k` that is on adds its value at every place it hits;
    so the result at `n` is what was there plus the values of the steps that are on and hit `n`. -/
theorem foldl_scatter_apply {κ ι : Type} (on : κ → Prop) [DecidablePred on] (hit : κ → ι → Prop) [∀ k j, Decidable (hit k j)]
    (val : κ → EReal) (L : List κ) (f : ι → EReal) (n : ι) :
    L.foldl (fun g k => if on k then (fun j => if hit k j then g j + val k else g j) else g) f n
      = f n + (L.map fun k => if on k ∧ hit k n then val k else 0).sum := by
  induction L generalizing f with
  | nil => simp
  | cons k L ih =>
    rw [List.foldl_cons, ih, List.map_cons, List.sum_cons, ← add_assoc]
    congr 1
    by_cases ho : on k
    · by_cases hh : hit k n
      · simp only [if_pos ho, if_pos hh, if_pos (And.intro ho hh)]
      · simp only [if_pos ho, if_neg hh, if_neg (fun h' : on k ∧ hit k n => hh h'.2), add_zero]
    · simp only [if_neg ho, if_neg (fun h' : on k ∧ hit k n => ho h'.1), add_zero]

end Indexed

/-! ## Sums over ℕ-indexed terms in blocks -/

section Blocks
variable {M : Type} [AddCommMonoid M]

/-- A sum over `a` blocks of a sum over the `b` places of the block is the sum over all `a * b` places. -/
theorem sum_blocks (a b : ℕ) (c : ℕ → M) :
    ∑ k : Fin a, ∑ l : Fin b, c (k.val * b + l.val) = ∑ j : Fin (a * b), c j.val := by
  rw [← Fintype.sum_prod_type' (f := fun (k : Fin a) (l : Fin b) => c (k.val * b + l.val))]
  refine Fintype.sum_equiv finProdFinEquiv _ _ fun p => ?_
  show c _ = c _
  congr 1
  show p.1.val * b + p.2.val = p.2.val + b * p.1.val
  rw [Nat.mul_comm, Nat.add_comm]

/-- A sum over the places below `n`, as a sum over a range. -/
theorem sum_fin_eq_range (n : ℕ) (c : ℕ → M) : ∑ j : Fin n, c j.val = ∑ j ∈ Finset.range n, c j :=
  Fin.sum_univ_eq_sum_range c n

/-- A masked vector of width `W` whose set lanes are the last `r`, placed so that it ends at `A + r`: it adds exactly
    the places `A … A + r - 1`. -/
theorem sum_masked_tail (A W r : ℕ) (hr : r ≤ W) (hW : W ≤ A + r) (c : ℕ → M) :
    ∑ l : Fin W, (if W - r ≤ l.val then c (A + r - W + l.val) else 0) = ∑ x ∈ Finset.range r, c (A + x) := by
  rw [Fin.sum_univ_eq_sum_range (fun l => if W - r ≤ l then c (A + r - W + l) else 0) W]
  obtain ⟨q, rfl⟩ : ∃ q, W = q + r := ⟨W - r, by omega⟩
  rw [Finset.sum_range_add, Finset.sum_eq_zero (fun l hl => by
    rw [if_neg]; have := Finset.mem_range.mp hl; omega), zero_add]
  refine Finset.sum_congr rfl fun x _ => ?_
  rw [if_pos (by omega)]
  congr 1; omega

/-- **Full vectors, then a masked tail that overlaps them**: `m` vectors of width `W` from place `0`, then one more vector
    ending at the last place `m * W + r` with only its last `r` lanes set, cover the places below `m * W + r` once each. -/
theorem sum_full_and_tail (m W r : ℕ) (hr : r ≤ W) (hW : W ≤ m * W + r) (c : ℕ → M) :
    (∑ k : Fin m, ∑ l : Fin W, c (k.val * W + l.val))
        + ∑ l : Fin W, (if W - r ≤ l.val then c (m * W + r - W + l.val) else 0)
      = ∑ j : Fin (m * W + r), c j.val := by
  rw [sum_blocks, sum_masked_tail (m * W) W r hr hW, sum_fin_eq_range, sum_fin_eq_range, Finset.sum_range_add]

end Blocks

/-! ## Real sums inside the extended reals -/

section Reals
variable {ι : Type}

/-- The coercion of a finite real sum is the sum of the coercions. -/
theorem coe_finset_sum (s : Finset ι) (f : ι → ℝ) : ((∑ i ∈ s, f i : ℝ) : EReal) = ∑ i ∈ s, (f i : EReal) := by
  classical
  refine Finset.induction_on s (by simp) ?_
  intro a s ha ih
  rw [Finset.sum_insert ha, Finset.sum_insert ha, EReal.coe_add, ih]

/-- An extended real that is neither infinity is a real. -/
theorem exists_real {x : EReal} (h1 : x ≠ ⊤) (h2 : x ≠ ⊥) : ∃ r : ℝ, x = (r : EReal) :=
  ⟨x.toReal, (EReal.coe_toReal h1 h2).symm⟩

/-- A finite sum of products of reals is a real. -/
theorem sum_mul_real (s : Finset ι) (f g : ι → ℝ) :
    ∑ i ∈ s, (f i : EReal) * (g i : EReal) = ((∑ i ∈ s, f i * g i : ℝ) : EReal) := by
  rw [coe_finset_sum]; exact Finset.sum_congr rfl fun i _ => (EReal.coe_mul _ _).symm

/-- Counting with ones: the sum of a one at each index with the property is the number of such indices. -/
theorem sum_ite_one (s : Finset ι) (P : ι → Prop) [DecidablePred P] :
    ∑ j ∈ s, (if P j then (1 : EReal) else 0) = (((s.filter P).card : ℝ) : EReal) := by
  have h : ∀ j, (if P j then (1 : EReal) else 0) = (((if P j then 1 else 0 : ℝ)) : EReal) := by
    intro j; split_ifs <;> simp
  simp only [h, ← coe_finset_sum]
  rw [Finset.sum_boole]

/-- The reciprocal square root of a positive real is the real reciprocal of its square root. -/
theorem rsqrt_coe_pos {r : ℝ} (h : 0 < r) : Ideal.rsqrt (r : EReal) = (((Real.sqrt r)⁻¹ : ℝ) : EReal) := by
  rw [Ideal.rsqrt_coe, if_neg (not_lt.mpr h.le), if_neg h.ne']

/-- **The algebra of one node and feature of the normalised convolution.** With real normalisers `b j` (at the sources),
    `dn` (at the node) and real features `a j`, `xn`: scaling the features at the sources first, summing, adding the node's
    own scaled feature and scaling the total is the sum of the features each times the product of its two normalisers. -/
theorem conv_node_algebra (s : Finset ι) (P : ι → Prop) [DecidablePred P] (a b : ι → ℝ) (dn xn : ℝ) (bg : EReal) :
    (dn : EReal) * ((∑ j ∈ s, if P j then (b j : EReal) * (a j : EReal) else 0) + (dn : EReal) * (xn : EReal)) + bg
      = (∑ j ∈ s, if P j then (a j : EReal) * ((b j : EReal) * (dn : EReal)) else 0)
          + (xn : EReal) * ((dn : EReal) * (dn : EReal)) + bg := by
  have h1 : ∀ j, (if P j then (b j : EReal) * (a j : EReal) else 0) = (((if P j then b j * a j else 0 : ℝ)) : EReal) := by
    intro j; split_ifs <;> simp
  have h2 : ∀ j, (if P j then (a j : EReal) * ((b j : EReal) * (dn : EReal)) else 0)
      = (((if P j then a j * (b j * dn) else 0 : ℝ)) : EReal) := by
    intro j; split_ifs <;> simp
  simp only [h1, h2]
  simp only [← coe_finset_sum, ← EReal.coe_mul, ← EReal.coe_add]
  congr 2
  rw [mul_add, Finset.mul_sum]
  congr 1
  · exact Finset.sum_congr rfl fun j _ => by split_ifs <;> ring
  · ring

end Reals

/-! ## A left fold of additions -/

/-- Adding the terms of a list one after the other onto `z` gives `z` plus their sum. -/
theorem foldl_add_eq {ι : Type} {M : Type} [AddCommMonoid M] (P : ι → M) (L : List ι) (z : M) :
    L.foldl (fun acc b => acc + P b) z = z + (L.map P).sum := by
  induction L generalizing z with
  | nil => simp
  | cons b L ih => rw [List.foldl_cons, ih, List.map_cons, List.sum_cons, add_assoc]

/-- Over the terms `0 … m-1` in order, from zero: the finite sum. -/
theorem foldl_finRange_add_eq {M : Type} [AddCommMonoid M] {m : ℕ} (P : Fin m → M) :
    (List.finRange m).foldl (fun acc b => acc + P b) 0 = ∑ b : Fin m, P b := by
  rw [foldl_add_eq, zero_add, Fin.sum_univ_def]

end Cert.KernelIdeal.Hand.ValLib

end
-- ==== Proof.Hand.Val.lean ====
/-
  The value of the program at the ideal (extended-real) float values: each kernel body's stored vector read at an
  index, the two scatter folds read as sums over the edges, and the chain of stages joined into the network's result
  as one function of the eight argument arrays.
-/
import proofs.«207900_g17016660427224_cont_7to1_1372_35_alg».proof.Proof.Gen.KernelIdeal.Skeleton
import proofs.«207900_g17016660427224_cont_7to1_1372_35_alg».proof.Proof.Hand.Spec
import proofs.«207900_g17016660427224_cont_7to1_1372_35_alg».proof.Proof.Hand.ValLib
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Hand.Val

open Cert.KernelIdeal Cert.KernelIdeal.Gen
open Idealize.ShloMosaic Idealize.ShloMosaic.ValueIdx
open scoped BigOperators

/-! ## The three matrix products' operand indices, axis by axis -/

theorem lhs_k0_0 (i : S32x10000.Idx) (q : dot_S128x32_S10000x128_S32x10000_0_1_1_0_n_n.contr.Idx) :
    (dot_S128x32_S10000x128_S32x10000_0_1_1_0_n_n.lhsIdx i q 0).val = (q ⟨0, by decide⟩).val :=
  dot_S128x32_S10000x128_S32x10000_0_1_1_0_n_n.lhsIdx_val_of_single rfl i q
theorem lhs_k0_1 (i : S32x10000.Idx) (q : dot_S128x32_S10000x128_S32x10000_0_1_1_0_n_n.contr.Idx) :
    (dot_S128x32_S10000x128_S32x10000_0_1_1_0_n_n.lhsIdx i q 1).val = (i 0).val := by
  unfold DotDims.lhsIdx
  rw [dif_neg (show ¬(1 : Fin S128x32.rank) ∈ dot_S128x32_S10000x128_S32x10000_0_1_1_0_n_n.lhsBatch by decide), dif_pos (show (1 : Fin S128x32.rank) ∈ dot_S128x32_S10000x128_S32x10000_0_1_1_0_n_n.lhsNonContracting by decide)]
  rfl
theorem rhs_k0_0 (i : S32x10000.Idx) (q : dot_S128x32_S10000x128_S32x10000_0_1_1_0_n_n.contr.Idx) :
    (dot_S128x32_S10000x128_S32x10000_0_1_1_0_n_n.rhsIdx i q 0).val = (i 1).val := by
  unfold DotDims.rhsIdx
  rw [dif_neg (show ¬(0 : Fin S10000x128.rank) ∈ dot_S128x32_S10000x128_S32x10000_0_1_1_0_n_n.rhsBatch by decide), dif_pos (show (0 : Fin S10000x128.rank) ∈ dot_S128x32_S10000x128_S32x10000_0_1_1_0_n_n.rhsNonContracting by decide)]
  rfl
theorem rhs_k0_1 (i : S32x10000.Idx) (q : dot_S128x32_S10000x128_S32x10000_0_1_1_0_n_n.contr.Idx) :
    (dot_S128x32_S10000x128_S32x10000_0_1_1_0_n_n.rhsIdx i q 1).val = (q ⟨0, by decide⟩).val :=
  dot_S128x32_S10000x128_S32x10000_0_1_1_0_n_n.rhsIdx_val_of_single rfl i q

theorem lhs_k5_0 (i : S1x128.Idx) (q : dot_S1x16000_S16000x128_S1x128_1_0_0_1_n_n.contr.Idx) :
    (dot_S1x16000_S16000x128_S1x128_1_0_0_1_n_n.lhsIdx i q 0).val = (i 0).val := by
  unfold DotDims.lhsIdx
  rw [dif_neg (show ¬(0 : Fin S1x16000.rank) ∈ dot_S1x16000_S16000x128_S1x128_1_0_0_1_n_n.lhsBatch by decide), dif_pos (show (0 : Fin S1x16000.rank) ∈ dot_S1x16000_S16000x128_S1x128_1_0_0_1_n_n.lhsNonContracting by decide)]
  rfl
theorem lhs_k5_1 (i : S1x128.Idx) (q : dot_S1x16000_S16000x128_S1x128_1_0_0_1_n_n.contr.Idx) :
    (dot_S1x16000_S16000x128_S1x128_1_0_0_1_n_n.lhsIdx i q 1).val = (q ⟨0, by decide⟩).val :=
  dot_S1x16000_S16000x128_S1x128_1_0_0_1_n_n.lhsIdx_val_of_single rfl i q
theorem rhs_k5_0 (i : S1x128.Idx) (q : dot_S1x16000_S16000x128_S1x128_1_0_0_1_n_n.contr.Idx) :
    (dot_S1x16000_S16000x128_S1x128_1_0_0_1_n_n.rhsIdx i q 0).val = (q ⟨0, by decide⟩).val :=
  dot_S1x16000_S16000x128_S1x128_1_0_0_1_n_n.rhsIdx_val_of_single rfl i q
theorem rhs_k5_1 (i : S1x128.Idx) (q : dot_S1x16000_S16000x128_S1x128_1_0_0_1_n_n.contr.Idx) :
    (dot_S1x16000_S16000x128_S1x128_1_0_0_1_n_n.rhsIdx i q 1).val = (i 1).val := by
  unfold DotDims.rhsIdx
  rw [dif_neg (show ¬(1 : Fin S16000x128.rank) ∈ dot_S1x16000_S16000x128_S1x128_1_0_0_1_n_n.rhsBatch by decide), dif_pos (show (1 : Fin S16000x128.rank) ∈ dot_S1x16000_S16000x128_S1x128_1_0_0_1_n_n.rhsNonContracting by decide)]
  rfl

theorem lhs_k6_0 (i : S1x10000.Idx) (q : dot_S1x128_S128x10000_S1x10000_1_0_0_1_n_n.contr.Idx) :
    (dot_S1x128_S128x10000_S1x10000_1_0_0_1_n_n.lhsIdx i q 0).val = (i 0).val := by
  unfold DotDims.lhsIdx
  rw [dif_neg (show ¬(0 : Fin S1x128.rank) ∈ dot_S1x128_S128x10000_S1x10000_1_0_0_1_n_n.lhsBatch by decide), dif_pos (show (0 : Fin S1x128.rank) ∈ dot_S1x128_S128x10000_S1x10000_1_0_0_1_n_n.lhsNonContracting by decide)]
  rfl
theorem lhs_k6_1 (i : S1x10000.Idx) (q : dot_S1x128_S128x10000_S1x10000_1_0_0_1_n_n.contr.Idx) :
    (dot_S1x128_S128x10000_S1x10000_1_0_0_1_n_n.lhsIdx i q 1).val = (q ⟨0, by decide⟩).val :=
  dot_S1x128_S128x10000_S1x10000_1_0_0_1_n_n.lhsIdx_val_of_single rfl i q
theorem rhs_k6_0 (i : S1x10000.Idx) (q : dot_S1x128_S128x10000_S1x10000_1_0_0_1_n_n.contr.Idx) :
    (dot_S1x128_S128x10000_S1x10000_1_0_0_1_n_n.rhsIdx i q 0).val = (q ⟨0, by decide⟩).val :=
  dot_S1x128_S128x10000_S1x10000_1_0_0_1_n_n.rhsIdx_val_of_single rfl i q
theorem rhs_k6_1 (i : S1x10000.Idx) (q : dot_S1x128_S128x10000_S1x10000_1_0_0_1_n_n.contr.Idx) :
    (dot_S1x128_S128x10000_S1x10000_1_0_0_1_n_n.rhsIdx i q 1).val = (i 1).val := by
  unfold DotDims.rhsIdx
  rw [dif_neg (show ¬(1 : Fin S128x10000.rank) ∈ dot_S1x128_S128x10000_S1x10000_1_0_0_1_n_n.rhsBatch by decide), dif_pos (show (1 : Fin S128x10000.rank) ∈ dot_S1x128_S128x10000_S1x10000_1_0_0_1_n_n.rhsNonContracting by decide)]
  rfl

/-! ## The products read at an index -/

/-- The first product, feature `h` of node `n`: the weight's column `h` against the node's row. -/
theorem matmul0_apply (Wg : FVec Ideal S128x32 .f32) (x : FVec Ideal S10000x128 .f32) (i : S32x10000.Idx) :
    FloatOps.matmul (F := Ideal) dot_S128x32_S10000x128_S32x10000_0_1_1_0_n_n none Wg x (constant (F := Ideal) S32x10000 .f32 0x00000000#32) i
      = ∑ k : Fin 128, Wg (ix2 k (i 0)) * x (ix2 (i 1) k) := by
  rw [Ideal.matmul_constant_zero_apply, ← Equiv.sum_comp (contrEquiv1 dot_S128x32_S10000x128_S32x10000_0_1_1_0_n_n 128 rfl rfl).symm]
  refine Finset.sum_congr rfl fun k _ => ?_
  have hk := contrEquiv1_symm_val dot_S128x32_S10000x128_S32x10000_0_1_1_0_n_n 128 rfl rfl k
  have el : dot_S128x32_S10000x128_S32x10000_0_1_1_0_n_n.lhsIdx i ((contrEquiv1 dot_S128x32_S10000x128_S32x10000_0_1_1_0_n_n 128 rfl rfl).symm k) = ix2 k (i 0) := funext fun a => Fin.ext (by
    match a with
    | ⟨0, _⟩ => exact (lhs_k0_0 _ _).trans hk
    | ⟨1, _⟩ => exact lhs_k0_1 _ _)
  have er : dot_S128x32_S10000x128_S32x10000_0_1_1_0_n_n.rhsIdx i ((contrEquiv1 dot_S128x32_S10000x128_S32x10000_0_1_1_0_n_n 128 rfl rfl).symm k) = ix2 (i 1) k := funext fun a => Fin.ext (by
    match a with
    | ⟨0, _⟩ => exact rhs_k0_0 _ _
    | ⟨1, _⟩ => exact (rhs_k0_1 _ _).trans hk)
  rw [el, er]
  rfl

/-- A block product of the first dense layer. -/
theorem matmul5_apply (hb : FVec Ideal S1x16000 .f32) (Wb : FVec Ideal S16000x128 .f32) (i : S1x128.Idx) :
    FloatOps.matmul (F := Ideal) dot_S1x16000_S16000x128_S1x128_1_0_0_1_n_n none hb Wb (constant (F := Ideal) S1x128 .f32 0x00000000#32) i
      = ∑ k : Fin 16000, hb (ix2 (i 0) k) * Wb (ix2 k (i 1)) := by
  rw [Ideal.matmul_constant_zero_apply, ← Equiv.sum_comp (contrEquiv1 dot_S1x16000_S16000x128_S1x128_1_0_0_1_n_n 16000 rfl rfl).symm]
  refine Finset.sum_congr rfl fun k _ => ?_
  have hk := contrEquiv1_symm_val dot_S1x16000_S16000x128_S1x128_1_0_0_1_n_n 16000 rfl rfl k
  have el : dot_S1x16000_S16000x128_S1x128_1_0_0_1_n_n.lhsIdx i ((contrEquiv1 dot_S1x16000_S16000x128_S1x128_1_0_0_1_n_n 16000 rfl rfl).symm k) = ix2 (i 0) k := funext fun a => Fin.ext (by
    match a with
    | ⟨0, _⟩ => exact lhs_k5_0 _ _
    | ⟨1, _⟩ => exact (lhs_k5_1 _ _).trans hk)
  have er : dot_S1x16000_S16000x128_S1x128_1_0_0_1_n_n.rhsIdx i ((contrEquiv1 dot_S1x16000_S16000x128_S1x128_1_0_0_1_n_n 16000 rfl rfl).symm k) = ix2 k (i 1) := funext fun a => Fin.ext (by
    match a with
    | ⟨0, _⟩ => exact (rhs_k5_0 _ _).trans hk
    | ⟨1, _⟩ => exact rhs_k5_1 _ _)
  rw [el, er]
  rfl

/-- The second dense layer's product. -/
theorem matmul6_apply (hv : FVec Ideal S1x128 .f32) (W2 : FVec Ideal S128x10000 .f32) (i : S1x10000.Idx) :
    FloatOps.matmul (F := Ideal) dot_S1x128_S128x10000_S1x10000_1_0_0_1_n_n none hv W2 (constant (F := Ideal) S1x10000 .f32 0x00000000#32) i
      = ∑ k : Fin 128, hv (ix2 (i 0) k) * W2 (ix2 k (i 1)) := by
  rw [Ideal.matmul_constant_zero_apply, ← Equiv.sum_comp (contrEquiv1 dot_S1x128_S128x10000_S1x10000_1_0_0_1_n_n 128 rfl rfl).symm]
  refine Finset.sum_congr rfl fun k _ => ?_
  have hk := contrEquiv1_symm_val dot_S1x128_S128x10000_S1x10000_1_0_0_1_n_n 128 rfl rfl k
  have el : dot_S1x128_S128x10000_S1x10000_1_0_0_1_n_n.lhsIdx i ((contrEquiv1 dot_S1x128_S128x10000_S1x10000_1_0_0_1_n_n 128 rfl rfl).symm k) = ix2 (i 0) k := funext fun a => Fin.ext (by
    match a with
    | ⟨0, _⟩ => exact lhs_k6_0 _ _
    | ⟨1, _⟩ => exact (lhs_k6_1 _ _).trans hk)
  have er : dot_S1x128_S128x10000_S1x10000_1_0_0_1_n_n.rhsIdx i ((contrEquiv1 dot_S1x128_S128x10000_S1x10000_1_0_0_1_n_n 128 rfl rfl).symm k) = ix2 k (i 1) := funext fun a => Fin.ext (by
    match a with
    | ⟨0, _⟩ => exact (rhs_k6_0 _ _).trans hk
    | ⟨1, _⟩ => exact rhs_k6_1 _ _)
  rw [el, er]
  rfl

/-! ## Layout operations of the bodies read at an index -/

/-- A `[32, 1]` column broadcast to `[32, 10000]` reads, at `(h, n)`, the column at `h`. -/
theorem broadcast_col_apply (v : FVec Ideal S32x1 .f32) (h : Fin 32) (n : Fin 10000) :
    broadcastTo S32x10000 v broadcasts_S32x1_S32x10000 (ix2 h n) = v (ix2 h (0 : Fin 1)) := by
  refine broadcastTo_apply v broadcasts_S32x1_S32x10000 (ix2 h n) (ix2 h (0 : Fin 1)) fun ax => ?_
  match ax with
  | ⟨0, _⟩ => rfl
  | ⟨1, _⟩ => rfl

/-- The float one's word is the real one. -/
theorem one_word : Scalar.ofBits (F := Ideal) .f32 0x3F800000#32 = (1 : EReal) := Spec.ofBits_one
/-- The float zero's word is the real zero. -/
theorem zero_word : Scalar.ofBits (F := Ideal) .f32 0x00000000#32 = (0 : EReal) := Ideal.ofBits_zero_f32

/-! ## The bodies' stored vectors read at an index -/

/-- Region 0: the projected features, transposed: feature `h` of node `n`. -/
theorem k0_pay1_apply (Wg : FVec Ideal S128x32 .f32) (x : FVec Ideal S10000x128 .f32) (h : Fin 32) (n : Fin 10000) :
    k0_pay1 (F := Ideal) Wg x (ix2 h n) = ∑ k : Fin 128, Wg (ix2 k h) * x (ix2 n k) := by
  unfold k0_pay1
  simp only [matmul]
  exact matmul0_apply Wg x (ix2 h n)

/-- The column sums of the 32 histograms. -/
theorem colsum_apply (degP : FVec Ideal S32x10000 .f32) (hφ : FKind.Formats .f32)
    (hacc : (0x00000000#32 : BitVec 32) = FKind.add.neutral .f32 hφ) (n : Fin 10000) :
    multiReduction (F := Ideal) .add [0] S10000 degP 0x00000000#32 reduces_S32x10000_S10000 hφ hacc (ix1 n)
      = ∑ w : Fin 32, degP (ix2 w n) := by
  refine (Ideal.multiReduction_add_single degP _ reduces_S32x10000_S10000 hφ hacc (ix1 n)).trans ?_
  exact Finset.sum_congr rfl fun w _ => congrArg degP (funext fun a => Fin.ext (by
    match a with
    | ⟨0, _⟩ => rfl
    | ⟨1, _⟩ => rfl))

/-- Region 1, first store: the reciprocal square root of one plus the column sums. -/
theorem k2_pay1_apply (degP : FVec Ideal S32x10000 .f32) (u : Fin 1) (n : Fin 10000) :
    k2_pay1 (F := Ideal) degP (ix2 u n) = Ideal.rsqrt (1 + ∑ w : Fin 32, degP (ix2 w n)) := by
  unfold k2_pay1
  simp only [shapeCast_self]
  show Ideal.rsqrt (Scalar.ofBits (F := Ideal) .f32 0x3F800000#32 + shapeCast S1x10000 _ shapeCasts_S10000_S1x10000 (ix2 u n)) = _
  rw [shapeCast_a_1a_apply, one_word]
  exact congrArg (fun z => Ideal.rsqrt ((1 : EReal) + z)) (colsum_apply degP _ _ n)

/-- Region 1, second store: the projected features scaled by the node's normaliser. -/
theorem k2_pay2_apply (degP xwT : FVec Ideal S32x10000 .f32) (h : Fin 32) (n : Fin 10000) :
    k2_pay2 (F := Ideal) degP xwT (ix2 h n) = k2_pay1 (F := Ideal) degP (ix2 (0 : Fin 1) n) * xwT (ix2 h n) := by
  unfold k2_pay2
  simp only [shapeCast_self]
  show broadcastTo S32x10000 (k2_pay1 (F := Ideal) degP) broadcasts_S1x10000_S32x10000 (ix2 h n) * xwT (ix2 h n) = _
  rw [broadcastTo_1b_ab_apply]

/-- Region 2: scale the gathered sum plus the node's own scaled feature, add the bias, clamp at zero. -/
theorem k4_pay1_apply (dinv : FVec Ideal S1x10000 .f32) (acc gall : FVec Ideal S32x10000 .f32) (bg : FVec Ideal S32x1 .f32)
    (h : Fin 32) (n : Fin 10000) :
    k4_pay1 (F := Ideal) dinv acc gall bg (ix2 h n)
      = max (dinv (ix2 (0 : Fin 1) n) * (acc (ix2 h n) + gall (ix2 h n)) + bg (ix2 h (0 : Fin 1))) 0 := by
  unfold k4_pay1
  simp only [shapeCast_self]
  show max (broadcastTo S32x10000 dinv broadcasts_S1x10000_S32x10000 (ix2 h n) * (acc (ix2 h n) + gall (ix2 h n))
      + broadcastTo S32x10000 bg broadcasts_S32x1_S32x10000 (ix2 h n)) (Scalar.ofBits (F := Ideal) .f32 0x00000000#32) = _
  rw [broadcastTo_1b_ab_apply, broadcast_col_apply, zero_word]

/-- Region 3, the accumulating store: what was there plus the block's product. -/
theorem k5_pay2_apply (o : FVec Ideal S1x128 .f32) (hb : FVec Ideal S1x16000 .f32) (Wb : FVec Ideal S16000x128 .f32)
    (u : Fin 1) (c : Fin 128) :
    k5_pay2 (F := Ideal) o hb Wb (ix2 u c) = o (ix2 u c) + ∑ k : Fin 16000, hb (ix2 u k) * Wb (ix2 k c) := by
  unfold k5_pay2
  simp only [shapeCast_self, matmul]
  show o (ix2 u c) + FloatOps.matmul (F := Ideal) dot_S1x16000_S16000x128_S1x128_1_0_0_1_n_n none hb Wb (constant (F := Ideal) S1x128 .f32 0x00000000#32) (ix2 u c) = _
  rw [matmul5_apply]

/-- Region 3, the clearing store. -/
theorem k5_pay1_apply (i : S1x128.Idx) : k5_pay1 (F := Ideal) i = 0 := zero_word

/-- Region 4: the clamped first layer times the second weight, plus its bias, clamped. -/
theorem k6_pay1_apply (h3pre b1 : FVec Ideal S1x128 .f32) (W2 : FVec Ideal S128x10000 .f32) (b2 : FVec Ideal S1x10000 .f32)
    (u : Fin 1) (c : Fin 10000) :
    k6_pay1 (F := Ideal) h3pre b1 W2 b2 (ix2 u c)
      = max ((∑ k : Fin 128, max (h3pre (ix2 u k) + b1 (ix2 u k)) 0 * W2 (ix2 k c)) + b2 (ix2 u c)) 0 := by
  unfold k6_pay1
  simp only [shapeCast_self, matmul]
  show max (FloatOps.matmul (F := Ideal) dot_S1x128_S128x10000_S1x10000_1_0_0_1_n_n none _ W2 (constant (F := Ideal) S1x10000 .f32 0x00000000#32) (ix2 u c)
      + b2 (ix2 u c)) (Scalar.ofBits (F := Ideal) .f32 0x00000000#32) = _
  rw [matmul6_apply, zero_word]
  rfl

end Cert.KernelIdeal.Hand.Val

end
-- ==== Proof.Hand.ValR0.lean ====
/-
  Region 0's first output read at an index, at the ideal float values: the projected features, transposed.
  The region's one store of that window covers the whole buffer and its loads read the whole input buffers, so the
  buffer holds the body's matrix product of the weight (transposed) with the features (transposed).
-/
import proofs.«207900_g17016660427224_cont_7to1_1372_35_alg».proof.Proof.Hand.R0
import proofs.«207900_g17016660427224_cont_7to1_1372_35_alg».proof.Proof.Hand.Val
import Idealize.ShloMosaic.Lib.Pipeline.Value
import Idealize.ShloMosaic.Lib.ValueIdx
import Idealize.ShloMosaic.PureOps.Ideal.Laws

set_option maxRecDepth 16384

noncomputable section

namespace Cert.KernelIdeal.Hand.ValR0

open Cert.KernelIdeal Cert.KernelIdeal.Gen Cert.KernelIdeal.Hand
open Idealize.ShloMosaic Idealize.ShloMosaic.ValueIdx Idealize.ShloMosaic.TcCoe
open Idealize.ShloMosaic.SparseCore.Cfg (HIx Pay)
open Idealize.SL.Sem
open scoped BigOperators

theorem hz : (![0, 0] : Fin 2 → Nat) = fun _ => 0 := funext fun a => by fin_cases a <;> rfl

/-- The window's buffer after the body is the body's product of the two whole input buffers. -/
theorem out_3_eq {F : FTy → Type} [FloatOps F] (x0 : Vec F S10000x128 .f32) (x1 : Vec F S128x32 .f32) (x2 : Vec F S2x160000 .i32) :
    R0.out_3 x0 x1 x2 = k0_pay1 x1 x0 := by
  unfold R0.out_3
  rw [View.canon_unit_zero (S := S32x10000) hz]
  simp only [View.ld_unit_zero (S := S128x32) hz, View.ld_unit_zero (S := S10000x128) hz]

/-- At the ideal values its entry (h, n) is feature `h` of node `n`'s projection. -/
theorem out_3_apply (x : FVec Ideal S10000x128 .f32) (Wg : FVec Ideal S128x32 .f32) (e : Vec Ideal S2x160000 .i32)
    (h : Fin 32) (n : Fin 10000) :
    R0.out_3 (F := Ideal) x Wg e (ix2 h n) = Spec.xw x Wg n h := by
  rw [out_3_eq, Val.k0_pay1_apply]
  unfold Spec.xw
  exact Finset.sum_congr rfl fun k _ => mul_comm _ _

end Cert.KernelIdeal.Hand.ValR0

end
-- ==== Proof.Hand.Sc0Val.lean ====
/-
  The degree histogram a tile leaves, as a count. A tile adds 1 at the low fourteen bits of each of its 5000 packed
  words: 312 vectors of sixteen words, then the vector of the last sixteen words with only its upper eight lanes set
  (words 4992 to 4999: the lower eight, words 4984 to 4991, were counted by the 312th vector). Over the extended
  reals the adds are exact and commute, so element n of the tile's row is the NUMBER of its words whose low fourteen
  bits are n:   Σ_{j < 5000} [ (word (5000 w + j) AND 16383) = n ].
-/
import proofs.«207900_g17016660427224_cont_7to1_1372_35_alg».proof.Proof.Hand.Sc0
import proofs.«207900_g17016660427224_cont_7to1_1372_35_alg».proof.Proof.Hand.Spec
import Idealize.ShloMosaic.PureOps.Ideal.Laws
import Idealize.ShloMosaic.Lib.StableHlo.Predicate
import Idealize.ShloMosaic.Lib.ValueIdx
import Mathlib.Algebra.BigOperators.Fin
import Mathlib.Algebra.BigOperators.Intervals

noncomputable section

namespace Cert.KernelIdeal.Hand.Sc0Val

open Cert.KernelIdeal Cert.KernelIdeal.Gen Cert.KernelIdeal.Hand
open Idealize.ShloMosaic
open scoped BigOperators

/-! ## One indexed add of the vector of ones, read at an element -/

/-- What lane `k` adds at element `n`: one when its mask bit is set and its index is `n`, else nothing. -/
def ln (idx : IVec S16 32) (mask : IVec S16 1) (n : S10000.Idx) (k : Fin 16) : EReal :=
  if mask (Shape.ofLane (d := ![16]) k) = 1 ∧ (idx (Shape.ofLane (d := ![16]) k)).toNat = (n 0).val then 1 else 0

/-- One lane's step, read at an element. -/
theorem step_apply (idx : IVec S16 32) (mask : IVec S16 1) (g : Vec Ideal S10000 .f32) (k : Fin 16) (n : S10000.Idx) :
    (if mask (Shape.ofLane (d := ![16]) k) = 1 then
        (fun j : S10000.Idx => if (j 0).val = (idx (Shape.ofLane (d := ![16]) k)).toNat
          then Elt.idxAdd (F := Ideal) .f32 (g j) ((k1_pay2 (F := Ideal)) (Shape.ofLane (d := ![16]) k)) else g j)
      else g) n = (g n : EReal) + ln idx mask n k := by
  unfold ln
  by_cases hm : mask (Shape.ofLane (d := ![16]) k) = 1
  · by_cases hn : (idx (Shape.ofLane (d := ![16]) k)).toNat = (n 0).val
    · simp only [if_pos hm, if_pos hn.symm, if_pos (And.intro hm hn)]
      show (g n : EReal) + Ideal.ofBits .f32 0x3F800000#32 = g n + 1
      rw [Spec.ofBits_one]
    · have h1 : ¬ (n 0).val = (idx (Shape.ofLane (d := ![16]) k)).toNat := fun h' => hn h'.symm
      have h2 : ¬ (mask (Shape.ofLane (d := ![16]) k) = 1 ∧ (idx (Shape.ofLane (d := ![16]) k)).toNat = (n 0).val) := fun h' => hn h'.2
      simp only [if_pos hm, if_neg h1, if_neg h2, add_zero]
  · have h2 : ¬ (mask (Shape.ofLane (d := ![16]) k) = 1 ∧ (idx (Shape.ofLane (d := ![16]) k)).toNat = (n 0).val) := fun h' => hm h'.1
    simp only [if_neg hm, if_neg h2, add_zero]

theorem foldl_apply (idx : IVec S16 32) (mask : IVec S16 1) (L : List (Fin 16)) (g : Vec Ideal S10000 .f32) (n : S10000.Idx) :
    L.foldl (fun (g : Vec Ideal S10000 .f32) (k : Fin 16) =>
        if mask (Shape.ofLane (d := ![16]) k) = 1 then
          (fun j : S10000.Idx => if (j 0).val = (idx (Shape.ofLane (d := ![16]) k)).toNat
            then Elt.idxAdd (F := Ideal) .f32 (g j) ((k1_pay2 (F := Ideal)) (Shape.ofLane (d := ![16]) k)) else g j)
        else g) g n = (g n : EReal) + (L.map (ln idx mask n)).sum := by
  induction L generalizing g with
  | nil => simp
  | cons k L ih => rw [List.foldl_cons, ih, step_apply, List.map_cons, List.sum_cons, add_assoc]

/-- One indexed add, read at an element: what was there plus one per set lane whose index is the element. -/
theorem scat_apply (g : Vec Ideal S10000 .f32) (idx : IVec S16 32) (mask : IVec S16 1) (n : S10000.Idx) :
    Sc0.scat (F := Ideal) g idx mask n = (g n : EReal) + ∑ k : Fin 16, ln idx mask n k := by
  rw [Fin.sum_univ_def]
  exact foldl_apply idx mask _ g n

/-! ## The tile's words, counted -/

section Tile

variable (ep : Vec Ideal S160000 .i32) (w : Fin 32) (n : S10000.Idx)

/-- Word `q` of tile `w`'s slice counts at element `n` when its low fourteen bits are `n`. -/
def cnt (q : ℕ) : EReal :=
  if (IntOp.andi (Sc0.epAt ep (5000 * w.val + q)) 16383#32).toNat = (n 0).val then 1 else 0

theorem idxv_lane (p : ℕ) (k : Fin 16) :
    Sc0.idxv ep w p (Shape.ofLane (d := ![16]) k) = IntOp.andi (Sc0.epAt ep (5000 * w.val + (p + k.val))) 16383#32 := by
  show IntOp.andi (Sc0.epAt ep (5000 * w.val + p + k.val)) 16383#32 = _
  rw [Nat.add_assoc]

/-- A full vector at position `p`: lane `k` counts word `p + k`. -/
theorem ln_full (p : ℕ) (k : Fin 16) : ln (Sc0.idxv ep w p) (fun _ => 1#1) n k = cnt ep w n (p + k.val) := by
  unfold ln cnt
  rw [idxv_lane]
  exact if_congr (and_iff_right rfl) rfl rfl

/-- The tail's mask: lanes eight and up. -/
theorem pay4_iff (k : Fin 16) : k1_pay4 (Shape.ofLane (d := ![16]) k) = 1#1 ↔ 8 ≤ k.val := by
  have hk := k.isLt
  show IntOp.cmpi .sge (BitVec.ofNat 32 (0 * 16 + k.val)) 8#32 = 1#1 ↔ _
  have ht : (BitVec.ofNat 32 (0 * 16 + k.val)).toNat = k.val := by
    rw [BitVec.toNat_ofNat, Nat.zero_mul, Nat.zero_add]; exact Nat.mod_eq_of_lt (by omega)
  rw [StableHlo.Predicate.sge_iff_toNat (by rw [ht]; omega) (by decide), ht]
  exact Iff.rfl

/-- The tail vector at position 4984: lane `k` counts word `4984 + k` when `k` is eight or more. -/
theorem ln_tail (k : Fin 16) : ln (Sc0.idxv ep w 4984) k1_pay4 n k = if 8 ≤ k.val then cnt ep w n (4984 + k.val) else 0 := by
  unfold ln cnt
  rw [idxv_lane]
  by_cases h8 : 8 ≤ k.val
  · rw [if_pos h8]
    exact if_congr (and_iff_right ((pay4_iff k).2 h8)) rfl rfl
  · rw [if_neg h8, if_neg (fun h => h8 ((pay4_iff k).1 h.1))]

/-- After `k` full vectors the accumulator has counted the first `16 k` words. -/
theorem acc_apply (k : ℕ) : Sc0.acc (F := Ideal) ep w k n = ∑ q ∈ Finset.range (16 * k), cnt ep w n q := by
  induction k with
  | zero =>
    show Ideal.ofBits .f32 0x00000000#32 = _
    rw [Ideal.ofBits_zero_f32]; simp
  | succ k ih =>
    show Sc0.scat (F := Ideal) (Sc0.acc ep w k) (Sc0.idxv ep w (16 * k)) (fun _ => 1#1) n = _
    rw [scat_apply, ih]
    simp only [ln_full]
    rw [Fin.sum_univ_eq_sum_range (fun x => cnt ep w n (16 * k + x)) 16, ← Finset.sum_range_add, Nat.mul_succ]

/-- The tail adds words 4992 to 4999. -/
theorem tail_sum : ∑ k : Fin 16, ln (Sc0.idxv ep w 4984) k1_pay4 n k = ∑ x ∈ Finset.range 8, cnt ep w n (4992 + x) := by
  simp only [ln_tail]
  rw [Fin.sum_univ_eq_sum_range (fun x => if 8 ≤ x then cnt ep w n (4984 + x) else 0) 16,
    show (16 : ℕ) = 8 + 8 from rfl, Finset.sum_range_add,
    Finset.sum_eq_zero (fun x hx => by rw [if_neg]; have := Finset.mem_range.mp hx; omega), zero_add]
  refine Finset.sum_congr rfl fun x _ => ?_
  rw [if_pos (by omega), ← Nat.add_assoc]

/-- What the tile leaves at element `n`: the count over its 5000 words. -/
theorem degRow_apply : Sc0.degRow (F := Ideal) ep w n = ∑ q ∈ Finset.range 5000, cnt ep w n q := by
  show Sc0.scat (F := Ideal) (Sc0.acc ep w 312) (Sc0.idxv ep w 4984) k1_pay4 n = _
  rw [scat_apply, acc_apply, tail_sum, show 16 * 312 = 4992 from rfl, ← Finset.sum_range_add]

end Tile

/-- A tile's word is a word of the array. -/
theorem lt_edge (w : Fin 32) (j : Fin 5000) : 5000 * w.val + j.val < 160000 := by
  have := w.isLt; have := j.isLt; omega

/-- **The histogram as a count**: element `n` of row `w` is the number of tile `w`'s 5000 words whose low fourteen
    bits are `n`. -/
theorem degP_apply (ep : Vec Ideal S160000 .i32) (h : Sc0.IdxOK ep) (w : Fin 32) (n : Fin 10000) :
    Sc0.degP (F := Ideal) ep (ValueIdx.ix2 w n)
      = ∑ j : Fin 5000, if (IntOp.andi (ep (ValueIdx.ix1 ⟨5000 * w.val + j.val, lt_edge w j⟩)) 16383#32).toNat = n.val
          then (1 : EReal) else 0 := by
  show Sc0.degRow (F := Ideal) ep w (Shape.ofLane (d := ![10000]) n) = _
  rw [degRow_apply, ← Fin.sum_univ_eq_sum_range]
  refine Finset.sum_congr rfl fun j _ => ?_
  unfold cnt Sc0.epAt
  rw [dif_pos (lt_edge w j)]
  have e : (Shape.ofLane (d := ![160000]) ⟨5000 * w.val + j.val, lt_edge w j⟩ : S160000.Idx)
      = ValueIdx.ix1 ⟨5000 * w.val + j.val, lt_edge w j⟩ := by
    funext a; match a with | ⟨0, _⟩ => rfl
  rw [e]
  rfl

end Cert.KernelIdeal.Hand.Sc0Val

end
-- ==== Proof.Hand.ValR1.lean ====
/-
  Region 1's two outputs as functions of an index, over the extended reals. The first output is, at column n,
  rsqrt (1 + the sum over the 32 rows of the histograms' column n); the second is that factor times the projected
  features, row by row. With each row of the histograms the count of one tile's 5000 words whose low fourteen bits are n,
  the 32 tiles' slices [5000 w, 5000 w + 5000) partition the 160000 words, so the column sum is the number of edges that
  end at n, and 1 + it is the degree: the first output is the reciprocal square root of the degree.
-/
import proofs.«207900_g17016660427224_cont_7to1_1372_35_alg».proof.Proof.Hand.R1
import proofs.«207900_g17016660427224_cont_7to1_1372_35_alg».proof.Proof.Hand.Sc0Val
import proofs.«207900_g17016660427224_cont_7to1_1372_35_alg».proof.Proof.Hand.Spec
import proofs.«207900_g17016660427224_cont_7to1_1372_35_alg».proof.Proof.Hand.ValLib
import Idealize.ShloMosaic.PureOps.Ideal.Laws
import Idealize.ShloMosaic.Lib.Pipeline.Value
import Idealize.ShloMosaic.Lib.ValueIdx
import Idealize.ShloMosaic.Lib.ValueLayout

noncomputable section

namespace Cert.KernelIdeal.Hand.ValR1

open Cert.KernelIdeal Cert.KernelIdeal.Gen Cert.KernelIdeal.Hand
open Idealize.ShloMosaic Idealize.ShloMosaic.ValueIdx
open scoped BigOperators

/-! ## The body's two payloads at an index -/

/-- The whole-buffer rectangles start at the origin. -/
theorem hz : (![0, 0] : Fin 2 → Nat) = fun _ => 0 := by
  funext a; match a with | ⟨0, _⟩ => rfl | ⟨1, _⟩ => rfl

/-- The sum over axis 0 of a [32,10000] array, at column `n`: the sum over the 32 rows. -/
theorem colsum_apply (v : Vec Ideal S32x10000 .f32) (hφ : FKind.Formats .f32)
    (hacc : (0x00000000#32 : BitVec 32) = FKind.add.neutral .f32 hφ) (n : Fin 10000) :
    multiReduction (F := Ideal) .add [0] S10000 v 0x00000000#32 reduces_S32x10000_S10000 hφ hacc (ix1 n)
      = ∑ w : Fin 32, v (ix2 w n) := by
  refine (Ideal.multiReduction_add_single v 0x00000000#32 reduces_S32x10000_S10000 hφ hacc (ix1 n)).trans ?_
  refine Finset.sum_congr rfl fun w _ => congrArg v ?_
  funext a; match a with | ⟨0, _⟩ => rfl | ⟨1, _⟩ => rfl

/-- The first payload at column `n`: rsqrt (1 + the column sum). -/
theorem pay1_apply (v0 : Vec Ideal S32x10000 .f32) (n : Fin 10000) :
    k2_pay1 (F := Ideal) v0 (ix2 (0 : Fin 1) n) = Ideal.rsqrt (1 + ∑ w : Fin 32, v0 (ix2 w n)) := by
  show Ideal.rsqrt ((Ideal.ofBits .f32 0x3F800000#32 : EReal)
      + shapeCast S1x10000 (multiReduction (F := Ideal) .add [0] S10000 (shapeCast S32x10000 v0 shapeCasts_S32x10000_S32x10000)
          0x00000000#32 reduces_S32x10000_S10000 (.inl rfl) rfl) shapeCasts_S10000_S1x10000 (ix2 (0 : Fin 1) n)) = _
  rw [Spec.ofBits_one, shapeCast_a_1a_apply, shapeCast_self]
  exact congrArg (fun z : EReal => Ideal.rsqrt (1 + z)) (colsum_apply v0 _ _ n)

/-- The second payload at (h, n): the first payload's column `n` times the features there. -/
theorem pay2_apply (v0 v8 : Vec Ideal S32x10000 .f32) (h : Fin 32) (n : Fin 10000) :
    k2_pay2 (F := Ideal) v0 v8 (ix2 h n) = Ideal.rsqrt (1 + ∑ w : Fin 32, v0 (ix2 w n)) * v8 (ix2 h n) := by
  show (broadcastTo S32x10000 (k2_pay1 (F := Ideal) v0) broadcasts_S1x10000_S32x10000 (ix2 h n) : EReal)
      * shapeCast S32x10000 v8 shapeCasts_S32x10000_S32x10000 (ix2 h n) = _
  rw [broadcastTo_1b_ab_apply, shapeCast_self, pay1_apply]

/-! ## The region's two outputs at an index -/

/-- The normalising factor the region leaves at column `n`. -/
theorem out_2_apply (degP xwT : Vec Ideal S32x10000 .f32) (n : Fin 10000) :
    R1.out_2 (F := Ideal) degP xwT (ix2 (0 : Fin 1) n) = Ideal.rsqrt (1 + ∑ w : Fin 32, degP (ix2 w n)) := by
  unfold R1.out_2
  rw [View.canon_unit_zero hz, View.ld_unit_zero hz]
  exact pay1_apply degP n

/-- The scaled features the region leaves at (h, n). -/
theorem out_3_apply (degP xwT : Vec Ideal S32x10000 .f32) (h : Fin 32) (n : Fin 10000) :
    R1.out_3 (F := Ideal) degP xwT (ix2 h n) = Ideal.rsqrt (1 + ∑ w : Fin 32, degP (ix2 w n)) * xwT (ix2 h n) := by
  unfold R1.out_3
  rw [View.canon_unit_zero hz, View.ld_unit_zero hz, View.ld_unit_zero hz]
  exact pay2_apply degP xwT h n

/-! ## The column sums of the histograms are the degree -/

/-- Word `q` of the packed edge array counts at node `n` when its low fourteen bits are `n`. -/
def wordCnt (ep : Vec Ideal S160000 .i32) (n : Fin 10000) (q : ℕ) : EReal :=
  if (IntOp.andi (Sc0.epAt ep q) 16383#32).toNat = n.val then 1 else 0

/-- Row `w` of the histograms at column `n`: the count over words `5000 w` to `5000 w + 4999`. -/
theorem degP_words (ep : Vec Ideal S160000 .i32) (w : Fin 32) (n : Fin 10000) :
    Sc0.degP (F := Ideal) ep (ix2 w n) = ∑ l : Fin 5000, wordCnt ep n (w.val * 5000 + l.val) := by
  show Sc0.degRow (F := Ideal) ep w (Shape.ofLane (d := ![10000]) n) = _
  rw [Sc0Val.degRow_apply, ← Fin.sum_univ_eq_sum_range]
  refine Finset.sum_congr rfl fun l _ => ?_
  show wordCnt ep n (5000 * w.val + l.val) = _
  rw [Nat.mul_comm]

/-- A word of the array, by its number. -/
theorem epAt_lt (ep : Vec Ideal S160000 .i32) (j : Fin 160000) : Sc0.epAt ep j.val = ep (ix1 j) := by
  unfold Sc0.epAt
  rw [dif_pos j.isLt]
  refine congrArg ep ?_
  funext a; match a with | ⟨0, _⟩ => rfl

/-- **The degree.** When the low fourteen bits of packed word `j` are edge `j`'s destination, one plus the column sum
    of the 32 histograms at `n` is the degree of `n`. -/
theorem deg_eq (e : (⟨2, ![2, 160000]⟩ : Shape).Idx → BitVec 32) (ep : Vec Ideal S160000 .i32)
    (hep : ∀ j : Fin 160000, IntOp.andi (ep (ix1 j)) 16383#32 = e (ix2 (1 : Fin 2) j)) (n : Fin 10000) :
    1 + ∑ w : Fin 32, Sc0.degP (F := Ideal) ep (ix2 w n) = Spec.deg e n := by
  unfold Spec.deg
  refine congrArg (fun z : EReal => 1 + z) ?_
  simp only [degP_words]
  rw [ValLib.sum_blocks 32 5000 (wordCnt ep n)]
  show ∑ j : Fin 160000, wordCnt ep n j.val = _
  refine Finset.sum_congr rfl fun j _ => ?_
  unfold wordCnt
  rw [epAt_lt, hep]
  rfl

/-- The region's first output at column `n` is the reciprocal square root of the degree of `n`. -/
theorem dinv_eq (e : (⟨2, ![2, 160000]⟩ : Shape).Idx → BitVec 32) (ep : Vec Ideal S160000 .i32)
    (hep : ∀ j : Fin 160000, IntOp.andi (ep (ix1 j)) 16383#32 = e (ix2 (1 : Fin 2) j))
    (xwT : Vec Ideal S32x10000 .f32) (n : Fin 10000) :
    R1.out_2 (F := Ideal) (Sc0.degP (F := Ideal) ep) xwT (ix2 (0 : Fin 1) n) = Spec.dinv e n := by
  rw [out_2_apply, deg_eq e ep hep n]
  rfl

/-- The region's second output at (h, n): the features scaled by that factor. -/
theorem gall_eq (e : (⟨2, ![2, 160000]⟩ : Shape).Idx → BitVec 32) (ep : Vec Ideal S160000 .i32)
    (hep : ∀ j : Fin 160000, IntOp.andi (ep (ix1 j)) 16383#32 = e (ix2 (1 : Fin 2) j))
    (xwT : Vec Ideal S32x10000 .f32) (h : Fin 32) (n : Fin 10000) :
    R1.out_3 (F := Ideal) (Sc0.degP (F := Ideal) ep) xwT (ix2 h n) = Spec.dinv e n * xwT (ix2 h n) := by
  rw [out_3_apply, deg_eq e ep hep n]
  rfl

end Cert.KernelIdeal.Hand.ValR1

end
-- ==== Proof.Hand.ValR2.lean ====
/-
  The TensorCore region of pipeline 2 of @main and the host operations around it, read at an index, at the ideal
  (extended-real) floats.

  The region's output: with accT and gall the two f32[32,10000] summands, dinv the f32[1,10000] row of inverse
  square-root degrees and bg the f32[32,1] bias column, entry (h, n) of the output is

      max (dinv[0, n] * (accT[h, n] + gall[h, n]) + bg[h, 0], 0).

  The host operations: the bias vector [32] reshaped to a column [32,1]; the [32,10000] result transposed to
  [10000,32] and flattened row-major to [1,320000], so that flat position c holds entry (c / 32, c % 32) of the
  transpose, which is entry (c % 32, c / 32) of the result; the bias vectors [128] and [10000] reshaped to rows.
-/
import proofs.«207900_g17016660427224_cont_7to1_1372_35_alg».proof.Proof.Hand.R2
import proofs.«207900_g17016660427224_cont_7to1_1372_35_alg».proof.Proof.Hand.Val
import Idealize.ShloMosaic.Lib.ValueIdx
import Idealize.ShloMosaic.Lib.Pipeline.Value
import Idealize.ShloMosaic.Lib.ValueLayout
import Idealize.ShloMosaic.PureOps.Ideal.Laws

set_option maxRecDepth 16384

noncomputable section

namespace Cert.KernelIdeal.Hand.ValR2

open Cert.KernelIdeal Cert.KernelIdeal.Gen
open Idealize.ShloMosaic Idealize.ShloMosaic.ValueIdx

/-! ## The region's output at an index -/

theorem hz : (![0, 0] : Fin 2 → Nat) = fun _ => 0 := funext fun a => by fin_cases a <;> rfl

/-- The region's output at an index, from the four input arrays: its one whole store's payload, of the whole input
    blocks. -/
theorem out_4_apply (acc gall : Vec Ideal S32x10000 .f32) (dinv : Vec Ideal S1x10000 .f32) (bg : Vec Ideal S32x1 .f32) (h : Fin 32) (n : Fin 10000) :
    R2.out_4 acc gall dinv bg (ix2 h n) = max (dinv (ix2 0 n) * (acc (ix2 h n) + gall (ix2 h n)) + bg (ix2 h 0)) 0 := by
  unfold R2.out_4
  rw [View.canon_unit_zero hz]
  simp only [View.ld_unit_zero (S := S32x10000) hz, View.ld_unit_zero (S := S1x10000) hz, View.ld_unit_zero (S := S32x1) hz]
  exact Val.k4_pay1_apply dinv acc gall bg h n

/-! ## The host operations around the region, at an index -/

/-- The bias vector [32] reshaped to a column [32,1]: entry (h, ·) is entry h. -/
theorem main_v5_apply {α : Type} (x : S32.Idx → α) (h : Fin 32) (u : Fin 1) :
    shapeCast S32x1 x shapeCasts_S32_S32x1 (ix2 h u) = x (ix1 h) :=
  shapeCast_apply x _ _ _ (by
    have hu : u.val = 0 := by omega
    rw [Shape.rowMajor_val_one, Shape.rowMajor_val_two]
    show h.val = h.val * 1 + u.val
    omega)

/-- The result [32,10000] transposed to [10000,32]: entry (n, h) is entry (h, n). -/
theorem main_v7_apply {α : Type} (x : S32x10000.Idx → α) (n : Fin 10000) (h : Fin 32) :
    transpose S10000x32 [1, 0] x transposes_S32x10000_S10000x32_1_0 (ix2 n h) = x (ix2 h n) :=
  transpose_apply _ x _ _ _ fun c => match c with | ⟨0, _⟩ => rfl | ⟨1, _⟩ => rfl

/-- The transpose [10000,32] flattened row-major to [1,320000]: flat position c is entry (c / 32, c % 32). -/
theorem main_v8_apply {α : Type} (y : S10000x32.Idx → α) (u : Fin 1) (c : Fin 320000) :
    shapeCast S1x320000 y shapeCasts_S10000x32_S1x320000 (ix2 u c)
      = y (ix2 (⟨c.val / 32, by have := c.isLt; omega⟩ : Fin 10000) (⟨c.val % 32, Nat.mod_lt _ (by decide)⟩ : Fin 32)) :=
  shapeCast_apply y _ _ _ (by
    have hu : u.val = 0 := by omega
    rw [Shape.rowMajor_val_two, Shape.rowMajor_val_two]
    show c.val / 32 * 32 + c.val % 32 = u.val * 320000 + c.val
    omega)

/-- The bias vector [128] reshaped to a row [1,128]: entry (·, j) is entry j. -/
theorem main_v10_apply {α : Type} (x : S128.Idx → α) (u : Fin 1) (j : Fin 128) :
    shapeCast S1x128 x shapeCasts_S128_S1x128 (ix2 u j) = x (ix1 j) :=
  shapeCast_a_1a_apply x _ u j

/-- The bias vector [10000] reshaped to a row [1,10000]: entry (·, n) is entry n. -/
theorem main_v11_apply {α : Type} (x : S10000.Idx → α) (u : Fin 1) (n : Fin 10000) :
    shapeCast S1x10000 x shapeCasts_S10000_S1x10000 (ix2 u n) = x (ix1 n) :=
  shapeCast_a_1a_apply x _ u n

end Cert.KernelIdeal.Hand.ValR2

end
-- ==== Proof.Hand.Sc1Val.lean ====
/-
  What a message-passing tile leaves, as a sum over the edges. A tile starts its accumulator at zero and, for each of
  the ten thousand blocks of sixteen packed edge words in order, gathers its features' row at the sixteen sources
  (word >> 14) and adds the gathered values at the sixteen destinations (word AND 16383), lowest lane first. Over the
  extended reals the adds are exact and commute, so element n of row w of the result is

      Σ_{j < 160000} [ (word j AND 16383) = n ] · gall[w, word j >> 14].
-/
import proofs.«207900_g17016660427224_cont_7to1_1372_35_alg».proof.Proof.Hand.Sc1
import proofs.«207900_g17016660427224_cont_7to1_1372_35_alg».proof.Proof.Hand.ValLib
import Idealize.ShloMosaic.PureOps.Ideal.Laws
import Idealize.ShloMosaic.Lib.ValueIdx
import Mathlib.Algebra.BigOperators.Fin
import Mathlib.Algebra.BigOperators.Intervals

noncomputable section

namespace Cert.KernelIdeal.Hand.Sc1Val

open Cert.KernelIdeal Cert.KernelIdeal.Gen Cert.KernelIdeal.Hand
open Idealize.ShloMosaic
open scoped BigOperators

/-! ## One edge word's contribution -/

section Tile

variable (ep : Vec Ideal S160000 .i32) (g : Vec Ideal S10000 .f32) (n : S10000.Idx)

/-- Packed edge word `q`, the position read cyclically. -/
def epAt (q : ℕ) : BitVec 32 := ep (Shape.ofLane (d := ![160000]) ⟨q % 160000, Nat.mod_lt _ (by decide)⟩)

/-- The features' row at a position given as a natural number: nothing outside the row. -/
def gAt (m : ℕ) : EReal := if hm : m < 10000 then g (Shape.ofLane (d := ![10000]) ⟨m, hm⟩) else 0

/-- What edge word `q` adds at element `n`: the feature at its source when its destination is `n`. -/
def term (q : ℕ) : EReal :=
  if (IntOp.andi (epAt ep q) 16383#32).toNat = (n 0).val then gAt g (IntOp.shrsi .vector (epAt ep q) 14#32).toNat else 0

/-- Lane `k` of block `b` is word `16 b + k`. -/
theorem blk_lane (b : ℕ) (k : Fin 16) : Sc1.blk ep b (Shape.ofLane (d := ![16]) k) = epAt ep (16 * b + k.val) := rfl

/-- Every block of in-range words is in range. -/
theorem blkOK (h : Sc1.IdxOK ep) (b : ℕ) : Sc1.BlkOK (Sc1.blk ep b) := by
  constructor
  · intro a x
    match a with
    | ⟨0, _⟩ => exact (h _).2
  · intro a x
    match a with
    | ⟨0, _⟩ => exact (h _).1

/-- A lane of a block's scatter-add, read at element `n`: the lane's edge word's contribution. -/
theorem lane_eq (b : ℕ) (h1 : ∀ a x, ((![Sc1.srcOf (Sc1.blk ep b)] : Fin 1 → IVec S16 32) a x).toNat < S10000.size a)
    (h2 : ∀ a x, ((![Sc1.dstOf (Sc1.blk ep b)] : Fin 1 → IVec S16 32) a x).toNat < S10000.size a) (k : Fin 16) :
    ValLib.lane (s := S10000) (d := ![16]) ![Sc1.dstOf (Sc1.blk ep b)] (loadIdx g ![Sc1.srcOf (Sc1.blk ep b)] h1) (fun _ => 1#1) h2 n k
      = term ep g n (16 * b + k.val) := by
  unfold ValLib.lane term
  have hs : (IntOp.shrsi .vector (epAt ep (16 * b + k.val)) 14#32).toNat < 10000 := h1 0 (Shape.ofLane (d := ![16]) k)
  have hg : loadIdx g ![Sc1.srcOf (Sc1.blk ep b)] h1 (Shape.ofLane (d := ![16]) k)
      = gAt g (IntOp.shrsi .vector (epAt ep (16 * b + k.val)) 14#32).toNat := by
    unfold gAt
    rw [dif_pos hs]
    show g _ = g _
    congr 1
    funext a
    match a with
    | ⟨0, _⟩ => rfl
  rw [hg]
  refine if_congr ⟨fun hh => ?_, fun hh => ⟨rfl, ?_⟩⟩ rfl rfl
  · have := congrFun hh.2 0
    exact congrArg Fin.val this
  · funext a
    match a with
    | ⟨0, _⟩ => exact Fin.ext hh

/-- One block folded in, read at element `n`: the sixteen words' contributions added. -/
theorem step_apply (h : Sc1.IdxOK ep) (acc : Vec Ideal S10000 .f32) (b : ℕ) :
    Sc1.step (F := Ideal) g acc (Sc1.blk ep b) n = (acc n : EReal) + ∑ x ∈ Finset.range 16, term ep g n (16 * b + x) := by
  unfold Sc1.step
  rw [dif_pos (blkOK ep h b), ValLib.storeIdx_add_apply]
  refine congrArg (fun z : EReal => (acc n : EReal) + z) ?_
  rw [← Fin.sum_univ_eq_sum_range (fun x => term ep g n (16 * b + x)) 16]
  exact Finset.sum_congr rfl fun k _ => lane_eq ep g n b _ _ k

/-- After `k` blocks the accumulator holds the contributions of the first `16 k` words. -/
theorem accAfter_apply (h : Sc1.IdxOK ep) (k : ℕ) :
    Sc1.accAfter (F := Ideal) ep g k n = ∑ q ∈ Finset.range (16 * k), term ep g n q := by
  induction k with
  | zero =>
    show Ideal.ofBits .f32 0x00000000#32 = _
    rw [Ideal.ofBits_zero_f32]; simp
  | succ k ih =>
    show Sc1.step (F := Ideal) g (Sc1.accAfter ep g k) (Sc1.blk ep k) n = _
    rw [step_apply ep g n h, ih, ← Finset.sum_range_add, Nat.mul_succ]

end Tile

/-- **The message sums**: element `n` of row `w` of the result is the sum, over the edges whose destination is `n`,
    of row `w` of the scaled features at the edge's source. -/
theorem accT_apply (ep : Vec Ideal S160000 .i32) (gall : Vec Ideal S32x10000 .f32) (h : Sc1.IdxOK ep) (w : Fin 32) (n : Fin 10000) :
    Sc1.accT (F := Ideal) ep gall (ValueIdx.ix2 w n)
      = ∑ j : Fin 160000, if (IntOp.andi (ep (ValueIdx.ix1 j)) 16383#32).toNat = n.val
          then (gall (ValueIdx.ix2 w ⟨(IntOp.shrsi .vector (ep (ValueIdx.ix1 j)) 14#32).toNat, (h (ValueIdx.ix1 j)).2⟩) : EReal) else 0 := by
  show Sc1.accAfter (F := Ideal) ep (Sc1.rowOf gall w) 10000 (Shape.ofLane (d := ![10000]) n) = _
  rw [accAfter_apply ep _ _ h, show 16 * 10000 = 160000 from rfl, ← Fin.sum_univ_eq_sum_range (fun q => term ep (Sc1.rowOf gall w) (Shape.ofLane (d := ![10000]) n) q) 160000]
  refine Finset.sum_congr rfl fun j _ => ?_
  unfold term
  have e : epAt ep j.val = ep (ValueIdx.ix1 j) := by
    unfold epAt
    congr 1
    funext a
    match a with
    | ⟨0, _⟩ => exact Fin.ext (Nat.mod_eq_of_lt j.isLt)
  rw [e]
  refine if_congr Iff.rfl ?_ rfl
  unfold gAt
  rw [dif_pos (h (ValueIdx.ix1 j)).2]
  show gall _ = gall _
  congr 1
  funext a
  match a with
  | ⟨0, _⟩ => rfl
  | ⟨1, _⟩ => rfl

end Cert.KernelIdeal.Hand.Sc1Val

end
-- ==== Proof.Hand.ValAlg.lean ====
/-
  The algebra of the convolution layer at one node and feature, over the extended reals: with finite inputs the projected
  features and the normalisers are real numbers, so the kernel's order of operations (scale at the sources, sum, add the
  node's own scaled feature, scale the total) gives the specification's sum of products.
-/
import proofs.«207900_g17016660427224_cont_7to1_1372_35_alg».proof.Proof.Hand.Spec
import proofs.«207900_g17016660427224_cont_7to1_1372_35_alg».proof.Proof.Hand.ValLib
import Mathlib.Tactic.Positivity

noncomputable section

namespace Cert.KernelIdeal.Hand.ValAlg

open Idealize.ShloMosaic Idealize.ShloMosaic.ValueIdx
open scoped BigOperators

variable (x : (⟨2, ![10000, 128]⟩ : Shape).Idx → EReal) (e : (⟨2, ![2, 160000]⟩ : Shape).Idx → BitVec 32)
  (Wg : (⟨2, ![128, 32]⟩ : Shape).Idx → EReal) (bg : (⟨1, ![32]⟩ : Shape).Idx → EReal)

/-- With real features and weight, every projected feature is a real number. -/
theorem xw_real (hx : ∀ i, ∃ r : ℝ, x i = (r : EReal)) (hW : ∀ i, ∃ r : ℝ, Wg i = (r : EReal)) (n : Fin 10000) (h : Fin 32) :
    ∃ r : ℝ, Spec.xw x Wg n h = (r : EReal) := by
  choose xr hxr using hx
  choose wr hwr using hW
  refine ⟨∑ k : Fin 128, xr (ix2 n k) * wr (ix2 k h), ?_⟩
  unfold Spec.xw
  simp only [hxr, hwr]
  exact ValLib.sum_mul_real _ _ _

/-- A degree is a real number, at least one. -/
theorem deg_real (n : Fin 10000) : ∃ r : ℝ, 0 < r ∧ Spec.deg e n = (r : EReal) := by
  refine ⟨1 + ((Finset.univ.filter fun j : Fin 160000 => Spec.dst e j = n.val).card : ℝ), by positivity, ?_⟩
  unfold Spec.deg
  rw [ValLib.sum_ite_one, EReal.coe_add, EReal.coe_one]

/-- So its reciprocal square root is a real number. -/
theorem dinv_real (n : Fin 10000) : ∃ r : ℝ, Spec.dinv e n = (r : EReal) := by
  obtain ⟨r, hr, hd⟩ := deg_real e n
  exact ⟨(Real.sqrt r)⁻¹, by unfold Spec.dinv; rw [hd, ValLib.rsqrt_coe_pos hr]⟩

/-- **One node and feature of the convolution layer.** If the gathered sum is the sum over the edges ending at `n` of the
    scaled feature at the edge's source, and the node's own scaled feature is its normaliser times its feature, then
    scaling their sum by the node's normaliser, adding the bias and clamping gives the layer's output. -/
theorem h1_of_acc (hx : ∀ i, ∃ r : ℝ, x i = (r : EReal)) (hW : ∀ i, ∃ r : ℝ, Wg i = (r : EReal)) (n : Fin 10000) (h : Fin 32)
    (acc gl : EReal)
    (hacc : acc = ∑ j : Fin 160000, if Spec.dst e j = n.val
        then Spec.dinv e (Spec.src e j) * Spec.xw x Wg (Spec.src e j) h else 0)
    (hgl : gl = Spec.dinv e n * Spec.xw x Wg n h) :
    max (Spec.dinv e n * (acc + gl) + bg (ix1 h)) 0 = Spec.h1 x e Wg bg n h := by
  choose a ha using fun m => xw_real x Wg hx hW m h
  choose d hd using dinv_real e
  unfold Spec.h1 Spec.agg
  rw [hacc, hgl]
  simp only [ha, hd]
  exact congrArg (fun z => max z 0)
    (ValLib.conv_node_algebra Finset.univ (fun j : Fin 160000 => Spec.dst e j = n.val)
      (fun j => a (Spec.src e j)) (fun j => d (Spec.src e j)) (d n) (a n) (bg (ix1 h)))

end Cert.KernelIdeal.Hand.ValAlg

end
-- ==== Proof.Hand.ValH1.lean ====
/-
  The graph-convolution layer's output from the stage functions, over the extended reals. The stages, in order: the
  projected features (transposed) xwT; the 32 degree histograms; the normalising factor dinv = rsqrt (1 + their column
  sums) and the scaled features gall = dinv · xwT; the message sums acc[h, n] = Σ_{edges j ending at n} gall[h, src j];
  and the last region's  max (dinv[n] · (acc[h, n] + gall[h, n]) + bg[h], 0). With the packed word's low field the
  destination and its high field the source, each stage is the specification's function of the same name, and the last
  is the layer's output h1 at node n and feature h.
-/
import proofs.«207900_g17016660427224_cont_7to1_1372_35_alg».proof.Proof.Hand.R0
import proofs.«207900_g17016660427224_cont_7to1_1372_35_alg».proof.Proof.Hand.R1
import proofs.«207900_g17016660427224_cont_7to1_1372_35_alg».proof.Proof.Hand.R2
import proofs.«207900_g17016660427224_cont_7to1_1372_35_alg».proof.Proof.Hand.Sc0
import proofs.«207900_g17016660427224_cont_7to1_1372_35_alg».proof.Proof.Hand.Sc1
import proofs.«207900_g17016660427224_cont_7to1_1372_35_alg».proof.Proof.Hand.Spec
import proofs.«207900_g17016660427224_cont_7to1_1372_35_alg».proof.Proof.Hand.ValR0
import proofs.«207900_g17016660427224_cont_7to1_1372_35_alg».proof.Proof.Hand.ValR1
import proofs.«207900_g17016660427224_cont_7to1_1372_35_alg».proof.Proof.Hand.ValR2
import proofs.«207900_g17016660427224_cont_7to1_1372_35_alg».proof.Proof.Hand.Sc1Val
import proofs.«207900_g17016660427224_cont_7to1_1372_35_alg».proof.Proof.Hand.ValAlg
import Idealize.ShloMosaic.Lib.ValueIdx

noncomputable section

namespace Cert.KernelIdeal.Hand.ValH1

open Cert.KernelIdeal Cert.KernelIdeal.Gen Cert.KernelIdeal.Hand
open Idealize.ShloMosaic Idealize.ShloMosaic.ValueIdx
open scoped BigOperators

/-- A signed word in [0, 9999] is its unsigned value, below 10000. -/
theorem small_of_range (a : BitVec 32) (ha : 0 ≤ a.toInt ∧ a.toInt ≤ 9999) : a.toNat < 10000 := by
  have h := ha.1; have h' := ha.2
  rw [BitVec.toInt_eq_toNat_cond] at h h'
  split at h <;> omega

section Layer

variable (x : FVec Ideal S10000x128 .f32) (e : Vec Ideal S2x160000 .i32) (Wg : FVec Ideal S128x32 .f32)
  (bg : FVec Ideal S32 .f32) (ep : Vec Ideal S160000 .i32)
  (hlo : ∀ j : Fin 160000, IntOp.andi (ep (ix1 j)) 16383#32 = e (ix2 (1 : Fin 2) j))
  (hhi : ∀ j : Fin 160000, IntOp.shrsi .vector (ep (ix1 j)) 14#32 = e (ix2 (0 : Fin 2) j))
  (hrange : ∀ i, 0 ≤ (e i).toInt ∧ (e i).toInt ≤ 9999)

include hlo hhi hrange in
/-- Both fields of every packed word name a node. -/
theorem idxOK : Sc1.IdxOK ep := by
  intro i
  obtain ⟨j, rfl⟩ : ∃ j : Fin 160000, i = ix1 j := ⟨i 0, eq_ix1 i⟩
  rw [hlo, hhi]
  exact ⟨small_of_range _ (hrange _), small_of_range _ (hrange _)⟩

include hhi hrange in
/-- The high field of packed word `j` is edge `j`'s source node. -/
theorem src_eq (j : Fin 160000) (pf : (IntOp.shrsi .vector (ep (ix1 j)) 14#32).toNat < 10000) :
    (⟨(IntOp.shrsi .vector (ep (ix1 j)) 14#32).toNat, pf⟩ : Fin 10000) = Spec.src e j := by
  apply Fin.ext
  show (IntOp.shrsi .vector (ep (ix1 j)) 14#32).toNat = (Spec.node (e (ix2 (0 : Fin 2) j))).val
  rw [hhi j, Spec.node_val_of_lt (small_of_range _ (hrange _))]

include hlo in
/-- The scaled features at (h, n): the normaliser of `n` times the projected feature. -/
theorem gall_spec (x2 : Vec Ideal S2x160000 .i32) (h : Fin 32) (n : Fin 10000) :
    R1.out_3 (F := Ideal) (Sc0.degP (F := Ideal) ep) (R0.out_3 (F := Ideal) x Wg x2) (ix2 h n)
      = Spec.dinv e n * Spec.xw x Wg n h := by
  rw [ValR1.gall_eq e ep hlo, ValR0.out_3_apply]

include hlo hhi hrange in
/-- The message sums at (h, n): over the edges ending at `n`, the scaled feature at the edge's source. -/
theorem acc_spec (x2 : Vec Ideal S2x160000 .i32) (h : Fin 32) (n : Fin 10000) :
    Sc1.accT (F := Ideal) ep (R1.out_3 (F := Ideal) (Sc0.degP (F := Ideal) ep) (R0.out_3 (F := Ideal) x Wg x2)) (ix2 h n)
      = ∑ j : Fin 160000, if Spec.dst e j = n.val
          then Spec.dinv e (Spec.src e j) * Spec.xw x Wg (Spec.src e j) h else 0 := by
  rw [Sc1Val.accT_apply ep _ (idxOK e ep hlo hhi hrange) h n]
  refine Finset.sum_congr rfl fun j _ => ?_
  refine if_congr (by rw [hlo j]; exact Iff.rfl) ?_ rfl
  rw [src_eq e ep hhi hrange j, gall_spec x e Wg ep hlo]

include hlo hhi hrange in
/-- **The layer's output.** The last region's output at (h, n), of the stages before it, is the graph convolution's
    output at node `n` and feature `h`. -/
theorem h1T_eq (hx : ∀ i, ∃ r : ℝ, x i = (r : EReal)) (hW : ∀ i, ∃ r : ℝ, Wg i = (r : EReal))
    (x2 : Vec Ideal S2x160000 .i32) (h : Fin 32) (n : Fin 10000) :
    R2.out_4 (F := Ideal)
        (Sc1.accT (F := Ideal) ep (R1.out_3 (F := Ideal) (Sc0.degP (F := Ideal) ep) (R0.out_3 (F := Ideal) x Wg x2)))
        (R1.out_3 (F := Ideal) (Sc0.degP (F := Ideal) ep) (R0.out_3 (F := Ideal) x Wg x2))
        (R1.out_2 (F := Ideal) (Sc0.degP (F := Ideal) ep) (R0.out_3 (F := Ideal) x Wg x2))
        (shapeCast S32x1 bg shapeCasts_S32_S32x1) (ix2 h n)
      = Spec.h1 x e Wg bg n h := by
  rw [ValR2.out_4_apply, ValR2.main_v5_apply, ValR1.dinv_eq e ep hlo]
  exact ValAlg.h1_of_acc x e Wg bg hx hW n h _ _ (acc_spec x e Wg ep hlo hhi hrange x2 h n) (gall_spec x e Wg ep hlo x2 h n)

end Layer

end Cert.KernelIdeal.Hand.ValH1

end
-- ==== Proof.Hand.ValR3.lean ====
/-
  Region 3's accumulated output read at an index, at the ideal float values: the twenty grid points add, block by
  block of 16000, the products of the flattened row with the first dense layer's weight; what the last point leaves is
  the whole dot product over the 320000 places.
-/
import proofs.«207900_g17016660427224_cont_7to1_1372_35_alg».proof.Proof.Hand.R3Rd
import proofs.«207900_g17016660427224_cont_7to1_1372_35_alg».proof.Proof.Hand.Val
import proofs.«207900_g17016660427224_cont_7to1_1372_35_alg».proof.Proof.Hand.ValLib
import Idealize.ShloMosaic.Lib.ValueIdx

set_option maxRecDepth 16384

noncomputable section

namespace Cert.KernelIdeal.Hand.ValR3

open Cert.KernelIdeal Cert.KernelIdeal.Gen Cert.KernelIdeal.Hand
open Idealize.ShloMosaic Idealize.ShloMosaic.ValueIdx Idealize.ShloMosaic.TcCoe
open scoped BigOperators

/-! ## One point's store, at an index -/

/-- The first point leaves the first block's product. -/
theorem first_apply (x0 : FVec Ideal S1x16000 .f32) (x1 : FVec Ideal S16000x128 .f32) (u : Fin 1) (k : Fin 128) :
    R3.out_first (F := Ideal) x0 x1 (ix2 u k) = ∑ r : Fin 16000, x0 (ix2 u r) * x1 (ix2 r k) := by
  rw [R3.out_first_eq, Val.k5_pay2_apply, Val.k5_pay1_apply, zero_add]

/-- A later point adds its block's product. -/
theorem later_apply (x0 : FVec Ideal S1x16000 .f32) (x1 : FVec Ideal S16000x128 .f32) (xo : FVec Ideal S1x128 .f32)
    (u : Fin 1) (k : Fin 128) :
    R3.out_later (F := Ideal) x0 x1 xo (ix2 u k) = xo (ix2 u k) + ∑ r : Fin 16000, x0 (ix2 u r) * x1 (ix2 r k) := by
  rw [R3.out_later_eq, Val.k5_pay2_apply]

/-! ## The accumulation over any sequence of blocks -/

/-- A sequence of outputs that starts at the first block's store and continues by the later store holds, after point
    n, the sum of the first n + 1 blocks' products. -/
theorem acc_apply (x0 : ℕ → FVec Ideal S1x16000 .f32) (x1 : ℕ → FVec Ideal S16000x128 .f32) (o : ℕ → FVec Ideal S1x128 .f32)
    (h0 : o 0 = R3.out_first (F := Ideal) (x0 0) (x1 0))
    (hs : ∀ n, n + 1 < 20 → o (n + 1) = R3.out_later (F := Ideal) (x0 (n + 1)) (x1 (n + 1)) (o n))
    (u : Fin 1) (k : Fin 128) (n : ℕ) (hn : n < 20) :
    o n (ix2 u k) = ∑ t ∈ Finset.range (n + 1), ∑ r : Fin 16000, x0 t (ix2 u r) * x1 t (ix2 r k) := by
  induction n with
  | zero => rw [h0, first_apply, Finset.sum_range_one]
  | succ n ih => rw [hs n hn, later_apply, ih (by omega), Finset.sum_range_succ _ (n + 1)]

/-! ## The region's blocks and outputs, as sequences -/

variable (V : (c : Dev nD) → (b : Ref sig .tc) → Buf (Elt Ideal) ((c : Thread nD τ).loc b)) (c : Dev nD)

/-- The flattened row and the first dense layer's weight, as the region finds them. -/
def rowV : FVec Ideal S1x320000 .f32 := (V c main_v8 : Vec Ideal S1x320000 .f32)
def matV : FVec Ideal S320000x128 .f32 := (V c main_arg4 : Vec Ideal S320000x128 .f32)

/-- The row's and the weight's blocks at point t, and the output after it; past the grid, zero. -/
def X0 (t : ℕ) : FVec Ideal S1x16000 .f32 :=
  if h : t < 20 then (R3.iblk V c 0 ⟨t, R3.lt_N h⟩ : Vec Ideal S1x16000 .f32) else fun _ => 0
def X1 (t : ℕ) : FVec Ideal S16000x128 .f32 :=
  if h : t < 20 then (R3.iblk V c 1 ⟨t, R3.lt_N h⟩ : Vec Ideal S16000x128 .f32) else fun _ => 0
def Oo (n : ℕ) : FVec Ideal S1x128 .f32 := if h : n < 20 then R3.outsAt V c n h else fun _ => 0

theorem Oo_zero : Oo V c 0 = R3.out_first (F := Ideal) (X0 V c 0) (X1 V c 0) := by
  unfold Oo X0 X1
  simp only [dif_pos (show 0 < 20 by decide)]
  exact R3.outsAt_zero V c (by decide)

theorem Oo_succ (n : ℕ) (hn : n + 1 < 20) : Oo V c (n + 1) = R3.out_later (F := Ideal) (X0 V c (n + 1)) (X1 V c (n + 1)) (Oo V c n) := by
  unfold Oo X0 X1
  simp only [dif_pos hn, dif_pos (show n < 20 by omega)]
  exact R3.outsAt_succ V c n hn

/-- Place r of the row's block at point t: place 16000 t + r of the row. -/
theorem X0_apply (t : ℕ) (h : t < 20) (u : Fin 1) (r : Fin 16000) :
    X0 V c t (ix2 u r) = rowV V c (ix2 (0 : Fin 1) ⟨t * 16000 + r.val, by have := r.isLt; omega⟩) := by
  unfold X0; rw [dif_pos h]
  refine (R3.iblk_0_apply V c ⟨t, R3.lt_N h⟩ (ix2 u r)).trans ?_
  show rowV V c _ = rowV V c _
  refine congrArg _ (funext fun a => Fin.ext ?_)
  match a with
  | ⟨0, _⟩ => show u.val = 0; omega
  | ⟨1, _⟩ => show 16000 * t + r.val = t * 16000 + r.val; omega

/-- Entry (r, k) of the weight's block at point t: row 16000 t + r, column k. -/
theorem X1_apply (t : ℕ) (h : t < 20) (r : Fin 16000) (k : Fin 128) :
    X1 V c t (ix2 r k) = matV V c (ix2 ⟨t * 16000 + r.val, by have := r.isLt; omega⟩ k) := by
  unfold X1; rw [dif_pos h]
  refine (R3.iblk_1_apply V c ⟨t, R3.lt_N h⟩ (ix2 r k)).trans ?_
  show matV V c _ = matV V c _
  refine congrArg _ (funext fun a => Fin.ext ?_)
  match a with
  | ⟨0, _⟩ => show 16000 * t + r.val = t * 16000 + r.val; omega
  | ⟨1, _⟩ => rfl

/-! ## What the region leaves -/

/-- The product at place q of the row with entry (q, k) of the weight; past the row's end, zero. -/
def prodAt (k : Fin 128) (q : ℕ) : EReal :=
  if hq : q < 320000 then rowV V c (ix2 (0 : Fin 1) ⟨q, hq⟩) * matV V c (ix2 ⟨q, hq⟩ k) else 0

theorem prodAt_fin (k : Fin 128) (q : Fin 320000) : prodAt V c k q.val = rowV V c (ix2 (0 : Fin 1) q) * matV V c (ix2 q k) := by
  unfold prodAt; rw [dif_pos q.isLt]

theorem blk_prod (t : Fin 20) (u : Fin 1) (r : Fin 16000) (k : Fin 128) :
    X0 V c t.val (ix2 u r) * X1 V c t.val (ix2 r k) = prodAt V c k (t.val * 16000 + r.val) := by
  have ht := t.isLt
  have hr := r.isLt
  rw [X0_apply V c t.val ht, X1_apply V c t.val ht]
  unfold prodAt; rw [dif_pos (show t.val * 16000 + r.val < 320000 by omega)]

theorem sum_all (g : ℕ → EReal) : ∑ t : Fin 20, ∑ r : Fin 16000, g (t.val * 16000 + r.val) = ∑ j : Fin 320000, g j.val :=
  ValLib.sum_blocks 20 16000 g

/-- Entry k of the output after the last point: the dot product of the whole flattened row with column k of the weight. -/
theorem outsAt_last (u : Fin 1) (k : Fin 128) :
    R3.outsAt V c 19 (by decide) (ix2 u k) = ∑ q : Fin 320000, rowV V c (ix2 (0 : Fin 1) q) * matV V c (ix2 q k) := by
  have h := acc_apply (X0 V c) (X1 V c) (Oo V c) (Oo_zero V c) (Oo_succ V c) u k 19 (by decide)
  have e : Oo V c 19 = R3.outsAt V c 19 (by decide) := by unfold Oo; rw [dif_pos (by decide)]
  rw [← e, h, ← Fin.sum_univ_eq_sum_range (fun t => ∑ r : Fin 16000, X0 V c t (ix2 u r) * X1 V c t (ix2 r k)) (19 + 1)]
  refine ((Finset.sum_congr rfl fun t _ => Finset.sum_congr rfl fun r _ => blk_prod V c t u r k).trans (sum_all (prodAt V c k))).trans ?_
  exact Finset.sum_congr rfl fun q _ => prodAt_fin V c k q

/-- The two arrays are the entry contents at their references. -/
theorem rowV_eq : rowV V c = (V c main_v8 : Vec Ideal S1x320000 .f32) := rfl
theorem matV_eq : matV V c = (V c main_arg4 : Vec Ideal S320000x128 .f32) := rfl

end Cert.KernelIdeal.Hand.ValR3

end
-- ==== Proof.Hand.ValR4.lean ====
/-
  The last TensorCore region's output at the ideal (extended-real) float values, read at an index: for a hidden
  row h, its bias b1, the weight W2 and the output bias b2, entry c of the output row is
    max (Σ_k max (h k + b1 k) 0 · W2[k,c] + b2 c) 0,
  which, when max (h k + b1 k) 0 is the first dense layer's output at k, is the network's result at c.
-/
import proofs.«207900_g17016660427224_cont_7to1_1372_35_alg».proof.Proof.Hand.R4
import proofs.«207900_g17016660427224_cont_7to1_1372_35_alg».proof.Proof.Hand.Spec
import proofs.«207900_g17016660427224_cont_7to1_1372_35_alg».proof.Proof.Hand.Val

set_option maxRecDepth 16384

noncomputable section

namespace Cert.KernelIdeal.Hand.ValR4

open Cert.KernelIdeal Cert.KernelIdeal.Gen
open Idealize.ShloMosaic Idealize.ShloMosaic.ValueIdx
open scoped BigOperators

/-- The whole-row rectangles start at zero on both axes. -/
theorem hz : (![0, 0] : Fin 2 → Nat) = fun _ => 0 := funext fun a => by fin_cases a <;> rfl

/-- An index of the one-row output is its column in row 0. -/
theorem idx_row (i : S1x10000.Idx) : i = ix2 (0 : Fin 1) (i 1) :=
  funext fun a => match a with
    | ⟨0, _⟩ => Fin.ext (by have h : (i 0).val < 1 := (i 0).isLt; show (i 0).val = 0; omega)
    | ⟨1, _⟩ => rfl

/-- The region's one store is of the whole row and its loads are of the whole inputs: the output row is the
    body's stored vector at the inputs. -/
theorem out_4_eq_pay (h3pre b1r : Vec Ideal S1x128 .f32) (W2 : Vec Ideal S128x10000 .f32) (b2r : Vec Ideal S1x10000 .f32) :
    R4.out_4 h3pre b1r W2 b2r = k6_pay1 (F := Ideal) h3pre b1r W2 b2r := by
  unfold R4.out_4
  rw [View.canon_unit_zero hz]
  simp only [View.ld_unit_zero (S := S1x128) hz, View.ld_unit_zero (S := S128x10000) hz, View.ld_unit_zero (S := S1x10000) hz]

/-- The output row at column `i 1`: the clamped hidden row times the weight's column, plus the bias, clamped. -/
theorem out_4_apply (h3pre b1r : Vec Ideal S1x128 .f32) (W2 : Vec Ideal S128x10000 .f32) (b2r : Vec Ideal S1x10000 .f32)
    (i : S1x10000.Idx) :
    R4.out_4 h3pre b1r W2 b2r i
      = max ((∑ k : Fin 128, max (h3pre (ix2 0 k) + b1r (ix2 0 k)) 0 * W2 (ix2 k (i 1))) + b2r (ix2 0 (i 1))) 0 := by
  rw [out_4_eq_pay]
  exact (congrArg (k6_pay1 (F := Ideal) h3pre b1r W2 b2r) (idx_row i)).trans (Val.k6_pay1_apply h3pre b1r W2 b2r 0 (i 1))

variable (x : (⟨2, ![10000, 128]⟩ : Shape).Idx → EReal) (e : (⟨2, ![2, 160000]⟩ : Shape).Idx → BitVec 32)
  (Wg : (⟨2, ![128, 32]⟩ : Shape).Idx → EReal) (bg : (⟨1, ![32]⟩ : Shape).Idx → EReal)
  (W1 : (⟨2, ![320000, 128]⟩ : Shape).Idx → EReal) (b1 : (⟨1, ![128]⟩ : Shape).Idx → EReal)
  (W2 : (⟨2, ![128, 10000]⟩ : Shape).Idx → EReal) (b2 : (⟨1, ![10000]⟩ : Shape).Idx → EReal)

/-- When the clamped hidden row is the first dense layer's output and the bias row reads the bias vector, the
    region's output row is the network's result. -/
theorem out_4_eq_G (h3pre b1r : Vec Ideal S1x128 .f32) (b2r : Vec Ideal S1x10000 .f32)
    (hyp : ∀ k : Fin 128, max (h3pre (ix2 0 k) + b1r (ix2 0 k)) 0 = Spec.h3 x e Wg bg W1 b1 k)
    (hb2 : ∀ c : Fin 10000, b2r (ix2 0 c) = b2 (ix1 c)) (i : S1x10000.Idx) :
    R4.out_4 h3pre b1r W2 b2r i = Spec.G x e Wg bg W1 b1 W2 b2 i := by
  rw [out_4_apply]
  have hs : (∑ k : Fin 128, max (h3pre (ix2 0 k) + b1r (ix2 0 k)) 0 * W2 (ix2 k (i 1)))
      = ∑ k : Fin 128, Spec.h3 x e Wg bg W1 b1 k * W2 (ix2 k (i 1)) :=
    Finset.sum_congr rfl fun k _ => by rw [hyp k]
  rw [hs, hb2 (i 1)]
  rfl

/-- The same with the bias row the bias vector under a leading unit axis, as the program reshapes it. -/
theorem out_4_reshaped_eq_G (h3pre b1r : Vec Ideal S1x128 .f32)
    (hyp : ∀ k : Fin 128, max (h3pre (ix2 0 k) + b1r (ix2 0 k)) 0 = Spec.h3 x e Wg bg W1 b1 k) (i : S1x10000.Idx) :
    R4.out_4 h3pre b1r W2 (shapeCast S1x10000 b2 shapeCasts_S10000_S1x10000) i = Spec.G x e Wg bg W1 b1 W2 b2 i :=
  out_4_eq_G x e Wg bg W1 b1 W2 b2 h3pre b1r _ hyp (fun c => shapeCast_a_1a_apply b2 shapeCasts_S10000_S1x10000 0 c) i

end Cert.KernelIdeal.Hand.ValR4

end
-- ==== Proof.Hand.ValG.lean ====
/-
  The tail of the kernel program's chain of stages, at the ideal float values: from the convolution layer's output
  (transposed, as the third TensorCore region leaves it) through the host's transpose and flattening, the fourth
  region's twenty-block accumulation and the fifth region's second dense layer, to the network's specification.
-/
import proofs.«207900_g17016660427224_cont_7to1_1372_35_alg».proof.Proof.Hand.ValR2
import proofs.«207900_g17016660427224_cont_7to1_1372_35_alg».proof.Proof.Hand.ValR3
import proofs.«207900_g17016660427224_cont_7to1_1372_35_alg».proof.Proof.Hand.ValR4
import Idealize.ShloMosaic.Lib.Pipeline.Value
import Idealize.ShloMosaic.Lib.ValueIdx
import Idealize.ShloMosaic.PureOps.Ideal.Laws

set_option maxRecDepth 16384

noncomputable section

namespace Cert.KernelIdeal.Hand.ValG

open Cert.KernelIdeal Cert.KernelIdeal.Gen Cert.KernelIdeal.Hand
open Idealize.ShloMosaic Idealize.ShloMosaic.ValueIdx Idealize.ShloMosaic.TcCoe
open Idealize.ShloMosaic.SparseCore.Cfg (HIx Pay)
open Idealize.SL.Sem
open scoped BigOperators

variable (a0 : FVec Ideal S10000x128 .f32) (a1 : IVec S2x160000 32) (a2 : FVec Ideal S128x32 .f32) (a3 : FVec Ideal S32 .f32)
  (a4 : FVec Ideal S320000x128 .f32) (a5 : FVec Ideal S128 .f32) (a6 : FVec Ideal S128x10000 .f32) (a7 : FVec Ideal S10000 .f32)

/-- The convolution layer's output transposed back and flattened row by row. -/
def flat (h1T : Vec Ideal S32x10000 .f32) : Vec Ideal S1x320000 .f32 :=
  shapeCast S1x320000 (transpose S10000x32 [1, 0] h1T transposes_S32x10000_S10000x32_1_0) shapeCasts_S10000x32_S1x320000

/-- Place `q` of the flattened row is feature `q % 32` of node `q / 32`. -/
theorem flat_apply (h1T : Vec Ideal S32x10000 .f32)
    (hh1 : ∀ (h : Fin 32) (n : Fin 10000), h1T (ix2 h n) = Spec.h1 a0 a1 a2 a3 n h) (u : Fin 1) (q : Fin 320000) :
    flat h1T (ix2 u q) = Spec.h1flat a0 a1 a2 a3 q := by
  unfold flat
  rw [ValR2.main_v8_apply, ValR2.main_v7_apply, hh1]
  rfl

/-- **The tail of the chain is the specification.** With the third region's output the convolution layer's (transposed),
    the fourth region entered with the flattened row and the first dense weight in its two input arrays, what the fifth
    region leaves is the network's result. -/
theorem tail_eq_G (h1T : Vec Ideal S32x10000 .f32)
    (hh1 : ∀ (h : Fin 32) (n : Fin 10000), h1T (ix2 h n) = Spec.h1 a0 a1 a2 a3 n h)
    (V : (c : Dev nD) → (b : Ref sig .tc) → Buf (Elt Ideal) ((c : Thread nD τ).loc b)) (c : Dev nD)
    (hV8 : (V c main_v8 : S1x320000.Idx → Elt Ideal .f32) = flat h1T)
    (hV4 : (V c main_arg4 : S320000x128.Idx → Elt Ideal .f32) = a4) :
    R4.out_4 (F := Ideal) (R3.outsAt V c 19 (by decide)) (shapeCast S1x128 a5 shapeCasts_S128_S1x128) a6
        (shapeCast S1x10000 a7 shapeCasts_S10000_S1x10000)
      = Spec.G a0 a1 a2 a3 a4 a5 a6 a7 := by
  funext i
  refine ValR4.out_4_reshaped_eq_G a0 a1 a2 a3 a4 a5 a6 a7 _ _ (fun k => ?_) i
  unfold Spec.h3
  have e8 : ValR3.rowV V c = flat h1T := hV8
  have e4 : ValR3.matV V c = a4 := hV4
  rw [ValR3.outsAt_last, ValR2.main_v10_apply, e8, e4]
  refine congrArg (fun z => max (z + a5 (ix1 k)) 0) (Finset.sum_congr rfl fun q _ => ?_)
  rw [flat_apply a0 a1 a2 a3 h1T hh1]

end Cert.KernelIdeal.Hand.ValG

end
-- ==== Proof.Hand.ValFinal.lean ====
/-
  The last bridge of the value chain, over the extended reals: under the precondition, the composition of the stages'
  functions at the launch arrays is the network's specification. The precondition says the edge list's words are node
  numbers and the features and the convolution weight are real-valued; so the packed words' fields are each edge's
  destination and source, the third region's output is the convolution layer's (transposed), and from there the
  flattening, the twenty-block accumulation and the second dense layer are the specification's tail.
-/
import proofs.«207900_g17016660427224_cont_7to1_1372_35_alg».proof.Proof.Hand.Chain
import proofs.«207900_g17016660427224_cont_7to1_1372_35_alg».proof.Proof.Hand.Pre
import proofs.«207900_g17016660427224_cont_7to1_1372_35_alg».proof.Proof.Hand.Idx
import proofs.«207900_g17016660427224_cont_7to1_1372_35_alg».proof.Proof.Hand.ValH1
import proofs.«207900_g17016660427224_cont_7to1_1372_35_alg».proof.Proof.Hand.ValG
import proofs.«207900_g17016660427224_cont_7to1_1372_35_alg».proof.Proof.Hand.Spec

set_option maxRecDepth 16384

noncomputable section

namespace Cert.KernelIdeal.Hand.ValFinal

open Cert.KernelIdeal Cert.KernelIdeal.Gen Cert.KernelIdeal.Hand
open Idealize.ShloMosaic Idealize.ShloMosaic.ValueIdx Idealize.ShloMosaic.TcCoe
open Idealize.SL.Sem

variable (m : (ℓ : Loc nD τ sig) → Buf (Elt Ideal) ℓ) (d : Dev nD)

/-- The packed edge words as one row are the host's reshape of the first region's packed words. -/
theorem ep_eq : Chain.ep (F := Ideal) m d = Idx.rs (R0.out_4 (F := Ideal) (Chain.a0 m d) (Chain.a2 m d) (Chain.a1 m d)) := rfl

/-- The third region's output at (h, n) is the convolution layer's output at node n and feature h. -/
theorem h1T_spec
    (hpre : Cert.Pre_input_domain.fn (F := Ideal) (Chain.a0 m d) (Chain.a1 m d) (Chain.a2 m d) (Chain.a3 m d) (Chain.a4 m d)
      (Chain.a5 m d) (Chain.a6 m d) (Chain.a7 m d) = fun _ => 1#1) (h : Fin 32) (n : Fin 10000) :
    Chain.h1T (F := Ideal) m d (ix2 h n) = Spec.h1 (Chain.a0 m d) (Chain.a1 m d) (Chain.a2 m d) (Chain.a3 m d) n h := by
  have hrange : ∀ i : S2x160000.Idx, 0 ≤ (Chain.a1 (F := Ideal) m d i).toInt ∧ (Chain.a1 (F := Ideal) m d i).toInt ≤ 9999 :=
    Pre.edge_range (F := Ideal) (Chain.a0 m d) (Chain.a1 m d) (Chain.a2 m d) (Chain.a3 m d) (Chain.a4 m d) (Chain.a5 m d)
      (Chain.a6 m d) (Chain.a7 m d) hpre
  obtain ⟨hx, hW, -⟩ := Pre.finite_of_pre (Chain.a0 m d) (Chain.a1 m d) (Chain.a2 m d) (Chain.a3 m d) (Chain.a4 m d)
    (Chain.a5 m d) (Chain.a6 m d) (Chain.a7 m d) hpre
  have hlo : ∀ j : Fin 160000, IntOp.andi (Chain.ep (F := Ideal) m d (ix1 j)) 16383#32 = Chain.a1 (F := Ideal) m d (ix2 (1 : Fin 2) j) :=
    fun j => Idx.lo_eq (F := Ideal) (Chain.a0 m d) (Chain.a2 m d) (Chain.a1 m d) hrange j
  have hhi : ∀ j : Fin 160000, IntOp.shrsi .vector (Chain.ep (F := Ideal) m d (ix1 j)) 14#32 = Chain.a1 (F := Ideal) m d (ix2 (0 : Fin 2) j) :=
    fun j => Idx.hi_eq (F := Ideal) (Chain.a0 m d) (Chain.a2 m d) (Chain.a1 m d) hrange j
  exact ValH1.h1T_eq (Chain.a0 m d) (Chain.a1 m d) (Chain.a2 m d) (Chain.a3 m d) (Chain.ep m d) hlo hhi hrange hx hW
    (Chain.a1 m d) h n

/-- THE VALUE. Under the precondition the chain's result at the launch arrays is the network's specification. -/
theorem out_eq_G
    (hpre : Cert.Pre_input_domain.fn (F := Ideal) (Chain.a0 m d) (Chain.a1 m d) (Chain.a2 m d) (Chain.a3 m d) (Chain.a4 m d)
      (Chain.a5 m d) (Chain.a6 m d) (Chain.a7 m d) = fun _ => 1#1) :
    Chain.out (F := Ideal) m d
      = Spec.G (Chain.a0 m d) (Chain.a1 m d) (Chain.a2 m d) (Chain.a3 m d) (Chain.a4 m d) (Chain.a5 m d) (Chain.a6 m d) (Chain.a7 m d) :=
  ValG.tail_eq_G (Chain.a0 m d) (Chain.a1 m d) (Chain.a2 m d) (Chain.a3 m d) (Chain.a4 m d) (Chain.a5 m d) (Chain.a6 m d)
    (Chain.a7 m d) (Chain.h1T m d) (h1T_spec m d hpre) (Steps.VW (Chain.W9 m d)) d (Chain.W9_v8 m d) (Chain.W9_arg4 m d)

end Cert.KernelIdeal.Hand.ValFinal

end
-- ==== Proof.lean ====
/-
  The claim: a two-layer network whose first layer is a graph convolution with self loops and symmetric normalisation,
  h1 = relu(D^(-1/2) (A + I) D^(-1/2) (x Wg) + bg) with D the degrees (counting the self loop), followed by two dense
  layers relu((flatten h1) W1 + b1) and relu(h3 W2 + b2), computed by the kernel program — five TensorCore regions and
  two SparseCore tile kernels over edge words that pack (source, target) as source * 2^14 + target — equals the
  reference's plain formulation over the extended reals, and each program runs to its end leaving its arguments as they were.

  The kernel program's run is ONE theorem per float instance (`Hand.Launch.run_main`, and its word-level copy): every
  unscoped buffer of the TensorCore ends at the last valuation of a chain that steps through @main's thirteen
  statements. From it: the frames (the chain read back at each argument is the launch contents), and, at the ideal
  instance, the result as a composition of the stages' pure functions, which index by index is the specification
  `Spec.G` (degree counts as sums of indicator terms; the scatter-added messages as sums over the edges that hit a
  node; dinv factored out of the neighbourhood sum, which needs the features finite; the blocked dense product as one
  flat sum). The reference's run is the generated one (its float compares given their float family by name), read
  stage by stage to the same `Spec.G`. The index facts the tile kernels assume — every packed word's low fourteen
  bits and its high part name a node — come from the precondition 0 <= edge_index <= 9999.
-/
import proofs.«207900_g17016660427224_cont_7to1_1372_35_alg».proof.Defs
import proofs.«207900_g17016660427224_cont_7to1_1372_35_alg».proof.Proof.Gen.Kernel
import proofs.«207900_g17016660427224_cont_7to1_1372_35_alg».proof.Proof.Gen.Kernel.Skeleton
import proofs.«207900_g17016660427224_cont_7to1_1372_35_alg».proof.Proof.Gen.Kernel.Launch
import proofs.«207900_g17016660427224_cont_7to1_1372_35_alg».proof.Proof.Gen.Kernel.Regions
import proofs.«207900_g17016660427224_cont_7to1_1372_35_alg».proof.Proof.Gen.Kernel.Points
import proofs.«207900_g17016660427224_cont_7to1_1372_35_alg».proof.Proof.Gen.KernelIdeal
import proofs.«207900_g17016660427224_cont_7to1_1372_35_alg».proof.Proof.Gen.KernelIdeal.Skeleton
import proofs.«207900_g17016660427224_cont_7to1_1372_35_alg».proof.Proof.Gen.KernelIdeal.Launch
import proofs.«207900_g17016660427224_cont_7to1_1372_35_alg».proof.Proof.Gen.KernelIdeal.Regions
import proofs.«207900_g17016660427224_cont_7to1_1372_35_alg».proof.Proof.Gen.KernelIdeal.Points
import proofs.«207900_g17016660427224_cont_7to1_1372_35_alg».proof.Proof.Gen.ReferenceIdeal
import proofs.«207900_g17016660427224_cont_7to1_1372_35_alg».proof.Proof.Gen.Pre_input_domain
import proofs.«207900_g17016660427224_cont_7to1_1372_35_alg».proof.Proof.Hand.Launch
import proofs.«207900_g17016660427224_cont_7to1_1372_35_alg».proof.Proof.Hand.Idx
import proofs.«207900_g17016660427224_cont_7to1_1372_35_alg».proof.Proof.HandB.Launch
import proofs.«207900_g17016660427224_cont_7to1_1372_35_alg».proof.Proof.HandB.Idx
import proofs.«207900_g17016660427224_cont_7to1_1372_35_alg».proof.Proof.Hand.Ref
import proofs.«207900_g17016660427224_cont_7to1_1372_35_alg».proof.Proof.Hand.ValFinal
import Idealize.ShloMosaic.Adequacy
import Idealize.ShloMosaic.Init

noncomputable section

namespace Cert.Proof

open Idealize.ShloMosaic Idealize.SL.Sem

/-! ## The word-level program's frame -/

namespace Bits
open Cert.Kernel Cert.Kernel.Hand

/-- The packed words the tile kernels read name nodes: from the range of the edge array. -/
theorem idx0 (m : (ℓ : Loc nD τ sig) → Buf (Elt Bits) ℓ) (hpre : Cert.Pre_Kernel (hPre_input_domain := Cert.Pre_input_domain.Gen.facts) m) (d : Dev nD) :
    Sc0.IdxOK (F := Bits) (Chain.W2 m d (Proc.devRef .tc main_v1)) := by
  rw [Chain.W2_v1]
  exact Idx.idxOK0 _ _ _ (Pre.edge_range _ _ _ _ _ _ _ _ (hpre d))
theorem idx1 (m : (ℓ : Loc nD τ sig) → Buf (Elt Bits) ℓ) (hpre : Cert.Pre_Kernel (hPre_input_domain := Cert.Pre_input_domain.Gen.facts) m) (d : Dev nD) :
    Sc1.IdxOK (F := Bits) (Chain.W2 m d (Proc.devRef .tc main_v1)) := by
  rw [Chain.W2_v1]
  exact Idx.idxOK1 _ _ _ (Pre.edge_range _ _ _ _ _ _ _ _ (hpre d))

end Bits

namespace Ideal'
open Cert.KernelIdeal Cert.KernelIdeal.Hand

theorem idx0 (m : (ℓ : Loc nD τ sig) → Buf (Elt Ideal) ℓ) (hpre : Cert.Pre_KernelIdeal (hPre_input_domain := Cert.Pre_input_domain.Gen.facts) m) (d : Dev nD) :
    Sc0.IdxOK (F := Ideal) (Chain.W2 m d (Proc.devRef .tc main_v1)) := by
  rw [Chain.W2_v1]
  exact Idx.idxOK0 _ _ _ (Pre.edge_range _ _ _ _ _ _ _ _ (hpre d))
theorem idx1 (m : (ℓ : Loc nD τ sig) → Buf (Elt Ideal) ℓ) (hpre : Cert.Pre_KernelIdeal (hPre_input_domain := Cert.Pre_input_domain.Gen.facts) m) (d : Dev nD) :
    Sc1.IdxOK (F := Ideal) (Chain.W2 m d (Proc.devRef .tc main_v1)) := by
  rw [Chain.W2_v1]
  exact Idx.idxOK1 _ _ _ (Pre.edge_range _ _ _ _ _ _ _ _ (hpre d))

end Ideal'

/-- An unscoped reference of the TensorCore is among those the last thread state holds. -/
theorem mem_ucK (b : Ref Cert.Kernel.sig .tc) (h : ¬ (Proc.devRef .tc b : DevRef Cert.Kernel.τ Cert.Kernel.sig).isScoped) :
    Proc.devRef .tc b ∈ Pipeline.ucRefs Cert.Kernel.τ Cert.Kernel.sig :=
  Finset.mem_filter.mpr ⟨StableHlo.devRef_mem_tcRefs b, h⟩
theorem mem_ucKI (b : Ref Cert.KernelIdeal.sig .tc) (h : ¬ (Proc.devRef .tc b : DevRef Cert.KernelIdeal.τ Cert.KernelIdeal.sig).isScoped) :
    Proc.devRef .tc b ∈ Pipeline.ucRefs Cert.KernelIdeal.τ Cert.KernelIdeal.sig :=
  Finset.mem_filter.mpr ⟨StableHlo.devRef_mem_tcRefs b, h⟩

theorem claim : Cert.Claim := ⟨Cert.Kernel.Gen.facts, Cert.KernelIdeal.Gen.facts, Cert.ReferenceIdeal.Gen.facts, Cert.Pre_input_domain.Gen.facts, by
  refine ⟨?_, ?_, Cert.ReferenceIdeal.Hand.frame_ri, trivial, ?_⟩
  · -- the word-level program: its run, the chain read back at each argument
    intro m g hpre
    refine (θ_run (Cert.Kernel.defs (F := Bits)) _ _).mono (fun r h c => ?_)
      (Cert.Kernel.Hand.Launch.run_main (F := Bits) m g (Bits.idx0 m hpre) (Bits.idx1 m hpre))
    exact ⟨(h c _ (mem_ucK Cert.Kernel.main_arg0 (by decide))).trans (Cert.Kernel.Hand.Chain.W13_arg0 m c),
      (h c _ (mem_ucK Cert.Kernel.main_arg1 (by decide))).trans (Cert.Kernel.Hand.Chain.W13_arg1 m c),
      (h c _ (mem_ucK Cert.Kernel.main_arg2 (by decide))).trans (Cert.Kernel.Hand.Chain.W13_arg2 m c),
      (h c _ (mem_ucK Cert.Kernel.main_arg3 (by decide))).trans (Cert.Kernel.Hand.Chain.W13_arg3 m c),
      (h c _ (mem_ucK Cert.Kernel.main_arg4 (by decide))).trans (Cert.Kernel.Hand.Chain.W13_arg4 m c),
      (h c _ (mem_ucK Cert.Kernel.main_arg5 (by decide))).trans (Cert.Kernel.Hand.Chain.W13_arg5 m c),
      (h c _ (mem_ucK Cert.Kernel.main_arg6 (by decide))).trans (Cert.Kernel.Hand.Chain.W13_arg6 m c),
      (h c _ (mem_ucK Cert.Kernel.main_arg7 (by decide))).trans (Cert.Kernel.Hand.Chain.W13_arg7 m c)⟩
  · -- the idealized program: the same run at the ideal instance
    intro m g hpre
    refine (θ_run (Cert.KernelIdeal.defs (F := Ideal)) _ _).mono (fun r h c => ?_)
      (Cert.KernelIdeal.Hand.Launch.run_main (F := Ideal) m g (Ideal'.idx0 m hpre) (Ideal'.idx1 m hpre))
    exact ⟨(h c _ (mem_ucKI Cert.KernelIdeal.main_arg0 (by decide))).trans (Cert.KernelIdeal.Hand.Chain.W13_arg0 m c),
      (h c _ (mem_ucKI Cert.KernelIdeal.main_arg1 (by decide))).trans (Cert.KernelIdeal.Hand.Chain.W13_arg1 m c),
      (h c _ (mem_ucKI Cert.KernelIdeal.main_arg2 (by decide))).trans (Cert.KernelIdeal.Hand.Chain.W13_arg2 m c),
      (h c _ (mem_ucKI Cert.KernelIdeal.main_arg3 (by decide))).trans (Cert.KernelIdeal.Hand.Chain.W13_arg3 m c),
      (h c _ (mem_ucKI Cert.KernelIdeal.main_arg4 (by decide))).trans (Cert.KernelIdeal.Hand.Chain.W13_arg4 m c),
      (h c _ (mem_ucKI Cert.KernelIdeal.main_arg5 (by decide))).trans (Cert.KernelIdeal.Hand.Chain.W13_arg5 m c),
      (h c _ (mem_ucKI Cert.KernelIdeal.main_arg6 (by decide))).trans (Cert.KernelIdeal.Hand.Chain.W13_arg6 m c),
      (h c _ (mem_ucKI Cert.KernelIdeal.main_arg7 (by decide))).trans (Cert.KernelIdeal.Hand.Chain.W13_arg7 m c)⟩
  · -- the two idealized programs end with equal results: both are the specification of the arguments
    intro m g m' g' hpre hagree
    refine ⟨fun c => Cert.KernelIdeal.Hand.Chain.out (F := Ideal) m c, ?_, ?_⟩
    · refine (θ_run (Cert.KernelIdeal.defs (F := Ideal)) _ _).mono (fun r h c => ?_)
        (Cert.KernelIdeal.Hand.Launch.run_main (F := Ideal) m g (Ideal'.idx0 m hpre) (Ideal'.idx1 m hpre))
      exact ⟨(h c _ (mem_ucKI Cert.KernelIdeal.main_v12 (by decide))).trans (Cert.KernelIdeal.Hand.Chain.W13_out m c),
        (h c _ (mem_ucKI Cert.KernelIdeal.main_arg0 (by decide))).trans (Cert.KernelIdeal.Hand.Chain.W13_arg0 m c),
        (h c _ (mem_ucKI Cert.KernelIdeal.main_arg1 (by decide))).trans (Cert.KernelIdeal.Hand.Chain.W13_arg1 m c),
        (h c _ (mem_ucKI Cert.KernelIdeal.main_arg2 (by decide))).trans (Cert.KernelIdeal.Hand.Chain.W13_arg2 m c),
        (h c _ (mem_ucKI Cert.KernelIdeal.main_arg3 (by decide))).trans (Cert.KernelIdeal.Hand.Chain.W13_arg3 m c),
        (h c _ (mem_ucKI Cert.KernelIdeal.main_arg4 (by decide))).trans (Cert.KernelIdeal.Hand.Chain.W13_arg4 m c),
        (h c _ (mem_ucKI Cert.KernelIdeal.main_arg5 (by decide))).trans (Cert.KernelIdeal.Hand.Chain.W13_arg5 m c),
        (h c _ (mem_ucKI Cert.KernelIdeal.main_arg6 (by decide))).trans (Cert.KernelIdeal.Hand.Chain.W13_arg6 m c),
        (h c _ (mem_ucKI Cert.KernelIdeal.main_arg7 (by decide))).trans (Cert.KernelIdeal.Hand.Chain.W13_arg7 m c)⟩
    · refine (θ_run (Cert.ReferenceIdeal.defs (F := Ideal)) _ _).mono (fun r h c => ⟨?_, (h c).2⟩)
        (Cert.ReferenceIdeal.Value.run (F := Ideal) m' g')
      show _ = Cert.KernelIdeal.Hand.Chain.out (F := Ideal) m c
      obtain ⟨e0, e1, e2, e3, e4, e5, e6, e7⟩ := hagree c
      have hr := Cert.ReferenceIdeal.Hand.result_eq m' c (by
        rw [e1]; exact Cert.KernelIdeal.Hand.Pre.edge_range _ _ _ _ _ _ _ _ (hpre c))
      rw [(h c).1, Cert.KernelIdeal.Hand.ValFinal.out_eq_G m c (hpre c), hr, e0, e1, e2, e3, e4, e5, e6, e7]
      try rfl⟩

end Cert.Proof

end
